-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000 : Shape := ⟨1, ![50000]⟩
abbrev S3x32 : Shape := ⟨2, ![3, 32]⟩
abbrev S32 : Shape := ⟨1, ![32]⟩
abbrev S2x100000 : Shape := ⟨2, ![2, 100000]⟩
abbrev S3x80000 : Shape := ⟨2, ![3, 80000]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000 : S_.BroadcastsInDim S50000 (![] : Fin 0 → Fin S50000.rank)
  reducesTo_S50000_S_d0 : S50000.ReducesTo [0] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S50000x3 .f32) (main_arg1 : FVec F S50000 .f32) (main_arg2 : FVec F S3x32 .f32) (main_arg3 : FVec F S32 .f32) (main_arg4 : IVec S2x100000 32) (main_arg5 : IVec S3x80000 32) (main_arg6 : IVec S50000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S3x32 .f32 := Host.absf main_arg2
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S50000x3 : Shape := ⟨2, ![50000, 3]⟩
abbrev S50000 : Shape := ⟨1, ![50000]⟩
abbrev S3x32 : Shape := ⟨2, ![3, 32]⟩
abbrev S32 : Shape := ⟨1, ![32]⟩
abbrev S2x100000 : Shape := ⟨2, ![2, 100000]⟩
abbrev S3x80000 : Shape := ⟨2, ![3, 80000]⟩
abbrev S1x100000 : Shape := ⟨2, ![1, 100000]⟩
abbrev S100000 : Shape := ⟨1, ![100000]⟩
abbrev S1x80000 : Shape := ⟨2, ![1, 80000]⟩
abbrev S80000 : Shape := ⟨1, ![80000]⟩
abbrev S50000x1 : Shape := ⟨2, ![50000, 1]⟩
abbrev S50000x4 : Shape := ⟨2, ![50000, 4]⟩
abbrev S_ : Shape := ⟨0, ![]⟩
abbrev S100000x1 : Shape := ⟨2, ![100000, 1]⟩
abbrev S100000x4 : Shape := ⟨2, ![100000, 4]⟩
abbrev S80000x1 : Shape := ⟨2, ![80000, 1]⟩
abbrev S80000x4 : Shape := ⟨2, ![80000, 4]⟩
abbrev S32x32 : Shape := ⟨2, ![32, 32]⟩
abbrev S1024 : Shape := ⟨1, ![1024]⟩
abbrev S1x1024 : Shape := ⟨2, ![1, 1024]⟩
abbrev S50176x4 : Shape := ⟨2, ![50176, 4]⟩
abbrev S50176x1 : Shape := ⟨2, ![50176, 1]⟩
abbrev S2x64x1024 : Shape := ⟨3, ![2, 64, 1024]⟩
abbrev S512x4 : Shape := ⟨2, ![512, 4]⟩
abbrev S512x1 : Shape := ⟨2, ![512, 1]⟩
abbrev S1x64x1024 : Shape := ⟨3, ![1, 64, 1024]⟩
abbrev S64x1024 : Shape := ⟨2, ![64, 1024]⟩
abbrev S512x3 : Shape := ⟨2, ![512, 3]⟩
abbrev S1x32 : Shape := ⟨2, ![1, 32]⟩
abbrev S512x32 : Shape := ⟨2, ![512, 32]⟩
abbrev S512x1024 : Shape := ⟨2, ![512, 1024]⟩
abbrev S512x64 : Shape := ⟨2, ![512, 64]⟩
abbrev S64x32x32 : Shape := ⟨3, ![64, 32, 32]⟩
abbrev S100352x4 : Shape := ⟨2, ![100352, 4]⟩
abbrev S100352x1 : Shape := ⟨2, ![100352, 1]⟩
abbrev S80896x4 : Shape := ⟨2, ![80896, 4]⟩
abbrev S80896x1 : Shape := ⟨2, ![80896, 1]⟩

abbrev nBuf : Space → Nat
  | .hbm => 129
  | .vmem => 33
  | .smem => 0
  | _ => 0

abbrev hbmTy0_0 (i : Nat) : BufTy := match i % 128 with
  | 0 => ⟨S50000x3, .f32⟩
  | 1 => ⟨S50000, .f32⟩
  | 2 => ⟨S3x32, .f32⟩
  | 3 => ⟨S32, .f32⟩
  | 4 => ⟨S2x100000, .i32⟩
  | 5 => ⟨S3x80000, .i32⟩
  | 6 => ⟨S50000, .i32⟩
  | 7 => ⟨S1x100000, .i32⟩
  | 8 => ⟨S100000, .i32⟩
  | 9 => ⟨S1x100000, .i32⟩
  | 10 => ⟨S100000, .i32⟩
  | 11 => ⟨S1x80000, .i32⟩
  | 12 => ⟨S80000, .i32⟩
  | 13 => ⟨S1x80000, .i32⟩
  | 14 => ⟨S80000, .i32⟩
  | 15 => ⟨S1x80000, .i32⟩
  | 16 => ⟨S80000, .i32⟩
  | 17 => ⟨S50000x1, .f32⟩
  | 18 => ⟨S50000x4, .f32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x4, .f32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000x4, .f32⟩
  | 37 => ⟨S_, .i32⟩
  | 38 => ⟨S80000, .i32⟩
  | 39 => ⟨S80000, .i1⟩
  | 40 => ⟨S_, .i32⟩
  | 41 => ⟨S80000, .i32⟩
  | 42 => ⟨S80000, .i32⟩
  | 43 => ⟨S80000, .i32⟩
  | 44 => ⟨S80000x1, .i32⟩
  | 45 => ⟨S80000x4, .f32⟩
  | 46 => ⟨S_, .i32⟩
  | 47 => ⟨S80000, .i32⟩
  | 48 => ⟨S80000, .i1⟩
  | 49 => ⟨S_, .i32⟩
  | 50 => ⟨S80000, .i32⟩
  | 51 => ⟨S80000, .i32⟩
  | 52 => ⟨S80000, .i32⟩
  | 53 => ⟨S80000x1, .i32⟩
  | 54 => ⟨S80000x4, .f32⟩
  | 55 => ⟨S_, .i32⟩
  | 56 => ⟨S80000, .i32⟩
  | 57 => ⟨S80000, .i1⟩
  | 58 => ⟨S_, .i32⟩
  | 59 => ⟨S80000, .i32⟩
  | 60 => ⟨S80000, .i32⟩
  | 61 => ⟨S80000, .i32⟩
  | 62 => ⟨S80000x1, .i32⟩
  | 63 => ⟨S80000x4, .f32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000, .i32⟩
  | 73 => ⟨S_, .i32⟩
  | 74 => ⟨S80000, .i32⟩
  | 75 => ⟨S80000, .i1⟩
  | 76 => ⟨S_, .i32⟩
  | 77 => ⟨S80000, .i32⟩
  | 78 => ⟨S80000, .i32⟩
  | 79 => ⟨S80000, .i32⟩
  | 80 => ⟨S80000x1, .i32⟩
  | 81 => ⟨S80000, .i32⟩
  | 82 => ⟨S32x32, .f32⟩
  | 83 => ⟨S1024, .f32⟩
  | 84 => ⟨S1x1024, .f32⟩
  | 85 => ⟨S50000x1, .i32⟩
  | 86 => ⟨S_, .f32⟩
  | 87 => ⟨S_, .f32⟩
  | 88 => ⟨S50176x4, .f32⟩
  | 89 => ⟨S_, .i32⟩
  | 90 => ⟨S_, .i32⟩
  | 91 => ⟨S50176x1, .i32⟩
  | 92 => ⟨S2x64x1024, .f32⟩
  | 93 => ⟨S_, .f32⟩
  | 94 => ⟨S64x1024, .f32⟩
  | 95 => ⟨S64x32x32, .f32⟩
  | 96 => ⟨S100000x1, .i32⟩
  | 97 => ⟨S_, .f32⟩
  | 98 => ⟨S_, .f32⟩
  | 99 => ⟨S100352x4, .f32⟩
  | 100 => ⟨S_, .f32⟩
  | 101 => ⟨S_, .f32⟩
  | 102 => ⟨S100352x4, .f32⟩
  | 103 => ⟨S_, .i32⟩
  | 104 => ⟨S_, .i32⟩
  | 105 => ⟨S100352x1, .i32⟩
  | 106 => ⟨S2x64x1024, .f32⟩
  | 107 => ⟨S_, .f32⟩
  | 108 => ⟨S64x1024, .f32⟩
  | 109 => ⟨S64x32x32, .f32⟩
  | 110 => ⟨S80000x1, .i32⟩
  | 111 => ⟨S_, .f32⟩
  | 112 => ⟨S_, .f32⟩
  | 113 => ⟨S80896x4, .f32⟩
  | 114 => ⟨S_, .f32⟩
  | 115 => ⟨S_, .f32⟩
  | 116 => ⟨S80896x4, .f32⟩
  | 117 => ⟨S_, .f32⟩
  | 118 => ⟨S_, .f32⟩
  | 119 => ⟨S80896x4, .f32⟩
  | 120 => ⟨S_, .i32⟩
  | 121 => ⟨S_, .i32⟩
  | 122 => ⟨S80896x1, .i32⟩
  | 123 => ⟨S2x64x1024, .f32⟩
  | 124 => ⟨S_, .f32⟩
  | 125 => ⟨S64x1024, .f32⟩
  | 126 => ⟨S64x32x32, .f32⟩
  | 127 => ⟨S64x32x32, .f32⟩
  | _ => ⟨S50000x3, .f32⟩

abbrev hbmTy0_1 (i : Nat) : BufTy := match i % 128 with
  | 0 => ⟨S64x32x32, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | .local _ .vmem, ⟨0, _⟩ => ⟨S512x4, .f32⟩
  | .local _ .vmem, ⟨1, _⟩ => ⟨S512x4, .f32⟩
  | .local _ .vmem, ⟨2, _⟩ => ⟨S512x1, .i32⟩
  | .local _ .vmem, ⟨3, _⟩ => ⟨S512x1, .i32⟩
  | .local _ .vmem, ⟨4, _⟩ => ⟨S3x32, .f32⟩
  | .local _ .vmem, ⟨5, _⟩ => ⟨S1x1024, .f32⟩
  | .local _ .vmem, ⟨6, _⟩ => ⟨S1x64x1024, .f32⟩
  | .local _ .vmem, ⟨7, _⟩ => ⟨S1x64x1024, .f32⟩
  | .local _ .vmem, ⟨8, _⟩ => ⟨S64x1024, .f32⟩
  | .local _ .vmem, ⟨9, _⟩ => ⟨S512x4, .f32⟩
  | .local _ .vmem, ⟨10, _⟩ => ⟨S512x4, .f32⟩
  | .local _ .vmem, ⟨11, _⟩ => ⟨S512x4, .f32⟩
  | .local _ .vmem, ⟨12, _⟩ => ⟨S512x4, .f32⟩
  | .local _ .vmem, ⟨13, _⟩ => ⟨S512x1, .i32⟩
  | .local _ .vmem, ⟨14, _⟩ => ⟨S512x1, .i32⟩
  | .local _ .vmem, ⟨15, _⟩ => ⟨S3x32, .f32⟩
  | .local _ .vmem, ⟨16, _⟩ => ⟨S1x1024, .f32⟩
  | .local _ .vmem, ⟨17, _⟩ => ⟨S1x64x1024, .f32⟩
  | .local _ .vmem, ⟨18, _⟩ => ⟨S1x64x1024, .f32⟩
  | .local _ .vmem, ⟨19, _⟩ => ⟨S64x1024, .f32⟩
  | .local _ .vmem, ⟨20, _⟩ => ⟨S512x4, .f32⟩
  | .local _ .vmem, ⟨21, _⟩ => ⟨S512x4, .f32⟩
  | .local _ .vmem, ⟨22, _⟩ => ⟨S512x4, .f32⟩
  | .local _ .vmem, ⟨23, _⟩ => ⟨S512x4, .f32⟩
  | .local _ .vmem, ⟨24, _⟩ => ⟨S512x4, .f32⟩
  | .local _ .vmem, ⟨25, _⟩ => ⟨S512x4, .f32⟩
  | .local _ .vmem, ⟨26, _⟩ => ⟨S512x1, .i32⟩
  | .local _ .vmem, ⟨27, _⟩ => ⟨S512x1, .i32⟩
  | .local _ .vmem, ⟨28, _⟩ => ⟨S3x32, .f32⟩
  | .local _ .vmem, ⟨29, _⟩ => ⟨S1x1024, .f32⟩
  | .local _ .vmem, ⟨30, _⟩ => ⟨S1x64x1024, .f32⟩
  | .local _ .vmem, ⟨31, _⟩ => ⟨S1x64x1024, .f32⟩
  | .local _ .vmem, ⟨32, _⟩ => ⟨S64x1024, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst : Ref sig .tc := ⟨.hbm, 86, rfl⟩
abbrev main_call0_v0 : Ref sig .tc := ⟨.hbm, 87, rfl⟩
abbrev main_v65 : Ref sig .tc := ⟨.hbm, 88, rfl⟩
abbrev main_c_13 : Ref sig .tc := ⟨.hbm, 89, rfl⟩
abbrev main_call1_v0 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_call2_v0 : Ref sig .tc := ⟨.hbm, 98, rfl⟩
abbrev main_v71 : Ref sig .tc := ⟨.hbm, 99, rfl⟩
abbrev main_cst_16 : Ref sig .tc := ⟨.hbm, 100, rfl⟩
abbrev main_call3_v0 : Ref sig .tc := ⟨.hbm, 101, rfl⟩
abbrev main_v72 : Ref sig .tc := ⟨.hbm, 102, rfl⟩
abbrev main_c_17 : Ref sig .tc := ⟨.hbm, 103, rfl⟩
abbrev main_call4_v0 : Ref sig .tc := ⟨.hbm, 104, rfl⟩
abbrev main_v73 : Ref sig .tc := ⟨.hbm, 105, rfl⟩
abbrev main_v74 : Ref sig .tc := ⟨.hbm, 106, rfl⟩
abbrev main_cst_18 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_19 : Ref sig .tc := ⟨.hbm, 111, rfl⟩
abbrev main_call5_v0 : Ref sig .tc := ⟨.hbm, 112, rfl⟩
abbrev main_v78 : Ref sig .tc := ⟨.hbm, 113, rfl⟩
abbrev main_cst_20 : Ref sig .tc := ⟨.hbm, 114, rfl⟩
abbrev main_call6_v0 : Ref sig .tc := ⟨.hbm, 115, rfl⟩
abbrev main_v79 : Ref sig .tc := ⟨.hbm, 116, rfl⟩
abbrev main_cst_21 : Ref sig .tc := ⟨.hbm, 117, rfl⟩
abbrev main_call7_v0 : Ref sig .tc := ⟨.hbm, 118, rfl⟩
abbrev main_v80 : Ref sig .tc := ⟨.hbm, 119, rfl⟩
abbrev main_c_22 : Ref sig .tc := ⟨.hbm, 120, rfl⟩
abbrev main_call8_v0 : Ref sig .tc := ⟨.hbm, 121, rfl⟩
abbrev main_v81 : Ref sig .tc := ⟨.hbm, 122, rfl⟩
abbrev main_v82 : Ref sig .tc := ⟨.hbm, 123, rfl⟩
abbrev main_cst_23 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v50 : BitVec 1 := Scalar.cmpi .eq arg1 c48_i32
  let v51 : BitVec 32 := Scalar.extui v50
  let c0_i32_14 : BitVec 32 := 0#32
  let v52 : BitVec 1 := Scalar.cmpi .ne v51 c0_i32_14
  v52

def cc0_transform_0 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 98], ![false, false]⟩

def k1_cond2 (i : grid1.Coords) : BitVec 1 :=
  let arg1 : BitVec 32 := BitVec.ofNat 32 (i 1).val
  let c97_i32 : BitVec 32 := 97#32
  let v73 : BitVec 1 := Scalar.cmpi .eq arg1 c97_i32
  let v74 : BitVec 32 := Scalar.extui v73
  let c0_i32_16 : BitVec 32 := 0#32
  let v75 : BitVec 1 := Scalar.cmpi .ne v74 c0_i32_16
  v75

def cc1_transform_0 (i : grid1.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S3x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 79], ![false, false]⟩

def k2_cond2 (i : grid2.Coords) : BitVec 1 :=
  let arg1 : BitVec 32 := BitVec.ofNat 32 (i 1).val
  let c78_i32 : BitVec 32 := 78#32
  let v96 : BitVec 1 := Scalar.cmpi .eq arg1 c78_i32
  let v97 : BitVec 32 := Scalar.extui v96
  let c0_i32_18 : BitVec 32 := 0#32
  let v98 : BitVec 1 := Scalar.cmpi .ne v97 c0_i32_18
  v98

def cc2_transform_0 (i : grid2.Coords) : Fin 2 → Nat :=
  let arg0 : BitVec 32 := BitVec.ofNat 32 (i 0).val
  let arg1 : BitVec 32 := BitVec.ofNat 32 (i 1).val
  let c79_i32 : BitVec 32 := 79#32
  let v0 : BitVec 32 := Scalar.muli arg0 c79_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c79_i32 : BitVec 32 := 79#32
  let v0 : BitVec 32 := Scalar.muli arg0 c79_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c79_i32 : BitVec 32 := 79#32
  let v0 : BitVec 32 := Scalar.muli arg0 c79_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 2 → Nat :=
  let arg0 : BitVec 32 := BitVec.ofNat 32 (i 0).val
  let arg1 : BitVec 32 := BitVec.ofNat 32 (i 1).val
  let c79_i32 : BitVec 32 := 79#32
  let v0 : BitVec 32 := Scalar.muli arg0 c79_i32
  let v1 : BitVec 32 := Scalar.addi v0 arg1
  let c0_i32 : BitVec 32 := 0#32
  let c0_i32_0 : BitVec 32 := 0#32
  ![v1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S512x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x4 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S3x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x64x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  slices_S3x80000_S1x80000_0_0 : S3x80000.Slices ![0, 0] S1x80000
  shapeCasts_S1x80000_S80000 : S1x80000.ShapeCasts S80000
  slices_S3x80000_S1x80000_1_0 : S3x80000.Slices ![1, 0] S1x80000
  slices_S3x80000_S1x80000_2_0 : S3x80000.Slices ![2, 0] S1x80000
  shapeCasts_S50000_S50000x1 : S50000.ShapeCasts S50000x1
  concatenates_S50000x3_S50000x1_S50000x4_d1 : Shape.Concatenates [S50000x3, S50000x1] S50000x4 1
  bcast_S_S100000 : S_.BroadcastsInDim S100000 (![] : Fin 0 → Fin S100000.rank)
  bcast_S100000_S100000x1_0 : S100000.BroadcastsInDim S100000x1 (![0] : Fin 1 → Fin S100000x1.rank)
  bcast_S_S80000 : S_.BroadcastsInDim S80000 (![] : Fin 0 → Fin S80000.rank)
  bcast_S80000_S80000x1_0 : S80000.BroadcastsInDim S80000x1 (![0] : Fin 1 → Fin S80000x1.rank)
  bcast_S32_S32x32_0 : S32.BroadcastsInDim S32x32 (![0] : Fin 1 → Fin S32x32.rank)
  shapeCasts_S32x32_S1024 : S32x32.ShapeCasts S1024
  shapeCasts_S1024_S1x1024 : S1024.ShapeCasts S1x1024
  pads_S50000x4_S50176x4_01760_000 : S50000x4.Pads (![0, 0] : Fin 2 → Nat) ![176, 0] ![0, 0] S50176x4
  h_S_ : 0 < S_.numel
  pads_S50000x1_S50176x1_01760_000 : S50000x1.Pads (![0, 0] : Fin 2 → Nat) ![176, 0] ![0, 0] S50176x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S3x32_S3x32_0_0 : ∀ a, (![0, 0] : Fin 2 → Nat) a + S3x32.size a ≤ S3x32.size a
  h_S3x32 : 0 < S3x32.numel
  inb_S512x4_S512x4_0_0 : ∀ a, (![0, 0] : Fin 2 → Nat) a + S512x4.size a ≤ S512x4.size a
  h_S512x4 : 0 < S512x4.numel
  shapeCasts_S512x4_S512x4 : S512x4.ShapeCasts S512x4
  slices_S512x4_o0_0_S512x3 : S512x4.Slices ![0, 0] S512x3
  slices_S512x4_o0_3_S512x1 : S512x4.Slices ![0, 3] S512x1
  slices_S512x3_o0_0_S512x1 : S512x3.Slices ![0, 0] S512x1
  slices_S3x32_o0_0_S1x32 : S3x32.Slices ![0, 0] S1x32
  broadcasts_S512x1_S512x32 : S512x1.Broadcasts S512x32
  broadcasts_S1x32_S512x32 : S1x32.Broadcasts S512x32
  slices_S512x3_o0_1_S512x1 : S512x3.Slices ![0, 1] S512x1
  slices_S3x32_o1_0_S1x32 : S3x32.Slices ![1, 0] S1x32
  slices_S512x3_o0_2_S512x1 : S512x3.Slices ![0, 2] S512x1
  slices_S3x32_o2_0_S1x32 : S3x32.Slices ![2, 0] S1x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  concatenates_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x1024_d1 : Shape.Concatenates [S512x32, S512x32, S512x32, S512x32, S512x32, S512x32, S512x32, S512x32, S512x32, S512x32, S512x32, S512x32, S512x32, S512x32, S512x32, S512x32, S512x32, S512x32, S512x32, S512x32, S512x32, S512x32, S512x32, S512x32, S512x32, S512x32, S512x32, S512x32, S512x32, S512x32, S512x32, S512x32] S512x1024 1
  broadcasts_S1x1024_S512x1024 : S1x1024.Broadcasts S512x1024
  broadcasts_S512x1_S512x1024 : S512x1.Broadcasts S512x1024
  iota_S512x64_d1_w32 : S512x64.Iotas .tc 32 [1]
  broadcasts_S512x1_S512x64 : S512x1.Broadcasts S512x64
  natLt_1_32 : 1 < 32
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  reducesTo_S2x64x1024_S64x1024_d0 : S2x64x1024.ReducesTo [0] S64x1024
  shapeCasts_S64x1024_S64x32x32 : S64x1024.ShapeCasts S64x32x32
  shapeCasts_S100000_S100000x1 : S100000.ShapeCasts S100000x1
  pads_S100000x4_S100352x4_03520_000 : S100000x4.Pads (![0, 0] : Fin 2 → Nat) ![352, 0] ![0, 0] S100352x4
  pads_S100000x1_S100352x1_03520_000 : S100000x1.Pads (![0, 0] : Fin 2 → Nat) ![352, 0] ![0, 0] S100352x1
  shapeCasts_S80000_S80000x1 : S80000.ShapeCasts S80000x1
  pads_S80000x4_S80896x4_08960_000 : S80000x4.Pads (![0, 0] : Fin 2 → Nat) ![896, 0] ![0, 0] S80896x4
  pads_S80000x1_S80896x1_08960_000 : S80000x1.Pads (![0, 0] : Fin 2 → Nat) ![896, 0] ![0, 0] S80896x1
  gather_S50000x4_S100000x1_S100000x4_1_0_n_n_0_1_14_wf : GatherDims.WF S50000x4 S100000x1 S100000x4 [1] [0] [] [0] [] 1 ![1, 4]
  gather_S50000x4_S80000x1_S80000x4_1_0_n_n_0_1_14_wf : GatherDims.WF S50000x4 S80000x1 S80000x4 [1] [0] [] [0] [] 1 ![1, 4]
  gather_S50000_S100000x1_S100000_n_0_n_n_0_1_1_wf : GatherDims.WF S50000 S100000x1 S100000 [] [0] [] [0] [] 1 ![1]
  gather_S50000_S80000x1_S80000_n_0_n_n_0_1_1_wf : GatherDims.WF S50000 S80000x1 S80000 [] [0] [] [0] [] 1 ![1]
  dot_S512x64_S512x1024_S64x1024_0_0_1_1_n_n_wf : DotDims.WF S512x64 S512x1024 S64x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S50176x4.size a
  hwx0_0 : ∀ i : grid0.Coords, EltTy.bits .f32 = 32 ∨ (Rect.block (s := S50176x4) S512x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S50176x1.size a
  hwx0_1 : ∀ i : grid0.Coords, EltTy.bits .i32 = 32 ∨ (Rect.block (s := S50176x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1024.size a ≤ S2x64x1024.size a
  hwx0_4 : ∀ i : grid0.Coords, EltTy.bits .f32 = 32 ∨ (Rect.block (s := S2x64x1024) S1x64x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4.size a ≤ S100352x4.size a
  hwx1_0 : ∀ i : grid1.Coords, EltTy.bits .f32 = 32 ∨ (Rect.block (s := S100352x4) S512x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4.size a ≤ S100352x4.size a
  hwx1_1 : ∀ i : grid1.Coords, EltTy.bits .f32 = 32 ∨ (Rect.block (s := S100352x4) S512x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S100352x1.size a
  hwx1_2 : ∀ i : grid1.Coords, EltTy.bits .i32 = 32 ∨ (Rect.block (s := S100352x1) S512x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x32.size a ≤ S3x32.size a
  hwx1_3 : ∀ i : grid1.Coords, EltTy.bits .f32 = 32 ∨ (Rect.block (s := S3x32) S3x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1024.size a ≤ S2x64x1024.size a
  hwx1_5 : ∀ i : grid1.Coords, EltTy.bits .f32 = 32 ∨ (Rect.block (s := S2x64x1024) S1x64x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4.size a ≤ S80896x4.size a
  hwx2_0 : ∀ i : grid2.Coords, EltTy.bits .f32 = 32 ∨ (Rect.block (s := S80896x4) S512x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4.size a ≤ S80896x4.size a
  hwx2_1 : ∀ i : grid2.Coords, EltTy.bits .f32 = 32 ∨ (Rect.block (s := S80896x4) S512x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x4.size a ≤ S80896x4.size a
  hwx2_2 : ∀ i : grid2.Coords, EltTy.bits .f32 = 32 ∨ (Rect.block (s := S80896x4) S512x4.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S80896x1.size a
  hwx2_3 : ∀ i : grid2.Coords, EltTy.bits .i32 = 32 ∨ (Rect.block (s := S80896x1) S512x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x32.size a ≤ S3x32.size a
  hwx2_4 : ∀ i : grid2.Coords, EltTy.bits .f32 = 32 ∨ (Rect.block (s := S3x32) S3x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x64x1024.size a ≤ S2x64x1024.size a
  hwx2_6 : ∀ i : grid2.Coords, EltTy.bits .f32 = 32 ∨ (Rect.block (s := S2x64x1024) S1x64x1024.size (cc2_transform_6 i) (hinb2_6 i)).WholeWords (EltTy.packing .f32)

variable [Facts₀]

def gather_S50000x4_S100000x1_S100000x4_1_0_n_n_0_1_14 : GatherDims S50000x4 S100000x1 S100000x4 where
  offsetDims := [1]
  collapsedSliceDims := [0]
  operandBatchingDims := []
  startIndicesBatchingDims := []
  startIndexMap := [0]
  indexVectorDim := 1
  sliceSizes := ![1, 4]
  wf := gather_S50000x4_S100000x1_S100000x4_1_0_n_n_0_1_14_wf
def gather_S50000x4_S80000x1_S80000x4_1_0_n_n_0_1_14 : GatherDims S50000x4 S80000x1 S80000x4 where
  offsetDims := [1]
  collapsedSliceDims := [0]
  operandBatchingDims := []
  startIndicesBatchingDims := []
  startIndexMap := [0]
  indexVectorDim := 1
  sliceSizes := ![1, 4]
  wf := gather_S50000x4_S80000x1_S80000x4_1_0_n_n_0_1_14_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf
def gather_S50000_S80000x1_S80000_n_0_n_n_0_1_1 : GatherDims S50000 S80000x1 S80000 where
  offsetDims := []
  collapsedSliceDims := [0]
  operandBatchingDims := []
  startIndicesBatchingDims := []
  startIndexMap := [0]
  indexVectorDim := 1
  sliceSizes := ![1]
  wf := gather_S50000_S80000x1_S80000_n_0_n_n_0_1_1_wf
def dot_S512x64_S512x1024_S64x1024_0_0_1_1_n_n : DotDims S512x64 S512x1024 S64x1024 where
  lhsContracting := [0]
  rhsContracting := [0]
  lhsNonContracting := [1]
  rhsNonContracting := [1]
  lhsBatch := []
  rhsBatch := []
  wf := dot_S512x64_S512x1024_S64x1024_0_0_1_1_n_n_wf

abbrev win0_0 : Pipeline.Window sig grid0 :=
  Pipeline.Window.ofSpec (Memref.whole main_v65) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v66) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v67) S1x64x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v71) S512x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S512x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v73) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S3x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v74) S1x64x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v78) S512x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S512x4.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S512x4.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v81) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg2) S3x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v82) S1x64x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S50000x3 : Shape := ⟨2, ![50000, 3]⟩
abbrev S50000 : Shape := ⟨1, ![50000]⟩
abbrev S3x32 : Shape := ⟨2, ![3, 32]⟩
abbrev S32 : Shape := ⟨1, ![32]⟩
abbrev S2x100000 : Shape := ⟨2, ![2, 100000]⟩
abbrev S3x80000 : Shape := ⟨2, ![3, 80000]⟩
abbrev S50000x32 : Shape := ⟨2, ![50000, 32]⟩
abbrev S_ : Shape := ⟨0, ![]⟩
abbrev S2x100000x1 : Shape := ⟨3, ![2, 100000, 1]⟩
abbrev S2x100000x32 : Shape := ⟨3, ![2, 100000, 32]⟩
abbrev S100000x32 : Shape := ⟨2, ![100000, 32]⟩
abbrev S3x80000x1 : Shape := ⟨3, ![3, 80000, 1]⟩
abbrev S3x80000x32 : Shape := ⟨3, ![3, 80000, 32]⟩
abbrev S80000x32 : Shape := ⟨2, ![80000, 32]⟩
abbrev S100000 : Shape := ⟨1, ![100000]⟩
abbrev S80000 : Shape := ⟨1, ![80000]⟩
abbrev S1x32x1 : Shape := ⟨3, ![1, 32, 1]⟩
abbrev S50000x1x32 : Shape := ⟨3, ![50000, 1, 32]⟩
abbrev S50000x32x32 : Shape := ⟨3, ![50000, 32, 32]⟩
abbrev S50000x1x1 : Shape := ⟨3, ![50000, 1, 1]⟩
abbrev S64x32x32 : Shape := ⟨3, ![64, 32, 32]⟩
abbrev S50000x1 : Shape := ⟨2, ![50000, 1]⟩
abbrev S1x100000 : Shape := ⟨2, ![1, 100000]⟩
abbrev S100000x1 : Shape := ⟨2, ![100000, 1]⟩
abbrev S100000x1x32 : Shape := ⟨3, ![100000, 1, 32]⟩
abbrev S100000x32x32 : Shape := ⟨3, ![100000, 32, 32]⟩
abbrev S100000x1x1 : Shape := ⟨3, ![100000, 1, 1]⟩
abbrev S1x80000 : Shape := ⟨2, ![1, 80000]⟩
abbrev S80000x1 : Shape := ⟨2, ![80000, 1]⟩
abbrev S80000x1x32 : Shape := ⟨3, ![80000, 1, 32]⟩
abbrev S80000x32x32 : Shape := ⟨3, ![80000, 32, 32]⟩
abbrev S80000x1x1 : Shape := ⟨3, ![80000, 1, 1]⟩

abbrev nBuf : Space → Nat
  | .hbm => 145
  | .vmem => 0
  | .smem => 0
  | _ => 0

abbrev hbmTy0_0 (i : Nat) : BufTy := match i % 128 with
  | 0 => ⟨S50000x3, .f32⟩
  | 1 => ⟨S50000, .f32⟩
  | 2 => ⟨S3x32, .f32⟩
  | 3 => ⟨S32, .f32⟩
  | 4 => ⟨S2x100000, .i32⟩
  | 5 => ⟨S3x80000, .i32⟩
  | 6 => ⟨S50000, .i32⟩
  | 7 => ⟨S50000x32, .f32⟩
  | 8 => ⟨S_, .i32⟩
  | 9 => ⟨S2x100000, .i32⟩
  | 10 => ⟨S2x100000, .i1⟩
  | 11 => ⟨S_, .i32⟩
  | 12 => ⟨S2x100000, .i32⟩
  | 13 => ⟨S2x100000, .i32⟩
  | 14 => ⟨S2x100000, .i32⟩
  | 15 => ⟨S2x100000x1, .i32⟩
  | 16 => ⟨S2x100000x32, .f32⟩
  | 17 => ⟨S_, .f32⟩
  | 18 => ⟨S100000x32, .f32⟩
  | 19 => ⟨S_, .i32⟩
  | 20 => ⟨S3x80000, .i32⟩
  | 21 => ⟨S3x80000, .i1⟩
  | 22 => ⟨S_, .i32⟩
  | 23 => ⟨S3x80000, .i32⟩
  | 24 => ⟨S3x80000, .i32⟩
  | 25 => ⟨S3x80000, .i32⟩
  | 26 => ⟨S3x80000x1, .i32⟩
  | 27 => ⟨S3x80000x32, .f32⟩
  | 28 => ⟨S_, .f32⟩
  | 29 => ⟨S80000x32, .f32⟩
  | 30 => ⟨S_, .i32⟩
  | 31 => ⟨S2x100000, .i32⟩
  | 32 => ⟨S2x100000, .i1⟩
  | 33 => ⟨S_, .i32⟩
  | 34 => ⟨S2x100000, .i32⟩
  | 35 => ⟨S2x100000, .i32⟩
  | 36 => ⟨S2x100000, .i32⟩
  | 37 => ⟨S2x100000x1, .i32⟩
  | 38 => ⟨S2x100000, .f32⟩
  | 39 => ⟨S_, .f32⟩
  | 40 => ⟨S100000, .f32⟩
  | 41 => ⟨S_, .i32⟩
  | 42 => ⟨S3x80000, .i32⟩
  | 43 => ⟨S3x80000, .i1⟩
  | 44 => ⟨S_, .i32⟩
  | 45 => ⟨S3x80000, .i32⟩
  | 46 => ⟨S3x80000, .i32⟩
  | 47 => ⟨S3x80000, .i32⟩
  | 48 => ⟨S3x80000x1, .i32⟩
  | 49 => ⟨S3x80000, .f32⟩
  | 50 => ⟨S_, .f32⟩
  | 51 => ⟨S80000, .f32⟩
  | 52 => ⟨S1x32x1, .f32⟩
  | 53 => ⟨S50000x1x32, .f32⟩
  | 54 => ⟨S50000x32x32, .f32⟩
  | 55 => ⟨S50000x32x32, .f32⟩
  | 56 => ⟨S50000x32x32, .f32⟩
  | 57 => ⟨S_, .f32⟩
  | 58 => ⟨S50000x32x32, .f32⟩
  | 59 => ⟨S50000x32x32, .f32⟩
  | 60 => ⟨S50000x32x32, .f32⟩
  | 61 => ⟨S50000x32x32, .f32⟩
  | 62 => ⟨S_, .f32⟩
  | 63 => ⟨S50000x32x32, .f32⟩
  | 64 => ⟨S50000x32x32, .f32⟩
  | 65 => ⟨S_, .f32⟩
  | 66 => ⟨S50000x32x32, .f32⟩
  | 67 => ⟨S50000x32x32, .f32⟩
  | 68 => ⟨S50000x1x1, .f32⟩
  | 69 => ⟨S50000x32x32, .f32⟩
  | 70 => ⟨S50000x32x32, .f32⟩
  | 71 => ⟨S_, .f32⟩
  | 72 => ⟨S64x32x32, .f32⟩
  | 73 => ⟨S50000x1, .i32⟩
  | 74 => ⟨S64x32x32, .f32⟩
  | 75 => ⟨S1x100000, .i32⟩
  | 76 => ⟨S100000, .i32⟩
  | 77 => ⟨S_, .i32⟩
  | 78 => ⟨S100000, .i32⟩
  | 79 => ⟨S100000, .i1⟩
  | 80 => ⟨S_, .i32⟩
  | 81 => ⟨S100000, .i32⟩
  | 82 => ⟨S100000, .i32⟩
  | 83 => ⟨S100000, .i32⟩
  | 84 => ⟨S100000x1, .i32⟩
  | 85 => ⟨S100000, .i32⟩
  | 86 => ⟨S1x32x1, .f32⟩
  | 87 => ⟨S100000x1x32, .f32⟩
  | 88 => ⟨S100000x32x32, .f32⟩
  | 89 => ⟨S100000x32x32, .f32⟩
  | 90 => ⟨S100000x32x32, .f32⟩
  | 91 => ⟨S_, .f32⟩
  | 92 => ⟨S100000x32x32, .f32⟩
  | 93 => ⟨S100000x32x32, .f32⟩
  | 94 => ⟨S100000x32x32, .f32⟩
  | 95 => ⟨S100000x32x32, .f32⟩
  | 96 => ⟨S_, .f32⟩
  | 97 => ⟨S100000x32x32, .f32⟩
  | 98 => ⟨S100000x32x32, .f32⟩
  | 99 => ⟨S_, .f32⟩
  | 100 => ⟨S100000x32x32, .f32⟩
  | 101 => ⟨S100000x32x32, .f32⟩
  | 102 => ⟨S100000x1x1, .f32⟩
  | 103 => ⟨S100000x32x32, .f32⟩
  | 104 => ⟨S100000x32x32, .f32⟩
  | 105 => ⟨S_, .f32⟩
  | 106 => ⟨S64x32x32, .f32⟩
  | 107 => ⟨S100000x1, .i32⟩
  | 108 => ⟨S64x32x32, .f32⟩
  | 109 => ⟨S64x32x32, .f32⟩
  | 110 => ⟨S1x80000, .i32⟩
  | 111 => ⟨S80000, .i32⟩
  | 112 => ⟨S_, .i32⟩
  | 113 => ⟨S80000, .i32⟩
  | 114 => ⟨S80000, .i1⟩
  | 115 => ⟨S_, .i32⟩
  | 116 => ⟨S80000, .i32⟩
  | 117 => ⟨S80000, .i32⟩
  | 118 => ⟨S80000, .i32⟩
  | 119 => ⟨S80000x1, .i32⟩
  | 120 => ⟨S80000, .i32⟩
  | 121 => ⟨S1x32x1, .f32⟩
  | 122 => ⟨S80000x1x32, .f32⟩
  | 123 => ⟨S80000x32x32, .f32⟩
  | 124 => ⟨S80000x32x32, .f32⟩
  | 125 => ⟨S80000x32x32, .f32⟩
  | 126 => ⟨S_, .f32⟩
  | 127 => ⟨S80000x32x32, .f32⟩
  | _ => ⟨S50000x3, .f32⟩

abbrev hbmTy0_1 (i : Nat) : BufTy := match i % 128 with
  | 0 => ⟨S80000x32x32, .f32⟩
  | 1 => ⟨S80000x32x32, .f32⟩
  | 2 => ⟨S80000x32x32, .f32⟩
  | 3 => ⟨S_, .f32⟩
  | 4 => ⟨S80000x32x32, .f32⟩
  | 5 => ⟨S80000x32x32, .f32⟩
  | 6 => ⟨S_, .f32⟩
  | 7 => ⟨S80000x32x32, .f32⟩
  | 8 => ⟨S80000x32x32, .f32⟩
  | 9 => ⟨S80000x1x1, .f32⟩
  | 10 => ⟨S80000x32x32, .f32⟩
  | 11 => ⟨S80000x32x32, .f32⟩
  | 12 => ⟨S_, .f32⟩
  | 13 => ⟨S64x32x32, .f32⟩
  | 14 => ⟨S80000x1, .i32⟩
  | 15 => ⟨S64x32x32, .f32⟩
  | 16 => ⟨S64x32x32, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_19 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_20 : Ref sig .tc := ⟨.hbm, 112, rfl⟩
abbrev main_v83 : Ref sig .tc := ⟨.hbm, 113, rfl⟩
abbrev main_v84 : Ref sig .tc := ⟨.hbm, 114, rfl⟩
abbrev main_c_21 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_22 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_23 : Ref sig .tc := ⟨.hbm, 131, rfl⟩
abbrev main_v99 : Ref sig .tc := ⟨.hbm, 132, rfl⟩
abbrev main_v100 : Ref sig .tc := ⟨.hbm, 133, rfl⟩
abbrev main_cst_24 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_25 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩

abbrev nD : Nat := 1
abbrev τ : Topo := Topo.v7x

variable {F : FTy → Type} [FloatOps F]

class Facts₀ : Prop where
  bcast_S_S2x100000 : S_.BroadcastsInDim S2x100000 (![] : Fin 0 → Fin S2x100000.rank)
  bcast_S2x100000_S2x100000x1_0_1 : S2x100000.BroadcastsInDim S2x100000x1 (![0, 1] : Fin 2 → Fin S2x100000x1.rank)
  reducesTo_S2x100000x32_S100000x32_d0 : S2x100000x32.ReducesTo [0] S100000x32
  h_S_ : 0 < S_.numel
  bcast_S_S3x80000 : S_.BroadcastsInDim S3x80000 (![] : Fin 0 → Fin S3x80000.rank)
  bcast_S3x80000_S3x80000x1_0_1 : S3x80000.BroadcastsInDim S3x80000x1 (![0, 1] : Fin 2 → Fin S3x80000x1.rank)
  reducesTo_S3x80000x32_S80000x32_d0 : S3x80000x32.ReducesTo [0] S80000x32
  reducesTo_S2x100000_S100000_d0 : S2x100000.ReducesTo [0] S100000
  reducesTo_S3x80000_S80000_d0 : S3x80000.ReducesTo [0] S80000
  bcast_S32_S1x32x1_1 : S32.BroadcastsInDim S1x32x1 (![1] : Fin 1 → Fin S1x32x1.rank)
  bcast_S50000x32_S50000x1x32_0_2 : S50000x32.BroadcastsInDim S50000x1x32 (![0, 2] : Fin 2 → Fin S50000x1x32.rank)
  bcast_S1x32x1_S50000x32x32_0_1_2 : S1x32x1.BroadcastsInDim S50000x32x32 (![0, 1, 2] : Fin 3 → Fin S50000x32x32.rank)
  bcast_S50000x1x32_S50000x32x32_0_1_2 : S50000x1x32.BroadcastsInDim S50000x32x32 (![0, 1, 2] : Fin 3 → Fin S50000x32x32.rank)
  bcast_S_S50000x32x32 : S_.BroadcastsInDim S50000x32x32 (![] : Fin 0 → Fin S50000x32x32.rank)
  bcast_S50000_S50000x1x1_0 : S50000.BroadcastsInDim S50000x1x1 (![0] : Fin 1 → Fin S50000x1x1.rank)
  bcast_S50000x1x1_S50000x32x32_0_1_2 : S50000x1x1.BroadcastsInDim S50000x32x32 (![0, 1, 2] : Fin 3 → Fin S50000x32x32.rank)
  bcast_S_S64x32x32 : S_.BroadcastsInDim S64x32x32 (![] : Fin 0 → Fin S64x32x32.rank)
  bcast_S50000_S50000x1_0 : S50000.BroadcastsInDim S50000x1 (![0] : Fin 1 → Fin S50000x1.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S100000x32_S100000x1x32_0_2 : S100000x32.BroadcastsInDim S100000x1x32 (![0, 2] : Fin 2 → Fin S100000x1x32.rank)
  bcast_S1x32x1_S100000x32x32_0_1_2 : S1x32x1.BroadcastsInDim S100000x32x32 (![0, 1, 2] : Fin 3 → Fin S100000x32x32.rank)
  bcast_S100000x1x32_S100000x32x32_0_1_2 : S100000x1x32.BroadcastsInDim S100000x32x32 (![0, 1, 2] : Fin 3 → Fin S100000x32x32.rank)
  bcast_S_S100000x32x32 : S_.BroadcastsInDim S100000x32x32 (![] : Fin 0 → Fin S100000x32x32.rank)
  bcast_S100000_S100000x1x1_0 : S100000.BroadcastsInDim S100000x1x1 (![0] : Fin 1 → Fin S100000x1x1.rank)
  bcast_S100000x1x1_S100000x32x32_0_1_2 : S100000x1x1.BroadcastsInDim S100000x32x32 (![0, 1, 2] : Fin 3 → Fin S100000x32x32.rank)
  slices_S3x80000_S1x80000_0_0 : S3x80000.Slices ![0, 0] S1x80000
  shapeCasts_S1x80000_S80000 : S1x80000.ShapeCasts S80000
  bcast_S_S80000 : S_.BroadcastsInDim S80000 (![] : Fin 0 → Fin S80000.rank)
  bcast_S80000_S80000x1_0 : S80000.BroadcastsInDim S80000x1 (![0] : Fin 1 → Fin S80000x1.rank)
  bcast_S80000x32_S80000x1x32_0_2 : S80000x32.BroadcastsInDim S80000x1x32 (![0, 2] : Fin 2 → Fin S80000x1x32.rank)
  bcast_S1x32x1_S80000x32x32_0_1_2 : S1x32x1.BroadcastsInDim S80000x32x32 (![0, 1, 2] : Fin 3 → Fin S80000x32x32.rank)
  bcast_S80000x1x32_S80000x32x32_0_1_2 : S80000x1x32.BroadcastsInDim S80000x32x32 (![0, 1, 2] : Fin 3 → Fin S80000x32x32.rank)
  bcast_S_S80000x32x32 : S_.BroadcastsInDim S80000x32x32 (![] : Fin 0 → Fin S80000x32x32.rank)
  bcast_S80000_S80000x1x1_0 : S80000.BroadcastsInDim S80000x1x1 (![0] : Fin 1 → Fin S80000x1x1.rank)
  bcast_S80000x1x1_S80000x32x32_0_1_2 : S80000x1x1.BroadcastsInDim S80000x32x32 (![0, 1, 2] : Fin 3 → Fin S80000x32x32.rank)
  dot_S50000x3_S3x32_S50000x32_1_0_0_1_n_n_wf : DotDims.WF S50000x3 S3x32 S50000x32 [1] [0] [0] [1] [] []
  gather_S50000x32_S2x100000x1_S2x100000x32_2_0_n_n_0_2_132_wf : GatherDims.WF S50000x32 S2x100000x1 S2x100000x32 [2] [0] [] [0] [] 2 ![1, 32]
  gather_S50000x32_S3x80000x1_S3x80000x32_2_0_n_n_0_2_132_wf : GatherDims.WF S50000x32 S3x80000x1 S3x80000x32 [2] [0] [] [0] [] 2 ![1, 32]
  gather_S50000_S2x100000x1_S2x100000_n_0_n_n_0_2_1_wf : GatherDims.WF S50000 S2x100000x1 S2x100000 [] [0] [] [0] [] 2 ![1]
  gather_S50000_S3x80000x1_S3x80000_n_0_n_n_0_2_1_wf : GatherDims.WF S50000 S3x80000x1 S3x80000 [] [0] [] [0] [] 2 ![1]
  scatter_S64x32x32_S50000x1_S50000x32x32_12_0_0_1_wf : ScatterDims.WF S64x32x32 S50000x1 S50000x32x32 [1, 2] [0] [0] 1
  gather_S50000_S100000x1_S100000_n_0_n_n_0_1_1_wf : GatherDims.WF S50000 S100000x1 S100000 [] [0] [] [0] [] 1 ![1]
  scatter_S64x32x32_S100000x1_S100000x32x32_12_0_0_1_wf : ScatterDims.WF S64x32x32 S100000x1 S100000x32x32 [1, 2] [0] [0] 1
  gather_S50000_S80000x1_S80000_n_0_n_n_0_1_1_wf : GatherDims.WF S50000 S80000x1 S80000 [] [0] [] [0] [] 1 ![1]
  scatter_S64x32x32_S80000x1_S80000x32x32_12_0_0_1_wf : ScatterDims.WF S64x32x32 S80000x1 S80000x32x32 [1, 2] [0] [0] 1

variable [Facts₀]

def dot_S50000x3_S3x32_S50000x32_1_0_0_1_n_n : DotDims S50000x3 S3x32 S50000x32 where
  lhsContracting := [1]
  rhsContracting := [0]
  lhsNonContracting := [0]
  rhsNonContracting := [1]
  lhsBatch := []
  rhsBatch := []
  wf := dot_S50000x3_S3x32_S50000x32_1_0_0_1_n_n_wf
def gather_S50000x32_S2x100000x1_S2x100000x32_2_0_n_n_0_2_132 : GatherDims S50000x32 S2x100000x1 S2x100000x32 where
  offsetDims := [2]
  collapsedSliceDims := [0]
  operandBatchingDims := []
  startIndicesBatchingDims := []
  startIndexMap := [0]
  indexVectorDim := 2
  sliceSizes := ![1, 32]
  wf := gather_S50000x32_S2x100000x1_S2x100000x32_2_0_n_n_0_2_132_wf
def gather_S50000x32_S3x80000x1_S3x80000x32_2_0_n_n_0_2_132 : GatherDims S50000x32 S3x80000x1 S3x80000x32 where
  offsetDims := [2]
  collapsedSliceDims := [0]
  operandBatchingDims := []
  startIndicesBatchingDims := []
  startIndexMap := [0]
  indexVectorDim := 2
  sliceSizes := ![1, 32]
  wf := gather_S50000x32_S3x80000x1_S3x80000x32_2_0_n_n_0_2_132_wf
def gather_S50000_S2x100000x1_S2x100000_n_0_n_n_0_2_1 : GatherDims S50000 S2x100000x1 S2x100000 where
  offsetDims := []
  collapsedSliceDims := [0]
  operandBatchingDims := []
  startIndicesBatchingDims := []
  startIndexMap := [0]
  indexVectorDim := 2
  sliceSizes := ![1]
  wf := gather_S50000_S2x100000x1_S2x100000_n_0_n_n_0_2_1_wf
def gather_S50000_S3x80000x1_S3x80000_n_0_n_n_0_2_1 : GatherDims S50000 S3x80000x1 S3x80000 where
  offsetDims := []
  collapsedSliceDims := [0]
  operandBatchingDims := []
  startIndicesBatchingDims := []
  startIndexMap := [0]
  indexVectorDim := 2
  sliceSizes := ![1]
  wf := gather_S50000_S3x80000x1_S3x80000_n_0_n_n_0_2_1_wf
def scatter_S64x32x32_S50000x1_S50000x32x32_12_0_0_1 : ScatterDims S64x32x32 S50000x1 S50000x32x32 where
  updateWindowDims := [1, 2]
  insertedWindowDims := [0]
  scatterDimsToOperandDims := [0]
  indexVectorDim := 1
  wf := scatter_S64x32x32_S50000x1_S50000x32x32_12_0_0_1_wf
def gather_S50000_S100000x1_S100000_n_0_n_n_0_1_1 : GatherDims S50000 S100000x1 S100000 where
  offsetDims := []
  collapsedSliceDims := [0]
  operandBatchingDims := []
  startIndicesBatchingDims := []
  startIndexMap := [0]
  indexVectorDim := 1
  sliceSizes := ![1]
  wf := gather_S50000_S100000x1_S100000_n_0_n_n_0_1_1_wf
def scatter_S64x32x32_S100000x1_S100000x32x32_12_0_0_1 : ScatterDims S64x32x32 S100000x1 S100000x32x32 where
  updateWindowDims := [1, 2]
  insertedWindowDims := [0]
  scatterDimsToOperandDims := [0]
  indexVectorDim := 1
  wf := scatter_S64x32x32_S100000x1_S100000x32x32_12_0_0_1_wf
def gather_S50000_S80000x1_S80000_n_0_n_n_0_1_1 : GatherDims S50000 S80000x1 S80000 where
  offsetDims := []
  collapsedSliceDims := [0]
  operandBatchingDims := []
  startIndicesBatchingDims := []
  startIndexMap := [0]
  indexVectorDim := 1
  sliceSizes := ![1]
  wf := gather_S50000_S80000x1_S80000_n_0_n_n_0_1_1_wf
def scatter_S64x32x32_S80000x1_S80000x32x32_12_0_0_1 : ScatterDims S64x32x32 S80000x1 S80000x32x32 where
  updateWindowDims := [1, 2]
  insertedWindowDims := [0]
  scatterDimsToOperandDims := [0]
  indexVectorDim := 1
  wf := scatter_S64x32x32_S80000x1_S80000x32x32_12_0_0_1_wf

class Facts : Prop extends Facts₀ where

variable [Facts]
-- ==== Proof.K.R0.Runs.lean ====
/-
  Region 0 (the node call): what its three control cases share. The grid is 2 × 49 points, numbered row-major; a
  point's second coordinate is the step within its core's half of the rows. The accumulator is reset at step 0
  (points ≡ 0 mod 49) and the output block is stored at step 48 (points ≡ 48 mod 49); at every other point the
  output window is idle and is not written back.
-/
import proofs.«429462_j65403761983812_3_alg».proof.Proof.Gen.Kernel.Launch
import proofs.«429462_j65403761983812_3_alg».proof.Proof.Gen.Kernel.Skeleton
import proofs.«429462_j65403761983812_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch is taken: the step coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 49 = 0 :=
  (by decide +kernel : ∀ t : Fin grid0.N, cond0_0 (grid0.coords t) ↔ t.val % 49 = 0)

/-- The store-out branch is taken: the step coordinate is 48. -/
abbrev cond0_1 (i : grid0.Coords) : Prop := k0_cond2 i = 1#1
theorem hcond0_1 : ∀ t : Fin cfg0.N, cond0_1 (grid0.coords t) ↔ t.val % 49 = 48 :=
  (by decide +kernel : ∀ t : Fin grid0.N, cond0_1 (grid0.coords t) ↔ t.val % 49 = 48)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

abbrev VO0_4 : View sig .tc .vmem S1x64x1024 .f32 := (Memref.whole cc0_stg4_0 : Memref sig .tc .vmem S1x64x1024 .f32).view
abbrev ms0_0 (t : Fin cfg0.N) : Memref sig .tc .vmem S512x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1024 .f32 := win0_4.stage (cfg0.slots t 4)
abbrev hs0_4 (t : Fin cfg0.N) : (ms0_4 t).IsWhole := hstage0_4 ((cfg0.slots t 4).cast nbuf0_4)
/-- The accumulator: the call's scratch buffer, carried from point to point. -/
abbrev scM0_0 : Memref sig .tc .vmem S64x1024 .f32 := Memref.whole cc0_scratch0
abbrev VS0_0 : View sig .tc .vmem S64x1024 .f32 := scM0_0.view

/-- The class invariant with this call's accumulator split off: the accumulator at some contents, every other
    scoped buffer that is no staging buffer of this call unopened, and the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The windows' blocks, at region-entry contents `V` -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
end

end Cert.Kernel.Hand

end
-- ==== Proof.K.R0.RunA.lean ====
/-
  Region 0, the body at a core's FIRST step (reset taken, store-out not taken): the accumulator, whatever it held, is
  overwritten with zeros and then with zeros plus this block's one-hot product; the output buffer is not touched.
-/
import proofs.«429462_j65403761983812_3_alg».proof.Proof.K.R0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a first step, with the proof that the body runs. -/
noncomputable def kernelRun0_A (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i)
    (x0 : Vec F S512x4 .f32) (x1 : Vec F S512x1 .i32) (x2 : Vec F S3x32 .f32) (x3 : Vec F S1x1024 .f32) :
    Σ' (L4 : List (View.Piece (Elt F) S1x64x1024 .f32)), { LS0 : List (View.Piece (Elt F) S64x1024 .f32) //
      ∀ (xi4 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__wecc_kernel i arg2 harg2 arg3 harg3 arg4 harg4 arg5 harg5 arg6 harg6 arg7 harg7) K } := by
  refine ⟨[], ?_, fun xi4 E K => ?run⟩
  case run =>
    simp only [cc0__wecc_kernel_eq_skeleton]; unfold cc0__wecc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0.RunB.lean ====
/-
  Region 0, the body at a MIDDLE step (neither reset nor store-out): the accumulator, holding what the step before
  left, has this block's one-hot product added; the output buffer is not touched.
-/
import proofs.«429462_j65403761983812_3_alg».proof.Proof.K.R0.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a middle step, with the proof that the body runs. -/
noncomputable def kernelRun0_B (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i)
    (x0 : Vec F S512x4 .f32) (x1 : Vec F S512x1 .i32) (x2 : Vec F S3x32 .f32) (x3 : Vec F S1x1024 .f32) (xs0 : Vec F S64x1024 .f32) :
    Σ' (L4 : List (View.Piece (Elt F) S1x64x1024 .f32)), { LS0 : List (View.Piece (Elt F) S64x1024 .f32) //
      ∀ (xi4 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__wecc_kernel i arg2 harg2 arg3 harg3 arg4 harg4 arg5 harg5 arg6 harg6 arg7 harg7) K } := by
  refine ⟨[], ?_, fun xi4 E K => ?run⟩
  case run =>
    simp only [cc0__wecc_kernel_eq_skeleton]; unfold cc0__wecc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.K.R0.RunC.lean ====
/-
  Region 0, the body at a core's LAST step (store-out taken, reset not): the accumulator has this block's one-hot
  product added and is then copied into the output buffer.
-/
import proofs.«429462_j65403761983812_3_alg».proof.Proof.K.R0.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the accumulator at a last step, with the proof
    that the body runs. -/
noncomputable def kernelRun0_C (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) :
    Σ' (L4 : List (View.Piece (Elt F) S1x64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__wecc_kernel i arg2 harg2 arg3 harg3 arg4 harg4 arg5 harg5 arg6 harg6 arg7 harg7) K } := by
  refine ⟨?_, ?_, fun E K => ?run⟩
  case run =>
    simp only [cc0__wecc_kernel_eq_skeleton]; unfold cc0__wecc_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.K.R0.Frame.lean ====
/-
  Region 0 (the node call): what the output buffer and the accumulator hold after each grid point, the proof data of
  the pipeline, and the body obligation. Core cc's points are 49·cc … 49·cc + 48. At a core's first point the
  accumulator is reset and receives the first block's product; at each later point the next block's product is
  added to what the point before left; at the core's last point the sum is also stored into the output block, which
  is written back there and at no other point.
-/
import proofs.«429462_j65403761983812_3_alg».proof.Proof.K.R0.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- At a first step nothing is stored into the output buffer: a placeholder nothing consults (the window is idle there) -/
def out0_A_4 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i)
    (x0 : Vec F S512x4 .f32) (x1 : Vec F S512x1 .i32) (x2 : Vec F S3x32 .f32) (x3 : Vec F S1x1024 .f32) : Vec F S1x64x1024 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The stores into the accumulator cover it whole. -/
theorem scover0_A_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i)
    (x0 : Vec F S512x4 .f32) (x1 : Vec F S512x1 .i32) (x2 : Vec F S3x32 .f32) (x3 : Vec F S1x1024 .f32) (y : S64x1024.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S64x1024.size (by sl_kernel_rfl) y

/-- What the step leaves in the accumulator: its stores read back. -/
def sout0_A_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i)
    (x0 : Vec F S512x4 .f32) (x1 : Vec F S512x1 .i32) (x2 : Vec F S3x32 .f32) (x3 : Vec F S1x1024 .f32) : Vec F S64x1024 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- At a middle step nothing is stored into the output buffer: a placeholder nothing consults (the window is idle there) -/
def out0_B_4 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i)
    (x0 : Vec F S512x4 .f32) (x1 : Vec F S512x1 .i32) (x2 : Vec F S3x32 .f32) (x3 : Vec F S1x1024 .f32) (xs0 : Vec F S64x1024 .f32) : Vec F S1x64x1024 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The stores into the accumulator cover it whole. -/
theorem scover0_B_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i)
    (x0 : Vec F S512x4 .f32) (x1 : Vec F S512x1 .i32) (x2 : Vec F S3x32 .f32) (x3 : Vec F S1x1024 .f32) (xs0 : Vec F S64x1024 .f32) (y : S64x1024.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S64x1024.size (by sl_kernel_rfl) y

/-- What the step leaves in the accumulator: its stores read back. -/
def sout0_B_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i)
    (x0 : Vec F S512x4 .f32) (x1 : Vec F S512x1 .i32) (x2 : Vec F S3x32 .f32) (x3 : Vec F S1x1024 .f32) (xs0 : Vec F S64x1024 .f32) : Vec F S64x1024 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- At a last step the store into the output buffer covers it whole. -/
theorem cover0_C_4 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) (y : S1x64x1024.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x64x1024.size (by sl_kernel_rfl) y

/-- What a last step leaves in the output buffer: its store read back -/
def out0_C_4 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) : Vec F S1x64x1024 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The stores into the accumulator cover it whole. -/
theorem scover0_C_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) (y : S64x1024.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S64x1024.size (by sl_kernel_rfl) y

/-- What the step leaves in the accumulator: its stores read back. -/
def sout0_C_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) : Vec F S64x1024 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## Point by point -/

/-- What the output buffer and the accumulator hold after the body at point `n`: the point's case run on the point's
    blocks, a middle or last step over what the point before left in the accumulator. -/
def outsAt0 (c : Dev nD) : (n : ℕ) → n < cfg0.N → Vec F S1x64x1024 .f32 × Vec F S64x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 49 = 0 then
      if h1 : (n + 1) % 49 = 48 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 49 = 48 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 49 = 0) (h1 : ¬t.val % 49 = 48) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 49 = 0) (h1 : ¬t.val % 49 = 48) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 49 = 0) (h1 : t.val % 49 = 48) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents are carried -/

/-- Before the first point the class invariant (the accumulator at anything); before point `n + 1` the accumulator at what
    point `n` left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The arrays as the region finds them; after the body each input's buffer at its block, the output's at `outsAt0`'s
    first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point: the closed forms say which case the point is in; the invariant hands the body the
    accumulator at what the point before left (at anything at the very first point, and at a core's first point
    the previous contents are forgotten) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  by_cases h0 : t.val % 49 = 0
  · by_cases h1 : t.val % 49 = 48
    · exfalso; omega
    · rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 49 = 48
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 98 := N_0; omega)

end

end Cert.Kernel.Hand

end
-- ==== Proof.K.R1.Runs.lean ====
/-
  Region 1 (the edge call): what its three control cases share. The grid is 2 × 98 points, numbered row-major; a
  point's second coordinate is the step within its core's half of the rows. The accumulator is reset at step 0
  (points ≡ 0 mod 98) and the output block is stored at step 97 (points ≡ 97 mod 98); at every other point the
  output window is idle and is not written back.
-/
import proofs.«429462_j65403761983812_3_alg».proof.Proof.Gen.Kernel.Launch
import proofs.«429462_j65403761983812_3_alg».proof.Proof.Gen.Kernel.Skeleton
import proofs.«429462_j65403761983812_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch is taken: the step coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 98 = 0 :=
  (by decide +kernel : ∀ t : Fin grid1.N, cond1_0 (grid1.coords t) ↔ t.val % 98 = 0)

/-- The store-out branch is taken: the step coordinate is 97. -/
abbrev cond1_1 (i : grid1.Coords) : Prop := k1_cond2 i = 1#1
theorem hcond1_1 : ∀ t : Fin cfg1.N, cond1_1 (grid1.coords t) ↔ t.val % 98 = 97 :=
  (by decide +kernel : ∀ t : Fin grid1.N, cond1_1 (grid1.coords t) ↔ t.val % 98 = 97)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

abbrev VO1_5 : View sig .tc .vmem S1x64x1024 .f32 := (Memref.whole cc1_stg5_0 : Memref sig .tc .vmem S1x64x1024 .f32).view
abbrev ms1_0 (t : Fin cfg1.N) : Memref sig .tc .vmem S512x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x1024 .f32 := win1_5.stage (cfg1.slots t 5)
abbrev hs1_5 (t : Fin cfg1.N) : (ms1_5 t).IsWhole := hstage1_5 ((cfg1.slots t 5).cast nbuf1_5)
/-- The accumulator: the call's scratch buffer, carried from point to point. -/
abbrev scM1_0 : Memref sig .tc .vmem S64x1024 .f32 := Memref.whole cc1_scratch0
abbrev VS1_0 : View sig .tc .vmem S64x1024 .f32 := scM1_0.view

/-- The scoped buffers that are no staging buffer of this call, with this call's accumulator split off. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f))
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The class invariant with this call's accumulator split off: the accumulator at some contents, every other
    scoped buffer that is no staging buffer of this call unopened, and the generator register at some state. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The windows' blocks, at region-entry contents `V` -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

end Cert.Kernel.Hand

end
-- ==== Proof.K.R1.RunA.lean ====
/-
  Region 1, the body at a core's FIRST step (reset taken, store-out not taken): the accumulator, whatever it held, is
  overwritten with zeros and then with zeros plus this block's one-hot product; the output buffer is not touched.
-/
import proofs.«429462_j65403761983812_3_alg».proof.Proof.K.R1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a first step, with the proof that the body runs. -/
noncomputable def kernelRun1_A (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) :
    Σ' (L5 : List (View.Piece (Elt F) S1x64x1024 .f32)), { LS0 : List (View.Piece (Elt F) S64x1024 .f32) //
      ∀ (xi5 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__wecc_kernel i arg2 harg2 arg3 harg3 arg4 harg4 arg5 harg5 arg6 harg6 arg7 harg7 arg8 harg8) K } := by
  refine ⟨[], ?_, fun xi5 E K => ?run⟩
  case run =>
    simp only [cc1__wecc_kernel_eq_skeleton]; unfold cc1__wecc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R1.RunB.lean ====
/-
  Region 1, the body at a MIDDLE step (neither reset nor store-out): the accumulator, holding what the step before
  left, has this block's one-hot product added; the output buffer is not touched.
-/
import proofs.«429462_j65403761983812_3_alg».proof.Proof.K.R1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a middle step, with the proof that the body runs. -/
noncomputable def kernelRun1_B (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) :
    Σ' (L5 : List (View.Piece (Elt F) S1x64x1024 .f32)), { LS0 : List (View.Piece (Elt F) S64x1024 .f32) //
      ∀ (xi5 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__wecc_kernel i arg2 harg2 arg3 harg3 arg4 harg4 arg5 harg5 arg6 harg6 arg7 harg7 arg8 harg8) K } := by
  refine ⟨[], ?_, fun xi5 E K => ?run⟩
  case run =>
    simp only [cc1__wecc_kernel_eq_skeleton]; unfold cc1__wecc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R1.RunC.lean ====
/-
  Region 1, the body at a core's LAST step (store-out taken, reset not): the accumulator has this block's one-hot
  product added and is then copied into the output buffer.
-/
import proofs.«429462_j65403761983812_3_alg».proof.Proof.K.R1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the accumulator at a last step, with the proof
    that the body runs. -/
noncomputable def kernelRun1_C (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) :
    Σ' (L5 : List (View.Piece (Elt F) S1x64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__wecc_kernel i arg2 harg2 arg3 harg3 arg4 harg4 arg5 harg5 arg6 harg6 arg7 harg7 arg8 harg8) K } := by
  refine ⟨?_, ?_, fun E K => ?run⟩
  case run =>
    simp only [cc1__wecc_kernel_eq_skeleton]; unfold cc1__wecc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.R1.Frame.lean ====
/-
  Region 1 (the edge call): what the output buffer and the accumulator hold after each grid point, the proof data of
  the pipeline, and the body obligation. Core cc's points are 98·cc … 98·cc + 97. At a core's first point the
  accumulator is reset and receives the first block's product; at each later point the next block's product is
  added to what the point before left; at the core's last point the sum is also stored into the output block, which
  is written back there and at no other point.
-/
import proofs.«429462_j65403761983812_3_alg».proof.Proof.K.R1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- At a first step nothing is stored into the output buffer: a placeholder nothing consults (the window is idle there) -/
def out1_A_5 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) : Vec F S1x64x1024 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- The stores into the accumulator cover it whole. -/
theorem scover1_A_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) (y : S64x1024.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S64x1024.size (by sl_kernel_rfl) y

/-- What the step leaves in the accumulator: its stores read back. -/
def sout1_A_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) : Vec F S64x1024 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At a middle step nothing is stored into the output buffer: a placeholder nothing consults (the window is idle there) -/
def out1_B_5 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) : Vec F S1x64x1024 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- The stores into the accumulator cover it whole. -/
theorem scover1_B_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) (y : S64x1024.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S64x1024.size (by sl_kernel_rfl) y

/-- What the step leaves in the accumulator: its stores read back. -/
def sout1_B_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) : Vec F S64x1024 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- At a last step the store into the output buffer covers it whole. -/
theorem cover1_C_5 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) (y : S1x64x1024.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x64x1024.size (by sl_kernel_rfl) y

/-- What a last step leaves in the output buffer: its store read back -/
def out1_C_5 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) : Vec F S1x64x1024 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- The stores into the accumulator cover it whole. -/
theorem scover1_C_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) (y : S64x1024.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S64x1024.size (by sl_kernel_rfl) y

/-- What the step leaves in the accumulator: its stores read back. -/
def sout1_C_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) : Vec F S64x1024 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## Point by point -/

/-- What the output buffer and the accumulator hold after the body at point `n`: the point's case run on the point's
    blocks, a middle or last step over what the point before left in the accumulator. -/
def outsAt1 (c : Dev nD) : (n : ℕ) → n < cfg1.N → Vec F S1x64x1024 .f32 × Vec F S64x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 98 = 0 then
      if h1 : (n + 1) % 98 = 97 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 98 = 97 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 98 = 0) (h1 : ¬t.val % 98 = 97) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 98 = 0) (h1 : ¬t.val % 98 = 97) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 98 = 0) (h1 : t.val % 98 = 97) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents are carried -/

/-- Before the first point the class invariant (the accumulator at anything); before point `n + 1` the accumulator at what
    point `n` left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The arrays as the region finds them; after the body each input's buffer at its block, the output's at `outsAt1`'s
    first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

set_option maxHeartbeats 4800000 in
/-- The body at any point: the closed forms say which case the point is in; the invariant hands the body the
    accumulator at what the point before left (at anything at the very first point, and at a core's first point
    the previous contents are forgotten) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  by_cases h0 : t.val % 98 = 0
  · by_cases h1 : t.val % 98 = 97
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 98 = 97
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 196 := N_1; omega)

end

end Cert.Kernel.Hand

end
-- ==== Proof.K.R2.Runs.lean ====
/-
  Region 2 (the face call): what its three control cases share. The grid is 2 × 79 points, numbered row-major; a
  point's second coordinate is the step within its core's half of the rows. The accumulator is reset at step 0
  (points ≡ 0 mod 79) and the output block is stored at step 78 (points ≡ 78 mod 79); at every other point the
  output window is idle and is not written back.
-/
import proofs.«429462_j65403761983812_3_alg».proof.Proof.Gen.Kernel.Launch
import proofs.«429462_j65403761983812_3_alg».proof.Proof.Gen.Kernel.Skeleton
import proofs.«429462_j65403761983812_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch is taken: the step coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 79 = 0 :=
  (by decide +kernel : ∀ t : Fin grid2.N, cond2_0 (grid2.coords t) ↔ t.val % 79 = 0)

/-- The store-out branch is taken: the step coordinate is 78. -/
abbrev cond2_1 (i : grid2.Coords) : Prop := k2_cond2 i = 1#1
theorem hcond2_1 : ∀ t : Fin cfg2.N, cond2_1 (grid2.coords t) ↔ t.val % 79 = 78 :=
  (by decide +kernel : ∀ t : Fin grid2.N, cond2_1 (grid2.coords t) ↔ t.val % 79 = 78)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
theorem liveAt2_6_C : ∀ t : Fin cfg2.N, ¬cond2_0 (grid2.coords t) → cond2_1 (grid2.coords t) → cfg2.idle 6 (grid2.coords t) = false := by decide +kernel

/-! ## The memrefs the body is called with -/

abbrev VO2_6 : View sig .tc .vmem S1x64x1024 .f32 := (Memref.whole cc2_stg6_0 : Memref sig .tc .vmem S1x64x1024 .f32).view
abbrev ms2_0 (t : Fin cfg2.N) : Memref sig .tc .vmem S512x4 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S3x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64x1024 .f32 := win2_6.stage (cfg2.slots t 6)
abbrev hs2_6 (t : Fin cfg2.N) : (ms2_6 t).IsWhole := hstage2_6 ((cfg2.slots t 6).cast nbuf2_6)
/-- The accumulator: the call's scratch buffer, carried from point to point. -/
abbrev scM2_0 : Memref sig .tc .vmem S64x1024 .f32 := Memref.whole cc2_scratch0
abbrev VS2_0 : View sig .tc .vmem S64x1024 .f32 := scM2_0.view

/-- The scoped buffers that are no staging buffer of this call, split at the call's own accumulator: the accumulator
    whole at some contents, every other one unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The class invariant with this call's accumulator split off: the accumulator at some contents, every other
    scoped buffer that is no staging buffer of this call unopened, and the generator register at some state. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The windows' blocks, at region-entry contents `V` -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
end

end Cert.Kernel.Hand

end
-- ==== Proof.K.R2.RunA.lean ====
/-
  Region 2, the body at a core's FIRST step (reset taken, store-out not taken): the accumulator, whatever it held, is
  overwritten with zeros and then with zeros plus this block's one-hot product; the output buffer is not touched.
-/
import proofs.«429462_j65403761983812_3_alg».proof.Proof.K.R2.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a first step, with the proof that the body runs. -/
noncomputable def kernelRun2_A (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) :
    Σ' (L6 : List (View.Piece (Elt F) S1x64x1024 .f32)), { LS0 : List (View.Piece (Elt F) S64x1024 .f32) //
      ∀ (xi6 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__wecc_kernel i arg2 harg2 arg3 harg3 arg4 harg4 arg5 harg5 arg6 harg6 arg7 harg7 arg8 harg8 arg9 harg9) K } := by
  refine ⟨[], ?_, fun xi6 E K => ?run⟩
  case run =>
    simp only [cc2__wecc_kernel_eq_skeleton]; unfold cc2__wecc_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.R2.RunB.lean ====
/-
  Region 2, the body at a MIDDLE step (neither reset nor store-out): the accumulator, holding what the step before
  left, has this block's one-hot product added; the output buffer is not touched.
-/
import proofs.«429462_j65403761983812_3_alg».proof.Proof.K.R2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a middle step, with the proof that the body runs. -/
noncomputable def kernelRun2_B (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) :
    Σ' (L6 : List (View.Piece (Elt F) S1x64x1024 .f32)), { LS0 : List (View.Piece (Elt F) S64x1024 .f32) //
      ∀ (xi6 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__wecc_kernel i arg2 harg2 arg3 harg3 arg4 harg4 arg5 harg5 arg6 harg6 arg7 harg7 arg8 harg8 arg9 harg9) K } := by
  refine ⟨[], ?_, fun xi6 E K => ?run⟩
  case run =>
    simp only [cc2__wecc_kernel_eq_skeleton]; unfold cc2__wecc_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.K.R2.RunC.lean ====
/-
  Region 2, the body at a core's LAST step (store-out taken, reset not): the accumulator has this block's one-hot
  product added and is then copied into the output buffer.
-/
import proofs.«429462_j65403761983812_3_alg».proof.Proof.K.R2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the accumulator at a last step, with the proof
    that the body runs. -/
noncomputable def kernelRun2_C (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) :
    Σ' (L6 : List (View.Piece (Elt F) S1x64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__wecc_kernel i arg2 harg2 arg3 harg3 arg4 harg4 arg5 harg5 arg6 harg6 arg7 harg7 arg8 harg8 arg9 harg9) K } := by
  refine ⟨?_, ?_, fun E K => ?run⟩
  case run =>
    simp only [cc2__wecc_kernel_eq_skeleton]; unfold cc2__wecc_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.K.R2.Frame.lean ====
/-
  Region 2 (the face call): what the output buffer and the accumulator hold after each grid point, the proof data of
  the pipeline, and the body obligation. Core cc's points are 79·cc … 79·cc + 78. At a core's first point the
  accumulator is reset and receives the first block's product; at each later point the next block's product is
  added to what the point before left; at the core's last point the sum is also stored into the output block, which
  is written back there and at no other point.
-/
import proofs.«429462_j65403761983812_3_alg».proof.Proof.K.R2.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- At a first step nothing is stored into the output buffer: a placeholder nothing consults (the window is idle there) -/
def out2_A_6 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) : Vec F S1x64x1024 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)

/-- The stores into the accumulator cover it whole. -/
theorem scover2_A_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (y : S64x1024.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S64x1024.size (by sl_kernel_rfl) y

/-- What the step leaves in the accumulator: its stores read back. -/
def sout2_A_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) : Vec F S64x1024 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

/-- At a middle step nothing is stored into the output buffer: a placeholder nothing consults (the window is idle there) -/
def out2_B_6 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) : Vec F S1x64x1024 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)

/-- The stores into the accumulator cover it whole. -/
theorem scover2_B_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) (y : S64x1024.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S64x1024.size (by sl_kernel_rfl) y

/-- What the step leaves in the accumulator: its stores read back. -/
def sout2_B_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) : Vec F S64x1024 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

/-- At a last step the store into the output buffer covers it whole. -/
theorem cover2_C_6 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) (y : S1x64x1024.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1x64x1024.size (by sl_kernel_rfl) y

/-- What a last step leaves in the output buffer: its store read back -/
def out2_C_6 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) : Vec F S1x64x1024 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)

/-- The stores into the accumulator cover it whole. -/
theorem scover2_C_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) (y : S64x1024.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S64x1024.size (by sl_kernel_rfl) y

/-- What the step leaves in the accumulator: its stores read back. -/
def sout2_C_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) : Vec F S64x1024 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-! ## Point by point -/

/-- What the output buffer and the accumulator hold after the body at point `n`: the point's case run on the point's
    blocks, a middle or last step over what the point before left in the accumulator. -/
def outsAt2 (c : Dev nD) : (n : ℕ) → n < cfg2.N → Vec F S1x64x1024 .f32 × Vec F S64x1024 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 79 = 0 then
      if h1 : (n + 1) % 79 = 78 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 79 = 78 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

theorem outsAt2_A (c : Dev nD) (t : Fin cfg2.N) (h0 : t.val % 79 = 0) (h1 : ¬t.val % 79 = 78) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 79 = 0) (h1 : ¬t.val % 79 = 78) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 79 = 0) (h1 : t.val % 79 = 78) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents are carried -/

/-- Before the first point the class invariant (the accumulator at anything); before point `n + 1` the accumulator at what
    point `n` left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body each input's buffer at its block, the output's at `outsAt2`'s
    first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) : (dat2 V c).leavesExact 4 t = owns (c : Thread nD τ) (ms2_4 t) fullShare (iblk2 V c 4 t) := by
  unfold Dat.leavesExact; rw [liveAt2_4 t, after2_4]
theorem leaves2_5 (c : Dev nD) (t : Fin cfg2.N) : (dat2 V c).leavesExact 5 t = owns (c : Thread nD τ) (ms2_5 t) fullShare (iblk2 V c 5 t) := by
  unfold Dat.leavesExact; rw [liveAt2_5 t, after2_5]

set_option maxHeartbeats 4800000 in
/-- The body at any point: the closed forms say which case the point is in; the invariant hands the body the
    accumulator at what the point before left (at anything at the very first point, and at a core's first point
    the previous contents are forgotten) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  by_cases h0 : t.val % 79 = 0
  · by_cases h1 : t.val % 79 = 78
    · exfalso; omega
    · rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 79 = 78
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 158 := N_2; omega)

end

end Cert.Kernel.Hand

end
-- ==== Proof.K.Terms.lean ====
/-
  The host side of the kernel's program as pure functions of the argument arrays: what @main computes before, between
  and after its three calls, named so that the run's bookkeeping and the mathematics can cite the same terms.

  Before the calls: the packed node table [x | w] (50000 × 4); the index rows of the edge and face arrays, wrapped as
  jnp wraps a negative index; the packed tables gathered at the edges' two endpoints and the faces' three vertices;
  the graph ids gathered at the first endpoint / vertex; every table padded with zero rows, every id column with −1, up
  to a whole number of 2 × 512-row blocks; and the thresholds repeated 32 times each (lin_rep[0, 32·s + t] = lin[s]).
  After the calls: each call's 2 × 64 × 1024 output summed over its two cores and reshaped to 64 × 32 × 32; the three
  results added.
-/
import proofs.«429462_j65403761983812_3_alg».proof.Proof.Gen.Kernel

noncomputable section

namespace Cert.Kernel.Hand

open Cert.Kernel Cert.Kernel.Gen
open Idealize.ShloMosaic Idealize.ShloMosaic.TcCoe

variable {F : FTy → Type} [FloatOps F]

/-- The packed node table: columns 0 … 2 are x, column 3 the node weight. -/
def xwT (x : Vec F S50000x3 .f32) (wt : Vec F S50000 .f32) : Vec F S50000x4 .f32 :=
  concatenate S50000x4 1 [⟨S50000x3, x⟩, ⟨S50000x1, shapeCast S50000x1 wt shapeCasts_S50000_S50000x1⟩] concatenates_S50000x3_S50000x1_S50000x4_d1

/-- Row j of the edge index array, and of the face index array. -/
def eRow0 (ei : Vec F S2x100000 .i32) : IVec S100000 32 := shapeCast S100000 (extractStridedSlice S1x100000 ![0, 0] ei slices_S2x100000_S1x100000_0_0) shapeCasts_S1x100000_S100000
def eRow1 (ei : Vec F S2x100000 .i32) : IVec S100000 32 := shapeCast S100000 (extractStridedSlice S1x100000 ![1, 0] ei slices_S2x100000_S1x100000_1_0) shapeCasts_S1x100000_S100000
def fRow0 (fc : Vec F S3x80000 .i32) : IVec S80000 32 := shapeCast S80000 (extractStridedSlice S1x80000 ![0, 0] fc slices_S3x80000_S1x80000_0_0) shapeCasts_S1x80000_S80000
def fRow1 (fc : Vec F S3x80000 .i32) : IVec S80000 32 := shapeCast S80000 (extractStridedSlice S1x80000 ![1, 0] fc slices_S3x80000_S1x80000_1_0) shapeCasts_S1x80000_S80000
def fRow2 (fc : Vec F S3x80000 .i32) : IVec S80000 32 := shapeCast S80000 (extractStridedSlice S1x80000 ![2, 0] fc slices_S3x80000_S1x80000_2_0) shapeCasts_S1x80000_S80000

/-- jnp's wrap of a negative index into a table of 50000 rows, as an index column. -/
def wrapE (i : IVec S100000 32) : IVec S100000x1 32 :=
  broadcastInDim S100000x1 ![0] bcast_S100000_S100000x1_0
    (select (cmpi .slt i (broadcastInDim S100000 ![] bcast_S_S100000 (constantI S_ 32 0#32)))
      (addi i (broadcastInDim S100000 ![] bcast_S_S100000 (constantI S_ 32 50000#32))) i)
def wrapF (i : IVec S80000 32) : IVec S80000x1 32 :=
  broadcastInDim S80000x1 ![0] bcast_S80000_S80000x1_0
    (select (cmpi .slt i (broadcastInDim S80000 ![] bcast_S_S80000 (constantI S_ 32 0#32)))
      (addi i (broadcastInDim S80000 ![] bcast_S_S80000 (constantI S_ 32 50000#32))) i)

/-- The packed table gathered at an index row of the edges / faces, and the graph ids gathered there. -/
def gatE (xw : Vec F S50000x4 .f32) (i : IVec S100000 32) : Vec F S100000x4 .f32 :=
  Host.gather gather_S50000x4_S100000x1_S100000x4_1_0_n_n_0_1_14 xw (wrapE i)
def gatF (xw : Vec F S50000x4 .f32) (i : IVec S80000 32) : Vec F S80000x4 .f32 :=
  Host.gather gather_S50000x4_S80000x1_S80000x4_1_0_n_n_0_1_14 xw (wrapF i)
def gidE (bt : Vec F S50000 .i32) (i : IVec S100000 32) : IVec S100000 32 :=
  Host.gather gather_S50000_S100000x1_S100000_n_0_n_n_0_1_1 bt (wrapE i)
def gidF (bt : Vec F S50000 .i32) (i : IVec S80000 32) : IVec S80000 32 :=
  Host.gather gather_S50000_S80000x1_S80000_n_0_n_n_0_1_1 bt (wrapF i)

/-- The thresholds as the calls read them: lin_rep[0, 32·s + t] = lin[s]. -/
def linRep (lin : Vec F S32 .f32) : Vec F S1x1024 .f32 :=
  shapeCast S1x1024 (shapeCast S1024 (broadcastInDim S32x32 ![0] bcast_S32_S32x32_0 lin) shapeCasts_S32x32_S1024) shapeCasts_S1024_S1x1024

/-! ### The calls' padded operands -/

def zeroF : FVec F S_ .f32 := constant S_ .f32 0x00000000#32
def minusOneI : IVec S_ 32 := constantI S_ 32 4294967295#32

def padN4 (a : Vec F S50000x4 .f32) : Vec F S50176x4 .f32 := pad S50176x4 ![0, 0] ![176, 0] ![0, 0] a (id (zeroF (F := F))) pads_S50000x4_S50176x4_01760_000 h_S_
def padN1 (a : IVec S50000x1 32) : IVec S50176x1 32 := pad S50176x1 ![0, 0] ![176, 0] ![0, 0] a (id minusOneI) pads_S50000x1_S50176x1_01760_000 h_S_
def padE4 (a : Vec F S100000x4 .f32) : Vec F S100352x4 .f32 := pad S100352x4 ![0, 0] ![352, 0] ![0, 0] a (id (zeroF (F := F))) pads_S100000x4_S100352x4_03520_000 h_S_
def padE1 (a : IVec S100000x1 32) : IVec S100352x1 32 := pad S100352x1 ![0, 0] ![352, 0] ![0, 0] a (id minusOneI) pads_S100000x1_S100352x1_03520_000 h_S_
def padF4 (a : Vec F S80000x4 .f32) : Vec F S80896x4 .f32 := pad S80896x4 ![0, 0] ![896, 0] ![0, 0] a (id (zeroF (F := F))) pads_S80000x4_S80896x4_08960_000 h_S_
def padF1 (a : IVec S80000x1 32) : IVec S80896x1 32 := pad S80896x1 ![0, 0] ![896, 0] ![0, 0] a (id minusOneI) pads_S80000x1_S80896x1_08960_000 h_S_

/-- Call 0 (nodes): the padded node table and the padded id column. -/
def in0_0 (x : Vec F S50000x3 .f32) (wt : Vec F S50000 .f32) : Vec F S50176x4 .f32 := padN4 (xwT x wt)
def in0_1 (bt : Vec F S50000 .i32) : Vec F S50176x1 .i32 := padN1 (shapeCast S50000x1 bt shapeCasts_S50000_S50000x1)
/-- Call 1 (edges): the table at each endpoint, and the ids at the first endpoint, padded. -/
def in1_0 (x : Vec F S50000x3 .f32) (wt : Vec F S50000 .f32) (ei : Vec F S2x100000 .i32) : Vec F S100352x4 .f32 := padE4 (gatE (xwT x wt) (eRow0 (F := F) ei))
def in1_1 (x : Vec F S50000x3 .f32) (wt : Vec F S50000 .f32) (ei : Vec F S2x100000 .i32) : Vec F S100352x4 .f32 := padE4 (gatE (xwT x wt) (eRow1 (F := F) ei))
def in1_2 (ei : Vec F S2x100000 .i32) (bt : Vec F S50000 .i32) : Vec F S100352x1 .i32 := padE1 (shapeCast S100000x1 (gidE (F := F) bt (eRow0 (F := F) ei)) shapeCasts_S100000_S100000x1)
/-- Call 2 (faces): the table at each vertex, and the ids at the first vertex, padded. -/
def in2_0 (x : Vec F S50000x3 .f32) (wt : Vec F S50000 .f32) (fc : Vec F S3x80000 .i32) : Vec F S80896x4 .f32 := padF4 (gatF (xwT x wt) (fRow0 (F := F) fc))
def in2_1 (x : Vec F S50000x3 .f32) (wt : Vec F S50000 .f32) (fc : Vec F S3x80000 .i32) : Vec F S80896x4 .f32 := padF4 (gatF (xwT x wt) (fRow1 (F := F) fc))
def in2_2 (x : Vec F S50000x3 .f32) (wt : Vec F S50000 .f32) (fc : Vec F S3x80000 .i32) : Vec F S80896x4 .f32 := padF4 (gatF (xwT x wt) (fRow2 (F := F) fc))
def in2_3 (fc : Vec F S3x80000 .i32) (bt : Vec F S50000 .i32) : Vec F S80896x1 .i32 := padF1 (shapeCast S80000x1 (gidF (F := F) bt (fRow0 (F := F) fc)) shapeCasts_S80000_S80000x1)

/-! ### After the calls -/

/-- One call's output summed over its two cores, as a 64 × 32 × 32 array. -/
def post (o : Vec F S2x64x1024 .f32) : Vec F S64x32x32 .f32 :=
  shapeCast S64x32x32 (Host.reduceAdd o (zeroF (F := F)) reducesTo_S2x64x1024_S64x1024_d0 h_S_) shapeCasts_S64x1024_S64x32x32

/-- The program's result from the three calls' outputs. -/
def total (o0 o1 o2 : Vec F S2x64x1024 .f32) : Vec F S64x32x32 .f32 := addf (addf (post o0) (post o1)) (post o2)

end Cert.Kernel.Hand

end
-- ==== Proof.K.Walk.lean ====
/-
  The run of the program, first part: what every buffer of the core holds at each of the 23 boundaries between the 22
  segments of the main function (19 stretches of array operations and the three calls), from the launch to the end.
-/
import proofs.«429462_j65403761983812_3_alg».proof.Proof.K.R0.Frame
import proofs.«429462_j65403761983812_3_alg».proof.Proof.K.R1.Frame
import proofs.«429462_j65403761983812_3_alg».proof.Proof.K.R2.Frame
import proofs.«429462_j65403761983812_3_alg».proof.Proof.K.Terms

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary

The program is a line of 22 segments: stretches of array operations and three calls. Between two segments the core's
buffers hold definite contents. They are named here, boundary by boundary, starting from the memory the program is
launched on: a stretch of operations rewrites the buffers its operations produce, in order, and keeps the others; a call
replaces the arrays its windows stage by what its write-backs leave there and keeps the others. -/

/-- The core's buffers when the program starts. -/
abbrev W0 : Dev nD → Valuation τ sig (Elt F) := fun c b => (s₀ m ρ).mem ((c : Dev nD), b)
/-- The same contents read at the core's own references. -/
abbrev V0 : (c : Dev nD) → (b : Ref sig .tc) → Buf (Elt F) ((c : Thread nD τ).loc b) := fun c b => W0 m ρ c b
/-- After the opening stretch: the index rows, the packed node table, the gathered tables and graph ids, the repeated thresholds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the node table is padded with zero rows. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the constant −1 is made. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After the node ids are padded with −1: the entry of the first call. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b

/-- When the first call returns: each array one of its windows stages holds what the call leaves there (an input as it was
    entered, the output with its write-backs folded in), every other buffer what it held when the call was entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
/-- At the first call's return its arrays hold what the call leaves, -/
theorem hF0 (c : Dev nD) (w : Fin cfg0.W) : (dat0 (V4 m ρ) c).arrAt w cfg0.N = V5 m ρ c (Pipeline.arrRef spec0 w) :=
  (W5_arr m ρ c w).symm
/-- and every other buffer what it held at the call's entry. -/
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the first call's output is summed over the two cores and reshaped, and the edge ids made a column. -/
abbrev W6 : Dev nD → Valuation τ sig (Elt F) := fun c => StableHlo.after hostOps1 (W5 m ρ c)
abbrev V6 : (c : Dev nD) → (b : Ref sig .tc) → Buf (Elt F) ((c : Thread nD τ).loc b) := fun c b => W6 m ρ c b
/-- After the table at the edges' first endpoints is padded. -/
abbrev W7 : Dev nD → Valuation τ sig (Elt F) := fun c => StableHlo.after hostOps1_1 (W6 m ρ c)
abbrev V7 : (c : Dev nD) → (b : Ref sig .tc) → Buf (Elt F) ((c : Thread nD τ).loc b) := fun c b => W7 m ρ c b
/-- After a zero constant is made. -/
abbrev W8 : Dev nD → Valuation τ sig (Elt F) := fun c => StableHlo.after hostOps1_2 (W7 m ρ c)
abbrev V8 : (c : Dev nD) → (b : Ref sig .tc) → Buf (Elt F) ((c : Thread nD τ).loc b) := fun c b => W8 m ρ c b
/-- After the table at the edges' second endpoints is padded. -/
abbrev W9 : Dev nD → Valuation τ sig (Elt F) := fun c => StableHlo.after hostOps1_3 (W8 m ρ c)
abbrev V9 : (c : Dev nD) → (b : Ref sig .tc) → Buf (Elt F) ((c : Thread nD τ).loc b) := fun c b => W9 m ρ c b
/-- After the constant −1 is made. -/
abbrev W10 : Dev nD → Valuation τ sig (Elt F) := fun c => StableHlo.after hostOps1_4 (W9 m ρ c)
abbrev V10 : (c : Dev nD) → (b : Ref sig .tc) → Buf (Elt F) ((c : Thread nD τ).loc b) := fun c b => W10 m ρ c b
/-- After the edge ids are padded: the entry of the second call. -/
abbrev W11 : Dev nD → Valuation τ sig (Elt F) := fun c => StableHlo.after hostOps1_5 (W10 m ρ c)
abbrev V11 : (c : Dev nD) → (b : Ref sig .tc) → Buf (Elt F) ((c : Thread nD τ).loc b) := fun c b => W11 m ρ c b

/-- When the second call returns: each array one of its windows stages holds what the call leaves there (an input as it was
    entered, the output with its write-backs folded in), every other buffer what it held when the call was entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
/-- At the second call's return its arrays hold what the call leaves, -/
theorem hF1 (c : Dev nD) (w : Fin cfg1.W) : (dat1 (V11 m ρ) c).arrAt w cfg1.N = V12 m ρ c (Pipeline.arrRef spec1 w) :=
  (W12_arr m ρ c w).symm
/-- and every other buffer what it held at the call's entry. -/
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After the second call's output is summed over the two cores and reshaped, and the face ids made a column. -/
abbrev W13 : Dev nD → Valuation τ sig (Elt F) := fun c => StableHlo.after hostOps2 (W12 m ρ c)
abbrev V13 : (c : Dev nD) → (b : Ref sig .tc) → Buf (Elt F) ((c : Thread nD τ).loc b) := fun c b => W13 m ρ c b
/-- After the table at the faces' first vertices is padded. -/
abbrev W14 : Dev nD → Valuation τ sig (Elt F) := fun c => StableHlo.after hostOps2_1 (W13 m ρ c)
abbrev V14 : (c : Dev nD) → (b : Ref sig .tc) → Buf (Elt F) ((c : Thread nD τ).loc b) := fun c b => W14 m ρ c b
/-- After a zero constant is made. -/
abbrev W15 : Dev nD → Valuation τ sig (Elt F) := fun c => StableHlo.after hostOps2_2 (W14 m ρ c)
abbrev V15 : (c : Dev nD) → (b : Ref sig .tc) → Buf (Elt F) ((c : Thread nD τ).loc b) := fun c b => W15 m ρ c b
/-- After the table at the faces' second vertices is padded. -/
abbrev W16 : Dev nD → Valuation τ sig (Elt F) := fun c => StableHlo.after hostOps2_3 (W15 m ρ c)
abbrev V16 : (c : Dev nD) → (b : Ref sig .tc) → Buf (Elt F) ((c : Thread nD τ).loc b) := fun c b => W16 m ρ c b
/-- After a zero constant is made. -/
abbrev W17 : Dev nD → Valuation τ sig (Elt F) := fun c => StableHlo.after hostOps2_4 (W16 m ρ c)
abbrev V17 : (c : Dev nD) → (b : Ref sig .tc) → Buf (Elt F) ((c : Thread nD τ).loc b) := fun c b => W17 m ρ c b
/-- After the table at the faces' third vertices is padded. -/
abbrev W18 : Dev nD → Valuation τ sig (Elt F) := fun c => StableHlo.after hostOps2_5 (W17 m ρ c)
abbrev V18 : (c : Dev nD) → (b : Ref sig .tc) → Buf (Elt F) ((c : Thread nD τ).loc b) := fun c b => W18 m ρ c b
/-- After the constant −1 is made. -/
abbrev W19 : Dev nD → Valuation τ sig (Elt F) := fun c => StableHlo.after hostOps2_6 (W18 m ρ c)
abbrev V19 : (c : Dev nD) → (b : Ref sig .tc) → Buf (Elt F) ((c : Thread nD τ).loc b) := fun c b => W19 m ρ c b
/-- After the face ids are padded: the entry of the third call. -/
abbrev W20 : Dev nD → Valuation τ sig (Elt F) := fun c => StableHlo.after hostOps2_7 (W19 m ρ c)
abbrev V20 : (c : Dev nD) → (b : Ref sig .tc) → Buf (Elt F) ((c : Thread nD τ).loc b) := fun c b => W20 m ρ c b

/-- When the third call returns: each array one of its windows stages holds what the call leaves there (an input as it was
    entered, the output with its write-backs folded in), every other buffer what it held when the call was entered. -/
def W21 (c : Dev nD) : Valuation τ sig (Elt F) :=
  Pipeline.withArrays spec2 c (W20 m ρ c) fun w => (dat2 (V20 m ρ) c).arrAt w cfg2.N
theorem W21_arr (c : Dev nD) (w : Fin cfg2.W) :
    W21 m ρ c (Proc.devRef .tc (Pipeline.arrRef spec2 w)) = (dat2 (V20 m ρ) c).arrAt w cfg2.N := by
  unfold W21; exact Pipeline.withArrays_arr spec2 launch2.win.arr_inj c _ _ w
theorem W21_of_ne (c : Dev nD) (b : Ref sig .tc) (hb : ∀ w, Pipeline.arrRef spec2 w ≠ b) :
    W21 m ρ c (Proc.devRef .tc b) = W20 m ρ c (Proc.devRef .tc b) := by
  unfold W21; exact Pipeline.withArrays_of_ne spec2 c _ _ b hb
abbrev V21 : (c : Dev nD) → (b : Ref sig .tc) → Buf (Elt F) ((c : Thread nD τ).loc b) := fun c b => W21 m ρ c b
/-- At the third call's return its arrays hold what the call leaves, -/
theorem hF2 (c : Dev nD) (w : Fin cfg2.W) : (dat2 (V20 m ρ) c).arrAt w cfg2.N = V21 m ρ c (Pipeline.arrRef spec2 w) :=
  (W21_arr m ρ c w).symm
/-- and every other buffer what it held at the call's entry. -/
theorem hrest2 (c : Dev nD) : ∀ b, b ∉ Finset.univ.image (Pipeline.arrRef spec2) → V21 m ρ c b = V20 m ρ c b :=
  fun b hb => W21_of_ne m ρ c b fun w e => hb (Finset.mem_image.mpr ⟨w, Finset.mem_univ _, e⟩)

/-- After the third call's output is summed and reshaped and the three results are added: the end of the program. -/
abbrev W22 : Dev nD → Valuation τ sig (Elt F) := fun c => StableHlo.after hostOps3 (W21 m ρ c)
abbrev V22 : (c : Dev nD) → (b : Ref sig .tc) → Buf (Elt F) ((c : Thread nD τ).loc b) := fun c b => W22 m ρ c b

/-! ## Consecutive stretches as one

Running two lines of operations one after the other is running their concatenation, so the contents at a call's entry
are the contents after ONE line, counted from the launch or from the call before. -/

theorem W4_flat (c : Dev nD) :
    W4 m ρ c = StableHlo.after (hostOps0 ++ hostOps0_1 ++ hostOps0_2 ++ hostOps0_3) (W0 m ρ c) := by
  rw [StableHlo.after_append, StableHlo.after_append, StableHlo.after_append]
theorem W11_flat (c : Dev nD) :
    W11 m ρ c = StableHlo.after (hostOps1 ++ hostOps1_1 ++ hostOps1_2 ++ hostOps1_3 ++ hostOps1_4 ++ hostOps1_5) (W5 m ρ c) := by
  rw [StableHlo.after_append, StableHlo.after_append, StableHlo.after_append, StableHlo.after_append, StableHlo.after_append]
theorem W20_flat (c : Dev nD) :
    W20 m ρ c = StableHlo.after (hostOps2 ++ hostOps2_1 ++ hostOps2_2 ++ hostOps2_3 ++ hostOps2_4 ++ hostOps2_5 ++ hostOps2_6 ++ hostOps2_7) (W12 m ρ c) := by
  rw [StableHlo.after_append, StableHlo.after_append, StableHlo.after_append, StableHlo.after_append, StableHlo.after_append,
    StableHlo.after_append, StableHlo.after_append]
theorem W22_flat (c : Dev nD) : W22 m ρ c = StableHlo.after hostOps3 (W21 m ρ c) := rfl

/-! ## No stretch allocates a buffer -/

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor
theorem hostOps2_6_fresh : (hostOps2_6 : List (HloOp τ sig (Elt F))).Forall fun op => op.fresh = ∅ := by
  simp only [List.Forall]; repeat' constructor
theorem hostOps2_7_fresh : (hostOps2_7 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

end Cert.Kernel.Hand

end
-- ==== Proof.K.Run.lean ====
/-
  The run of the program, second part: the main function as a list of 22 segments (19 stretches of array operations and
  the three calls), each entered from the buffer contents the one before it left, launched by the theorem for a program
  of several calls. Each call's kernel keeps a running sum in a scratch buffer, so its invariant is not the plain one
  (the scratch at anything): it starts from the plain one and comes back to it, and the segment of a call bridges the
  two at both ends. The outcome: the program terminates and every unscoped buffer ends at the contents of the last
  boundary.
-/
import proofs.«429462_j65403761983812_3_alg».proof.Proof.K.Walk

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three pipelines and the thread state -/

/-- The prefetched tables' admissible contents: no pipeline has a table. -/
abbrev adm : (p : Fin 3) → (pcfgs (F := F) p).Adm := fun p => (cfgs p).toPCfg_adm
/-- Each pipeline's proof data, taken at the contents its call is entered with. -/
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V11 m ρ) c
  | ⟨2, _⟩ => fun c => dat2 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing
    nothing. -/
abbrev R (c : Dev nD) : sProp 𝕄 := iprop((∃ r, prngReg c r) ∗ ∃ W, owes (c : Thread nD τ) (0 : CellTallies nD τ sig Unit) W)
/-- A stretch of operations as a segment: it takes every unscoped buffer at the contents `W` to the contents after its
    operations, the rest of the thread state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the final contents, the generator register at
    some state. -/
abbrev Tₙ (c : Dev nD) : sProp 𝕄 := iprop(StableHlo.held (c : Thread nD τ) (Pipeline.ucRefs τ sig) (W22 m ρ c) ∗ ∃ r, prngReg c r)

/-- The thread state after the last segment is the last thread state beside the core owing nothing. -/
theorem last_state (c : Dev nD) :
    iprop(StableHlo.held (c : Thread nD τ) (Pipeline.ucRefs τ sig) (W22 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The three calls as segments -/

set_option backward.isDefEq.respectTransparency.types false in
/-- The first call as a segment: entered with every unscoped buffer at the contents of boundary 4, left with them at
    those of boundary 5. At entry the arrays its windows stage are split out of the unscoped buffers and at exit put back
    at what the call leaves in them; the generator register goes into the call's invariant and comes back; the call's
    invariant starts from the plain one (the accumulator at anything) and ends in it (the accumulator's last contents
    forgotten); nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V4 m ρ) c)
    unfold Pipeline.ΦA
    iintro ⟨Hp, -, Hr⟩
    isplitl [Hr]; · iexact Hr
    iexact Hp
  hout c := by
    rw [Pipeline.ownSems0_none]
    refine BIBase.Entails.trans (hout0 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment: entered with every unscoped buffer at the contents of boundary 11, left with them at
    those of boundary 12. At entry the arrays its windows stage are split out of the unscoped buffers and at exit put back
    at what the call leaves in them; the generator register goes into the call's invariant and comes back; the call's
    invariant starts from the plain one (the accumulator at anything) and ends in it (the accumulator's last contents
    forgotten); nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V11 m ρ) c)
    unfold Pipeline.ΦA
    iintro ⟨Hp, -, Hr⟩
    isplitl [Hr]; · iexact Hr
    iexact Hp
  hout c := by
    rw [Pipeline.ownSems0_none]
    refine BIBase.Entails.trans (hout1 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call as a segment: entered with every unscoped buffer at the contents of boundary 20, left with them at
    those of boundary 21. At entry the arrays its windows stage are split out of the unscoped buffers and at exit put back
    at what the call leaves in them; the generator register goes into the call's invariant and comes back; the call's
    invariant starts from the plain one (the accumulator at anything) and ends in it (the accumulator's last contents
    forgotten); nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V20 m ρ) c).loose
  hwaits := Pipeline.hwaits_of_owed_zero _ _ _ _ L lv 2 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec2 c (V20 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V20 m ρ) c)
    unfold Pipeline.ΦA
    iintro ⟨Hp, -, Hr⟩
    isplitl [Hr]; · iexact Hr
    iexact Hp
  hout c := by
    rw [Pipeline.ownSems0_none]
    refine BIBase.Entails.trans (hout2 (V20 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V20 m ρ c) (V21 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as its 22 segments, and the launch -/

/-- The segments in the main function's order: a stretch from the contents of the boundary before it, a call per region. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .host (hseg hostOps1_3 hostOps1_3_sub hostOps1_3_fresh (W8 m ρ)),
    .host (hseg hostOps1_4 hostOps1_4_sub hostOps1_4_fresh (W9 m ρ)),
    .host (hseg hostOps1_5 hostOps1_5_sub hostOps1_5_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .host (hseg hostOps2_3 hostOps2_3_sub hostOps2_3_fresh (W15 m ρ)),
    .host (hseg hostOps2_4 hostOps2_4_sub hostOps2_4_fresh (W16 m ρ)),
    .host (hseg hostOps2_5 hostOps2_5_sub hostOps2_5_fresh (W17 m ρ)),
    .host (hseg hostOps2_6 hostOps2_6_sub hostOps2_6_fresh (W18 m ρ)),
    .host (hseg hostOps2_7 hostOps2_7_sub hostOps2_7_fresh (W19 m ρ)),
    .region (reg2 m ρ),
    .host (hseg hostOps3 hostOps3_sub hostOps3_fresh (W21 m ρ)) ]
/-- The main function is the run of the segments: both are the same chain of the same items. -/
theorem main_run (c : Dev nD) : main (F := F) c = Pipeline.Seg.run (segs m ρ) := (main_chain c).trans (by chain_rfl)

set_option backward.isDefEq.respectTransparency.types false in
/-- THE RUN. From any memory with every counter at zero, every weakly fair execution of the main function terminates, and
    in every final state each unscoped buffer of the core holds the contents of the last boundary: the launch over the 22
    segments, each entered from what the one before it left, the last thread state read against the final state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.Kernel.Hand

end
-- ==== Proof.K.Fold.lean ====
import proofs.«429462_j65403761983812_3_alg».proof.Proof.K.Walk
import proofs.«429462_j65403761983812_3_alg».proof.Proof.K.Terms

/-!
# The run of the program, second part: the buffers read through the boundaries

What the main function's buffers hold where the calls and the result read them, as pure functions of the argument
arrays. The lines of array operations between the calls are taken group by group (the four stretches before the first
call as one line, the six before the second, the eight before the third, the closing stretch): for any contents a
group starts from, each buffer it produces is a named function of the buffers it reads, and every buffer it does not
write is kept. A call keeps every buffer that is not one of its arrays and leaves each input array as it found it.
Walking back from a boundary to the launch through these facts gives: the arguments are never written; each call's
operands are the padded tables and id columns of the arguments; the result is the sum of the three calls' outputs, each
summed over its two cores and reshaped.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lines between the calls, and the buffers they write -/

/-- The four stretches before the first call, as one line. -/
abbrev opsA : List (HloOp τ sig (Elt F)) := hostOps0 ++ hostOps0_1 ++ hostOps0_2 ++ hostOps0_3
/-- The six stretches between the first call and the second. -/
abbrev opsB : List (HloOp τ sig (Elt F)) := hostOps1 ++ hostOps1_1 ++ hostOps1_2 ++ hostOps1_3 ++ hostOps1_4 ++ hostOps1_5
/-- The eight stretches between the second call and the third. -/
abbrev opsC : List (HloOp τ sig (Elt F)) :=
  hostOps2 ++ hostOps2_1 ++ hostOps2_2 ++ hostOps2_3 ++ hostOps2_4 ++ hostOps2_5 ++ hostOps2_6 ++ hostOps2_7

/-- Every buffer an operation of the first line produces, in order. -/
abbrev wrA : List (Ref sig .tc) :=
  [
    main_v0, main_v1, main_v2, main_v3, main_v4, main_v5, main_v6, main_v7, main_v8, main_v9, main_v10,
    main_v11, main_c, main_v12, main_v13, main_c_0, main_v14, main_v15, main_v16, main_v17, main_v18, main_c_1,
    main_v19, main_v20, main_c_2, main_v21, main_v22, main_v23, main_v24, main_v25, main_c_3, main_v26,
    main_v27, main_c_4, main_v28, main_v29, main_v30, main_v31, main_v32, main_c_5, main_v33, main_v34,
    main_c_6, main_v35, main_v36, main_v37, main_v38, main_v39, main_c_7, main_v40, main_v41, main_c_8,
    main_v42, main_v43, main_v44, main_v45, main_v46, main_c_9, main_v47, main_v48, main_c_10, main_v49,
    main_v50, main_v51, main_v52, main_v53, main_c_11, main_v54, main_v55, main_c_12, main_v56, main_v57,
    main_v58, main_v59, main_v60, main_v61, main_v62, main_v63, main_v64, main_cst, main_call0_v0, main_v65,
    main_c_13, main_call1_v0, main_v66 ]
/-- The same for the second line, -/
abbrev wrB : List (Ref sig .tc) :=
  [
    main_cst_14, main_v68, main_v69, main_v70, main_cst_15, main_call2_v0, main_v71, main_cst_16, main_call3_v0,
    main_v72, main_c_17, main_call4_v0, main_v73 ]
/-- the third, -/
abbrev wrC : List (Ref sig .tc) :=
  [
    main_cst_18, main_v75, main_v76, main_v77, main_cst_19, main_call5_v0, main_v78, main_cst_20, main_call6_v0,
    main_v79, main_cst_21, main_call7_v0, main_v80, main_c_22, main_call8_v0, main_v81 ]
/-- and the closing stretch. -/
abbrev wrD : List (Ref sig .tc) :=
  [
    main_cst_23, main_v83, main_v84, main_v85, main_v86 ]

set_option maxHeartbeats 4000000 in
theorem wrA_sub : (opsA : List (HloOp τ sig (Elt F))).Forall fun op =>
    op.writes ⊆ (wrA.map (Proc.devRef (τ := τ) .tc)).toFinset := by
  simp only [opsA, hostOps0, hostOps0_1, hostOps0_2, hostOps0_3, List.cons_append, List.nil_append, List.Forall,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wrB_sub : (opsB : List (HloOp τ sig (Elt F))).Forall fun op =>
    op.writes ⊆ (wrB.map (Proc.devRef (τ := τ) .tc)).toFinset := by
  simp only [opsB, hostOps1, hostOps1_1, hostOps1_2, hostOps1_3, hostOps1_4, hostOps1_5, List.cons_append,
    List.nil_append, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wrC_sub : (opsC : List (HloOp τ sig (Elt F))).Forall fun op =>
    op.writes ⊆ (wrC.map (Proc.devRef (τ := τ) .tc)).toFinset := by
  simp only [opsC, hostOps2, hostOps2_1, hostOps2_2, hostOps2_3, hostOps2_4, hostOps2_5, hostOps2_6, hostOps2_7,
    List.cons_append, List.nil_append, List.Forall, StableHlo.nullary_writes, StableHlo.unary_writes,
    StableHlo.binary_writes, StableHlo.ternary_writes, StableHlo.reshape_writes, Finset.singleton_subset_iff,
    List.mem_toFinset]
  repeat' apply And.intro
  all_goals exact List.mem_map_of_mem (by decide)
theorem wrD_sub : (hostOps3 : List (HloOp τ sig (Elt F))).Forall fun op =>
    op.writes ⊆ (wrD.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## What each line produces, from any contents it starts on -/

section Lines
variable (X : Valuation τ sig (Elt F))

/-! ### The closing stretch -/

/-- The result is the first two calls' posted outputs added, plus the third call's output posted here. -/
theorem D_v86 :
    StableHlo.after hostOps3 X (Proc.devRef .tc main_v86)
      = (addf (addf (X (Proc.devRef .tc main_v69) : Vec F S64x32x32 .f32) (X (Proc.devRef .tc main_v76)))
          (post (X (Proc.devRef .tc main_v82))) : Vec F S64x32x32 .f32) := by
  simp only [hostOps3]
  after_results
  rfl

/-! ### The line between the first call and the second -/

/-- The first call's output, summed over the cores and reshaped. -/
theorem B_v69 :
    StableHlo.after opsB X (Proc.devRef .tc main_v69) = (post (X (Proc.devRef .tc main_v67)) : Vec F S64x32x32 .f32) := by
  simp only [opsB, hostOps1, hostOps1_1, hostOps1_2, hostOps1_3, hostOps1_4, hostOps1_5, List.cons_append, List.nil_append]
  after_results
  rfl
/-- The table gathered at the edges' first endpoints, padded. -/
theorem B_v71 :
    StableHlo.after opsB X (Proc.devRef .tc main_v71) = (padE4 (X (Proc.devRef .tc main_v18)) : Vec F S100352x4 .f32) := by
  simp only [opsB, hostOps1, hostOps1_1, hostOps1_2, hostOps1_3, hostOps1_4, hostOps1_5, List.cons_append, List.nil_append]
  after_results
  rfl
/-- The table gathered at the edges' second endpoints, padded. -/
theorem B_v72 :
    StableHlo.after opsB X (Proc.devRef .tc main_v72) = (padE4 (X (Proc.devRef .tc main_v25)) : Vec F S100352x4 .f32) := by
  simp only [opsB, hostOps1, hostOps1_1, hostOps1_2, hostOps1_3, hostOps1_4, hostOps1_5, List.cons_append, List.nil_append]
  after_results
  rfl
/-- The edges' graph ids as a column, padded. -/
theorem B_v73 :
    StableHlo.after opsB X (Proc.devRef .tc main_v73)
      = (padE1 (shapeCast S100000x1 (X (Proc.devRef .tc main_v53) : IVec S100000 32) shapeCasts_S100000_S100000x1)
          : Vec F S100352x1 .i32) := by
  simp only [opsB, hostOps1, hostOps1_1, hostOps1_2, hostOps1_3, hostOps1_4, hostOps1_5, List.cons_append, List.nil_append]
  after_results
  rfl

/-! ### The line between the second call and the third -/

/-- The second call's output, summed over the cores and reshaped. -/
theorem C_v76 :
    StableHlo.after opsC X (Proc.devRef .tc main_v76) = (post (X (Proc.devRef .tc main_v74)) : Vec F S64x32x32 .f32) := by
  simp only [opsC, hostOps2, hostOps2_1, hostOps2_2, hostOps2_3, hostOps2_4, hostOps2_5, hostOps2_6, hostOps2_7,
    List.cons_append, List.nil_append]
  after_results
  rfl
/-- The table gathered at the faces' first, second and third vertices, padded. -/
theorem C_v78 :
    StableHlo.after opsC X (Proc.devRef .tc main_v78) = (padF4 (X (Proc.devRef .tc main_v32)) : Vec F S80896x4 .f32) := by
  simp only [opsC, hostOps2, hostOps2_1, hostOps2_2, hostOps2_3, hostOps2_4, hostOps2_5, hostOps2_6, hostOps2_7,
    List.cons_append, List.nil_append]
  after_results
  rfl
theorem C_v79 :
    StableHlo.after opsC X (Proc.devRef .tc main_v79) = (padF4 (X (Proc.devRef .tc main_v39)) : Vec F S80896x4 .f32) := by
  simp only [opsC, hostOps2, hostOps2_1, hostOps2_2, hostOps2_3, hostOps2_4, hostOps2_5, hostOps2_6, hostOps2_7,
    List.cons_append, List.nil_append]
  after_results
  rfl
theorem C_v80 :
    StableHlo.after opsC X (Proc.devRef .tc main_v80) = (padF4 (X (Proc.devRef .tc main_v46)) : Vec F S80896x4 .f32) := by
  simp only [opsC, hostOps2, hostOps2_1, hostOps2_2, hostOps2_3, hostOps2_4, hostOps2_5, hostOps2_6, hostOps2_7,
    List.cons_append, List.nil_append]
  after_results
  rfl
/-- The faces' graph ids as a column, padded. -/
theorem C_v81 :
    StableHlo.after opsC X (Proc.devRef .tc main_v81)
      = (padF1 (shapeCast S80000x1 (X (Proc.devRef .tc main_v60) : IVec S80000 32) shapeCasts_S80000_S80000x1)
          : Vec F S80896x1 .i32) := by
  simp only [opsC, hostOps2, hostOps2_1, hostOps2_2, hostOps2_3, hostOps2_4, hostOps2_5, hostOps2_6, hostOps2_7,
    List.cons_append, List.nil_append]
  after_results
  rfl

end Lines

/-! ### The line before the first call -/

section LineA
variable (X : Valuation τ sig (Elt F))

/-- The packed node table, padded: the first call's table operand. -/
theorem A_v65 :
    StableHlo.after opsA X (Proc.devRef .tc main_v65) = (in0_0 (X (Proc.devRef .tc main_arg0)) (X (Proc.devRef .tc main_arg1)) : Vec F S50176x4 .f32) := by
  simp only [opsA, hostOps0, hostOps0_1, hostOps0_2, hostOps0_3, List.cons_append, List.nil_append]
  after_results_simp
  rfl
/-- The nodes' graph ids as a column, padded: the first call's id operand. -/
theorem A_v66 :
    StableHlo.after opsA X (Proc.devRef .tc main_v66) = (in0_1 (X (Proc.devRef .tc main_arg6)) : Vec F S50176x1 .i32) := by
  simp only [opsA, hostOps0, hostOps0_1, hostOps0_2, hostOps0_3, List.cons_append, List.nil_append]
  after_results_simp
  rfl
/-- The thresholds repeated. -/
theorem A_v63 :
    StableHlo.after opsA X (Proc.devRef .tc main_v63) = (linRep (X (Proc.devRef .tc main_arg3)) : Vec F S1x1024 .f32) := by
  simp only [opsA, hostOps0, hostOps0_1, hostOps0_2, hostOps0_3, List.cons_append, List.nil_append]
  after_results_simp
  rfl
/-- The packed table gathered at the edges' first and second endpoints. -/
theorem A_v18 :
    StableHlo.after opsA X (Proc.devRef .tc main_v18)
      = (gatE (xwT (X (Proc.devRef .tc main_arg0)) (X (Proc.devRef .tc main_arg1))) (eRow0 (F := F) (X (Proc.devRef .tc main_arg4))) : Vec F S100000x4 .f32) := by
  simp only [opsA, hostOps0, hostOps0_1, hostOps0_2, hostOps0_3, List.cons_append, List.nil_append]
  after_results_simp
  rfl
theorem A_v25 :
    StableHlo.after opsA X (Proc.devRef .tc main_v25)
      = (gatE (xwT (X (Proc.devRef .tc main_arg0)) (X (Proc.devRef .tc main_arg1))) (eRow1 (F := F) (X (Proc.devRef .tc main_arg4))) : Vec F S100000x4 .f32) := by
  simp only [opsA, hostOps0, hostOps0_1, hostOps0_2, hostOps0_3, List.cons_append, List.nil_append]
  after_results_simp
  rfl
/-- The packed table gathered at the faces' three vertices. -/
theorem A_v32 :
    StableHlo.after opsA X (Proc.devRef .tc main_v32)
      = (gatF (xwT (X (Proc.devRef .tc main_arg0)) (X (Proc.devRef .tc main_arg1))) (fRow0 (F := F) (X (Proc.devRef .tc main_arg5))) : Vec F S80000x4 .f32) := by
  simp only [opsA, hostOps0, hostOps0_1, hostOps0_2, hostOps0_3, List.cons_append, List.nil_append]
  after_results_simp
  rfl
theorem A_v39 :
    StableHlo.after opsA X (Proc.devRef .tc main_v39)
      = (gatF (xwT (X (Proc.devRef .tc main_arg0)) (X (Proc.devRef .tc main_arg1))) (fRow1 (F := F) (X (Proc.devRef .tc main_arg5))) : Vec F S80000x4 .f32) := by
  simp only [opsA, hostOps0, hostOps0_1, hostOps0_2, hostOps0_3, List.cons_append, List.nil_append]
  after_results_simp
  rfl
theorem A_v46 :
    StableHlo.after opsA X (Proc.devRef .tc main_v46)
      = (gatF (xwT (X (Proc.devRef .tc main_arg0)) (X (Proc.devRef .tc main_arg1))) (fRow2 (F := F) (X (Proc.devRef .tc main_arg5))) : Vec F S80000x4 .f32) := by
  simp only [opsA, hostOps0, hostOps0_1, hostOps0_2, hostOps0_3, List.cons_append, List.nil_append]
  after_results_simp
  rfl
/-- The graph ids gathered at the edges' first endpoints and at the faces' first vertices. -/
theorem A_v53 :
    StableHlo.after opsA X (Proc.devRef .tc main_v53)
      = (gidE (F := F) (X (Proc.devRef .tc main_arg6)) (eRow0 (F := F) (X (Proc.devRef .tc main_arg4))) : IVec S100000 32) := by
  simp only [opsA, hostOps0, hostOps0_1, hostOps0_2, hostOps0_3, List.cons_append, List.nil_append]
  after_results_simp
  rfl
theorem A_v60 :
    StableHlo.after opsA X (Proc.devRef .tc main_v60)
      = (gidF (F := F) (X (Proc.devRef .tc main_arg6)) (fRow0 (F := F) (X (Proc.devRef .tc main_arg5))) : IVec S80000 32) := by
  simp only [opsA, hostOps0, hostOps0_1, hostOps0_2, hostOps0_3, List.cons_append, List.nil_append]
  after_results_simp
  rfl

end LineA

/-! ## Through the boundaries -/

variable (m : (ℓ : Loc nD τ sig) → Buf (Elt F) ℓ) (ρ : Dev nD → PrngReg)

/-! ### A line keeps the buffers it does not write -/

theorem keepA (c : Dev nD) {r : Ref sig .tc} (h : r ∉ wrA) :
    W4 m ρ c (Proc.devRef .tc r) = W0 m ρ c (Proc.devRef .tc r) :=
  (congrFun (W4_flat m ρ c) (Proc.devRef .tc r)).trans (StableHlo.after_of_writes_sub opsA _ wrA_sub h)
theorem keepB (c : Dev nD) {r : Ref sig .tc} (h : r ∉ wrB) :
    W11 m ρ c (Proc.devRef .tc r) = W5 m ρ c (Proc.devRef .tc r) :=
  (congrFun (W11_flat m ρ c) (Proc.devRef .tc r)).trans (StableHlo.after_of_writes_sub opsB _ wrB_sub h)
theorem keepC (c : Dev nD) {r : Ref sig .tc} (h : r ∉ wrC) :
    W20 m ρ c (Proc.devRef .tc r) = W12 m ρ c (Proc.devRef .tc r) :=
  (congrFun (W20_flat m ρ c) (Proc.devRef .tc r)).trans (StableHlo.after_of_writes_sub opsC _ wrC_sub h)
theorem keepD (c : Dev nD) {r : Ref sig .tc} (h : r ∉ wrD) :
    W22 m ρ c (Proc.devRef .tc r) = W21 m ρ c (Proc.devRef .tc r) :=
  StableHlo.after_of_writes_sub hostOps3 _ wrD_sub h

/-! ### A call leaves an input array as it found it -/

theorem thru0 (c : Dev nD) (w : Fin cfg0.W) (hin : (cfg0.win w).isOut = false) :
    W5 m ρ c (Proc.devRef .tc (Pipeline.arrRef spec0 w)) = W4 m ρ c (Proc.devRef .tc (Pipeline.arrRef spec0 w)) :=
  (W5_arr m ρ c w).trans (((dat0 (V4 m ρ) c).arrAt_in w hin _).trans (A_eq0 (V4 m ρ) c w))
theorem thru1 (c : Dev nD) (w : Fin cfg1.W) (hin : (cfg1.win w).isOut = false) :
    W12 m ρ c (Proc.devRef .tc (Pipeline.arrRef spec1 w)) = W11 m ρ c (Proc.devRef .tc (Pipeline.arrRef spec1 w)) :=
  (W12_arr m ρ c w).trans (((dat1 (V11 m ρ) c).arrAt_in w hin _).trans (A_eq1 (V11 m ρ) c w))
theorem thru2 (c : Dev nD) (w : Fin cfg2.W) (hin : (cfg2.win w).isOut = false) :
    W21 m ρ c (Proc.devRef .tc (Pipeline.arrRef spec2 w)) = W20 m ρ c (Proc.devRef .tc (Pipeline.arrRef spec2 w)) :=
  (W21_arr m ρ c w).trans (((dat2 (V20 m ρ) c).arrAt_in w hin _).trans (A_eq2 (V20 m ρ) c w))

/-! ### The arguments end as launched -/

/-- A buffer no line writes and no call stages holds at the end what it held at the launch. -/
theorem W22_untouched (c : Dev nD) (r : Ref sig .tc) (hA : r ∉ wrA) (hB : r ∉ wrB) (hC : r ∉ wrC) (hD : r ∉ wrD)
    (h0 : ∀ w, Pipeline.arrRef spec0 w ≠ r) (h1 : ∀ w, Pipeline.arrRef spec1 w ≠ r) (h2 : ∀ w, Pipeline.arrRef spec2 w ≠ r) :
    W22 m ρ c (Proc.devRef .tc r) = W0 m ρ c (Proc.devRef .tc r) :=
  calc W22 m ρ c (Proc.devRef .tc r)
    _ = W21 m ρ c (Proc.devRef .tc r) := keepD m ρ c hD
    _ = W20 m ρ c (Proc.devRef .tc r) := W21_of_ne m ρ c r h2
    _ = W12 m ρ c (Proc.devRef .tc r) := keepC m ρ c hC
    _ = W11 m ρ c (Proc.devRef .tc r) := W12_of_ne m ρ c r h1
    _ = W5 m ρ c (Proc.devRef .tc r) := keepB m ρ c hB
    _ = W4 m ρ c (Proc.devRef .tc r) := W5_of_ne m ρ c r h0
    _ = W0 m ρ c (Proc.devRef .tc r) := keepA m ρ c hA

theorem W22_main_arg0 (c : Dev nD) : W22 m ρ c (Proc.devRef .tc main_arg0) = (m ((c : Thread nD τ).loc main_arg0)) :=
  W22_untouched m ρ c main_arg0 (by decide) (by decide) (by decide) (by decide) (by decide) (by decide) (by decide)
theorem W22_main_arg1 (c : Dev nD) : W22 m ρ c (Proc.devRef .tc main_arg1) = (m ((c : Thread nD τ).loc main_arg1)) :=
  W22_untouched m ρ c main_arg1 (by decide) (by decide) (by decide) (by decide) (by decide) (by decide) (by decide)
theorem W22_main_arg3 (c : Dev nD) : W22 m ρ c (Proc.devRef .tc main_arg3) = (m ((c : Thread nD τ).loc main_arg3)) :=
  W22_untouched m ρ c main_arg3 (by decide) (by decide) (by decide) (by decide) (by decide) (by decide) (by decide)
theorem W22_main_arg4 (c : Dev nD) : W22 m ρ c (Proc.devRef .tc main_arg4) = (m ((c : Thread nD τ).loc main_arg4)) :=
  W22_untouched m ρ c main_arg4 (by decide) (by decide) (by decide) (by decide) (by decide) (by decide) (by decide)
theorem W22_main_arg5 (c : Dev nD) : W22 m ρ c (Proc.devRef .tc main_arg5) = (m ((c : Thread nD τ).loc main_arg5)) :=
  W22_untouched m ρ c main_arg5 (by decide) (by decide) (by decide) (by decide) (by decide) (by decide) (by decide)
theorem W22_main_arg6 (c : Dev nD) : W22 m ρ c (Proc.devRef .tc main_arg6) = (m ((c : Thread nD τ).loc main_arg6)) :=
  W22_untouched m ρ c main_arg6 (by decide) (by decide) (by decide) (by decide) (by decide) (by decide) (by decide)

/-- The directions are an input array of every call: each call hands them back as it found them. -/
theorem W4_main_arg2 (c : Dev nD) : W4 m ρ c (Proc.devRef .tc main_arg2) = (m ((c : Thread nD τ).loc main_arg2)) := keepA m ρ c (by decide)
theorem W11_main_arg2 (c : Dev nD) : W11 m ρ c (Proc.devRef .tc main_arg2) = (m ((c : Thread nD τ).loc main_arg2)) :=
  calc W11 m ρ c (Proc.devRef .tc main_arg2)
    _ = W5 m ρ c (Proc.devRef .tc main_arg2) := keepB m ρ c (by decide)
    _ = W4 m ρ c (Proc.devRef .tc main_arg2) := thru0 m ρ c 2 rfl
    _ = (m ((c : Thread nD τ).loc main_arg2)) := W4_main_arg2 m ρ c
theorem W20_main_arg2 (c : Dev nD) : W20 m ρ c (Proc.devRef .tc main_arg2) = (m ((c : Thread nD τ).loc main_arg2)) :=
  calc W20 m ρ c (Proc.devRef .tc main_arg2)
    _ = W12 m ρ c (Proc.devRef .tc main_arg2) := keepC m ρ c (by decide)
    _ = W11 m ρ c (Proc.devRef .tc main_arg2) := thru1 m ρ c 3 rfl
    _ = (m ((c : Thread nD τ).loc main_arg2)) := W11_main_arg2 m ρ c
theorem W22_main_arg2 (c : Dev nD) : W22 m ρ c (Proc.devRef .tc main_arg2) = (m ((c : Thread nD τ).loc main_arg2)) :=
  calc W22 m ρ c (Proc.devRef .tc main_arg2)
    _ = W21 m ρ c (Proc.devRef .tc main_arg2) := keepD m ρ c (by decide)
    _ = W20 m ρ c (Proc.devRef .tc main_arg2) := thru2 m ρ c 4 rfl
    _ = (m ((c : Thread nD τ).loc main_arg2)) := W20_main_arg2 m ρ c

/-! ### What the first call reads -/

theorem V4_main_v65 (c : Dev nD) : V4 m ρ c main_v65 = in0_0 (m ((c : Thread nD τ).loc main_arg0)) (m ((c : Thread nD τ).loc main_arg1)) :=
  (congrFun (W4_flat m ρ c) (Proc.devRef .tc main_v65)).trans (A_v65 (W0 m ρ c))
theorem V4_main_v66 (c : Dev nD) : V4 m ρ c main_v66 = in0_1 (m ((c : Thread nD τ).loc main_arg6)) :=
  (congrFun (W4_flat m ρ c) (Proc.devRef .tc main_v66)).trans (A_v66 (W0 m ρ c))
theorem V4_main_arg2 (c : Dev nD) : V4 m ρ c main_arg2 = (m ((c : Thread nD τ).loc main_arg2)) := W4_main_arg2 m ρ c
theorem V4_main_v63 (c : Dev nD) : V4 m ρ c main_v63 = linRep (m ((c : Thread nD τ).loc main_arg3)) :=
  (congrFun (W4_flat m ρ c) (Proc.devRef .tc main_v63)).trans (A_v63 (W0 m ρ c))

/-! ### The gathered tables and id columns, carried to the later calls -/

theorem W4_main_v18 (c : Dev nD) :
    W4 m ρ c (Proc.devRef .tc main_v18) = gatE (xwT (m ((c : Thread nD τ).loc main_arg0)) (m ((c : Thread nD τ).loc main_arg1))) (eRow0 (F := F) (m ((c : Thread nD τ).loc main_arg4))) :=
  (congrFun (W4_flat m ρ c) (Proc.devRef .tc main_v18)).trans (A_v18 (W0 m ρ c))
theorem W4_main_v25 (c : Dev nD) :
    W4 m ρ c (Proc.devRef .tc main_v25) = gatE (xwT (m ((c : Thread nD τ).loc main_arg0)) (m ((c : Thread nD τ).loc main_arg1))) (eRow1 (F := F) (m ((c : Thread nD τ).loc main_arg4))) :=
  (congrFun (W4_flat m ρ c) (Proc.devRef .tc main_v25)).trans (A_v25 (W0 m ρ c))
theorem W4_main_v32 (c : Dev nD) :
    W4 m ρ c (Proc.devRef .tc main_v32) = gatF (xwT (m ((c : Thread nD τ).loc main_arg0)) (m ((c : Thread nD τ).loc main_arg1))) (fRow0 (F := F) (m ((c : Thread nD τ).loc main_arg5))) :=
  (congrFun (W4_flat m ρ c) (Proc.devRef .tc main_v32)).trans (A_v32 (W0 m ρ c))
theorem W4_main_v39 (c : Dev nD) :
    W4 m ρ c (Proc.devRef .tc main_v39) = gatF (xwT (m ((c : Thread nD τ).loc main_arg0)) (m ((c : Thread nD τ).loc main_arg1))) (fRow1 (F := F) (m ((c : Thread nD τ).loc main_arg5))) :=
  (congrFun (W4_flat m ρ c) (Proc.devRef .tc main_v39)).trans (A_v39 (W0 m ρ c))
theorem W4_main_v46 (c : Dev nD) :
    W4 m ρ c (Proc.devRef .tc main_v46) = gatF (xwT (m ((c : Thread nD τ).loc main_arg0)) (m ((c : Thread nD τ).loc main_arg1))) (fRow2 (F := F) (m ((c : Thread nD τ).loc main_arg5))) :=
  (congrFun (W4_flat m ρ c) (Proc.devRef .tc main_v46)).trans (A_v46 (W0 m ρ c))
theorem W4_main_v53 (c : Dev nD) :
    W4 m ρ c (Proc.devRef .tc main_v53) = gidE (F := F) (m ((c : Thread nD τ).loc main_arg6)) (eRow0 (F := F) (m ((c : Thread nD τ).loc main_arg4))) :=
  (congrFun (W4_flat m ρ c) (Proc.devRef .tc main_v53)).trans (A_v53 (W0 m ρ c))
theorem W4_main_v60 (c : Dev nD) :
    W4 m ρ c (Proc.devRef .tc main_v60) = gidF (F := F) (m ((c : Thread nD τ).loc main_arg6)) (fRow0 (F := F) (m ((c : Thread nD τ).loc main_arg5))) :=
  (congrFun (W4_flat m ρ c) (Proc.devRef .tc main_v60)).trans (A_v60 (W0 m ρ c))

/-- A buffer the second line does not write and the first two calls do not stage holds, when the second call returns,
    what it held when the first call was entered. -/
theorem W12_kept (c : Dev nD) (r : Ref sig .tc) (hB : r ∉ wrB) (h0 : ∀ w, Pipeline.arrRef spec0 w ≠ r)
    (h1 : ∀ w, Pipeline.arrRef spec1 w ≠ r) : W12 m ρ c (Proc.devRef .tc r) = W4 m ρ c (Proc.devRef .tc r) :=
  calc W12 m ρ c (Proc.devRef .tc r)
    _ = W11 m ρ c (Proc.devRef .tc r) := W12_of_ne m ρ c r h1
    _ = W5 m ρ c (Proc.devRef .tc r) := keepB m ρ c hB
    _ = W4 m ρ c (Proc.devRef .tc r) := W5_of_ne m ρ c r h0

/-! ### What the second call reads -/

theorem V11_main_v71 (c : Dev nD) : V11 m ρ c main_v71 = in1_0 (m ((c : Thread nD τ).loc main_arg0)) (m ((c : Thread nD τ).loc main_arg1)) (m ((c : Thread nD τ).loc main_arg4)) :=
  ((congrFun (W11_flat m ρ c) (Proc.devRef .tc main_v71)).trans (B_v71 (W5 m ρ c))).trans
    (congrArg (padE4 (F := F)) ((W5_of_ne m ρ c main_v18 (by decide)).trans (W4_main_v18 m ρ c)))
theorem V11_main_v72 (c : Dev nD) : V11 m ρ c main_v72 = in1_1 (m ((c : Thread nD τ).loc main_arg0)) (m ((c : Thread nD τ).loc main_arg1)) (m ((c : Thread nD τ).loc main_arg4)) :=
  ((congrFun (W11_flat m ρ c) (Proc.devRef .tc main_v72)).trans (B_v72 (W5 m ρ c))).trans
    (congrArg (padE4 (F := F)) ((W5_of_ne m ρ c main_v25 (by decide)).trans (W4_main_v25 m ρ c)))
theorem V11_main_v73 (c : Dev nD) : V11 m ρ c main_v73 = in1_2 (F := F) (m ((c : Thread nD τ).loc main_arg4)) (m ((c : Thread nD τ).loc main_arg6)) :=
  ((congrFun (W11_flat m ρ c) (Proc.devRef .tc main_v73)).trans (B_v73 (W5 m ρ c))).trans
    (congrArg (fun z : IVec S100000 32 => padE1 (shapeCast S100000x1 z shapeCasts_S100000_S100000x1))
      ((W5_of_ne m ρ c main_v53 (by decide)).trans (W4_main_v53 m ρ c)))
theorem V11_main_arg2 (c : Dev nD) : V11 m ρ c main_arg2 = (m ((c : Thread nD τ).loc main_arg2)) := W11_main_arg2 m ρ c
theorem V11_main_v63 (c : Dev nD) : V11 m ρ c main_v63 = linRep (m ((c : Thread nD τ).loc main_arg3)) :=
  calc W11 m ρ c (Proc.devRef .tc main_v63)
    _ = W5 m ρ c (Proc.devRef .tc main_v63) := keepB m ρ c (by decide)
    _ = W4 m ρ c (Proc.devRef .tc main_v63) := thru0 m ρ c 3 rfl
    _ = linRep (m ((c : Thread nD τ).loc main_arg3)) := V4_main_v63 m ρ c

/-! ### What the third call reads -/

theorem V20_main_v78 (c : Dev nD) : V20 m ρ c main_v78 = in2_0 (m ((c : Thread nD τ).loc main_arg0)) (m ((c : Thread nD τ).loc main_arg1)) (m ((c : Thread nD τ).loc main_arg5)) :=
  ((congrFun (W20_flat m ρ c) (Proc.devRef .tc main_v78)).trans (C_v78 (W12 m ρ c))).trans
    (congrArg (padF4 (F := F)) ((W12_kept m ρ c main_v32 (by decide) (by decide) (by decide)).trans (W4_main_v32 m ρ c)))
theorem V20_main_v79 (c : Dev nD) : V20 m ρ c main_v79 = in2_1 (m ((c : Thread nD τ).loc main_arg0)) (m ((c : Thread nD τ).loc main_arg1)) (m ((c : Thread nD τ).loc main_arg5)) :=
  ((congrFun (W20_flat m ρ c) (Proc.devRef .tc main_v79)).trans (C_v79 (W12 m ρ c))).trans
    (congrArg (padF4 (F := F)) ((W12_kept m ρ c main_v39 (by decide) (by decide) (by decide)).trans (W4_main_v39 m ρ c)))
theorem V20_main_v80 (c : Dev nD) : V20 m ρ c main_v80 = in2_2 (m ((c : Thread nD τ).loc main_arg0)) (m ((c : Thread nD τ).loc main_arg1)) (m ((c : Thread nD τ).loc main_arg5)) :=
  ((congrFun (W20_flat m ρ c) (Proc.devRef .tc main_v80)).trans (C_v80 (W12 m ρ c))).trans
    (congrArg (padF4 (F := F)) ((W12_kept m ρ c main_v46 (by decide) (by decide) (by decide)).trans (W4_main_v46 m ρ c)))
theorem V20_main_v81 (c : Dev nD) : V20 m ρ c main_v81 = in2_3 (F := F) (m ((c : Thread nD τ).loc main_arg5)) (m ((c : Thread nD τ).loc main_arg6)) :=
  ((congrFun (W20_flat m ρ c) (Proc.devRef .tc main_v81)).trans (C_v81 (W12 m ρ c))).trans
    (congrArg (fun z : IVec S80000 32 => padF1 (shapeCast S80000x1 z shapeCasts_S80000_S80000x1))
      ((W12_kept m ρ c main_v60 (by decide) (by decide) (by decide)).trans (W4_main_v60 m ρ c)))
theorem V20_main_arg2 (c : Dev nD) : V20 m ρ c main_arg2 = (m ((c : Thread nD τ).loc main_arg2)) := W20_main_arg2 m ρ c
theorem V20_main_v63 (c : Dev nD) : V20 m ρ c main_v63 = linRep (m ((c : Thread nD τ).loc main_arg3)) :=
  calc W20 m ρ c (Proc.devRef .tc main_v63)
    _ = W12 m ρ c (Proc.devRef .tc main_v63) := keepC m ρ c (by decide)
    _ = W11 m ρ c (Proc.devRef .tc main_v63) := thru1 m ρ c 4 rfl
    _ = linRep (m ((c : Thread nD τ).loc main_arg3)) := V11_main_v63 m ρ c

/-! ### The result -/

/-- The first call's output, posted between the first two calls, is carried through the second and third calls. -/
theorem W21_main_v69 (c : Dev nD) :
    W21 m ρ c (Proc.devRef .tc main_v69) = post ((dat0 (V4 m ρ) c).arrAt 4 cfg0.N) :=
  calc W21 m ρ c (Proc.devRef .tc main_v69)
    _ = W20 m ρ c (Proc.devRef .tc main_v69) := W21_of_ne m ρ c main_v69 (by decide)
    _ = W12 m ρ c (Proc.devRef .tc main_v69) := keepC m ρ c (by decide)
    _ = W11 m ρ c (Proc.devRef .tc main_v69) := W12_of_ne m ρ c main_v69 (by decide)
    _ = post (W5 m ρ c (Proc.devRef .tc main_v67)) := (congrFun (W11_flat m ρ c) (Proc.devRef .tc main_v69)).trans (B_v69 (W5 m ρ c))
    _ = post ((dat0 (V4 m ρ) c).arrAt 4 cfg0.N) := congrArg (post (F := F)) (W5_arr m ρ c 4)
/-- The second call's output, posted between the last two calls, is carried through the third call. -/
theorem W21_main_v76 (c : Dev nD) :
    W21 m ρ c (Proc.devRef .tc main_v76) = post ((dat1 (V11 m ρ) c).arrAt 5 cfg1.N) :=
  calc W21 m ρ c (Proc.devRef .tc main_v76)
    _ = W20 m ρ c (Proc.devRef .tc main_v76) := W21_of_ne m ρ c main_v76 (by decide)
    _ = post (W12 m ρ c (Proc.devRef .tc main_v74)) := (congrFun (W20_flat m ρ c) (Proc.devRef .tc main_v76)).trans (C_v76 (W12 m ρ c))
    _ = post ((dat1 (V11 m ρ) c).arrAt 5 cfg1.N) := congrArg (post (F := F)) (W12_arr m ρ c 5)

/-- The program's result: the three calls' outputs, each summed over its two cores and reshaped, added. -/
theorem W22_main_v86 (c : Dev nD) :
    W22 m ρ c (Proc.devRef .tc main_v86)
      = total ((dat0 (V4 m ρ) c).arrAt 4 cfg0.N) ((dat1 (V11 m ρ) c).arrAt 5 cfg1.N) ((dat2 (V20 m ρ) c).arrAt 6 cfg2.N) := by
  refine (D_v86 (W21 m ρ c)).trans ?_
  rw [W21_main_v69 m ρ c, W21_main_v76 m ρ c, W21_arr m ρ c 6]
  rfl

end Cert.Kernel.Hand

end
-- ==== Proof.KI.R0.Runs.lean ====
/-
  Region 0 (the node call): what its three control cases share. The grid is 2 × 49 points, numbered row-major; a
  point's second coordinate is the step within its core's half of the rows. The accumulator is reset at step 0
  (points ≡ 0 mod 49) and the output block is stored at step 48 (points ≡ 48 mod 49); at every other point the
  output window is idle and is not written back.
-/
import proofs.«429462_j65403761983812_3_alg».proof.Proof.Gen.KernelIdeal.Launch
import proofs.«429462_j65403761983812_3_alg».proof.Proof.Gen.KernelIdeal.Skeleton
import proofs.«429462_j65403761983812_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch is taken: the step coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 49 = 0 :=
  (by decide +kernel : ∀ t : Fin grid0.N, cond0_0 (grid0.coords t) ↔ t.val % 49 = 0)

/-- The store-out branch is taken: the step coordinate is 48. -/
abbrev cond0_1 (i : grid0.Coords) : Prop := k0_cond2 i = 1#1
theorem hcond0_1 : ∀ t : Fin cfg0.N, cond0_1 (grid0.coords t) ↔ t.val % 49 = 48 :=
  (by decide +kernel : ∀ t : Fin grid0.N, cond0_1 (grid0.coords t) ↔ t.val % 49 = 48)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

abbrev VO0_4 : View sig .tc .vmem S1x64x1024 .f32 := (Memref.whole cc0_stg4_0 : Memref sig .tc .vmem S1x64x1024 .f32).view
abbrev ms0_0 (t : Fin cfg0.N) : Memref sig .tc .vmem S512x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x32 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x1024 .f32 := win0_4.stage (cfg0.slots t 4)
abbrev hs0_4 (t : Fin cfg0.N) : (ms0_4 t).IsWhole := hstage0_4 ((cfg0.slots t 4).cast nbuf0_4)
/-- The accumulator: the call's scratch buffer, carried from point to point. -/
abbrev scM0_0 : Memref sig .tc .vmem S64x1024 .f32 := Memref.whole cc0_scratch0
abbrev VS0_0 : View sig .tc .vmem S64x1024 .f32 := scM0_0.view

/-- The class invariant with this call's accumulator split off: the accumulator at some contents, every other
    scoped buffer that is no staging buffer of this call unopened, and the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

/-! ## The windows' blocks, at region-entry contents `V` -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
end

end Cert.KernelIdeal.Hand

end
-- ==== Proof.KI.R0.RunA.lean ====
/-
  Region 0, the body at a core's FIRST step (reset taken, store-out not taken): the accumulator, whatever it held, is
  overwritten with zeros and then with zeros plus this block's one-hot product; the output buffer is not touched.
-/
import proofs.«429462_j65403761983812_3_alg».proof.Proof.KI.R0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a first step, with the proof that the body runs. -/
noncomputable def kernelRun0_A (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i)
    (x0 : Vec F S512x4 .f32) (x1 : Vec F S512x1 .i32) (x2 : Vec F S3x32 .f32) (x3 : Vec F S1x1024 .f32) :
    Σ' (L4 : List (View.Piece (Elt F) S1x64x1024 .f32)), { LS0 : List (View.Piece (Elt F) S64x1024 .f32) //
      ∀ (xi4 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__wecc_kernel i arg2 harg2 arg3 harg3 arg4 harg4 arg5 harg5 arg6 harg6 arg7 harg7) K } := by
  refine ⟨[], ?_, fun xi4 E K => ?run⟩
  case run =>
    simp only [cc0__wecc_kernel_eq_skeleton]; unfold cc0__wecc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0.RunB.lean ====
/-
  Region 0, the body at a MIDDLE step (neither reset nor store-out): the accumulator, holding what the step before
  left, has this block's one-hot product added; the output buffer is not touched.
-/
import proofs.«429462_j65403761983812_3_alg».proof.Proof.KI.R0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a middle step, with the proof that the body runs. -/
noncomputable def kernelRun0_B (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i)
    (x0 : Vec F S512x4 .f32) (x1 : Vec F S512x1 .i32) (x2 : Vec F S3x32 .f32) (x3 : Vec F S1x1024 .f32) (xs0 : Vec F S64x1024 .f32) :
    Σ' (L4 : List (View.Piece (Elt F) S1x64x1024 .f32)), { LS0 : List (View.Piece (Elt F) S64x1024 .f32) //
      ∀ (xi4 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__wecc_kernel i arg2 harg2 arg3 harg3 arg4 harg4 arg5 harg5 arg6 harg6 arg7 harg7) K } := by
  refine ⟨[], ?_, fun xi4 E K => ?run⟩
  case run =>
    simp only [cc0__wecc_kernel_eq_skeleton]; unfold cc0__wecc_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KI.R0.RunC.lean ====
/-
  Region 0, the body at a core's LAST step (store-out taken, reset not): the accumulator has this block's one-hot
  product added and is then copied into the output buffer.
-/
import proofs.«429462_j65403761983812_3_alg».proof.Proof.KI.R0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the accumulator at a last step, with the proof
    that the body runs. -/
noncomputable def kernelRun0_C (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) :
    Σ' (L4 : List (View.Piece (Elt F) S1x64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__wecc_kernel i arg2 harg2 arg3 harg3 arg4 harg4 arg5 harg5 arg6 harg6 arg7 harg7) K } := by
  refine ⟨?_, ?_, fun E K => ?run⟩
  case run =>
    simp only [cc0__wecc_kernel_eq_skeleton]; unfold cc0__wecc_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KI.R0.Frame.lean ====
/-
  Region 0 (the node call): what the output buffer and the accumulator hold after each grid point, the proof data of
  the pipeline, and the body obligation. Core cc's points are 49·cc … 49·cc + 48. At a core's first point the
  accumulator is reset and receives the first block's product; at each later point the next block's product is
  added to what the point before left; at the core's last point the sum is also stored into the output block, which
  is written back there and at no other point.
-/
import proofs.«429462_j65403761983812_3_alg».proof.Proof.KI.R0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- At a first step nothing is stored into the output buffer: a placeholder nothing consults (the window is idle there) -/
def out0_A_4 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i)
    (x0 : Vec F S512x4 .f32) (x1 : Vec F S512x1 .i32) (x2 : Vec F S3x32 .f32) (x3 : Vec F S1x1024 .f32) : Vec F S1x64x1024 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The stores into the accumulator cover it whole. -/
theorem scover0_A_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i)
    (x0 : Vec F S512x4 .f32) (x1 : Vec F S512x1 .i32) (x2 : Vec F S3x32 .f32) (x3 : Vec F S1x1024 .f32) (y : S64x1024.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S64x1024.size (by sl_kernel_rfl) y

/-- What the step leaves in the accumulator: its stores read back. -/
def sout0_A_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i)
    (x0 : Vec F S512x4 .f32) (x1 : Vec F S512x1 .i32) (x2 : Vec F S3x32 .f32) (x3 : Vec F S1x1024 .f32) : Vec F S64x1024 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- At a middle step nothing is stored into the output buffer: a placeholder nothing consults (the window is idle there) -/
def out0_B_4 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i)
    (x0 : Vec F S512x4 .f32) (x1 : Vec F S512x1 .i32) (x2 : Vec F S3x32 .f32) (x3 : Vec F S1x1024 .f32) (xs0 : Vec F S64x1024 .f32) : Vec F S1x64x1024 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The stores into the accumulator cover it whole. -/
theorem scover0_B_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i)
    (x0 : Vec F S512x4 .f32) (x1 : Vec F S512x1 .i32) (x2 : Vec F S3x32 .f32) (x3 : Vec F S1x1024 .f32) (xs0 : Vec F S64x1024 .f32) (y : S64x1024.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S64x1024.size (by sl_kernel_rfl) y

/-- What the step leaves in the accumulator: its stores read back. -/
def sout0_B_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i)
    (x0 : Vec F S512x4 .f32) (x1 : Vec F S512x1 .i32) (x2 : Vec F S3x32 .f32) (x3 : Vec F S1x1024 .f32) (xs0 : Vec F S64x1024 .f32) : Vec F S64x1024 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- At a last step the store into the output buffer covers it whole. -/
theorem cover0_C_4 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) (y : S1x64x1024.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x64x1024.size (by sl_kernel_rfl) y

/-- What a last step leaves in the output buffer: its store read back -/
def out0_C_4 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) : Vec F S1x64x1024 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The stores into the accumulator cover it whole. -/
theorem scover0_C_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) (y : S64x1024.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S64x1024.size (by sl_kernel_rfl) y

/-- What the step leaves in the accumulator: its stores read back. -/
def sout0_C_0 (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i)
    (x0 : Vec F S512x4 .f32) (x1 : Vec F S512x1 .i32) (x2 : Vec F S3x32 .f32) (x3 : Vec F S1x1024 .f32) (xs0 : Vec F S64x1024 .f32) : Vec F S64x1024 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## Point by point -/

/-- What the output buffer and the accumulator hold after the body at point `n`: the point's case run on the point's
    blocks, a middle or last step over what the point before left in the accumulator. -/
def outsAt0 (c : Dev nD) : (n : ℕ) → n < cfg0.N → Vec F S1x64x1024 .f32 × Vec F S64x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 49 = 0 then
      if h1 : (n + 1) % 49 = 48 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 49 = 48 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 49 = 0) (h1 : ¬t.val % 49 = 48) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 49 = 0) (h1 : ¬t.val % 49 = 48) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 49 = 0) (h1 : t.val % 49 = 48) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents are carried -/

/-- Before the first point the class invariant (the accumulator at anything); before point `n + 1` the accumulator at what
    point `n` left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The arrays as the region finds them; after the body each input's buffer at its block, the output's at `outsAt0`'s
    first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]

set_option maxHeartbeats 4800000 in
/-- The body at any point: the closed forms say which case the point is in; the invariant hands the body the
    accumulator at what the point before left (at anything at the very first point, and at a core's first point
    the previous contents are forgotten) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  by_cases h0 : t.val % 49 = 0
  · by_cases h1 : t.val % 49 = 48
    · exfalso; omega
    · rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 49 = 48
    · rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 98 := N_0; omega)

end

end Cert.KernelIdeal.Hand

end
-- ==== Proof.KI.R1.Runs.lean ====
/-
  Region 1 (the edge call): what its three control cases share. The grid is 2 × 98 points, numbered row-major; a
  point's second coordinate is the step within its core's half of the rows. The accumulator is reset at step 0
  (points ≡ 0 mod 98) and the output block is stored at step 97 (points ≡ 97 mod 98); at every other point the
  output window is idle and is not written back.
-/
import proofs.«429462_j65403761983812_3_alg».proof.Proof.Gen.KernelIdeal.Launch
import proofs.«429462_j65403761983812_3_alg».proof.Proof.Gen.KernelIdeal.Skeleton
import proofs.«429462_j65403761983812_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch is taken: the step coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 98 = 0 :=
  (by decide +kernel : ∀ t : Fin grid1.N, cond1_0 (grid1.coords t) ↔ t.val % 98 = 0)

/-- The store-out branch is taken: the step coordinate is 97. -/
abbrev cond1_1 (i : grid1.Coords) : Prop := k1_cond2 i = 1#1
theorem hcond1_1 : ∀ t : Fin cfg1.N, cond1_1 (grid1.coords t) ↔ t.val % 98 = 97 :=
  (by decide +kernel : ∀ t : Fin grid1.N, cond1_1 (grid1.coords t) ↔ t.val % 98 = 97)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

abbrev VO1_5 : View sig .tc .vmem S1x64x1024 .f32 := (Memref.whole cc1_stg5_0 : Memref sig .tc .vmem S1x64x1024 .f32).view
abbrev ms1_0 (t : Fin cfg1.N) : Memref sig .tc .vmem S512x4 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S3x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64x1024 .f32 := win1_5.stage (cfg1.slots t 5)
abbrev hs1_5 (t : Fin cfg1.N) : (ms1_5 t).IsWhole := hstage1_5 ((cfg1.slots t 5).cast nbuf1_5)
/-- The accumulator: the call's scratch buffer, carried from point to point. -/
abbrev scM1_0 : Memref sig .tc .vmem S64x1024 .f32 := Memref.whole cc1_scratch0
abbrev VS1_0 : View sig .tc .vmem S64x1024 .f32 := scM1_0.view

/-- The scoped buffers that are no staging buffer of this call, with this call's accumulator split off. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f))
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The class invariant with this call's accumulator split off: the accumulator at some contents, every other
    scoped buffer that is no staging buffer of this call unopened, and the generator register at some state. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The windows' blocks, at region-entry contents `V` -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

end Cert.KernelIdeal.Hand

end
-- ==== Proof.KI.R1.RunA.lean ====
/-
  Region 1, the body at a core's FIRST step (reset taken, store-out not taken): the accumulator, whatever it held, is
  overwritten with zeros and then with zeros plus this block's one-hot product; the output buffer is not touched.
-/
import proofs.«429462_j65403761983812_3_alg».proof.Proof.KI.R1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a first step, with the proof that the body runs. -/
noncomputable def kernelRun1_A (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) :
    Σ' (L5 : List (View.Piece (Elt F) S1x64x1024 .f32)), { LS0 : List (View.Piece (Elt F) S64x1024 .f32) //
      ∀ (xi5 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__wecc_kernel i arg2 harg2 arg3 harg3 arg4 harg4 arg5 harg5 arg6 harg6 arg7 harg7 arg8 harg8) K } := by
  refine ⟨[], ?_, fun xi5 E K => ?run⟩
  case run =>
    simp only [cc1__wecc_kernel_eq_skeleton]; unfold cc1__wecc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R1.RunB.lean ====
/-
  Region 1, the body at a MIDDLE step (neither reset nor store-out): the accumulator, holding what the step before
  left, has this block's one-hot product added; the output buffer is not touched.
-/
import proofs.«429462_j65403761983812_3_alg».proof.Proof.KI.R1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a middle step, with the proof that the body runs. -/
noncomputable def kernelRun1_B (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) :
    Σ' (L5 : List (View.Piece (Elt F) S1x64x1024 .f32)), { LS0 : List (View.Piece (Elt F) S64x1024 .f32) //
      ∀ (xi5 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__wecc_kernel i arg2 harg2 arg3 harg3 arg4 harg4 arg5 harg5 arg6 harg6 arg7 harg7 arg8 harg8) K } := by
  refine ⟨[], ?_, fun xi5 E K => ?run⟩
  case run =>
    simp only [cc1__wecc_kernel_eq_skeleton]; unfold cc1__wecc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R1.RunC.lean ====
/-
  Region 1, the body at a core's LAST step (store-out taken, reset not): the accumulator has this block's one-hot
  product added and is then copied into the output buffer.
-/
import proofs.«429462_j65403761983812_3_alg».proof.Proof.KI.R1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the accumulator at a last step, with the proof
    that the body runs. -/
noncomputable def kernelRun1_C (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) :
    Σ' (L5 : List (View.Piece (Elt F) S1x64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__wecc_kernel i arg2 harg2 arg3 harg3 arg4 harg4 arg5 harg5 arg6 harg6 arg7 harg7 arg8 harg8) K } := by
  refine ⟨?_, ?_, fun E K => ?run⟩
  case run =>
    simp only [cc1__wecc_kernel_eq_skeleton]; unfold cc1__wecc_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R1.Frame.lean ====
/-
  Region 1 (the edge call): what the output buffer and the accumulator hold after each grid point, the proof data of
  the pipeline, and the body obligation. Core cc's points are 98·cc … 98·cc + 97. At a core's first point the
  accumulator is reset and receives the first block's product; at each later point the next block's product is
  added to what the point before left; at the core's last point the sum is also stored into the output block, which
  is written back there and at no other point.
-/
import proofs.«429462_j65403761983812_3_alg».proof.Proof.KI.R1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- At a first step nothing is stored into the output buffer: a placeholder nothing consults (the window is idle there) -/
def out1_A_5 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) : Vec F S1x64x1024 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- The stores into the accumulator cover it whole. -/
theorem scover1_A_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) (y : S64x1024.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S64x1024.size (by sl_kernel_rfl) y

/-- What the step leaves in the accumulator: its stores read back. -/
def sout1_A_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) : Vec F S64x1024 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- At a middle step nothing is stored into the output buffer: a placeholder nothing consults (the window is idle there) -/
def out1_B_5 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) : Vec F S1x64x1024 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- The stores into the accumulator cover it whole. -/
theorem scover1_B_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) (y : S64x1024.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S64x1024.size (by sl_kernel_rfl) y

/-- What the step leaves in the accumulator: its stores read back. -/
def sout1_B_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) : Vec F S64x1024 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- At a last step the store into the output buffer covers it whole. -/
theorem cover1_C_5 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) (y : S1x64x1024.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x64x1024.size (by sl_kernel_rfl) y

/-- What a last step leaves in the output buffer: its store read back -/
def out1_C_5 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) : Vec F S1x64x1024 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- The stores into the accumulator cover it whole. -/
theorem scover1_C_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) (y : S64x1024.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S64x1024.size (by sl_kernel_rfl) y

/-- What the step leaves in the accumulator: its stores read back. -/
def sout1_C_0 (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) : Vec F S64x1024 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## Point by point -/

/-- What the output buffer and the accumulator hold after the body at point `n`: the point's case run on the point's
    blocks, a middle or last step over what the point before left in the accumulator. -/
def outsAt1 (c : Dev nD) : (n : ℕ) → n < cfg1.N → Vec F S1x64x1024 .f32 × Vec F S64x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 98 = 0 then
      if h1 : (n + 1) % 98 = 97 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 98 = 97 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 98 = 0) (h1 : ¬t.val % 98 = 97) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 98 = 0) (h1 : ¬t.val % 98 = 97) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 98 = 0) (h1 : t.val % 98 = 97) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents are carried -/

/-- Before the first point the class invariant (the accumulator at anything); before point `n + 1` the accumulator at what
    point `n` left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The arrays as the region finds them; after the body each input's buffer at its block, the output's at `outsAt1`'s
    first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

set_option maxHeartbeats 4800000 in
/-- The body at any point: the closed forms say which case the point is in; the invariant hands the body the
    accumulator at what the point before left (at anything at the very first point, and at a core's first point
    the previous contents are forgotten) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  by_cases h0 : t.val % 98 = 0
  · by_cases h1 : t.val % 98 = 97
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 98 = 97
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hrest⟩, Hg⟩
  isplitl [HS0 Hrest]
  · isplitl [HS0]
    · iexists _; iexact HS0
    iexact Hrest
  iexact Hg

theorem hout1 (c : Dev nD) : (dat1 V c).Φ (Fin.last cfg1.N) ⊢ Pipeline.ΦA spec1 c :=
  Phi_out1 V c _ (by rw [Fin.val_last]; have : cfg1.N = 196 := N_1; omega)

end

end Cert.KernelIdeal.Hand

end
-- ==== Proof.KI.R2.Runs.lean ====
/-
  Region 2 (the face call): what its three control cases share. The grid is 2 × 79 points, numbered row-major; a
  point's second coordinate is the step within its core's half of the rows. The accumulator is reset at step 0
  (points ≡ 0 mod 79) and the output block is stored at step 78 (points ≡ 78 mod 79); at every other point the
  output window is idle and is not written back.
-/
import proofs.«429462_j65403761983812_3_alg».proof.Proof.Gen.KernelIdeal.Launch
import proofs.«429462_j65403761983812_3_alg».proof.Proof.Gen.KernelIdeal.Skeleton
import proofs.«429462_j65403761983812_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions over the grid -/

/-- The reset branch is taken: the step coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 79 = 0 :=
  (by decide +kernel : ∀ t : Fin grid2.N, cond2_0 (grid2.coords t) ↔ t.val % 79 = 0)

/-- The store-out branch is taken: the step coordinate is 78. -/
abbrev cond2_1 (i : grid2.Coords) : Prop := k2_cond2 i = 1#1
theorem hcond2_1 : ∀ t : Fin cfg2.N, cond2_1 (grid2.coords t) ↔ t.val % 79 = 78 :=
  (by decide +kernel : ∀ t : Fin grid2.N, cond2_1 (grid2.coords t) ↔ t.val % 79 = 78)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem idleAt2_6_A : ∀ t : Fin cfg2.N, cond2_0 (grid2.coords t) → ¬cond2_1 (grid2.coords t) → cfg2.idle 6 (grid2.coords t) = true := by decide +kernel
theorem noFlush2_6_A : ∀ t : Fin cfg2.N, cond2_0 (grid2.coords t) → ¬cond2_1 (grid2.coords t) → (cfg2.win 6).flush t = false := by decide +kernel
theorem idleAt2_6_B : ∀ t : Fin cfg2.N, ¬cond2_0 (grid2.coords t) → ¬cond2_1 (grid2.coords t) → cfg2.idle 6 (grid2.coords t) = true := by decide +kernel
theorem noFlush2_6_B : ∀ t : Fin cfg2.N, ¬cond2_0 (grid2.coords t) → ¬cond2_1 (grid2.coords t) → (cfg2.win 6).flush t = false := by decide +kernel
theorem liveAt2_6_C : ∀ t : Fin cfg2.N, ¬cond2_0 (grid2.coords t) → cond2_1 (grid2.coords t) → cfg2.idle 6 (grid2.coords t) = false := by decide +kernel

/-! ## The memrefs the body is called with -/

abbrev VO2_6 : View sig .tc .vmem S1x64x1024 .f32 := (Memref.whole cc2_stg6_0 : Memref sig .tc .vmem S1x64x1024 .f32).view
abbrev ms2_0 (t : Fin cfg2.N) : Memref sig .tc .vmem S512x4 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x4 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x4 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S3x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x64x1024 .f32 := win2_6.stage (cfg2.slots t 6)
abbrev hs2_6 (t : Fin cfg2.N) : (ms2_6 t).IsWhole := hstage2_6 ((cfg2.slots t 6).cast nbuf2_6)
/-- The accumulator: the call's scratch buffer, carried from point to point. -/
abbrev scM2_0 : Memref sig .tc .vmem S64x1024 .f32 := Memref.whole cc2_scratch0
abbrev VS2_0 : View sig .tc .vmem S64x1024 .f32 := scM2_0.view

/-- The scoped buffers that are no staging buffer of this call, split at the call's own accumulator: the accumulator
    whole at some contents, every other one unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The class invariant with this call's accumulator split off: the accumulator at some contents, every other
    scoped buffer that is no staging buffer of this call unopened, and the generator register at some state. -/
theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The windows' blocks, at region-entry contents `V` -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
end

end Cert.KernelIdeal.Hand

end
-- ==== Proof.KI.R2.RunA.lean ====
/-
  Region 2, the body at a core's FIRST step (reset taken, store-out not taken): the accumulator, whatever it held, is
  overwritten with zeros and then with zeros plus this block's one-hot product; the output buffer is not touched.
-/
import proofs.«429462_j65403761983812_3_alg».proof.Proof.KI.R2.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a first step, with the proof that the body runs. -/
noncomputable def kernelRun2_A (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) :
    Σ' (L6 : List (View.Piece (Elt F) S1x64x1024 .f32)), { LS0 : List (View.Piece (Elt F) S64x1024 .f32) //
      ∀ (xi6 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__wecc_kernel i arg2 harg2 arg3 harg3 arg4 harg4 arg5 harg5 arg6 harg6 arg7 harg7 arg8 harg8 arg9 harg9) K } := by
  refine ⟨[], ?_, fun xi6 E K => ?run⟩
  case run =>
    simp only [cc2__wecc_kernel_eq_skeleton]; unfold cc2__wecc_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.R2.RunB.lean ====
/-
  Region 2, the body at a MIDDLE step (neither reset nor store-out): the accumulator, holding what the step before
  left, has this block's one-hot product added; the output buffer is not touched.
-/
import proofs.«429462_j65403761983812_3_alg».proof.Proof.KI.R2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the accumulator at a middle step, with the proof that the body runs. -/
noncomputable def kernelRun2_B (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) :
    Σ' (L6 : List (View.Piece (Elt F) S1x64x1024 .f32)), { LS0 : List (View.Piece (Elt F) S64x1024 .f32) //
      ∀ (xi6 : Vec F S1x64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc2__wecc_kernel i arg2 harg2 arg3 harg3 arg4 harg4 arg5 harg5 arg6 harg6 arg7 harg7 arg8 harg8 arg9 harg9) K } := by
  refine ⟨[], ?_, fun xi6 E K => ?run⟩
  case run =>
    simp only [cc2__wecc_kernel_eq_skeleton]; unfold cc2__wecc_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KI.R2.RunC.lean ====
/-
  Region 2, the body at a core's LAST step (store-out taken, reset not): the accumulator has this block's one-hot
  product added and is then copied into the output buffer.
-/
import proofs.«429462_j65403761983812_3_alg».proof.Proof.KI.R2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output buffer and in the accumulator at a last step, with the proof
    that the body runs. -/
noncomputable def kernelRun2_C (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) :
    Σ' (L6 : List (View.Piece (Elt F) S1x64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc2__wecc_kernel i arg2 harg2 arg3 harg3 arg4 harg4 arg5 harg5 arg6 harg6 arg7 harg7 arg8 harg8 arg9 harg9) K } := by
  refine ⟨?_, ?_, fun E K => ?run⟩
  case run =>
    simp only [cc2__wecc_kernel_eq_skeleton]; unfold cc2__wecc_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KI.R2.Frame.lean ====
/-
  Region 2 (the face call): what the output buffer and the accumulator hold after each grid point, the proof data of
  the pipeline, and the body obligation. Core cc's points are 79·cc … 79·cc + 78. At a core's first point the
  accumulator is reset and receives the first block's product; at each later point the next block's product is
  added to what the point before left; at the core's last point the sum is also stored into the output block, which
  is written back there and at no other point.
-/
import proofs.«429462_j65403761983812_3_alg».proof.Proof.KI.R2.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- At a first step nothing is stored into the output buffer: a placeholder nothing consults (the window is idle there) -/
def out2_A_6 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) : Vec F S1x64x1024 .f32 :=
  VO2_6.read (Elt F) (VO2_6.writes (Elt F) VO2_6.junk (kernelRun2_A c i arg2 harg2 arg3 harg3 arg4 harg4 arg5 harg5 arg6 harg6 arg7 harg7 arg8 harg8 arg9 harg9 hc0 hc1 x0 x1 x2 x3 x4 x5).1)

/-- The stores into the accumulator cover it whole. -/
theorem scover2_A_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (y : S64x1024.Idx) :
    ∃ pc ∈ (kernelRun2_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3 x4 x5).2.1 S64x1024.size (by sl_kernel_rfl) y

/-- What the step leaves in the accumulator: its stores read back. -/
def sout2_A_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) : Vec F S64x1024 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3 x4 x5).2.1)

/-- At a middle step nothing is stored into the output buffer: a placeholder nothing consults (the window is idle there) -/
def out2_B_6 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) : Vec F S1x64x1024 .f32 :=
  VO2_6.read (Elt F) (VO2_6.writes (Elt F) VO2_6.junk (kernelRun2_B c i arg2 harg2 arg3 harg3 arg4 harg4 arg5 harg5 arg6 harg6 arg7 harg7 arg8 harg8 arg9 harg9 hc0 hc1 x0 x1 x2 x3 x4 x5 xs0).1)

/-- The stores into the accumulator cover it whole. -/
theorem scover2_B_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) (y : S64x1024.Idx) :
    ∃ pc ∈ (kernelRun2_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 x4 x5 xs0).2.1 S64x1024.size (by sl_kernel_rfl) y

/-- What the step leaves in the accumulator: its stores read back. -/
def sout2_B_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) : Vec F S64x1024 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 x4 x5 xs0).2.1)

/-- At a last step the store into the output buffer covers it whole. -/
theorem cover2_C_6 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) (y : S1x64x1024.Idx) :
    ∃ pc ∈ (kernelRun2_C c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).1 S1x64x1024.size (by sl_kernel_rfl) y

/-- What a last step leaves in the output buffer: its store read back -/
def out2_C_6 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) : Vec F S1x64x1024 .f32 :=
  VO2_6.read (Elt F) (VO2_6.writes (Elt F) VO2_6.junk (kernelRun2_C c i arg2 harg2 arg3 harg3 arg4 harg4 arg5 harg5 arg6 harg6 arg7 harg7 arg8 harg8 arg9 harg9 hc0 hc1 x0 x1 x2 x3 x4 x5 xs0).1)

/-- The stores into the accumulator cover it whole. -/
theorem scover2_C_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) (y : S64x1024.Idx) :
    ∃ pc ∈ (kernelRun2_C c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs0).2.1 S64x1024.size (by sl_kernel_rfl) y

/-- What the step leaves in the accumulator: its stores read back. -/
def sout2_C_0 (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) : Vec F S64x1024 .f32 :=
  VS2_0.read (Elt F) (VS2_0.writes (Elt F) VS2_0.junk (kernelRun2_C c i arg2 harg2 arg3 harg3 arg4 harg4 arg5 harg5 arg6 harg6 arg7 harg7 arg8 harg8 arg9 harg9 hc0 hc1 x0 x1 x2 x3 x4 x5 xs0).2.1)

/-! ## Point by point -/

/-- What the output buffer and the accumulator hold after the body at point `n`: the point's case run on the point's
    blocks, a middle or last step over what the point before left in the accumulator. -/
def outsAt2 (c : Dev nD) : (n : ℕ) → n < cfg2.N → Vec F S1x64x1024 .f32 × Vec F S64x1024 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 79 = 0 then
      if h1 : (n + 1) % 79 = 78 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 79 = 78 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)

theorem outsAt2_A (c : Dev nD) (t : Fin cfg2.N) (h0 : t.val % 79 = 0) (h1 : ¬t.val % 79 = 78) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

theorem outsAt2_B (c : Dev nD) (t : Fin cfg2.N) (h0 : ¬t.val % 79 = 0) (h1 : ¬t.val % 79 = 78) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 79 = 0) (h1 : t.val % 79 = 78) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator's contents are carried -/

/-- Before the first point the class invariant (the accumulator at anything); before point `n + 1` the accumulator at what
    point `n` left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body each input's buffer at its block, the output's at `outsAt2`'s
    first component; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) : (dat2 V c).leavesExact 4 t = owns (c : Thread nD τ) (ms2_4 t) fullShare (iblk2 V c 4 t) := by
  unfold Dat.leavesExact; rw [liveAt2_4 t, after2_4]
theorem leaves2_5 (c : Dev nD) (t : Fin cfg2.N) : (dat2 V c).leavesExact 5 t = owns (c : Thread nD τ) (ms2_5 t) fullShare (iblk2 V c 5 t) := by
  unfold Dat.leavesExact; rw [liveAt2_5 t, after2_5]

set_option maxHeartbeats 4800000 in
/-- The body at any point: the closed forms say which case the point is in; the invariant hands the body the
    accumulator at what the point before left (at anything at the very first point, and at a core's first point
    the previous contents are forgotten) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  by_cases h0 : t.val % 79 = 0
  · by_cases h1 : t.val % 79 = 78
    · exfalso; omega
    · rw [Dat.leavesExact_idle (dat2 V c) 6 t (idleAt2_6_A t ((hcond2_0 t).mpr h0) (fun h => h1 ((hcond2_1 t).mp h))) (noFlush2_6_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iintro ⟨H0, H1, H2, H3, H4, H5, H6, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        iintro ⟨H0, H1, H2, H3, H4, H5, H6, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h1 : t.val % 79 = 78
    · rw [show (dat2 V c).leavesExact 6 t = owns (c : Thread nD τ) (ms2_6 t) fullShare ((dat2 V c).after 6 t) from by
        unfold Dat.leavesExact; rw [liveAt2_6_C t (fun h => h0 ((hcond2_0 t).mp h)) ((hcond2_1 t).mpr h1)], after2_6]
      rw [outsAt2_C V c t h0 h1]
      unfold out2_C_6 sout2_C_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C_0 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C_6 c _ _ _ _ _ _ _ _ _ _ _ _ _ _ _ _ _ _ _ _ _ _ _ _ _ _)
    · rw [Dat.leavesExact_idle (dat2 V c) 6 t (idleAt2_6_B t (fun h => h0 ((hcond2_0 t).mp h)) (fun h => h1 ((hcond2_1 t).mp h))) (noFlush2_6_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 158 := N_2; omega)

end

end Cert.KernelIdeal.Hand

end
-- ==== Proof.KI.Terms.lean ====
/-
  The host side of the kernel's program as pure functions of the argument arrays: what @main computes before, between
  and after its three calls, named so that the run's bookkeeping and the mathematics can cite the same terms.

  Before the calls: the packed node table [x | w] (50000 × 4); the index rows of the edge and face arrays, wrapped as
  jnp wraps a negative index; the packed tables gathered at the edges' two endpoints and the faces' three vertices;
  the graph ids gathered at the first endpoint / vertex; every table padded with zero rows, every id column with −1, up
  to a whole number of 2 × 512-row blocks; and the thresholds repeated 32 times each (lin_rep[0, 32·s + t] = lin[s]).
  After the calls: each call's 2 × 64 × 1024 output summed over its two cores and reshaped to 64 × 32 × 32; the three
  results added.
-/
import proofs.«429462_j65403761983812_3_alg».proof.Proof.Gen.KernelIdeal

noncomputable section

namespace Cert.KernelIdeal.Hand

open Cert.KernelIdeal Cert.KernelIdeal.Gen
open Idealize.ShloMosaic Idealize.ShloMosaic.TcCoe

variable {F : FTy → Type} [FloatOps F]

/-- The packed node table: columns 0 … 2 are x, column 3 the node weight. -/
def xwT (x : Vec F S50000x3 .f32) (wt : Vec F S50000 .f32) : Vec F S50000x4 .f32 :=
  concatenate S50000x4 1 [⟨S50000x3, x⟩, ⟨S50000x1, shapeCast S50000x1 wt shapeCasts_S50000_S50000x1⟩] concatenates_S50000x3_S50000x1_S50000x4_d1

/-- Row j of the edge index array, and of the face index array. -/
def eRow0 (ei : Vec F S2x100000 .i32) : IVec S100000 32 := shapeCast S100000 (extractStridedSlice S1x100000 ![0, 0] ei slices_S2x100000_S1x100000_0_0) shapeCasts_S1x100000_S100000
def eRow1 (ei : Vec F S2x100000 .i32) : IVec S100000 32 := shapeCast S100000 (extractStridedSlice S1x100000 ![1, 0] ei slices_S2x100000_S1x100000_1_0) shapeCasts_S1x100000_S100000
def fRow0 (fc : Vec F S3x80000 .i32) : IVec S80000 32 := shapeCast S80000 (extractStridedSlice S1x80000 ![0, 0] fc slices_S3x80000_S1x80000_0_0) shapeCasts_S1x80000_S80000
def fRow1 (fc : Vec F S3x80000 .i32) : IVec S80000 32 := shapeCast S80000 (extractStridedSlice S1x80000 ![1, 0] fc slices_S3x80000_S1x80000_1_0) shapeCasts_S1x80000_S80000
def fRow2 (fc : Vec F S3x80000 .i32) : IVec S80000 32 := shapeCast S80000 (extractStridedSlice S1x80000 ![2, 0] fc slices_S3x80000_S1x80000_2_0) shapeCasts_S1x80000_S80000

/-- jnp's wrap of a negative index into a table of 50000 rows, as an index column. -/
def wrapE (i : IVec S100000 32) : IVec S100000x1 32 :=
  broadcastInDim S100000x1 ![0] bcast_S100000_S100000x1_0
    (select (cmpi .slt i (broadcastInDim S100000 ![] bcast_S_S100000 (constantI S_ 32 0#32)))
      (addi i (broadcastInDim S100000 ![] bcast_S_S100000 (constantI S_ 32 50000#32))) i)
def wrapF (i : IVec S80000 32) : IVec S80000x1 32 :=
  broadcastInDim S80000x1 ![0] bcast_S80000_S80000x1_0
    (select (cmpi .slt i (broadcastInDim S80000 ![] bcast_S_S80000 (constantI S_ 32 0#32)))
      (addi i (broadcastInDim S80000 ![] bcast_S_S80000 (constantI S_ 32 50000#32))) i)

/-- The packed table gathered at an index row of the edges / faces, and the graph ids gathered there. -/
def gatE (xw : Vec F S50000x4 .f32) (i : IVec S100000 32) : Vec F S100000x4 .f32 :=
  Host.gather gather_S50000x4_S100000x1_S100000x4_1_0_n_n_0_1_14 xw (wrapE i)
def gatF (xw : Vec F S50000x4 .f32) (i : IVec S80000 32) : Vec F S80000x4 .f32 :=
  Host.gather gather_S50000x4_S80000x1_S80000x4_1_0_n_n_0_1_14 xw (wrapF i)
def gidE (bt : Vec F S50000 .i32) (i : IVec S100000 32) : IVec S100000 32 :=
  Host.gather gather_S50000_S100000x1_S100000_n_0_n_n_0_1_1 bt (wrapE i)
def gidF (bt : Vec F S50000 .i32) (i : IVec S80000 32) : IVec S80000 32 :=
  Host.gather gather_S50000_S80000x1_S80000_n_0_n_n_0_1_1 bt (wrapF i)

/-- The thresholds as the calls read them: lin_rep[0, 32·s + t] = lin[s]. -/
def linRep (lin : Vec F S32 .f32) : Vec F S1x1024 .f32 :=
  shapeCast S1x1024 (shapeCast S1024 (broadcastInDim S32x32 ![0] bcast_S32_S32x32_0 lin) shapeCasts_S32x32_S1024) shapeCasts_S1024_S1x1024

/-! ### The calls' padded operands -/

def zeroF : FVec F S_ .f32 := constant S_ .f32 0x00000000#32
def minusOneI : IVec S_ 32 := constantI S_ 32 4294967295#32

def padN4 (a : Vec F S50000x4 .f32) : Vec F S50176x4 .f32 := pad S50176x4 ![0, 0] ![176, 0] ![0, 0] a (id (zeroF (F := F))) pads_S50000x4_S50176x4_01760_000 h_S_
def padN1 (a : IVec S50000x1 32) : IVec S50176x1 32 := pad S50176x1 ![0, 0] ![176, 0] ![0, 0] a (id minusOneI) pads_S50000x1_S50176x1_01760_000 h_S_
def padE4 (a : Vec F S100000x4 .f32) : Vec F S100352x4 .f32 := pad S100352x4 ![0, 0] ![352, 0] ![0, 0] a (id (zeroF (F := F))) pads_S100000x4_S100352x4_03520_000 h_S_
def padE1 (a : IVec S100000x1 32) : IVec S100352x1 32 := pad S100352x1 ![0, 0] ![352, 0] ![0, 0] a (id minusOneI) pads_S100000x1_S100352x1_03520_000 h_S_
def padF4 (a : Vec F S80000x4 .f32) : Vec F S80896x4 .f32 := pad S80896x4 ![0, 0] ![896, 0] ![0, 0] a (id (zeroF (F := F))) pads_S80000x4_S80896x4_08960_000 h_S_
def padF1 (a : IVec S80000x1 32) : IVec S80896x1 32 := pad S80896x1 ![0, 0] ![896, 0] ![0, 0] a (id minusOneI) pads_S80000x1_S80896x1_08960_000 h_S_

/-- Call 0 (nodes): the padded node table and the padded id column. -/
def in0_0 (x : Vec F S50000x3 .f32) (wt : Vec F S50000 .f32) : Vec F S50176x4 .f32 := padN4 (xwT x wt)
def in0_1 (bt : Vec F S50000 .i32) : Vec F S50176x1 .i32 := padN1 (shapeCast S50000x1 bt shapeCasts_S50000_S50000x1)
/-- Call 1 (edges): the table at each endpoint, and the ids at the first endpoint, padded. -/
def in1_0 (x : Vec F S50000x3 .f32) (wt : Vec F S50000 .f32) (ei : Vec F S2x100000 .i32) : Vec F S100352x4 .f32 := padE4 (gatE (xwT x wt) (eRow0 (F := F) ei))
def in1_1 (x : Vec F S50000x3 .f32) (wt : Vec F S50000 .f32) (ei : Vec F S2x100000 .i32) : Vec F S100352x4 .f32 := padE4 (gatE (xwT x wt) (eRow1 (F := F) ei))
def in1_2 (ei : Vec F S2x100000 .i32) (bt : Vec F S50000 .i32) : Vec F S100352x1 .i32 := padE1 (shapeCast S100000x1 (gidE (F := F) bt (eRow0 (F := F) ei)) shapeCasts_S100000_S100000x1)
/-- Call 2 (faces): the table at each vertex, and the ids at the first vertex, padded. -/
def in2_0 (x : Vec F S50000x3 .f32) (wt : Vec F S50000 .f32) (fc : Vec F S3x80000 .i32) : Vec F S80896x4 .f32 := padF4 (gatF (xwT x wt) (fRow0 (F := F) fc))
def in2_1 (x : Vec F S50000x3 .f32) (wt : Vec F S50000 .f32) (fc : Vec F S3x80000 .i32) : Vec F S80896x4 .f32 := padF4 (gatF (xwT x wt) (fRow1 (F := F) fc))
def in2_2 (x : Vec F S50000x3 .f32) (wt : Vec F S50000 .f32) (fc : Vec F S3x80000 .i32) : Vec F S80896x4 .f32 := padF4 (gatF (xwT x wt) (fRow2 (F := F) fc))
def in2_3 (fc : Vec F S3x80000 .i32) (bt : Vec F S50000 .i32) : Vec F S80896x1 .i32 := padF1 (shapeCast S80000x1 (gidF (F := F) bt (fRow0 (F := F) fc)) shapeCasts_S80000_S80000x1)

/-! ### After the calls -/

/-- One call's output summed over its two cores, as a 64 × 32 × 32 array. -/
def post (o : Vec F S2x64x1024 .f32) : Vec F S64x32x32 .f32 :=
  shapeCast S64x32x32 (Host.reduceAdd o (zeroF (F := F)) reducesTo_S2x64x1024_S64x1024_d0 h_S_) shapeCasts_S64x1024_S64x32x32

/-- The program's result from the three calls' outputs. -/
def total (o0 o1 o2 : Vec F S2x64x1024 .f32) : Vec F S64x32x32 .f32 := addf (addf (post o0) (post o1)) (post o2)

end Cert.KernelIdeal.Hand

end
-- ==== Proof.KI.Walk.lean ====
/-
  The run of the program, first part: what every buffer of the core holds at each of the 23 boundaries between the 22
  segments of the main function (19 stretches of array operations and the three calls), from the launch to the end.
-/
import proofs.«429462_j65403761983812_3_alg».proof.Proof.KI.R0.Frame
import proofs.«429462_j65403761983812_3_alg».proof.Proof.KI.R1.Frame
import proofs.«429462_j65403761983812_3_alg».proof.Proof.KI.R2.Frame
import proofs.«429462_j65403761983812_3_alg».proof.Proof.KI.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary

The program is a line of 22 segments: stretches of array operations and three calls. Between two segments the core's
buffers hold definite contents. They are named here, boundary by boundary, starting from the memory the program is
launched on: a stretch of operations rewrites the buffers its operations produce, in order, and keeps the others; a call
replaces the arrays its windows stage by what its write-backs leave there and keeps the others. -/

/-- The core's buffers when the program starts. -/
abbrev W0 : Dev nD → Valuation τ sig (Elt F) := fun c b => (s₀ m ρ).mem ((c : Dev nD), b)
/-- The same contents read at the core's own references. -/
abbrev V0 : (c : Dev nD) → (b : Ref sig .tc) → Buf (Elt F) ((c : Thread nD τ).loc b) := fun c b => W0 m ρ c b
/-- After the opening stretch: the index rows, the packed node table, the gathered tables and graph ids, the repeated thresholds. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the node table is padded with zero rows. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
/-- After the constant −1 is made. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
/-- After the node ids are padded with −1: the entry of the first call. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b

/-- When the first call returns: each array one of its windows stages holds what the call leaves there (an input as it was
    entered, the output with its write-backs folded in), every other buffer what it held when the call was entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
/-- At the first call's return its arrays hold what the call leaves, -/
theorem hF0 (c : Dev nD) (w : Fin cfg0.W) : (dat0 (V4 m ρ) c).arrAt w cfg0.N = V5 m ρ c (Pipeline.arrRef spec0 w) :=
  (W5_arr m ρ c w).symm
/-- and every other buffer what it held at the call's entry. -/
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the first call's output is summed over the two cores and reshaped, and the edge ids made a column. -/
abbrev W6 : Dev nD → Valuation τ sig (Elt F) := fun c => StableHlo.after hostOps1 (W5 m ρ c)
abbrev V6 : (c : Dev nD) → (b : Ref sig .tc) → Buf (Elt F) ((c : Thread nD τ).loc b) := fun c b => W6 m ρ c b
/-- After the table at the edges' first endpoints is padded. -/
abbrev W7 : Dev nD → Valuation τ sig (Elt F) := fun c => StableHlo.after hostOps1_1 (W6 m ρ c)
abbrev V7 : (c : Dev nD) → (b : Ref sig .tc) → Buf (Elt F) ((c : Thread nD τ).loc b) := fun c b => W7 m ρ c b
/-- After a zero constant is made. -/
abbrev W8 : Dev nD → Valuation τ sig (Elt F) := fun c => StableHlo.after hostOps1_2 (W7 m ρ c)
abbrev V8 : (c : Dev nD) → (b : Ref sig .tc) → Buf (Elt F) ((c : Thread nD τ).loc b) := fun c b => W8 m ρ c b
/-- After the table at the edges' second endpoints is padded. -/
abbrev W9 : Dev nD → Valuation τ sig (Elt F) := fun c => StableHlo.after hostOps1_3 (W8 m ρ c)
abbrev V9 : (c : Dev nD) → (b : Ref sig .tc) → Buf (Elt F) ((c : Thread nD τ).loc b) := fun c b => W9 m ρ c b
/-- After the constant −1 is made. -/
abbrev W10 : Dev nD → Valuation τ sig (Elt F) := fun c => StableHlo.after hostOps1_4 (W9 m ρ c)
abbrev V10 : (c : Dev nD) → (b : Ref sig .tc) → Buf (Elt F) ((c : Thread nD τ).loc b) := fun c b => W10 m ρ c b
/-- After the edge ids are padded: the entry of the second call. -/
abbrev W11 : Dev nD → Valuation τ sig (Elt F) := fun c => StableHlo.after hostOps1_5 (W10 m ρ c)
abbrev V11 : (c : Dev nD) → (b : Ref sig .tc) → Buf (Elt F) ((c : Thread nD τ).loc b) := fun c b => W11 m ρ c b

/-- When the second call returns: each array one of its windows stages holds what the call leaves there (an input as it was
    entered, the output with its write-backs folded in), every other buffer what it held when the call was entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
/-- At the second call's return its arrays hold what the call leaves, -/
theorem hF1 (c : Dev nD) (w : Fin cfg1.W) : (dat1 (V11 m ρ) c).arrAt w cfg1.N = V12 m ρ c (Pipeline.arrRef spec1 w) :=
  (W12_arr m ρ c w).symm
/-- and every other buffer what it held at the call's entry. -/
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)

/-- After the second call's output is summed over the two cores and reshaped, and the face ids made a column. -/
abbrev W13 : Dev nD → Valuation τ sig (Elt F) := fun c => StableHlo.after hostOps2 (W12 m ρ c)
abbrev V13 : (c : Dev nD) → (b : Ref sig .tc) → Buf (Elt F) ((c : Thread nD τ).loc b) := fun c b => W13 m ρ c b
/-- After the table at the faces' first vertices is padded. -/
abbrev W14 : Dev nD → Valuation τ sig (Elt F) := fun c => StableHlo.after hostOps2_1 (W13 m ρ c)
abbrev V14 : (c : Dev nD) → (b : Ref sig .tc) → Buf (Elt F) ((c : Thread nD τ).loc b) := fun c b => W14 m ρ c b
/-- After a zero constant is made. -/
abbrev W15 : Dev nD → Valuation τ sig (Elt F) := fun c => StableHlo.after hostOps2_2 (W14 m ρ c)
abbrev V15 : (c : Dev nD) → (b : Ref sig .tc) → Buf (Elt F) ((c : Thread nD τ).loc b) := fun c b => W15 m ρ c b
/-- After the table at the faces' second vertices is padded. -/
abbrev W16 : Dev nD → Valuation τ sig (Elt F) := fun c => StableHlo.after hostOps2_3 (W15 m ρ c)
abbrev V16 : (c : Dev nD) → (b : Ref sig .tc) → Buf (Elt F) ((c : Thread nD τ).loc b) := fun c b => W16 m ρ c b
/-- After a zero constant is made. -/
abbrev W17 : Dev nD → Valuation τ sig (Elt F) := fun c => StableHlo.after hostOps2_4 (W16 m ρ c)
abbrev V17 : (c : Dev nD) → (b : Ref sig .tc) → Buf (Elt F) ((c : Thread nD τ).loc b) := fun c b => W17 m ρ c b
/-- After the table at the faces' third vertices is padded. -/
abbrev W18 : Dev nD → Valuation τ sig (Elt F) := fun c => StableHlo.after hostOps2_5 (W17 m ρ c)
abbrev V18 : (c : Dev nD) → (b : Ref sig .tc) → Buf (Elt F) ((c : Thread nD τ).loc b) := fun c b => W18 m ρ c b
/-- After the constant −1 is made. -/
abbrev W19 : Dev nD → Valuation τ sig (Elt F) := fun c => StableHlo.after hostOps2_6 (W18 m ρ c)
abbrev V19 : (c : Dev nD) → (b : Ref sig .tc) → Buf (Elt F) ((c : Thread nD τ).loc b) := fun c b => W19 m ρ c b
/-- After the face ids are padded: the entry of the third call. -/
abbrev W20 : Dev nD → Valuation τ sig (Elt F) := fun c => StableHlo.after hostOps2_7 (W19 m ρ c)
abbrev V20 : (c : Dev nD) → (b : Ref sig .tc) → Buf (Elt F) ((c : Thread nD τ).loc b) := fun c b => W20 m ρ c b

/-- When the third call returns: each array one of its windows stages holds what the call leaves there (an input as it was
    entered, the output with its write-backs folded in), every other buffer what it held when the call was entered. -/
def W21 (c : Dev nD) : Valuation τ sig (Elt F) :=
  Pipeline.withArrays spec2 c (W20 m ρ c) fun w => (dat2 (V20 m ρ) c).arrAt w cfg2.N
theorem W21_arr (c : Dev nD) (w : Fin cfg2.W) :
    W21 m ρ c (Proc.devRef .tc (Pipeline.arrRef spec2 w)) = (dat2 (V20 m ρ) c).arrAt w cfg2.N := by
  unfold W21; exact Pipeline.withArrays_arr spec2 launch2.win.arr_inj c _ _ w
theorem W21_of_ne (c : Dev nD) (b : Ref sig .tc) (hb : ∀ w, Pipeline.arrRef spec2 w ≠ b) :
    W21 m ρ c (Proc.devRef .tc b) = W20 m ρ c (Proc.devRef .tc b) := by
  unfold W21; exact Pipeline.withArrays_of_ne spec2 c _ _ b hb
abbrev V21 : (c : Dev nD) → (b : Ref sig .tc) → Buf (Elt F) ((c : Thread nD τ).loc b) := fun c b => W21 m ρ c b
/-- At the third call's return its arrays hold what the call leaves, -/
theorem hF2 (c : Dev nD) (w : Fin cfg2.W) : (dat2 (V20 m ρ) c).arrAt w cfg2.N = V21 m ρ c (Pipeline.arrRef spec2 w) :=
  (W21_arr m ρ c w).symm
/-- and every other buffer what it held at the call's entry. -/
theorem hrest2 (c : Dev nD) : ∀ b, b ∉ Finset.univ.image (Pipeline.arrRef spec2) → V21 m ρ c b = V20 m ρ c b :=
  fun b hb => W21_of_ne m ρ c b fun w e => hb (Finset.mem_image.mpr ⟨w, Finset.mem_univ _, e⟩)

/-- After the third call's output is summed and reshaped and the three results are added: the end of the program. -/
abbrev W22 : Dev nD → Valuation τ sig (Elt F) := fun c => StableHlo.after hostOps3 (W21 m ρ c)
abbrev V22 : (c : Dev nD) → (b : Ref sig .tc) → Buf (Elt F) ((c : Thread nD τ).loc b) := fun c b => W22 m ρ c b

/-! ## Consecutive stretches as one

Running two lines of operations one after the other is running their concatenation, so the contents at a call's entry
are the contents after ONE line, counted from the launch or from the call before. -/

theorem W4_flat (c : Dev nD) :
    W4 m ρ c = StableHlo.after (hostOps0 ++ hostOps0_1 ++ hostOps0_2 ++ hostOps0_3) (W0 m ρ c) := by
  rw [StableHlo.after_append, StableHlo.after_append, StableHlo.after_append]
theorem W11_flat (c : Dev nD) :
    W11 m ρ c = StableHlo.after (hostOps1 ++ hostOps1_1 ++ hostOps1_2 ++ hostOps1_3 ++ hostOps1_4 ++ hostOps1_5) (W5 m ρ c) := by
  rw [StableHlo.after_append, StableHlo.after_append, StableHlo.after_append, StableHlo.after_append, StableHlo.after_append]
theorem W20_flat (c : Dev nD) :
    W20 m ρ c = StableHlo.after (hostOps2 ++ hostOps2_1 ++ hostOps2_2 ++ hostOps2_3 ++ hostOps2_4 ++ hostOps2_5 ++ hostOps2_6 ++ hostOps2_7) (W12 m ρ c) := by
  rw [StableHlo.after_append, StableHlo.after_append, StableHlo.after_append, StableHlo.after_append, StableHlo.after_append,
    StableHlo.after_append, StableHlo.after_append]
theorem W22_flat (c : Dev nD) : W22 m ρ c = StableHlo.after hostOps3 (W21 m ρ c) := rfl

/-! ## No stretch allocates a buffer -/

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps2_1_fresh : (hostOps2_1 : List (HloOp τ sig (Elt F))).Forall fun op => op.fresh = ∅ := by
  simp only [List.Forall]; repeat' constructor
theorem hostOps2_2_fresh : (hostOps2_2 : List (HloOp τ sig (Elt F))).Forall fun op => op.fresh = ∅ := by
  simp only [List.Forall]; repeat' constructor
theorem hostOps2_3_fresh : (hostOps2_3 : List (HloOp τ sig (Elt F))).Forall fun op => op.fresh = ∅ := by
  simp only [List.Forall]; repeat' constructor
theorem hostOps2_4_fresh : (hostOps2_4 : List (HloOp τ sig (Elt F))).Forall fun op => op.fresh = ∅ := by
  simp only [List.Forall]; repeat' constructor
theorem hostOps2_5_fresh : (hostOps2_5 : List (HloOp τ sig (Elt F))).Forall fun op => op.fresh = ∅ := by
  simp only [List.Forall]; repeat' constructor
theorem hostOps2_6_fresh : (hostOps2_6 : List (HloOp τ sig (Elt F))).Forall fun op => op.fresh = ∅ := by
  simp only [List.Forall]; repeat' constructor
theorem hostOps2_7_fresh : (hostOps2_7 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor

end Cert.KernelIdeal.Hand

end
-- ==== Proof.KI.Run.lean ====
/-
  The run of the program, second part: the main function as a list of 22 segments (19 stretches of array operations and
  the three calls), each entered from the buffer contents the one before it left, launched by the theorem for a program
  of several calls. Each call's kernel keeps a running sum in a scratch buffer, so its invariant is not the plain one
  (the scratch at anything): it starts from the plain one and comes back to it, and the segment of a call bridges the
  two at both ends. The outcome: the program terminates and every unscoped buffer ends at the contents of the last
  boundary.
-/
import proofs.«429462_j65403761983812_3_alg».proof.Proof.KI.Walk

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three pipelines and the thread state -/

/-- The prefetched tables' admissible contents: no pipeline has a table. -/
abbrev adm : (p : Fin 3) → (pcfgs (F := F) p).Adm := fun p => (cfgs p).toPCfg_adm
/-- Each pipeline's proof data, taken at the contents its call is entered with. -/
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V11 m ρ) c
  | ⟨2, _⟩ => fun c => dat2 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing
    nothing. -/
abbrev R (c : Dev nD) : sProp 𝕄 := iprop((∃ r, prngReg c r) ∗ ∃ W, owes (c : Thread nD τ) (0 : CellTallies nD τ sig Unit) W)
/-- A stretch of operations as a segment: it takes every unscoped buffer at the contents `W` to the contents after its
    operations, the rest of the thread state riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the final contents, the generator register at
    some state. -/
abbrev Tₙ (c : Dev nD) : sProp 𝕄 := iprop(StableHlo.held (c : Thread nD τ) (Pipeline.ucRefs τ sig) (W22 m ρ c) ∗ ∃ r, prngReg c r)

/-- The thread state after the last segment is the last thread state beside the core owing nothing. -/
theorem last_state (c : Dev nD) :
    iprop(StableHlo.held (c : Thread nD τ) (Pipeline.ucRefs τ sig) (W22 m ρ c) ∗ R (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The three calls as segments -/

set_option backward.isDefEq.respectTransparency.types false in
/-- The first call as a segment: entered with every unscoped buffer at the contents of boundary 4, left with them at
    those of boundary 5. At entry the arrays its windows stage are split out of the unscoped buffers and at exit put back
    at what the call leaves in them; the generator register goes into the call's invariant and comes back; the call's
    invariant starts from the plain one (the accumulator at anything) and ends in it (the accumulator's last contents
    forgotten); nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V4 m ρ) c)
    unfold Pipeline.ΦA
    iintro ⟨Hp, -, Hr⟩
    isplitl [Hr]; · iexact Hr
    iexact Hp
  hout c := by
    rw [Pipeline.ownSems0_none]
    refine BIBase.Entails.trans (hout0 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment: entered with every unscoped buffer at the contents of boundary 11, left with them at
    those of boundary 12. At entry the arrays its windows stage are split out of the unscoped buffers and at exit put back
    at what the call leaves in them; the generator register goes into the call's invariant and comes back; the call's
    invariant starts from the plain one (the accumulator at anything) and ends in it (the accumulator's last contents
    forgotten); nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V11 m ρ) c)
    unfold Pipeline.ΦA
    iintro ⟨Hp, -, Hr⟩
    isplitl [Hr]; · iexact Hr
    iexact Hp
  hout c := by
    rw [Pipeline.ownSems0_none]
    refine BIBase.Entails.trans (hout1 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call as a segment: entered with every unscoped buffer at the contents of boundary 20, left with them at
    those of boundary 21. At entry the arrays its windows stage are split out of the unscoped buffers and at exit put back
    at what the call leaves in them; the generator register goes into the call's invariant and comes back; the call's
    invariant starts from the plain one (the accumulator at anything) and ends in it (the accumulator's last contents
    forgotten); nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V20 m ρ) c).loose
  hwaits := Pipeline.hwaits_of_owed_zero _ _ _ _ L lv 2 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec2 c (V20 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V20 m ρ) c)
    unfold Pipeline.ΦA
    iintro ⟨Hp, -, Hr⟩
    isplitl [Hr]; · iexact Hr
    iexact Hp
  hout c := by
    rw [Pipeline.ownSems0_none]
    refine BIBase.Entails.trans (hout2 (V20 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V20 m ρ c) (V21 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The main function as its 22 segments, and the launch -/

/-- The segments in the main function's order: a stretch from the contents of the boundary before it, a call per region. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .region (reg0 m ρ),
    .host (hseg hostOps1 hostOps1_sub hostOps1_fresh (W5 m ρ)),
    .host (hseg hostOps1_1 hostOps1_1_sub hostOps1_1_fresh (W6 m ρ)),
    .host (hseg hostOps1_2 hostOps1_2_sub hostOps1_2_fresh (W7 m ρ)),
    .host (hseg hostOps1_3 hostOps1_3_sub hostOps1_3_fresh (W8 m ρ)),
    .host (hseg hostOps1_4 hostOps1_4_sub hostOps1_4_fresh (W9 m ρ)),
    .host (hseg hostOps1_5 hostOps1_5_sub hostOps1_5_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .host (hseg hostOps2_3 hostOps2_3_sub hostOps2_3_fresh (W15 m ρ)),
    .host (hseg hostOps2_4 hostOps2_4_sub hostOps2_4_fresh (W16 m ρ)),
    .host (hseg hostOps2_5 hostOps2_5_sub hostOps2_5_fresh (W17 m ρ)),
    .host (hseg hostOps2_6 hostOps2_6_sub hostOps2_6_fresh (W18 m ρ)),
    .host (hseg hostOps2_7 hostOps2_7_sub hostOps2_7_fresh (W19 m ρ)),
    .region (reg2 m ρ),
    .host (hseg hostOps3 hostOps3_sub hostOps3_fresh (W21 m ρ)) ]
/-- The main function is the run of the segments: both are the same chain of the same items. -/
theorem main_run (c : Dev nD) : main (F := F) c = Pipeline.Seg.run (segs m ρ) := (main_chain c).trans (by chain_rfl)

set_option backward.isDefEq.respectTransparency.types false in
/-- THE RUN. From any memory with every counter at zero, every weakly fair execution of the main function terminates, and
    in every final state each unscoped buffer of the core holds the contents of the last boundary: the launch over the 22
    segments, each entered from what the one before it left, the last thread state read against the final state. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c => h c)

end Cert.KernelIdeal.Hand

end
-- ==== Proof.KI.Fold.lean ====
import proofs.«429462_j65403761983812_3_alg».proof.Proof.KI.Walk
import proofs.«429462_j65403761983812_3_alg».proof.Proof.KI.Terms

/-!
# The run of the program, second part: the buffers read through the boundaries

What the main function's buffers hold where the calls and the result read them, as pure functions of the argument
arrays. The lines of array operations between the calls are taken group by group (the four stretches before the first
call as one line, the six before the second, the eight before the third, the closing stretch): for any contents a
group starts from, each buffer it produces is a named function of the buffers it reads, and every buffer it does not
write is kept. A call keeps every buffer that is not one of its arrays and leaves each input array as it found it.
Walking back from a boundary to the launch through these facts gives: the arguments are never written; each call's
operands are the padded tables and id columns of the arguments; the result is the sum of the three calls' outputs, each
summed over its two cores and reshaped.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lines between the calls, and the buffers they write -/

/-- The four stretches before the first call, as one line. -/
abbrev opsA : List (HloOp τ sig (Elt F)) := hostOps0 ++ hostOps0_1 ++ hostOps0_2 ++ hostOps0_3
/-- The six stretches between the first call and the second. -/
abbrev opsB : List (HloOp τ sig (Elt F)) := hostOps1 ++ hostOps1_1 ++ hostOps1_2 ++ hostOps1_3 ++ hostOps1_4 ++ hostOps1_5
/-- The eight stretches between the second call and the third. -/
abbrev opsC : List (HloOp τ sig (Elt F)) :=
  hostOps2 ++ hostOps2_1 ++ hostOps2_2 ++ hostOps2_3 ++ hostOps2_4 ++ hostOps2_5 ++ hostOps2_6 ++ hostOps2_7

/-- Every buffer an operation of the first line produces, in order. -/
abbrev wrA : List (Ref sig .tc) :=
  [
    main_v0, main_v1, main_v2, main_v3, main_v4, main_v5, main_v6, main_v7, main_v8, main_v9, main_v10,
    main_v11, main_c, main_v12, main_v13, main_c_0, main_v14, main_v15, main_v16, main_v17, main_v18, main_c_1,
    main_v19, main_v20, main_c_2, main_v21, main_v22, main_v23, main_v24, main_v25, main_c_3, main_v26,
    main_v27, main_c_4, main_v28, main_v29, main_v30, main_v31, main_v32, main_c_5, main_v33, main_v34,
    main_c_6, main_v35, main_v36, main_v37, main_v38, main_v39, main_c_7, main_v40, main_v41, main_c_8,
    main_v42, main_v43, main_v44, main_v45, main_v46, main_c_9, main_v47, main_v48, main_c_10, main_v49,
    main_v50, main_v51, main_v52, main_v53, main_c_11, main_v54, main_v55, main_c_12, main_v56, main_v57,
    main_v58, main_v59, main_v60, main_v61, main_v62, main_v63, main_v64, main_cst, main_call0_v0, main_v65,
    main_c_13, main_call1_v0, main_v66 ]
/-- The same for the second line, -/
abbrev wrB : List (Ref sig .tc) :=
  [
    main_cst_14, main_v68, main_v69, main_v70, main_cst_15, main_call2_v0, main_v71, main_cst_16, main_call3_v0,
    main_v72, main_c_17, main_call4_v0, main_v73 ]
/-- the third, -/
abbrev wrC : List (Ref sig .tc) :=
  [
    main_cst_18, main_v75, main_v76, main_v77, main_cst_19, main_call5_v0, main_v78, main_cst_20, main_call6_v0,
    main_v79, main_cst_21, main_call7_v0, main_v80, main_c_22, main_call8_v0, main_v81 ]
/-- and the closing stretch. -/
abbrev wrD : List (Ref sig .tc) :=
  [
    main_cst_23, main_v83, main_v84, main_v85, main_v86 ]

set_option maxHeartbeats 4000000 in
theorem wrA_sub : (opsA : List (HloOp τ sig (Elt F))).Forall fun op =>
    op.writes ⊆ (wrA.map (Proc.devRef (τ := τ) .tc)).toFinset := by
  simp only [opsA, hostOps0, hostOps0_1, hostOps0_2, hostOps0_3, List.cons_append, List.nil_append, List.Forall,
    StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)
theorem wrB_sub : (opsB : List (HloOp τ sig (Elt F))).Forall fun op =>
    op.writes ⊆ (wrB.map (Proc.devRef (τ := τ) .tc)).toFinset := by
  simp only [opsB, hostOps1, hostOps1_1, hostOps1_2, hostOps1_3, hostOps1_4, hostOps1_5, List.cons_append,
    List.nil_append, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)
theorem wrC_sub : (opsC : List (HloOp τ sig (Elt F))).Forall fun op =>
    op.writes ⊆ (wrC.map (Proc.devRef (τ := τ) .tc)).toFinset := by
  simp only [opsC, hostOps2, hostOps2_1, hostOps2_2, hostOps2_3, hostOps2_4, hostOps2_5, hostOps2_6, hostOps2_7,
    List.cons_append, List.nil_append, List.Forall, StableHlo.nullary_writes, StableHlo.unary_writes,
    StableHlo.binary_writes, StableHlo.ternary_writes, StableHlo.reshape_writes, Finset.singleton_subset_iff,
    List.mem_toFinset]
  repeat' apply And.intro
  all_goals exact List.mem_map_of_mem (by decide)
theorem wrD_sub : (hostOps3 : List (HloOp τ sig (Elt F))).Forall fun op =>
    op.writes ⊆ (wrD.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## What each line produces, from any contents it starts on -/

section Lines
variable (X : Valuation τ sig (Elt F))

/-! ### The closing stretch -/

/-- The result is the first two calls' posted outputs added, plus the third call's output posted here. -/
theorem D_v86 :
    StableHlo.after hostOps3 X (Proc.devRef .tc main_v86)
      = (addf (addf (X (Proc.devRef .tc main_v69) : Vec F S64x32x32 .f32) (X (Proc.devRef .tc main_v76)))
          (post (X (Proc.devRef .tc main_v82))) : Vec F S64x32x32 .f32) := by
  simp only [hostOps3]
  after_results
  rfl

/-! ### The line between the first call and the second -/

/-- The first call's output, summed over the cores and reshaped. -/
theorem B_v69 :
    StableHlo.after opsB X (Proc.devRef .tc main_v69) = (post (X (Proc.devRef .tc main_v67)) : Vec F S64x32x32 .f32) := by
  simp only [opsB, hostOps1, hostOps1_1, hostOps1_2, hostOps1_3, hostOps1_4, hostOps1_5, List.cons_append, List.nil_append]
  after_results
  rfl
/-- The table gathered at the edges' first endpoints, padded. -/
theorem B_v71 :
    StableHlo.after opsB X (Proc.devRef .tc main_v71) = (padE4 (X (Proc.devRef .tc main_v18)) : Vec F S100352x4 .f32) := by
  simp only [opsB, hostOps1, hostOps1_1, hostOps1_2, hostOps1_3, hostOps1_4, hostOps1_5, List.cons_append, List.nil_append]
  after_results
  rfl
/-- The table gathered at the edges' second endpoints, padded. -/
theorem B_v72 :
    StableHlo.after opsB X (Proc.devRef .tc main_v72) = (padE4 (X (Proc.devRef .tc main_v25)) : Vec F S100352x4 .f32) := by
  simp only [opsB, hostOps1, hostOps1_1, hostOps1_2, hostOps1_3, hostOps1_4, hostOps1_5, List.cons_append, List.nil_append]
  after_results
  rfl
/-- The edges' graph ids as a column, padded. -/
theorem B_v73 :
    StableHlo.after opsB X (Proc.devRef .tc main_v73)
      = (padE1 (shapeCast S100000x1 (X (Proc.devRef .tc main_v53) : IVec S100000 32) shapeCasts_S100000_S100000x1)
          : Vec F S100352x1 .i32) := by
  simp only [opsB, hostOps1, hostOps1_1, hostOps1_2, hostOps1_3, hostOps1_4, hostOps1_5, List.cons_append, List.nil_append]
  after_results
  rfl

/-! ### The line between the second call and the third -/

/-- The second call's output, summed over the cores and reshaped. -/
theorem C_v76 :
    StableHlo.after opsC X (Proc.devRef .tc main_v76) = (post (X (Proc.devRef .tc main_v74)) : Vec F S64x32x32 .f32) := by
  simp only [opsC, hostOps2, hostOps2_1, hostOps2_2, hostOps2_3, hostOps2_4, hostOps2_5, hostOps2_6, hostOps2_7,
    List.cons_append, List.nil_append]
  after_results
  rfl
/-- The table gathered at the faces' first, second and third vertices, padded. -/
theorem C_v78 :
    StableHlo.after opsC X (Proc.devRef .tc main_v78) = (padF4 (X (Proc.devRef .tc main_v32)) : Vec F S80896x4 .f32) := by
  simp only [opsC, hostOps2, hostOps2_1, hostOps2_2, hostOps2_3, hostOps2_4, hostOps2_5, hostOps2_6, hostOps2_7,
    List.cons_append, List.nil_append]
  after_results
  rfl
theorem C_v79 :
    StableHlo.after opsC X (Proc.devRef .tc main_v79) = (padF4 (X (Proc.devRef .tc main_v39)) : Vec F S80896x4 .f32) := by
  simp only [opsC, hostOps2, hostOps2_1, hostOps2_2, hostOps2_3, hostOps2_4, hostOps2_5, hostOps2_6, hostOps2_7,
    List.cons_append, List.nil_append]
  after_results
  rfl
theorem C_v80 :
    StableHlo.after opsC X (Proc.devRef .tc main_v80) = (padF4 (X (Proc.devRef .tc main_v46)) : Vec F S80896x4 .f32) := by
  simp only [opsC, hostOps2, hostOps2_1, hostOps2_2, hostOps2_3, hostOps2_4, hostOps2_5, hostOps2_6, hostOps2_7,
    List.cons_append, List.nil_append]
  after_results
  rfl
/-- The faces' graph ids as a column, padded. -/
theorem C_v81 :
    StableHlo.after opsC X (Proc.devRef .tc main_v81)
      = (padF1 (shapeCast S80000x1 (X (Proc.devRef .tc main_v60) : IVec S80000 32) shapeCasts_S80000_S80000x1)
          : Vec F S80896x1 .i32) := by
  simp only [opsC, hostOps2, hostOps2_1, hostOps2_2, hostOps2_3, hostOps2_4, hostOps2_5, hostOps2_6, hostOps2_7,
    List.cons_append, List.nil_append]
  after_results
  rfl

end Lines

/-! ### The line before the first call -/

section LineA
variable (X : Valuation τ sig (Elt F))

/-- The packed node table, padded: the first call's table operand. -/
theorem A_v65 :
    StableHlo.after opsA X (Proc.devRef .tc main_v65) = (in0_0 (X (Proc.devRef .tc main_arg0)) (X (Proc.devRef .tc main_arg1)) : Vec F S50176x4 .f32) := by
  simp only [opsA, hostOps0, hostOps0_1, hostOps0_2, hostOps0_3, List.cons_append, List.nil_append]
  after_results_simp
  rfl
/-- The nodes' graph ids as a column, padded: the first call's id operand. -/
theorem A_v66 :
    StableHlo.after opsA X (Proc.devRef .tc main_v66) = (in0_1 (X (Proc.devRef .tc main_arg6)) : Vec F S50176x1 .i32) := by
  simp only [opsA, hostOps0, hostOps0_1, hostOps0_2, hostOps0_3, List.cons_append, List.nil_append]
  after_results_simp
  rfl
/-- The thresholds repeated. -/
theorem A_v63 :
    StableHlo.after opsA X (Proc.devRef .tc main_v63) = (linRep (X (Proc.devRef .tc main_arg3)) : Vec F S1x1024 .f32) := by
  simp only [opsA, hostOps0, hostOps0_1, hostOps0_2, hostOps0_3, List.cons_append, List.nil_append]
  after_results_simp
  rfl
/-- The packed table gathered at the edges' first and second endpoints. -/
theorem A_v18 :
    StableHlo.after opsA X (Proc.devRef .tc main_v18)
      = (gatE (xwT (X (Proc.devRef .tc main_arg0)) (X (Proc.devRef .tc main_arg1))) (eRow0 (F := F) (X (Proc.devRef .tc main_arg4))) : Vec F S100000x4 .f32) := by
  simp only [opsA, hostOps0, hostOps0_1, hostOps0_2, hostOps0_3, List.cons_append, List.nil_append]
  after_results_simp
  rfl
theorem A_v25 :
    StableHlo.after opsA X (Proc.devRef .tc main_v25)
      = (gatE (xwT (X (Proc.devRef .tc main_arg0)) (X (Proc.devRef .tc main_arg1))) (eRow1 (F := F) (X (Proc.devRef .tc main_arg4))) : Vec F S100000x4 .f32) := by
  simp only [opsA, hostOps0, hostOps0_1, hostOps0_2, hostOps0_3, List.cons_append, List.nil_append]
  after_results_simp
  rfl
/-- The packed table gathered at the faces' three vertices. -/
theorem A_v32 :
    StableHlo.after opsA X (Proc.devRef .tc main_v32)
      = (gatF (xwT (X (Proc.devRef .tc main_arg0)) (X (Proc.devRef .tc main_arg1))) (fRow0 (F := F) (X (Proc.devRef .tc main_arg5))) : Vec F S80000x4 .f32) := by
  simp only [opsA, hostOps0, hostOps0_1, hostOps0_2, hostOps0_3, List.cons_append, List.nil_append]
  after_results_simp
  rfl
theorem A_v39 :
    StableHlo.after opsA X (Proc.devRef .tc main_v39)
      = (gatF (xwT (X (Proc.devRef .tc main_arg0)) (X (Proc.devRef .tc main_arg1))) (fRow1 (F := F) (X (Proc.devRef .tc main_arg5))) : Vec F S80000x4 .f32) := by
  simp only [opsA, hostOps0, hostOps0_1, hostOps0_2, hostOps0_3, List.cons_append, List.nil_append]
  after_results_simp
  rfl
theorem A_v46 :
    StableHlo.after opsA X (Proc.devRef .tc main_v46)
      = (gatF (xwT (X (Proc.devRef .tc main_arg0)) (X (Proc.devRef .tc main_arg1))) (fRow2 (F := F) (X (Proc.devRef .tc main_arg5))) : Vec F S80000x4 .f32) := by
  simp only [opsA, hostOps0, hostOps0_1, hostOps0_2, hostOps0_3, List.cons_append, List.nil_append]
  after_results_simp
  rfl
/-- The graph ids gathered at the edges' first endpoints and at the faces' first vertices. -/
theorem A_v53 :
    StableHlo.after opsA X (Proc.devRef .tc main_v53)
      = (gidE (F := F) (X (Proc.devRef .tc main_arg6)) (eRow0 (F := F) (X (Proc.devRef .tc main_arg4))) : IVec S100000 32) := by
  simp only [opsA, hostOps0, hostOps0_1, hostOps0_2, hostOps0_3, List.cons_append, List.nil_append]
  after_results_simp
  rfl
theorem A_v60 :
    StableHlo.after opsA X (Proc.devRef .tc main_v60)
      = (gidF (F := F) (X (Proc.devRef .tc main_arg6)) (fRow0 (F := F) (X (Proc.devRef .tc main_arg5))) : IVec S80000 32) := by
  simp only [opsA, hostOps0, hostOps0_1, hostOps0_2, hostOps0_3, List.cons_append, List.nil_append]
  after_results_simp
  rfl

end LineA

/-! ## Through the boundaries -/

variable (m : (ℓ : Loc nD τ sig) → Buf (Elt F) ℓ) (ρ : Dev nD → PrngReg)

/-! ### A line keeps the buffers it does not write -/

theorem keepA (c : Dev nD) {r : Ref sig .tc} (h : r ∉ wrA) :
    W4 m ρ c (Proc.devRef .tc r) = W0 m ρ c (Proc.devRef .tc r) :=
  (congrFun (W4_flat m ρ c) (Proc.devRef .tc r)).trans (StableHlo.after_of_writes_sub opsA _ wrA_sub h)
theorem keepB (c : Dev nD) {r : Ref sig .tc} (h : r ∉ wrB) :
    W11 m ρ c (Proc.devRef .tc r) = W5 m ρ c (Proc.devRef .tc r) :=
  (congrFun (W11_flat m ρ c) (Proc.devRef .tc r)).trans (StableHlo.after_of_writes_sub opsB _ wrB_sub h)
theorem keepC (c : Dev nD) {r : Ref sig .tc} (h : r ∉ wrC) :
    W20 m ρ c (Proc.devRef .tc r) = W12 m ρ c (Proc.devRef .tc r) :=
  (congrFun (W20_flat m ρ c) (Proc.devRef .tc r)).trans (StableHlo.after_of_writes_sub opsC _ wrC_sub h)
theorem keepD (c : Dev nD) {r : Ref sig .tc} (h : r ∉ wrD) :
    W22 m ρ c (Proc.devRef .tc r) = W21 m ρ c (Proc.devRef .tc r) :=
  StableHlo.after_of_writes_sub hostOps3 _ wrD_sub h

/-! ### A call leaves an input array as it found it -/

theorem thru0 (c : Dev nD) (w : Fin cfg0.W) (hin : (cfg0.win w).isOut = false) :
    W5 m ρ c (Proc.devRef .tc (Pipeline.arrRef spec0 w)) = W4 m ρ c (Proc.devRef .tc (Pipeline.arrRef spec0 w)) :=
  (W5_arr m ρ c w).trans (((dat0 (V4 m ρ) c).arrAt_in w hin _).trans (A_eq0 (V4 m ρ) c w))
theorem thru1 (c : Dev nD) (w : Fin cfg1.W) (hin : (cfg1.win w).isOut = false) :
    W12 m ρ c (Proc.devRef .tc (Pipeline.arrRef spec1 w)) = W11 m ρ c (Proc.devRef .tc (Pipeline.arrRef spec1 w)) :=
  (W12_arr m ρ c w).trans (((dat1 (V11 m ρ) c).arrAt_in w hin _).trans (A_eq1 (V11 m ρ) c w))
theorem thru2 (c : Dev nD) (w : Fin cfg2.W) (hin : (cfg2.win w).isOut = false) :
    W21 m ρ c (Proc.devRef .tc (Pipeline.arrRef spec2 w)) = W20 m ρ c (Proc.devRef .tc (Pipeline.arrRef spec2 w)) :=
  (W21_arr m ρ c w).trans (((dat2 (V20 m ρ) c).arrAt_in w hin _).trans (A_eq2 (V20 m ρ) c w))

/-! ### The arguments end as launched -/

/-- A buffer no line writes and no call stages holds at the end what it held at the launch. -/
theorem W22_untouched (c : Dev nD) (r : Ref sig .tc) (hA : r ∉ wrA) (hB : r ∉ wrB) (hC : r ∉ wrC) (hD : r ∉ wrD)
    (h0 : ∀ w, Pipeline.arrRef spec0 w ≠ r) (h1 : ∀ w, Pipeline.arrRef spec1 w ≠ r) (h2 : ∀ w, Pipeline.arrRef spec2 w ≠ r) :
    W22 m ρ c (Proc.devRef .tc r) = W0 m ρ c (Proc.devRef .tc r) :=
  calc W22 m ρ c (Proc.devRef .tc r)
    _ = W21 m ρ c (Proc.devRef .tc r) := keepD m ρ c hD
    _ = W20 m ρ c (Proc.devRef .tc r) := W21_of_ne m ρ c r h2
    _ = W12 m ρ c (Proc.devRef .tc r) := keepC m ρ c hC
    _ = W11 m ρ c (Proc.devRef .tc r) := W12_of_ne m ρ c r h1
    _ = W5 m ρ c (Proc.devRef .tc r) := keepB m ρ c hB
    _ = W4 m ρ c (Proc.devRef .tc r) := W5_of_ne m ρ c r h0
    _ = W0 m ρ c (Proc.devRef .tc r) := keepA m ρ c hA

theorem W22_main_arg0 (c : Dev nD) : W22 m ρ c (Proc.devRef .tc main_arg0) = (m ((c : Thread nD τ).loc main_arg0)) :=
  W22_untouched m ρ c main_arg0 (by decide) (by decide) (by decide) (by decide) (by decide) (by decide) (by decide)
theorem W22_main_arg1 (c : Dev nD) : W22 m ρ c (Proc.devRef .tc main_arg1) = (m ((c : Thread nD τ).loc main_arg1)) :=
  W22_untouched m ρ c main_arg1 (by decide) (by decide) (by decide) (by decide) (by decide) (by decide) (by decide)
theorem W22_main_arg3 (c : Dev nD) : W22 m ρ c (Proc.devRef .tc main_arg3) = (m ((c : Thread nD τ).loc main_arg3)) :=
  W22_untouched m ρ c main_arg3 (by decide) (by decide) (by decide) (by decide) (by decide) (by decide) (by decide)
theorem W22_main_arg4 (c : Dev nD) : W22 m ρ c (Proc.devRef .tc main_arg4) = (m ((c : Thread nD τ).loc main_arg4)) :=
  W22_untouched m ρ c main_arg4 (by decide) (by decide) (by decide) (by decide) (by decide) (by decide) (by decide)
theorem W22_main_arg5 (c : Dev nD) : W22 m ρ c (Proc.devRef .tc main_arg5) = (m ((c : Thread nD τ).loc main_arg5)) :=
  W22_untouched m ρ c main_arg5 (by decide) (by decide) (by decide) (by decide) (by decide) (by decide) (by decide)
theorem W22_main_arg6 (c : Dev nD) : W22 m ρ c (Proc.devRef .tc main_arg6) = (m ((c : Thread nD τ).loc main_arg6)) :=
  W22_untouched m ρ c main_arg6 (by decide) (by decide) (by decide) (by decide) (by decide) (by decide) (by decide)

/-- The directions are an input array of every call: each call hands them back as it found them. -/
theorem W4_main_arg2 (c : Dev nD) : W4 m ρ c (Proc.devRef .tc main_arg2) = (m ((c : Thread nD τ).loc main_arg2)) := keepA m ρ c (by decide)
theorem W11_main_arg2 (c : Dev nD) : W11 m ρ c (Proc.devRef .tc main_arg2) = (m ((c : Thread nD τ).loc main_arg2)) :=
  calc W11 m ρ c (Proc.devRef .tc main_arg2)
    _ = W5 m ρ c (Proc.devRef .tc main_arg2) := keepB m ρ c (by decide)
    _ = W4 m ρ c (Proc.devRef .tc main_arg2) := thru0 m ρ c 2 rfl
    _ = (m ((c : Thread nD τ).loc main_arg2)) := W4_main_arg2 m ρ c
theorem W20_main_arg2 (c : Dev nD) : W20 m ρ c (Proc.devRef .tc main_arg2) = (m ((c : Thread nD τ).loc main_arg2)) :=
  calc W20 m ρ c (Proc.devRef .tc main_arg2)
    _ = W12 m ρ c (Proc.devRef .tc main_arg2) := keepC m ρ c (by decide)
    _ = W11 m ρ c (Proc.devRef .tc main_arg2) := thru1 m ρ c 3 rfl
    _ = (m ((c : Thread nD τ).loc main_arg2)) := W11_main_arg2 m ρ c
theorem W22_main_arg2 (c : Dev nD) : W22 m ρ c (Proc.devRef .tc main_arg2) = (m ((c : Thread nD τ).loc main_arg2)) :=
  calc W22 m ρ c (Proc.devRef .tc main_arg2)
    _ = W21 m ρ c (Proc.devRef .tc main_arg2) := keepD m ρ c (by decide)
    _ = W20 m ρ c (Proc.devRef .tc main_arg2) := thru2 m ρ c 4 rfl
    _ = (m ((c : Thread nD τ).loc main_arg2)) := W20_main_arg2 m ρ c

/-! ### What the first call reads -/

theorem V4_main_v65 (c : Dev nD) : V4 m ρ c main_v65 = in0_0 (m ((c : Thread nD τ).loc main_arg0)) (m ((c : Thread nD τ).loc main_arg1)) :=
  (congrFun (W4_flat m ρ c) (Proc.devRef .tc main_v65)).trans (A_v65 (W0 m ρ c))
theorem V4_main_v66 (c : Dev nD) : V4 m ρ c main_v66 = in0_1 (m ((c : Thread nD τ).loc main_arg6)) :=
  (congrFun (W4_flat m ρ c) (Proc.devRef .tc main_v66)).trans (A_v66 (W0 m ρ c))
theorem V4_main_arg2 (c : Dev nD) : V4 m ρ c main_arg2 = (m ((c : Thread nD τ).loc main_arg2)) := W4_main_arg2 m ρ c
theorem V4_main_v63 (c : Dev nD) : V4 m ρ c main_v63 = linRep (m ((c : Thread nD τ).loc main_arg3)) :=
  (congrFun (W4_flat m ρ c) (Proc.devRef .tc main_v63)).trans (A_v63 (W0 m ρ c))

/-! ### The gathered tables and id columns, carried to the later calls -/

theorem W4_main_v18 (c : Dev nD) :
    W4 m ρ c (Proc.devRef .tc main_v18) = gatE (xwT (m ((c : Thread nD τ).loc main_arg0)) (m ((c : Thread nD τ).loc main_arg1))) (eRow0 (F := F) (m ((c : Thread nD τ).loc main_arg4))) :=
  (congrFun (W4_flat m ρ c) (Proc.devRef .tc main_v18)).trans (A_v18 (W0 m ρ c))
theorem W4_main_v25 (c : Dev nD) :
    W4 m ρ c (Proc.devRef .tc main_v25) = gatE (xwT (m ((c : Thread nD τ).loc main_arg0)) (m ((c : Thread nD τ).loc main_arg1))) (eRow1 (F := F) (m ((c : Thread nD τ).loc main_arg4))) :=
  (congrFun (W4_flat m ρ c) (Proc.devRef .tc main_v25)).trans (A_v25 (W0 m ρ c))
theorem W4_main_v32 (c : Dev nD) :
    W4 m ρ c (Proc.devRef .tc main_v32) = gatF (xwT (m ((c : Thread nD τ).loc main_arg0)) (m ((c : Thread nD τ).loc main_arg1))) (fRow0 (F := F) (m ((c : Thread nD τ).loc main_arg5))) :=
  (congrFun (W4_flat m ρ c) (Proc.devRef .tc main_v32)).trans (A_v32 (W0 m ρ c))
theorem W4_main_v39 (c : Dev nD) :
    W4 m ρ c (Proc.devRef .tc main_v39) = gatF (xwT (m ((c : Thread nD τ).loc main_arg0)) (m ((c : Thread nD τ).loc main_arg1))) (fRow1 (F := F) (m ((c : Thread nD τ).loc main_arg5))) :=
  (congrFun (W4_flat m ρ c) (Proc.devRef .tc main_v39)).trans (A_v39 (W0 m ρ c))
theorem W4_main_v46 (c : Dev nD) :
    W4 m ρ c (Proc.devRef .tc main_v46) = gatF (xwT (m ((c : Thread nD τ).loc main_arg0)) (m ((c : Thread nD τ).loc main_arg1))) (fRow2 (F := F) (m ((c : Thread nD τ).loc main_arg5))) :=
  (congrFun (W4_flat m ρ c) (Proc.devRef .tc main_v46)).trans (A_v46 (W0 m ρ c))
theorem W4_main_v53 (c : Dev nD) :
    W4 m ρ c (Proc.devRef .tc main_v53) = gidE (F := F) (m ((c : Thread nD τ).loc main_arg6)) (eRow0 (F := F) (m ((c : Thread nD τ).loc main_arg4))) :=
  (congrFun (W4_flat m ρ c) (Proc.devRef .tc main_v53)).trans (A_v53 (W0 m ρ c))
theorem W4_main_v60 (c : Dev nD) :
    W4 m ρ c (Proc.devRef .tc main_v60) = gidF (F := F) (m ((c : Thread nD τ).loc main_arg6)) (fRow0 (F := F) (m ((c : Thread nD τ).loc main_arg5))) :=
  (congrFun (W4_flat m ρ c) (Proc.devRef .tc main_v60)).trans (A_v60 (W0 m ρ c))

/-- A buffer the second line does not write and the first two calls do not stage holds, when the second call returns,
    what it held when the first call was entered. -/
theorem W12_kept (c : Dev nD) (r : Ref sig .tc) (hB : r ∉ wrB) (h0 : ∀ w, Pipeline.arrRef spec0 w ≠ r)
    (h1 : ∀ w, Pipeline.arrRef spec1 w ≠ r) : W12 m ρ c (Proc.devRef .tc r) = W4 m ρ c (Proc.devRef .tc r) :=
  calc W12 m ρ c (Proc.devRef .tc r)
    _ = W11 m ρ c (Proc.devRef .tc r) := W12_of_ne m ρ c r h1
    _ = W5 m ρ c (Proc.devRef .tc r) := keepB m ρ c hB
    _ = W4 m ρ c (Proc.devRef .tc r) := W5_of_ne m ρ c r h0

/-! ### What the second call reads -/

theorem V11_main_v71 (c : Dev nD) : V11 m ρ c main_v71 = in1_0 (m ((c : Thread nD τ).loc main_arg0)) (m ((c : Thread nD τ).loc main_arg1)) (m ((c : Thread nD τ).loc main_arg4)) :=
  ((congrFun (W11_flat m ρ c) (Proc.devRef .tc main_v71)).trans (B_v71 (W5 m ρ c))).trans
    (congrArg (padE4 (F := F)) ((W5_of_ne m ρ c main_v18 (by decide)).trans (W4_main_v18 m ρ c)))
theorem V11_main_v72 (c : Dev nD) : V11 m ρ c main_v72 = in1_1 (m ((c : Thread nD τ).loc main_arg0)) (m ((c : Thread nD τ).loc main_arg1)) (m ((c : Thread nD τ).loc main_arg4)) :=
  ((congrFun (W11_flat m ρ c) (Proc.devRef .tc main_v72)).trans (B_v72 (W5 m ρ c))).trans
    (congrArg (padE4 (F := F)) ((W5_of_ne m ρ c main_v25 (by decide)).trans (W4_main_v25 m ρ c)))
theorem V11_main_v73 (c : Dev nD) : V11 m ρ c main_v73 = in1_2 (F := F) (m ((c : Thread nD τ).loc main_arg4)) (m ((c : Thread nD τ).loc main_arg6)) :=
  ((congrFun (W11_flat m ρ c) (Proc.devRef .tc main_v73)).trans (B_v73 (W5 m ρ c))).trans
    (congrArg (fun z : IVec S100000 32 => padE1 (shapeCast S100000x1 z shapeCasts_S100000_S100000x1))
      ((W5_of_ne m ρ c main_v53 (by decide)).trans (W4_main_v53 m ρ c)))
theorem V11_main_arg2 (c : Dev nD) : V11 m ρ c main_arg2 = (m ((c : Thread nD τ).loc main_arg2)) := W11_main_arg2 m ρ c
theorem V11_main_v63 (c : Dev nD) : V11 m ρ c main_v63 = linRep (m ((c : Thread nD τ).loc main_arg3)) :=
  calc W11 m ρ c (Proc.devRef .tc main_v63)
    _ = W5 m ρ c (Proc.devRef .tc main_v63) := keepB m ρ c (by decide)
    _ = W4 m ρ c (Proc.devRef .tc main_v63) := thru0 m ρ c 3 rfl
    _ = linRep (m ((c : Thread nD τ).loc main_arg3)) := V4_main_v63 m ρ c

/-! ### What the third call reads -/

theorem V20_main_v78 (c : Dev nD) : V20 m ρ c main_v78 = in2_0 (m ((c : Thread nD τ).loc main_arg0)) (m ((c : Thread nD τ).loc main_arg1)) (m ((c : Thread nD τ).loc main_arg5)) :=
  ((congrFun (W20_flat m ρ c) (Proc.devRef .tc main_v78)).trans (C_v78 (W12 m ρ c))).trans
    (congrArg (padF4 (F := F)) ((W12_kept m ρ c main_v32 (by decide) (by decide) (by decide)).trans (W4_main_v32 m ρ c)))
theorem V20_main_v79 (c : Dev nD) : V20 m ρ c main_v79 = in2_1 (m ((c : Thread nD τ).loc main_arg0)) (m ((c : Thread nD τ).loc main_arg1)) (m ((c : Thread nD τ).loc main_arg5)) :=
  ((congrFun (W20_flat m ρ c) (Proc.devRef .tc main_v79)).trans (C_v79 (W12 m ρ c))).trans
    (congrArg (padF4 (F := F)) ((W12_kept m ρ c main_v39 (by decide) (by decide) (by decide)).trans (W4_main_v39 m ρ c)))
theorem V20_main_v80 (c : Dev nD) : V20 m ρ c main_v80 = in2_2 (m ((c : Thread nD τ).loc main_arg0)) (m ((c : Thread nD τ).loc main_arg1)) (m ((c : Thread nD τ).loc main_arg5)) :=
  ((congrFun (W20_flat m ρ c) (Proc.devRef .tc main_v80)).trans (C_v80 (W12 m ρ c))).trans
    (congrArg (padF4 (F := F)) ((W12_kept m ρ c main_v46 (by decide) (by decide) (by decide)).trans (W4_main_v46 m ρ c)))
theorem V20_main_v81 (c : Dev nD) : V20 m ρ c main_v81 = in2_3 (F := F) (m ((c : Thread nD τ).loc main_arg5)) (m ((c : Thread nD τ).loc main_arg6)) :=
  ((congrFun (W20_flat m ρ c) (Proc.devRef .tc main_v81)).trans (C_v81 (W12 m ρ c))).trans
    (congrArg (fun z : IVec S80000 32 => padF1 (shapeCast S80000x1 z shapeCasts_S80000_S80000x1))
      ((W12_kept m ρ c main_v60 (by decide) (by decide) (by decide)).trans (W4_main_v60 m ρ c)))
theorem V20_main_arg2 (c : Dev nD) : V20 m ρ c main_arg2 = (m ((c : Thread nD τ).loc main_arg2)) := W20_main_arg2 m ρ c
theorem V20_main_v63 (c : Dev nD) : V20 m ρ c main_v63 = linRep (m ((c : Thread nD τ).loc main_arg3)) :=
  calc W20 m ρ c (Proc.devRef .tc main_v63)
    _ = W12 m ρ c (Proc.devRef .tc main_v63) := keepC m ρ c (by decide)
    _ = W11 m ρ c (Proc.devRef .tc main_v63) := thru1 m ρ c 4 rfl
    _ = linRep (m ((c : Thread nD τ).loc main_arg3)) := V11_main_v63 m ρ c

/-! ### The result -/

/-- The first call's output, posted between the first two calls, is carried through the second and third calls. -/
theorem W21_main_v69 (c : Dev nD) :
    W21 m ρ c (Proc.devRef .tc main_v69) = post ((dat0 (V4 m ρ) c).arrAt 4 cfg0.N) :=
  calc W21 m ρ c (Proc.devRef .tc main_v69)
    _ = W20 m ρ c (Proc.devRef .tc main_v69) := W21_of_ne m ρ c main_v69 (by decide)
    _ = W12 m ρ c (Proc.devRef .tc main_v69) := keepC m ρ c (by decide)
    _ = W11 m ρ c (Proc.devRef .tc main_v69) := W12_of_ne m ρ c main_v69 (by decide)
    _ = post (W5 m ρ c (Proc.devRef .tc main_v67)) := (congrFun (W11_flat m ρ c) (Proc.devRef .tc main_v69)).trans (B_v69 (W5 m ρ c))
    _ = post ((dat0 (V4 m ρ) c).arrAt 4 cfg0.N) := congrArg (post (F := F)) (W5_arr m ρ c 4)
/-- The second call's output, posted between the last two calls, is carried through the third call. -/
theorem W21_main_v76 (c : Dev nD) :
    W21 m ρ c (Proc.devRef .tc main_v76) = post ((dat1 (V11 m ρ) c).arrAt 5 cfg1.N) :=
  calc W21 m ρ c (Proc.devRef .tc main_v76)
    _ = W20 m ρ c (Proc.devRef .tc main_v76) := W21_of_ne m ρ c main_v76 (by decide)
    _ = post (W12 m ρ c (Proc.devRef .tc main_v74)) := (congrFun (W20_flat m ρ c) (Proc.devRef .tc main_v76)).trans (C_v76 (W12 m ρ c))
    _ = post ((dat1 (V11 m ρ) c).arrAt 5 cfg1.N) := congrArg (post (F := F)) (W12_arr m ρ c 5)

/-- The program's result: the three calls' outputs, each summed over its two cores and reshaped, added. -/
theorem W22_main_v86 (c : Dev nD) :
    W22 m ρ c (Proc.devRef .tc main_v86)
      = total ((dat0 (V4 m ρ) c).arrAt 4 cfg0.N) ((dat1 (V11 m ρ) c).arrAt 5 cfg1.N) ((dat2 (V20 m ρ) c).arrAt 6 cfg2.N) := by
  refine (D_v86 (W21 m ρ c)).trans ?_
  rw [W21_main_v69 m ρ c, W21_main_v76 m ρ c, W21_arr m ρ c 6]
  rfl

end Cert.KernelIdeal.Hand

end
-- ==== Proof.KI.R0.Value.lean ====
/-
  Region 0 (the node call), its values. Each of the 98 grid points multiplies the one-hot matrix of its block's 512
  graph ids (transposed) with the block's 512 × 1024 table of weighted bumps and adds the 64 × 1024 product to the
  core's accumulator, which starts from zero at the core's first point. So after point n the accumulator is a fold
  over the points of n's core up to n, and the 2 × 64 × 1024 output array holds, in plane cc, core cc's accumulator
  after its 49th point. Everything here is stated for any float values; the sums are opened at an index elsewhere.
-/
import proofs.«429462_j65403761983812_3_alg».proof.Proof.KI.R0.Frame
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-! ## What each control case leaves, as a term of the blocks -/

/-- The zero offsets of the body's whole-buffer loads and stores. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One step's update of the accumulator: the block's one-hot product added to what it held. -/
def step0 (x0 : Vec F S512x4 .f32) (x1 : Vec F S512x1 .i32) (x2 : Vec F S3x32 .f32) (x3 : Vec F S1x1024 .f32) (acc : Vec F S64x1024 .f32) : Vec F S64x1024 .f32 :=
  k0_pay1 (k0_pay4 x2 x0 x3) (k0_pay5 x1) (constant S64x1024 .f32 0x00000000#32) acc

/-- A first step stores the zero block and then the zero block plus the product. -/
theorem soutA_eq (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : cond0_0 i) (hc1 : ¬cond0_1 i) (x0 : Vec F S512x4 .f32) (x1 : Vec F S512x1 .i32) (x2 : Vec F S3x32 .f32) (x3 : Vec F S1x1024 .f32) :
    sout0_A_0 c i arg2 harg2 arg3 harg3 arg4 harg4 arg5 harg5 arg6 harg6 arg7 harg7 hc0 hc1 x0 x1 x2 x3 = step0 x0 x1 x2 x3 k0_pay3 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S64x1024) hz2, View.readCov_unit_zero (S := S64x1024) _ hz2]
  unfold step0
  simp only [View.readAt_eq_ld, harg2.read_unread, harg3.read_unread, harg4.read_unread, harg5.read_unread, harg7.read_unread, View.ld_unit_zero (S := S512x4) hz2, View.ld_unit_zero (S := S512x1) hz2, View.ld_unit_zero (S := S3x32) hz2, View.ld_unit_zero (S := S1x1024) hz2, View.ld_unit_zero (S := S64x1024) hz2]

/-- A middle step stores what the accumulator held plus the product. -/
theorem soutB_eq (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : ¬cond0_1 i) (x0 : Vec F S512x4 .f32) (x1 : Vec F S512x1 .i32) (x2 : Vec F S3x32 .f32) (x3 : Vec F S1x1024 .f32) (xs0 : Vec F S64x1024 .f32) :
    sout0_B_0 c i arg2 harg2 arg3 harg3 arg4 harg4 arg5 harg5 arg6 harg6 arg7 harg7 hc0 hc1 x0 x1 x2 x3 xs0 = step0 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  unfold step0
  simp only [View.readAt_eq_ld, harg2.read_unread, harg3.read_unread, harg4.read_unread, harg5.read_unread, harg7.read_unread, View.ld_unit_zero (S := S512x4) hz2, View.ld_unit_zero (S := S512x1) hz2, View.ld_unit_zero (S := S3x32) hz2, View.ld_unit_zero (S := S1x1024) hz2, View.ld_unit_zero (S := S64x1024) hz2]

/-- A last step leaves the same in the accumulator as a middle step would. -/
theorem soutC_eq (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i) (x0 : Vec F S512x4 .f32) (x1 : Vec F S512x1 .i32) (x2 : Vec F S3x32 .f32) (x3 : Vec F S1x1024 .f32) (xs0 : Vec F S64x1024 .f32) :
    sout0_C_0 c i arg2 harg2 arg3 harg3 arg4 harg4 arg5 harg5 arg6 harg6 arg7 harg7 hc0 hc1 x0 x1 x2 x3 xs0 = step0 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  unfold step0
  simp only [View.readAt_eq_ld, harg2.read_unread, harg3.read_unread, harg4.read_unread, harg5.read_unread, harg7.read_unread, View.ld_unit_zero (S := S512x4) hz2, View.ld_unit_zero (S := S512x1) hz2, View.ld_unit_zero (S := S3x32) hz2, View.ld_unit_zero (S := S1x1024) hz2, View.ld_unit_zero (S := S64x1024) hz2]

/-- A last step stores into the output block the accumulator it has just updated, under the store's shape cast. -/
theorem outC_eq (c : Dev nD) (i : grid0.Coords) (arg2 : Memref sig .tc .vmem S512x4 .f32) (harg2 : arg2.IsWhole) (arg3 : Memref sig .tc .vmem S512x1 .i32) (harg3 : arg3.IsWhole) (arg4 : Memref sig .tc .vmem S3x32 .f32) (harg4 : arg4.IsWhole) (arg5 : Memref sig .tc .vmem S1x1024 .f32) (harg5 : arg5.IsWhole) (arg6 : Memref sig .tc .vmem S1x64x1024 .f32) (harg6 : arg6.IsWhole) (arg7 : Memref sig .tc .vmem S64x1024 .f32) (harg7 : arg7.IsWhole) (hc0 : ¬cond0_0 i) (hc1 : cond0_1 i) (x0 : Vec F S512x4 .f32) (x1 : Vec F S512x1 .i32) (x2 : Vec F S3x32 .f32) (x3 : Vec F S1x1024 .f32) (xs0 : Vec F S64x1024 .f32) :
    out0_C_4 c i arg2 harg2 arg3 harg3 arg4 harg4 arg5 harg5 arg6 harg6 arg7 harg7 hc0 hc1 x0 x1 x2 x3 xs0 = k0_pay2 (step0 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3]
  unfold step0
  simp only [View.readAt_eq_ld, harg2.read_unread, harg3.read_unread, harg4.read_unread, harg5.read_unread, harg7.read_unread, View.ld_unit_zero (S := S512x4) hz2, View.ld_unit_zero (S := S512x1) hz2, View.ld_unit_zero (S := S3x32) hz2, View.ld_unit_zero (S := S1x1024) hz2, View.ld_unit_zero (S := S64x1024) hz2, View.readCov_unit_zero (S := S64x1024) _ hz2]

/-! ## The accumulator and the output array as functions of the four input arrays -/

/-- The rows of the packed node table that point `t` works on. -/
abbrev nodeBlk0 (a0 : Vec F S50176x4 .f32) (t : Fin cfg0.N) : Vec F S512x4 .f32 := ((cfg0.win 0).blk t).view.read (Elt F) a0
/-- The graph ids of those rows. -/
abbrev idBlk0 (a1 : Vec F S50176x1 .i32) (t : Fin cfg0.N) : Vec F S512x1 .i32 := ((cfg0.win 1).blk t).view.read (Elt F) a1
/-- The directions: the whole 3 × 32 array at every point. -/
abbrev dirBlk0 (a2 : Vec F S3x32 .f32) (t : Fin cfg0.N) : Vec F S3x32 .f32 := ((cfg0.win 2).blk t).view.read (Elt F) a2
/-- The repeated thresholds: the whole 1 × 1024 array at every point. -/
abbrev linBlk0 (a3 : Vec F S1x1024 .f32) (t : Fin cfg0.N) : Vec F S1x1024 .f32 := ((cfg0.win 3).blk t).view.read (Elt F) a3

/-- The accumulator after point `n`: the point's product added to what the point before left, or to the zero block at a
    core's first point. -/
def acc0 (a0 : Vec F S50176x4 .f32) (a1 : Vec F S50176x1 .i32) (a2 : Vec F S3x32 .f32) (a3 : Vec F S1x1024 .f32) : (n : ℕ) → n < cfg0.N → Vec F S64x1024 .f32
  | 0, hn => step0 (nodeBlk0 a0 ⟨0, hn⟩) (idBlk0 a1 ⟨0, hn⟩) (dirBlk0 a2 ⟨0, hn⟩) (linBlk0 a3 ⟨0, hn⟩) k0_pay3
  | n + 1, hn => step0 (nodeBlk0 a0 ⟨n + 1, hn⟩) (idBlk0 a1 ⟨n + 1, hn⟩) (dirBlk0 a2 ⟨n + 1, hn⟩) (linBlk0 a3 ⟨n + 1, hn⟩)
      (if (n + 1) % 49 = 0 then k0_pay3 else acc0 a0 a1 a2 a3 n (Nat.lt_of_succ_lt hn))

/-- At a core's first point the accumulator is the point's product added to the zero block. -/
theorem acc0_first (a0 : Vec F S50176x4 .f32) (a1 : Vec F S50176x1 .i32) (a2 : Vec F S3x32 .f32) (a3 : Vec F S1x1024 .f32) (t : Fin cfg0.N) (h0 : t.val % 49 = 0) :
    acc0 a0 a1 a2 a3 t.val t.isLt = step0 (nodeBlk0 a0 t) (idBlk0 a1 t) (dirBlk0 a2 t) (linBlk0 a3 t) k0_pay3 := by
  obtain ⟨n, hn⟩ := t
  cases n with
  | zero => rfl
  | succ n => dsimp only at h0; rw [acc0, if_pos h0]

/-- At any other point it is the point's product added to what the point before left. -/
theorem acc0_next (a0 : Vec F S50176x4 .f32) (a1 : Vec F S50176x1 .i32) (a2 : Vec F S3x32 .f32) (a3 : Vec F S1x1024 .f32) (t : Fin cfg0.N) (h0 : ¬t.val % 49 = 0) (h' : t.val - 1 < cfg0.N) :
    acc0 a0 a1 a2 a3 t.val t.isLt = step0 (nodeBlk0 a0 t) (idBlk0 a1 t) (dirBlk0 a2 t) (linBlk0 a3 t) (acc0 a0 a1 a2 a3 (t.val - 1) h') := by
  obtain ⟨n, hn⟩ := t
  cases n with
  | zero => exact absurd (Nat.zero_mod _) h0
  | succ n => dsimp only at h0; rw [acc0, if_neg h0]; rfl

section
variable (V : (c : Dev nD) → (b : Ref sig .tc) → Buf (Elt F) ((c : Thread nD τ).loc b))

/-- What the run leaves in the accumulator after point `n` is `acc0` of the arrays as the region finds them. -/
theorem acc_eq (c : Dev nD) : ∀ (n : ℕ) (hn : n < cfg0.N),
    (outsAt0 V c n hn).2 = acc0 (V c main_v65) (V c main_v66) (V c main_arg2) (V c main_v63) n hn := by
  intro n
  induction n with
  | zero =>
    intro hn
    have h0 : (⟨0, hn⟩ : Fin cfg0.N).val % 49 = 0 := Nat.zero_mod _
    have h1 : ¬(⟨0, hn⟩ : Fin cfg0.N).val % 49 = 48 := by dsimp only; omega
    rw [outsAt0_A V c ⟨0, hn⟩ h0 h1]
    dsimp only
    exact soutA_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩)
  | succ n ih =>
    intro hn
    by_cases h0 : (⟨n + 1, hn⟩ : Fin cfg0.N).val % 49 = 0
    · have h1 : ¬(⟨n + 1, hn⟩ : Fin cfg0.N).val % 49 = 48 := by omega
      rw [outsAt0_A V c ⟨n + 1, hn⟩ h0 h1]
      dsimp only
      refine (soutA_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩)).trans ?_
      exact (acc0_first (V c main_v65) (V c main_v66) (V c main_arg2) (V c main_v63) ⟨n + 1, hn⟩ h0).symm
    · by_cases h1 : (⟨n + 1, hn⟩ : Fin cfg0.N).val % 49 = 48
      · rw [outsAt0_C V c ⟨n + 1, hn⟩ h0 h1]
        dsimp only
        refine (soutC_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2).trans ?_
        rw [ih (Nat.lt_of_succ_lt hn)]
        exact (acc0_next (V c main_v65) (V c main_v66) (V c main_arg2) (V c main_v63) ⟨n + 1, hn⟩ h0 (Nat.lt_of_succ_lt hn)).symm
      · rw [outsAt0_B V c ⟨n + 1, hn⟩ h0 h1]
        dsimp only
        refine (soutB_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 V c n (Nat.lt_of_succ_lt hn)).2).trans ?_
        rw [ih (Nat.lt_of_succ_lt hn)]
        exact (acc0_next (V c main_v65) (V c main_v66) (V c main_arg2) (V c main_v63) ⟨n + 1, hn⟩ h0 (Nat.lt_of_succ_lt hn)).symm
end

/-! ## The output array -/

/-- A core's last point, cc · 49 + 48, is a point of the grid. -/
theorem lastPt_lt (cc : Fin 2) : cc.val * 49 + 48 < cfg0.N := by
  have h : cc.val < 2 := cc.isLt
  have hN : cfg0.N = 98 := N_0
  omega

/-- Plane `cc` of the output array: what core `cc`'s accumulator holds after its last point, re-indexed by the store's
    shape cast; the planes side by side are the array. -/
def outArr0 (a0 : Vec F S50176x4 .f32) (a1 : Vec F S50176x1 .i32) (a2 : Vec F S3x32 .f32) (a3 : Vec F S1x1024 .f32) : Vec F S2x64x1024 .f32 :=
  fun i => k0_pay2 (acc0 a0 a1 a2 a3 ((i 0).val * 49 + 48) (lastPt_lt (i 0))) (ValueIdx.ix3 (0 : Fin 1) (i 1) (i 2))

/-- The output window's block index at a point: the core on axis 0, zero on the others (decided over the grid). -/
theorem idx_facts0_4 : ∀ t : Fin cfg0.N, win0_4.index t (0 : Fin 3) = t.val / 49 ∧ win0_4.index t (1 : Fin 3) = 0 ∧ win0_4.index t (2 : Fin 3) = 0 :=
  (by decide +kernel : ∀ t : Fin grid0.N, win0_4.index t (0 : Fin 3) = t.val / 49 ∧ win0_4.index t (1 : Fin 3) = 0 ∧ win0_4.index t (2 : Fin 3) = 0)

/-- The output entry depends only on the point's number and the index, not on how they are written. -/
theorem pay2_congr (a0 : Vec F S50176x4 .f32) (a1 : Vec F S50176x1 .i32) (a2 : Vec F S3x32 .f32) (a3 : Vec F S1x1024 .f32) (n n' : ℕ) (h : n < cfg0.N) (h' : n' < cfg0.N) (e : n = n') (j j' : S1x64x1024.Idx) (ej : j = j') :
    k0_pay2 (acc0 a0 a1 a2 a3 n h) j = k0_pay2 (acc0 a0 a1 a2 a3 n' h') j' := by
  subst e; subst ej; rfl

section
variable (V : (c : Dev nD) → (b : Ref sig .tc) → Buf (Elt F) ((c : Thread nD τ).loc b))

/-- What a core's last point writes back is its block of `outArr0`. -/
theorem flushed0_eq (c : Dev nD) (t : Fin cfg0.N) (hf : (cfg0.win 4).flush t = true) :
    (dat0 V c).flushed 4 t = ((cfg0.win 4).blk t).view.read (Elt F) (outArr0 (V c main_v65) (V c main_v66) (V c main_arg2) (V c main_v63)) := by
  have h1 : t.val % 49 = 48 := (flush0_4 t).mp hf
  have h0 : ¬t.val % 49 = 0 := by omega
  show (cfg0.win 4).cut (grid0.coords t) ((dat0 V c).after 4 t) = _
  rw [after0_4, outsAt0_C V c t h0 h1]
  dsimp only
  rw [outC_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2]
  rw [acc_eq V c (t.val - 1) (Nat.lt_of_le_of_lt (Nat.sub_le _ _) t.isLt)]
  have hstep : step0 (iblk0 V c 0 t) (iblk0 V c 1 t) (iblk0 V c 2 t) (iblk0 V c 3 t) (acc0 (V c main_v65) (V c main_v66) (V c main_arg2) (V c main_v63) (t.val - 1) (Nat.lt_of_le_of_lt (Nat.sub_le _ _) t.isLt)) = acc0 (V c main_v65) (V c main_v66) (V c main_arg2) (V c main_v63) t.val t.isLt :=
    (acc0_next (V c main_v65) (V c main_v66) (V c main_arg2) (V c main_v63) t h0 (Nat.lt_of_le_of_lt (Nat.sub_le _ _) t.isLt)).symm
  rw [hstep]
  obtain ⟨e0, e1, e2⟩ := idx_facts0_4 t
  funext y
  rw [View.read_apply]
  unfold outArr0
  refine pay2_congr (V c main_v65) (V c main_v66) (V c main_arg2) (V c main_v63) _ _ _ _ ?_ _ _ ?_
  · show t.val = (win0_4.index t (0 : Fin 3) * 1 + 1 * (y 0).val) * 49 + 48
    have hy : (y 0).val < 1 := (y 0).isLt
    rw [e0]; omega
  · funext a
    apply Fin.ext
    match a with
    | ⟨0, _⟩ => show (y 0).val = 0; have hy : (y 0).val < 1 := (y 0).isLt; omega
    | ⟨1, _⟩ => show (y 1).val = win0_4.index t (1 : Fin 3) * 64 + 1 * (y 1).val; rw [e1]; omega
    | ⟨2, _⟩ => show (y 2).val = win0_4.index t (2 : Fin 3) * 1024 + 1 * (y 2).val; rw [e2]; omega

/-- The output array after the call: `outArr0` of the four input arrays as the call finds them. The two last points'
    blocks are the array's two planes. -/
theorem arrAt0 (c : Dev nD) : (dat0 V c).arrAt 4 cfg0.N = outArr0 (V c main_v65) (V c main_v66) (V c main_arg2) (V c main_v63) :=
  (dat0 V c).arrAt_eq_of_cover 4 (outArr0 (V c main_v65) (V c main_v66) (V c main_arg2) (V c main_v63)) (flushed0_eq V c) fun i => by
    have hi0 : (i 0).val < 2 := (i 0).isLt
    have hi1 : (i 1).val < 64 := (i 1).isLt
    have hi2 : (i 2).val < 1024 := (i 2).isLt
    have hN : cfg0.N = 98 := N_0
    obtain ⟨t, ht⟩ : ∃ t : Fin cfg0.N, t.val = (i 0).val * 49 + 48 := ⟨⟨(i 0).val * 49 + 48, by omega⟩, rfl⟩
    obtain ⟨e0, e1, e2⟩ := idx_facts0_4 t
    refine ⟨t, (flush0_4 t).mpr (by omega), ?_⟩
    show i ∈ ((View.whole main_v67).slice (win0_4.rect t)).set
    rw [View.set_slice_whole, Rect.mem_set_unit]
    intro a
    match a with
    | ⟨0, _⟩ => show win0_4.index t (0 : Fin 3) * 1 ≤ (i 0).val ∧ (i 0).val < win0_4.index t (0 : Fin 3) * 1 + 1
                rw [e0]; omega
    | ⟨1, _⟩ => show win0_4.index t (1 : Fin 3) * 64 ≤ (i 1).val ∧ (i 1).val < win0_4.index t (1 : Fin 3) * 64 + 64
                rw [e1]; omega
    | ⟨2, _⟩ => show win0_4.index t (2 : Fin 3) * 1024 ≤ (i 2).val ∧ (i 2).val < win0_4.index t (2 : Fin 3) * 1024 + 1024
                rw [e2]; omega
end

end Cert.KernelIdeal.Hand

end
-- ==== Proof.Spec.lean ====
/-
  What both programs compute, as one function of the argument arrays over the extended reals.

  A node n has height  h(n, t) = Σ_k x[n, k] · v[k, t]  and weight w[n]. An edge's height is the smaller of its two
  endpoints' heights and its weight the larger of their weights; a face's likewise over its three vertices. Every
  simplex σ (node, edge or face) with height h_σ, weight w_σ and graph id g_σ contributes
      bump(s, t) = logistic(500 · (lin[s] − h_σ(t))) · w_σ
  to entry (g_σ, s, t) of a 64 × 32 × 32 array; the result is nodes − edges + faces. A simplex whose graph id, read
  as a signed integer, is not in 0 … 63 contributes nowhere. An index word into the node table counts from the end
  when negative and is then clamped into the table, as jnp's indexing does.

  The kernel's program folds the edges' sign into their weights (w_σ · (−1)) and adds; `specK` is that form, and
  `specK_eq_spec` (in the algebra module) joins the two when every float input is a real number.
-/
import Idealize.ShloMosaic.PureOps.Ideal
import Idealize.ShloMosaic.Lib.ValueIdx
import Mathlib.Algebra.BigOperators.Group.Finset.Basic
import Mathlib.Tactic.Linarith

open scoped BigOperators

noncomputable section

namespace Cert.Wecc

open Idealize.ShloMosaic Idealize.ShloMosaic.ValueIdx

/-- The sharpness 500, as the f32 word both programs carry. -/
abbrev sharp : EReal := Ideal.ofBits .f32 0x43FA0000#32
/-- The word of −1.0 the kernel multiplies the edges' weights by. -/
abbrev negOne : EReal := Ideal.ofBits .f32 0xBF800000#32

/-- The node a 32-bit index word names in the table of 50000 nodes: a negative word has 50000 added (it counts from
    the end), and the result, read signed, is clamped into 0 … 49999. -/
def node (w : BitVec 32) : Fin 50000 :=
  ⟨min (Scalar.select (IntOp.cmpi .slt w 0#32) (IntOp.addi w 50000#32) w).toInt.toNat 49999, by omega⟩

section
variable (x : (⟨2, ![50000, 3]⟩ : Shape).Idx → EReal) (wt : (⟨1, ![50000]⟩ : Shape).Idx → EReal)
  (v : (⟨2, ![3, 32]⟩ : Shape).Idx → EReal) (lin : (⟨1, ![32]⟩ : Shape).Idx → EReal)
  (ei : (⟨2, ![2, 100000]⟩ : Shape).Idx → BitVec 32) (fc : (⟨2, ![3, 80000]⟩ : Shape).Idx → BitVec 32)
  (bt : (⟨1, ![50000]⟩ : Shape).Idx → BitVec 32)

/-- A node's height along direction t. -/
def height (n : Fin 50000) (t : Fin 32) : EReal := ∑ k : Fin 3, x (ix2 n k) * v (ix2 k t)

/-- One simplex's contribution at threshold value `l`: logistic(500 · (l − h)) · w. -/
def bump (l h w : EReal) : EReal := Ideal.logistic (sharp * (l - h)) * w

/-- The two endpoints of edge e and the three vertices of face f, as nodes. -/
def e0 (e : Fin 100000) : Fin 50000 := node (ei (ix2 0 e))
def e1 (e : Fin 100000) : Fin 50000 := node (ei (ix2 1 e))
def f0 (f : Fin 80000) : Fin 50000 := node (fc (ix2 0 f))
def f1 (f : Fin 80000) : Fin 50000 := node (fc (ix2 1 f))
def f2 (f : Fin 80000) : Fin 50000 := node (fc (ix2 2 f))

def hE (e : Fin 100000) (t : Fin 32) : EReal := min (height x v (e0 ei e) t) (height x v (e1 ei e) t)
def wE (e : Fin 100000) : EReal := max (wt (ix1 (e0 ei e))) (wt (ix1 (e1 ei e)))
def gE (e : Fin 100000) : BitVec 32 := bt (ix1 (e0 ei e))
def hF (f : Fin 80000) (t : Fin 32) : EReal := min (min (height x v (f0 fc f) t) (height x v (f1 fc f) t)) (height x v (f2 fc f) t)
def wF (f : Fin 80000) : EReal := max (max (wt (ix1 (f0 fc f))) (wt (ix1 (f1 fc f)))) (wt (ix1 (f2 fc f)))
def gF (f : Fin 80000) : BitVec 32 := bt (ix1 (f0 fc f))

/-- The sum of `f` over the simplices whose graph id, read signed, is `b`. -/
def seg {n : ℕ} (g : Fin n → BitVec 32) (f : Fin n → EReal) (b : Fin 64) : EReal :=
  ∑ e ∈ Finset.univ.filter (fun e : Fin n => (g e).toInt = (b.val : ℤ)), f e

def segN (b : Fin 64) (s t : Fin 32) : EReal :=
  seg (fun n : Fin 50000 => bt (ix1 n)) (fun n => bump (lin (ix1 s)) (height x v n t) (wt (ix1 n))) b
def segE (b : Fin 64) (s t : Fin 32) : EReal :=
  seg (gE ei bt) (fun e => bump (lin (ix1 s)) (hE x v ei e t) (wE wt ei e)) b
/-- The edges with the sign folded into the weight, as the kernel's program has them. -/
def segE' (b : Fin 64) (s t : Fin 32) : EReal :=
  seg (gE ei bt) (fun e => bump (lin (ix1 s)) (hE x v ei e t) (wE wt ei e * negOne)) b
def segF (b : Fin 64) (s t : Fin 32) : EReal :=
  seg (gF fc bt) (fun f => bump (lin (ix1 s)) (hF x v fc f t) (wF wt fc f)) b

/-- nodes − edges + faces: the reference's form. -/
def spec (b : Fin 64) (s t : Fin 32) : EReal :=
  (segN x wt v lin bt b s t - segE x wt v lin ei bt b s t) + segF x wt v lin fc bt b s t
/-- nodes + (edges with weights negated) + faces: the kernel's form. -/
def specK (b : Fin 64) (s t : Fin 32) : EReal :=
  (segN x wt v lin bt b s t + segE' x wt v lin ei bt b s t) + segF x wt v lin fc bt b s t
end

/-! ## The kernel's side: one call's output as a double sum over its grid

Each of the three calls walks a table of M = 2 · steps · 512 padded rows: core cc takes the rows
(cc · steps + i) · 512 + r for i < steps and r < 512. Row R contributes hot(id_R, b) · bump to entry (b, j) of
its core's 64 × 1024 plane, where j = s · 32 + t runs over thresholds and directions. -/

/-- The word of 1.0 the kernel multiplies the nodes' and faces' weights by. -/
abbrev one : EReal := Ideal.ofBits .f32 0x3F800000#32

/-- The one-hot entry: 1 when the graph id word, read signed, is b, else 0. -/
def hot (g : BitVec 32) (b : Fin 64) : EReal := if g.toInt = (b.val : ℤ) then 1 else 0

/-- Row r of a packed table [x₀ x₁ x₂ w]: its height along direction t, summed as the kernel sums it, and its weight. -/
def rowH {M : ℕ} (a : (⟨2, ![M, 4]⟩ : Shape).Idx → EReal) (v : (⟨2, ![3, 32]⟩ : Shape).Idx → EReal) (r : Fin M) (t : Fin 32) : EReal :=
  (a (ix2 r 0) * v (ix2 0 t) + a (ix2 r 1) * v (ix2 1 t)) + a (ix2 r 2) * v (ix2 2 t)
def rowW {M : ℕ} (a : (⟨2, ![M, 4]⟩ : Shape).Idx → EReal) (r : Fin M) : EReal := a (ix2 r 3)

theorem grid_row_lt {steps M : ℕ} (hM : 2 * steps * 512 = M) (cc : Fin 2) (i : Fin steps) (r : Fin 512) :
    (cc.val * steps + i.val) * 512 + r.val < M := by
  have := cc.isLt; have := i.isLt; have := r.isLt
  subst hM
  have h1 : cc.val * steps + i.val + 1 ≤ 2 * steps := by
    have : cc.val ≤ 1 := by omega
    nlinarith
  nlinarith

/-- One call's output at (cc, b, j): the sum, over the core's steps and the 512 rows of each step's block, of the
    one-hot entry times the row's bump at threshold j / 32 … and direction j % 32. -/
def regionSum (steps : ℕ) {M : ℕ} (hM : 2 * steps * 512 = M) (idx : (⟨2, ![M, 1]⟩ : Shape).Idx → BitVec 32)
    (h : Fin M → Fin 32 → EReal) (w : Fin M → EReal) (linr : (⟨2, ![1, 1024]⟩ : Shape).Idx → EReal)
    (cc : Fin 2) (b : Fin 64) (j : Fin 1024) : EReal :=
  ∑ i : Fin steps, ∑ r : Fin 512,
    hot (idx (ix2 ⟨(cc.val * steps + i.val) * 512 + r.val, grid_row_lt hM cc i r⟩ 0)) b
      * bump (linr (ix2 0 j)) (h ⟨(cc.val * steps + i.val) * 512 + r.val, grid_row_lt hM cc i r⟩ ⟨j.val % 32, Nat.mod_lt _ (by decide)⟩)
          (w ⟨(cc.val * steps + i.val) * 512 + r.val, grid_row_lt hM cc i r⟩)

end Cert.Wecc

end
-- ==== Proof.KI.BodyIdx.lean ====
/-
  The arithmetic the three calls' bodies share, read at an index over the extended reals. Every body builds, from a
  block of 512 rows, (i) heights h(r, t) = Σ_k x[r, k] · v[k, t] out of columns of the packed rows and rows of v,
  (ii) the 512 × 1024 table  logistic(500 · (lin_rep[j] − h(r, j mod 32))) · w(r)  — 32 copies of h side by side
  against the repeated thresholds —, (iii) the 512 × 64 one-hot matrix of the rows' graph ids, and (iv) the product
  of the transposed one-hot matrix with the table: entry (b, j) sums, over the 512 rows, one-hot(r, b) · table(r, j).
-/
import proofs.«429462_j65403761983812_3_alg».proof.Proof.Gen.KernelIdeal
import proofs.«429462_j65403761983812_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate
import Mathlib.Algebra.BigOperators.Group.Finset.Basic

set_option maxRecDepth 16384

open scoped BigOperators

noncomputable section

namespace Cert.KernelIdeal.Hand

open Cert.KernelIdeal
open Idealize.ShloMosaic Idealize.ShloMosaic.TcCoe Idealize.ShloMosaic.ValueIdx
open Cert.Wecc (hot bump sharp)

/-! ## Heights and weights -/

/-- Column k of the packed block, spread along the 32 directions: entry (r, t) is the block's (r, k). -/
theorem col_apply (x0 : Vec Ideal S512x4 .f32) (off : Fin 2 → Nat) (k : Fin 3) (hoff : off = ![0, k.val])
    (h1 : S512x4.ShapeCasts S512x4) (h2 : S512x4.Slices ![0, 0] S512x3) (h3 : S512x3.Slices off S512x1)
    (h4 : S512x1.Broadcasts S512x32) (r : Fin 512) (t : Fin 32) :
    broadcastTo S512x32 (extractStridedSlice S512x1 off (extractStridedSlice S512x3 ![0, 0] (shapeCast S512x4 x0 h1) h2) h3) h4 (ix2 r t)
      = x0 (ix2 r ⟨k.val, by omega⟩) := by
  subst hoff
  refine (broadcastTo_apply _ h4 (ix2 r t) (ix2 r (0 : Fin 1)) fun a => ?_).trans ?_
  · match a with
    | ⟨0, _⟩ => rfl
    | ⟨1, _⟩ => rfl
  refine (extractStridedSlice_apply _ _ h3 (ix2 r (0 : Fin 1)) (ix2 r k) fun a => ?_).trans ?_
  · match a with
    | ⟨0, _⟩ => show r.val = 0 + r.val; omega
    | ⟨1, _⟩ => show k.val = k.val + 0; omega
  refine (extractStridedSlice_apply _ _ h2 (ix2 r k) (ix2 r (⟨k.val, by omega⟩ : Fin 4)) fun a => ?_).trans ?_
  · match a with
    | ⟨0, _⟩ => show r.val = 0 + r.val; omega
    | ⟨1, _⟩ => show k.val = 0 + k.val; omega
  rw [shapeCast_self]

/-- Row k of the directions, spread down the 512 rows: entry (r, t) is v's (k, t). -/
theorem dir_apply (x2 : Vec Ideal S3x32 .f32) (off : Fin 2 → Nat) (k : Fin 3) (hoff : off = ![k.val, 0])
    (h3 : S3x32.Slices off S1x32) (h4 : S1x32.Broadcasts S512x32) (r : Fin 512) (t : Fin 32) :
    broadcastTo S512x32 (extractStridedSlice S1x32 off x2 h3) h4 (ix2 r t) = x2 (ix2 k t) := by
  subst hoff
  refine (broadcastTo_apply _ h4 (ix2 r t) (ix2 (0 : Fin 1) t) fun a => ?_).trans ?_
  · match a with
    | ⟨0, _⟩ => rfl
    | ⟨1, _⟩ => rfl
  refine extractStridedSlice_apply _ _ h3 (ix2 (0 : Fin 1) t) (ix2 k t) fun a => ?_
  match a with
  | ⟨0, _⟩ => show k.val = k.val + 0; omega
  | ⟨1, _⟩ => show t.val = 0 + t.val; omega

/-- The weight column of the packed block: entry (r, 0) is the block's (r, 3). -/
theorem wcol_apply (x0 : Vec Ideal S512x4 .f32) (h1 : S512x4.ShapeCasts S512x4) (h3 : S512x4.Slices ![0, 3] S512x1) (r : Fin 512) :
    extractStridedSlice S512x1 ![0, 3] (shapeCast S512x4 x0 h1) h3 (ix2 r (0 : Fin 1)) = x0 (ix2 r (3 : Fin 4)) := by
  refine (extractStridedSlice_apply _ _ h3 (ix2 r (0 : Fin 1)) (ix2 r (3 : Fin 4)) fun a => ?_).trans ?_
  · match a with
    | ⟨0, _⟩ => show r.val = 0 + r.val; omega
    | ⟨1, _⟩ => rfl
  rw [shapeCast_self]

/-- The one-hot entry (r, b) — the id column spread along 64 lanes, compared with the lane number, widened and
    converted — is 1 when row r's graph id word, read signed, is b, else 0. -/
theorem onehot_apply (x1 : Vec Ideal S512x1 .i32) (hs : S512x1.ShapeCasts S512x1) (hb : S512x1.Broadcasts S512x64)
    (hi : S512x64.Iotas .tc 32 [1]) (hw : 1 < 32) (r : Fin 512) (b : Fin 64) :
    (sitofp .f32 (extui 32 (cmpi .eq (broadcastTo S512x64 (shapeCast S512x1 x1 hs) hb) (iota .tc S512x64 32 [1] hi)) hw) : FVec Ideal S512x64 .f32) (ix2 r b)
      = hot (x1 (ix2 r (0 : Fin 1))) b := by
  have e1 : broadcastTo S512x64 (shapeCast S512x1 x1 hs) hb (ix2 r b) = x1 (ix2 r (0 : Fin 1)) := by
    refine (broadcastTo_apply _ hb (ix2 r b) (ix2 r (0 : Fin 1)) fun a => ?_).trans ?_
    · match a with
      | ⟨0, _⟩ => rfl
      | ⟨1, _⟩ => rfl
    rw [shapeCast_self]
  have e2 : iota .tc S512x64 32 [1] hi (ix2 r b) = BitVec.ofNat 32 b.val :=
    iota_single_apply .tc S512x64 32 1 hi (ix2 r b)
  show (((((IntOp.cmpi .eq (broadcastTo S512x64 (shapeCast S512x1 x1 hs) hb (ix2 r b))
      (iota .tc S512x64 32 [1] hi (ix2 r b))).setWidth 32).toInt : ℝ) : EReal)) = _
  rw [e1, e2]
  unfold hot
  have hb64 : b.val < 64 := b.isLt
  have hbi : (BitVec.ofNat 32 b.val).toInt = (b.val : ℤ) := by
    rw [BitVec.toInt_eq_toNat_of_lt (by rw [BitVec.toNat_ofNat]; omega), BitVec.toNat_ofNat]; congr 1; omega
  by_cases hx : x1 (ix2 r (0 : Fin 1)) = BitVec.ofNat 32 b.val
  · rw [Idealize.ShloMosaic.StableHlo.Predicate.cmpi_eq_iff.mpr hx, if_pos (by rw [hx]; exact hbi)]
    norm_num
  · rw [eq_zero_of_ne_one (fun h => hx (Idealize.ShloMosaic.StableHlo.Predicate.cmpi_eq_iff.mp h)), if_neg (fun h => hx (BitVec.eq_of_toInt_eq (h.trans hbi.symm)))]
    norm_num

/-- Entry (r, j) of a block's table of weighted bumps, from its heights h (512 × 32) and weights w (512 × 1): the 32
    copies of h side by side read h at direction j mod 32, the thresholds are spread down the rows, the weights along
    them. -/
theorem bumps_apply (h : FVec Ideal S512x32 .f32) (w : FVec Ideal S512x1 .f32) (x3 : Vec Ideal S1x1024 .f32)
    (hc1 : S1x1024.ShapeCasts S1x1024) (hb1 : S1x1024.Broadcasts S512x1024) (hb2 : S512x1.Broadcasts S512x1024)
    (hcat : Shape.Concatenates ((List.replicate 32 (⟨S512x32, h⟩ : (s : Shape) × (s.Idx → Ideal .f32))).map (·.1)) S512x1024 1)
    (r : Fin 512) (j : Fin 1024) :
    mulf (logistic (mulf (broadcast S512x1024 (Scalar.ofBits (F := Ideal) .f32 0x43FA0000#32))
        (subf (broadcastTo S512x1024 (shapeCast S1x1024 x3 hc1) hb1)
          (concatenate S512x1024 1 (List.replicate 32 (⟨S512x32, h⟩ : (s : Shape) × (s.Idx → Ideal .f32))) hcat))))
      (broadcastTo S512x1024 w hb2) (ix2 r j)
      = bump (x3 (ix2 (0 : Fin 1) j)) (h (ix2 r ⟨j.val % 32, Nat.mod_lt _ (by decide)⟩)) (w (ix2 r (0 : Fin 1))) := by
  have e1 : broadcastTo S512x1024 (shapeCast S1x1024 x3 hc1) hb1 (ix2 r j) = x3 (ix2 (0 : Fin 1) j) := by
    refine (broadcastTo_apply _ hb1 (ix2 r j) (ix2 (0 : Fin 1) j) fun a => ?_).trans ?_
    · match a with
      | ⟨0, _⟩ => rfl
      | ⟨1, _⟩ => rfl
    rw [shapeCast_self]
  have e2 : concatenate S512x1024 1 (List.replicate 32 (⟨S512x32, h⟩ : (s : Shape) × (s.Idx → Ideal .f32))) hcat (ix2 r j)
      = h (ix2 r ⟨j.val % 32, Nat.mod_lt _ (by decide)⟩) := by
    refine concatenate_replicate_apply (t := S512x1024) (s₁ := S512x32) (1 : Fin 2) 32 h hcat rfl (ix2 r j) (ix2 r ⟨j.val % 32, Nat.mod_lt _ (by decide)⟩) rfl fun b hb => ?_
    match b with
    | ⟨0, _⟩ => rfl
    | ⟨1, _⟩ => exact absurd rfl hb
  have e3 : broadcastTo S512x1024 w hb2 (ix2 r j) = w (ix2 r (0 : Fin 1)) := by
    refine broadcastTo_apply _ hb2 (ix2 r j) (ix2 r (0 : Fin 1)) fun a => ?_
    match a with
    | ⟨0, _⟩ => rfl
    | ⟨1, _⟩ => rfl
  show Ideal.logistic (sharp * (broadcastTo S512x1024 (shapeCast S1x1024 x3 hc1) hb1 (ix2 r j)
      - concatenate S512x1024 1 (List.replicate 32 (⟨S512x32, h⟩ : (s : Shape) × (s.Idx → Ideal .f32))) hcat (ix2 r j)))
    * broadcastTo S512x1024 w hb2 (ix2 r j) = _
  rw [e1, e2, e3]
  rfl

/-! ### The product: contracting the 512 rows -/

theorem lhs_prod_0 (i : S64x1024.Idx) (q : dot_S512x64_S512x1024_S64x1024_0_0_1_1_n_n.contr.Idx) :
    (dot_S512x64_S512x1024_S64x1024_0_0_1_1_n_n.lhsIdx i q 0).val = (q ⟨0, by decide⟩).val :=
  dot_S512x64_S512x1024_S64x1024_0_0_1_1_n_n.lhsIdx_val_of_single rfl i q
theorem lhs_prod_1 (i : S64x1024.Idx) (q : dot_S512x64_S512x1024_S64x1024_0_0_1_1_n_n.contr.Idx) :
    (dot_S512x64_S512x1024_S64x1024_0_0_1_1_n_n.lhsIdx i q 1).val = (i 0).val := by
  unfold DotDims.lhsIdx
  rw [dif_neg (show ¬(1 : Fin S512x64.rank) ∈ dot_S512x64_S512x1024_S64x1024_0_0_1_1_n_n.lhsBatch by decide), dif_pos (show (1 : Fin S512x64.rank) ∈ dot_S512x64_S512x1024_S64x1024_0_0_1_1_n_n.lhsNonContracting by decide)]
  rfl
theorem rhs_prod_0 (i : S64x1024.Idx) (q : dot_S512x64_S512x1024_S64x1024_0_0_1_1_n_n.contr.Idx) :
    (dot_S512x64_S512x1024_S64x1024_0_0_1_1_n_n.rhsIdx i q 0).val = (q ⟨0, by decide⟩).val :=
  dot_S512x64_S512x1024_S64x1024_0_0_1_1_n_n.rhsIdx_val_of_single rfl i q
theorem rhs_prod_1 (i : S64x1024.Idx) (q : dot_S512x64_S512x1024_S64x1024_0_0_1_1_n_n.contr.Idx) :
    (dot_S512x64_S512x1024_S64x1024_0_0_1_1_n_n.rhsIdx i q 1).val = (i 1).val := by
  unfold DotDims.rhsIdx
  rw [dif_neg (show ¬(1 : Fin S512x1024.rank) ∈ dot_S512x64_S512x1024_S64x1024_0_0_1_1_n_n.rhsBatch by decide), dif_pos (show (1 : Fin S512x1024.rank) ∈ dot_S512x64_S512x1024_S64x1024_0_0_1_1_n_n.rhsNonContracting by decide)]
  rfl

/-- Entry (b, j) of the one-hot product: the sum over the block's 512 rows of the one-hot (r, b) times the table's (r, j). -/
theorem prod_apply (oh : FVec Ideal S512x64 .f32) (tb : FVec Ideal S512x1024 .f32) (b : Fin 64) (j : Fin 1024) :
    matmul dot_S512x64_S512x1024_S64x1024_0_0_1_1_n_n (some .fp32) oh tb (constant S64x1024 .f32 0x00000000#32) (ix2 b j)
      = ∑ r : Fin 512, oh (ix2 r b) * tb (ix2 r j) := by
  show FloatOps.matmul dot_S512x64_S512x1024_S64x1024_0_0_1_1_n_n (some .fp32) oh tb (constant S64x1024 .f32 0x00000000#32) (ix2 b j) = _
  rw [Ideal.matmul_constant_zero_apply, ← Equiv.sum_comp (ValueIdx.contrEquiv1 dot_S512x64_S512x1024_S64x1024_0_0_1_1_n_n 512 rfl rfl).symm]
  refine Finset.sum_congr rfl fun k _ => ?_
  have hk := ValueIdx.contrEquiv1_symm_val dot_S512x64_S512x1024_S64x1024_0_0_1_1_n_n 512 rfl rfl k
  have el : dot_S512x64_S512x1024_S64x1024_0_0_1_1_n_n.lhsIdx (ix2 b j) ((ValueIdx.contrEquiv1 dot_S512x64_S512x1024_S64x1024_0_0_1_1_n_n 512 rfl rfl).symm k) = ix2 k b := funext fun a => Fin.ext (by
    match a with
    | ⟨0, _⟩ => exact (lhs_prod_0 _ _).trans hk
    | ⟨1, _⟩ => exact lhs_prod_1 _ _)
  have er : dot_S512x64_S512x1024_S64x1024_0_0_1_1_n_n.rhsIdx (ix2 b j) ((ValueIdx.contrEquiv1 dot_S512x64_S512x1024_S64x1024_0_0_1_1_n_n 512 rfl rfl).symm k) = ix2 k j := funext fun a => Fin.ext (by
    match a with
    | ⟨0, _⟩ => exact (rhs_prod_0 _ _).trans hk
    | ⟨1, _⟩ => exact rhs_prod_1 _ _)
  rw [el, er]

end Cert.KernelIdeal.Hand

end
-- ==== Proof.KI.R0.ValueIdx.lean ====
/-
  Region 0 (the node call), its output at an index over the extended reals. One step adds to accumulator entry (b, j)
  the sum over the block's 512 rows of  one-hot(id_r, b) · logistic(500 · (lin_rep[j] − h_r(j mod 32))) · (w_r · 1),
  with h_r(t) = (x_r0 · v_0t + x_r1 · v_1t) + x_r2 · v_2t. Row r of point t's block is row t · 512 + r of the padded
  table, and core cc's points are cc · 49 … cc · 49 + 48; the accumulator starts a core from the zero block, and
  0 + x = x, so after the core's last step entry (b, j) is the double sum over the core's 49 steps and 512 rows.
  The output's plane cc is that accumulator, stored under a shape cast that only adds a unit axis.
-/
import proofs.«429462_j65403761983812_3_alg».proof.Proof.KI.R0.Value
import proofs.«429462_j65403761983812_3_alg».proof.Proof.KI.BodyIdx
import proofs.«429462_j65403761983812_3_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Group.Finset.Basic
import Mathlib.Algebra.BigOperators.Fin

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Cert.Wecc (hot bump rowH rowW one sharp regionSum)

/-! ## One step of the node call at an index -/

/-- Entry (r, j) of the block's table of weighted bumps: the row's height along direction j mod 32 against threshold j,
    times the row's weight (times the word 1.0 the node call carries). -/
theorem table_apply (x2 : Vec Ideal S3x32 .f32) (x0 : Vec Ideal S512x4 .f32) (x3 : Vec Ideal S1x1024 .f32) (r : Fin 512) (j : Fin 1024) :
    k0_pay4 (F := Ideal) x2 x0 x3 (ix2 r j)
      = bump (x3 (ix2 (0 : Fin 1) j)) (rowH x0 x2 r ⟨j.val % 32, Nat.mod_lt _ (by decide)⟩) (rowW x0 r * one) := by
  unfold k0_pay4
  refine (bumps_apply _ _ x3 shapeCasts_S1x1024_S1x1024 broadcasts_S1x1024_S512x1024 broadcasts_S512x1_S512x1024 concatenates_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x1024_d1 r j).trans ?_
  refine congrArg₂ (bump (x3 (ix2 (0 : Fin 1) j))) ?_ ?_
  · unfold rowH
    refine congrArg₂ (· + ·) (congrArg₂ (· + ·) (congrArg₂ (· * ·) ?_ ?_) (congrArg₂ (· * ·) ?_ ?_)) (congrArg₂ (· * ·) ?_ ?_)
    · exact col_apply x0 _ 0 rfl _ _ _ _ r _
    · exact dir_apply x2 _ 0 rfl _ _ r _
    · exact col_apply x0 _ 1 rfl _ _ _ _ r _
    · exact dir_apply x2 _ 1 rfl _ _ r _
    · exact col_apply x0 _ 2 rfl _ _ _ _ r _
    · exact dir_apply x2 _ 2 rfl _ _ r _
  · unfold rowW
    exact congrArg₂ (· * ·) (wcol_apply x0 _ _ r) rfl

/-- The zero block the accumulator starts a core from. -/
theorem zero_apply (i : S64x1024.Idx) : k0_pay3 (F := Ideal) i = 0 := by
  unfold k0_pay3
  refine (congrFun (shapeCast_self _ _) i).trans ?_
  exact Ideal.ofBits_zero_f32

/-- One step at (b, j): what the accumulator held there plus the sum over the block's 512 rows of one-hot times bump. -/
theorem step_apply (x0 : Vec Ideal S512x4 .f32) (x1 : Vec Ideal S512x1 .i32) (x2 : Vec Ideal S3x32 .f32) (x3 : Vec Ideal S1x1024 .f32)
    (acc : Vec Ideal S64x1024 .f32) (b : Fin 64) (j : Fin 1024) :
    step0 (F := Ideal) x0 x1 x2 x3 acc (ix2 b j)
      = acc (ix2 b j) + ∑ r : Fin 512, hot (x1 (ix2 r (0 : Fin 1))) b
          * bump (x3 (ix2 (0 : Fin 1) j)) (rowH x0 x2 r ⟨j.val % 32, Nat.mod_lt _ (by decide)⟩) (rowW x0 r * one) := by
  unfold step0 k0_pay1
  refine (congrFun (shapeCast_self _ _) (ix2 b j)).trans ?_
  show acc (ix2 b j) + matmul dot_S512x64_S512x1024_S64x1024_0_0_1_1_n_n (some .fp32) (k0_pay5 x1) (k0_pay4 x2 x0 x3) (constant S64x1024 .f32 0x00000000#32) (ix2 b j) = _
  rw [prod_apply]
  refine congrArg (acc (ix2 b j) + ·) (Finset.sum_congr rfl fun r _ => ?_)
  rw [table_apply]
  refine congrArg (· * _) ?_
  unfold k0_pay5
  exact onehot_apply x1 _ _ _ _ r b

/-! ## The blocks as rows of the arrays -/

/-- Where each input window's block sits at a point: the two row windows at block t, the two whole-array windows at 0. -/
theorem idx_facts0_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0)

/-- Row t · 512 + r is a row of the padded table of 98 · 512 rows. -/
theorem row_lt (t : Fin cfg0.N) (r : Fin 512) : t.val * 512 + r.val < 50176 := by
  have h1 : t.val < cfg0.N := t.isLt
  have hN : cfg0.N = 98 := N_0
  have h2 : r.val < 512 := r.isLt
  omega

/-- The node block's entry (r, k) is the table's entry (t · 512 + r, k). -/
theorem nodeBlk_apply (a0 : Vec Ideal S50176x4 .f32) (t : Fin cfg0.N) (r : Fin 512) (k : Fin 4) :
    nodeBlk0 a0 t (ix2 r k) = a0 (ix2 ⟨t.val * 512 + r.val, row_lt t r⟩ k) := by
  obtain ⟨e0, e1, -⟩ := idx_facts0_in t
  show ((cfg0.win 0).blk t).view.read (Elt Ideal) a0 (ix2 r k) = _
  rw [View.read_apply]
  show a0 _ = a0 _
  congr 1
  funext a
  apply Fin.ext
  match a with
  | ⟨0, _⟩ => show win0_0.index t (0 : Fin 2) * 512 + 1 * r.val = t.val * 512 + r.val; rw [e0]; omega
  | ⟨1, _⟩ => show win0_0.index t (1 : Fin 2) * 4 + 1 * k.val = k.val; rw [e1]; omega

/-- The id block's entry (r, 0) is the id column's entry t · 512 + r. -/
theorem idBlk_apply (a1 : Vec Ideal S50176x1 .i32) (t : Fin cfg0.N) (r : Fin 512) :
    idBlk0 a1 t (ix2 r (0 : Fin 1)) = a1 (ix2 ⟨t.val * 512 + r.val, row_lt t r⟩ (0 : Fin 1)) := by
  obtain ⟨-, -, e0, e1, -⟩ := idx_facts0_in t
  show ((cfg0.win 1).blk t).view.read (Elt Ideal) a1 (ix2 r (0 : Fin 1)) = _
  rw [View.read_apply]
  show a1 _ = a1 _
  congr 1
  funext a
  apply Fin.ext
  match a with
  | ⟨0, _⟩ => show win0_1.index t (0 : Fin 2) * 512 + 1 * r.val = t.val * 512 + r.val; rw [e0]; omega
  | ⟨1, _⟩ => show win0_1.index t (1 : Fin 2) * 1 + 1 * 0 = 0; rw [e1]

/-- The directions' block is the whole array at every point. -/
theorem dirBlk_eq (a2 : Vec Ideal S3x32 .f32) (t : Fin cfg0.N) : dirBlk0 a2 t = a2 := by
  obtain ⟨-, -, -, -, e0, e1, -⟩ := idx_facts0_in t
  funext y
  show ((cfg0.win 2).blk t).view.read (Elt Ideal) a2 y = _
  rw [View.read_apply]
  show a2 _ = a2 _
  congr 1
  funext a
  apply Fin.ext
  match a with
  | ⟨0, _⟩ => show win0_2.index t (0 : Fin 2) * 3 + 1 * (y 0).val = (y 0).val; rw [e0]; omega
  | ⟨1, _⟩ => show win0_2.index t (1 : Fin 2) * 32 + 1 * (y 1).val = (y 1).val; rw [e1]; omega

/-- The thresholds' block is the whole array at every point. -/
theorem linBlk_eq (a3 : Vec Ideal S1x1024 .f32) (t : Fin cfg0.N) : linBlk0 a3 t = a3 := by
  obtain ⟨-, -, -, -, -, -, e0, e1⟩ := idx_facts0_in t
  funext y
  show ((cfg0.win 3).blk t).view.read (Elt Ideal) a3 y = _
  rw [View.read_apply]
  show a3 _ = a3 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega

/-! ## A point's addend, and the fold over a core's points -/

/-- What point t adds at (b, j): the sum over its 512 rows, as rows of the whole arrays. -/
def ptTerm (a0 : Vec Ideal S50176x4 .f32) (a1 : Vec Ideal S50176x1 .i32) (a2 : Vec Ideal S3x32 .f32) (a3 : Vec Ideal S1x1024 .f32) (t : Fin cfg0.N) (b : Fin 64) (j : Fin 1024) : EReal :=
  ∑ r : Fin 512, hot (a1 (ix2 ⟨t.val * 512 + r.val, row_lt t r⟩ (0 : Fin 1))) b
    * bump (a3 (ix2 (0 : Fin 1) j)) (rowH a0 a2 ⟨t.val * 512 + r.val, row_lt t r⟩ ⟨j.val % 32, Nat.mod_lt _ (by decide)⟩)
        (rowW a0 ⟨t.val * 512 + r.val, row_lt t r⟩ * one)

/-- One step at point t, over the arrays' rows: the accumulator's entry plus the point's addend. -/
theorem step_pt (a0 : Vec Ideal S50176x4 .f32) (a1 : Vec Ideal S50176x1 .i32) (a2 : Vec Ideal S3x32 .f32) (a3 : Vec Ideal S1x1024 .f32) (t : Fin cfg0.N) (acc : Vec Ideal S64x1024 .f32) (b : Fin 64) (j : Fin 1024) :
    step0 (F := Ideal) (nodeBlk0 a0 t) (idBlk0 a1 t) (dirBlk0 a2 t) (linBlk0 a3 t) acc (ix2 b j)
      = acc (ix2 b j) + ptTerm a0 a1 a2 a3 t b j := by
  rw [step_apply, dirBlk_eq, linBlk_eq]
  unfold ptTerm
  refine congrArg (acc (ix2 b j) + ·) (Finset.sum_congr rfl fun r _ => ?_)
  rw [idBlk_apply]
  unfold rowH rowW
  rw [nodeBlk_apply a0 t r 0, nodeBlk_apply a0 t r 1, nodeBlk_apply a0 t r 2, nodeBlk_apply a0 t r 3]

/-- Step s of core cc is point cc · 49 + s of the grid. -/
theorem pt_lt (cc : Fin 2) (s : ℕ) (hs : s < 49) : cc.val * 49 + s < cfg0.N := by
  have h : cc.val < 2 := cc.isLt
  have hN : cfg0.N = 98 := N_0
  omega

/-- The accumulator after a point does not depend on how the point's number is written. -/
theorem acc0_congr (a0 : Vec Ideal S50176x4 .f32) (a1 : Vec Ideal S50176x1 .i32) (a2 : Vec Ideal S3x32 .f32) (a3 : Vec Ideal S1x1024 .f32) (n n' : ℕ) (h : n < cfg0.N) (h' : n' < cfg0.N) (e : n = n') :
    acc0 a0 a1 a2 a3 n h = acc0 a0 a1 a2 a3 n' h' := by
  subst e; rfl

/-- After step k of core cc the accumulator holds, at (b, j), the addends of the core's points up to that step. -/
theorem acc_sum (a0 : Vec Ideal S50176x4 .f32) (a1 : Vec Ideal S50176x1 .i32) (a2 : Vec Ideal S3x32 .f32) (a3 : Vec Ideal S1x1024 .f32) (cc : Fin 2) (b : Fin 64) (j : Fin 1024) :
    ∀ (k : ℕ) (hk : k < 49), acc0 (F := Ideal) a0 a1 a2 a3 (cc.val * 49 + k) (pt_lt cc k hk) (ix2 b j)
      = ∑ s ∈ Finset.range (k + 1), if hs : s < 49 then ptTerm a0 a1 a2 a3 ⟨cc.val * 49 + s, pt_lt cc s hs⟩ b j else 0 := by
  intro k
  induction k with
  | zero =>
    intro hk
    have h0 : (⟨cc.val * 49 + 0, pt_lt cc 0 hk⟩ : Fin cfg0.N).val % 49 = 0 := by dsimp only; omega
    refine (congrFun (acc0_first a0 a1 a2 a3 ⟨cc.val * 49 + 0, pt_lt cc 0 hk⟩ h0) (ix2 b j)).trans ?_
    rw [step_pt, zero_apply, zero_add, Finset.sum_range_one, dif_pos hk]
  | succ k ih =>
    intro hk
    have h0 : ¬(⟨cc.val * 49 + (k + 1), pt_lt cc (k + 1) hk⟩ : Fin cfg0.N).val % 49 = 0 := by dsimp only; omega
    have hprev : cc.val * 49 + (k + 1) - 1 < cfg0.N := by have := pt_lt cc (k + 1) hk; omega
    refine (congrFun (acc0_next a0 a1 a2 a3 ⟨cc.val * 49 + (k + 1), pt_lt cc (k + 1) hk⟩ h0 hprev) (ix2 b j)).trans ?_
    rw [step_pt, acc0_congr a0 a1 a2 a3 (cc.val * 49 + (k + 1) - 1) (cc.val * 49 + k) hprev (pt_lt cc k (by omega)) (by omega),
      ih (by omega), Finset.sum_range_succ _ (k + 1), dif_pos hk]

/-! ## The output array at an index -/

/-- Entry (cc, b, j) of the node call's output: the sum, over core cc's 49 steps and each step's 512 rows, of the one-hot
    entry times the row's bump. -/
theorem outArr0_apply (a0 : Vec Ideal S50176x4 .f32) (a1 : Vec Ideal S50176x1 .i32) (a2 : Vec Ideal S3x32 .f32) (a3 : Vec Ideal S1x1024 .f32) (cc : Fin 2) (b : Fin 64) (j : Fin 1024) :
    outArr0 (F := Ideal) a0 a1 a2 a3 (ValueIdx.ix3 cc b j)
      = Cert.Wecc.regionSum 49 (by norm_num) a1 (Cert.Wecc.rowH a0 a2) (fun r => Cert.Wecc.rowW a0 r * Cert.Wecc.one) a3 cc b j := by
  show k0_pay2 (acc0 a0 a1 a2 a3 (cc.val * 49 + 48) _) (ix3 (0 : Fin 1) b j) = _
  unfold k0_pay2
  refine (shapeCast_apply _ shapeCasts_S64x1024_S1x64x1024 (ix3 (0 : Fin 1) b j) (ix2 b j) ?_).trans ?_
  · rw [Shape.rowMajor_val_two, Shape.rowMajor_val_three]
    show b.val * 1024 + j.val = ((0 : ℕ) * 64 + b.val) * 1024 + j.val
    omega
  rw [acc_sum a0 a1 a2 a3 cc b j 48 (by omega), Finset.sum_range]
  unfold regionSum
  refine Finset.sum_congr rfl fun i _ => ?_
  rw [dif_pos i.isLt]
  rfl

end Cert.KernelIdeal.Hand

end
-- ==== Proof.KI.R1.Value.lean ====
/-
  Region 1 (the edge call), the values. One step of the body takes the five input blocks of the point — two packed
  [x | w] row tables, the graph-id column, the direction matrix, the repeated thresholds — and what the accumulator
  held, and leaves the accumulator plus the one-hot product of the block. Core cc starts from zeros at its first
  point 98·cc and adds one block per point; after its last point 98·cc + 97 the accumulator is copied into block
  cc of the 2 × 64 × 1024 output, the only points that write the output back. So the output array is, plane by
  plane, the fold of the step over the core's 98 points.
-/
import proofs.«429462_j65403761983812_3_alg».proof.Proof.KI.R1.Frame
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

open Idealize.ShloMosaic.ValueIdx

theorem hz1_2 : (![0, 0] : Fin 2 → Nat) = fun _ => 0 := funext fun a => by fin_cases a <;> rfl
theorem hz1_3 : (![0, 0, 0] : Fin 3 → Nat) = fun _ => 0 := funext fun a => by fin_cases a <;> rfl

/-! ## One step of the body -/

/-- The accumulator after one step: what it held, plus the one-hot matrix of the block's graph ids (transposed) times
    the block's 512 × 1024 slab of weighted logistic values; the edge's height is the smaller of its endpoints' and its
    weight the larger of theirs times −1. -/
def step1 (x0 x1 : Vec F S512x4 .f32) (x2 : Vec F S512x1 .i32) (x3 : Vec F S3x32 .f32) (x4 : Vec F S1x1024 .f32)
    (acc : Vec F S64x1024 .f32) : Vec F S64x1024 .f32 :=
  k1_pay1 (k1_pay6 x3 x0 x1) (k1_pay7 x0 x1) (Scalar.ofBits .f32 0xBF800000#32) x2 x4 acc

/-- The zeros a core's first step starts from. -/
abbrev zero1 : Vec F S64x1024 .f32 := k1_pay3 (F := F)

/-- A first step leaves one step over zeros: the reset's store is overwritten by the sum's. -/
theorem sout1_A_0_eq (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : cond1_0 i) (hc1 : ¬cond1_1 i)
    (x0 : Vec F S512x4 .f32) (x1 : Vec F S512x4 .f32) (x2 : Vec F S512x1 .i32) (x3 : Vec F S3x32 .f32) (x4 : Vec F S1x1024 .f32) :
    sout1_A_0 c i arg2 harg2 arg3 harg3 arg4 harg4 arg5 harg5 arg6 harg6 arg7 harg7 arg8 harg8 hc0 hc1 x0 x1 x2 x3 x4 = step1 x0 x1 x2 x3 x4 zero1 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S64x1024) hz1_2, View.readCov_unit_zero (S := S64x1024) _ hz1_2]
  simp only [View.readAt_eq_ld, harg2.read_unread, harg3.read_unread, harg4.read_unread, harg5.read_unread, harg6.read_unread, harg8.read_unread, View.ld_unit_zero (S := S512x4) hz1_2, View.ld_unit_zero (S := S512x1) hz1_2, View.ld_unit_zero (S := S3x32) hz1_2, View.ld_unit_zero (S := S1x1024) hz1_2, View.ld_unit_zero (S := S64x1024) hz1_2]
  rfl

/-- A middle step leaves one step over what the accumulator held. -/
theorem sout1_B_0_eq (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : ¬cond1_1 i)
    (x0 : Vec F S512x4 .f32) (x1 : Vec F S512x4 .f32) (x2 : Vec F S512x1 .i32) (x3 : Vec F S3x32 .f32) (x4 : Vec F S1x1024 .f32) (xs0 : Vec F S64x1024 .f32) :
    sout1_B_0 c i arg2 harg2 arg3 harg3 arg4 harg4 arg5 harg5 arg6 harg6 arg7 harg7 arg8 harg8 hc0 hc1 x0 x1 x2 x3 x4 xs0 = step1 x0 x1 x2 x3 x4 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero (S := S64x1024) hz1_2]
  simp only [View.readAt_eq_ld, harg2.read_unread, harg3.read_unread, harg4.read_unread, harg5.read_unread, harg6.read_unread, harg8.read_unread, View.ld_unit_zero (S := S512x4) hz1_2, View.ld_unit_zero (S := S512x1) hz1_2, View.ld_unit_zero (S := S3x32) hz1_2, View.ld_unit_zero (S := S1x1024) hz1_2, View.ld_unit_zero (S := S64x1024) hz1_2]
  rfl

/-- A last step leaves the same in the accumulator, -/
theorem sout1_C_0_eq (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) :
    sout1_C_0 c i arg2 harg2 arg3 harg3 arg4 harg4 arg5 harg5 arg6 harg6 arg7 harg7 arg8 harg8 hc0 hc1 x0 x1 x2 x3 x4 xs0 = step1 x0 x1 x2 x3 x4 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S64x1024) hz1_2]
  simp only [View.readAt_eq_ld, harg2.read_unread, harg3.read_unread, harg4.read_unread, harg5.read_unread, harg6.read_unread, harg8.read_unread, View.ld_unit_zero (S := S512x4) hz1_2, View.ld_unit_zero (S := S512x1) hz1_2, View.ld_unit_zero (S := S3x32) hz1_2, View.ld_unit_zero (S := S1x1024) hz1_2, View.ld_unit_zero (S := S64x1024) hz1_2]
  rfl

/-- and in the output buffer that accumulator, re-laid as a 1 × 64 × 1024 block. -/
theorem out1_C_5_eq (c : Dev nD) (i : grid1.Coords) (arg2 : Memref sig .tc .vmem S512x4 .f32) (harg2 : arg2.IsWhole) (arg3 : Memref sig .tc .vmem S512x4 .f32) (harg3 : arg3.IsWhole) (arg4 : Memref sig .tc .vmem S512x1 .i32) (harg4 : arg4.IsWhole) (arg5 : Memref sig .tc .vmem S3x32 .f32) (harg5 : arg5.IsWhole) (arg6 : Memref sig .tc .vmem S1x1024 .f32) (harg6 : arg6.IsWhole) (arg7 : Memref sig .tc .vmem S1x64x1024 .f32) (harg7 : arg7.IsWhole) (arg8 : Memref sig .tc .vmem S64x1024 .f32) (harg8 : arg8.IsWhole) (hc0 : ¬cond1_0 i) (hc1 : cond1_1 i)
    (x0 : Vec F S512x4 .f32) (x1 : Vec F S512x4 .f32) (x2 : Vec F S512x1 .i32) (x3 : Vec F S3x32 .f32) (x4 : Vec F S1x1024 .f32) (xs0 : Vec F S64x1024 .f32) :
    out1_C_5 c i arg2 harg2 arg3 harg3 arg4 harg4 arg5 harg5 arg6 harg6 arg7 harg7 arg8 harg8 hc0 hc1 x0 x1 x2 x3 x4 xs0 = k1_pay2 (step1 x0 x1 x2 x3 x4 xs0) := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S1x64x1024) hz1_3]
  simp only [View.readAt_eq_ld, harg2.read_unread, harg3.read_unread, harg4.read_unread, harg5.read_unread, harg6.read_unread, harg8.read_unread, View.ld_unit_zero (S := S512x4) hz1_2, View.ld_unit_zero (S := S512x1) hz1_2, View.ld_unit_zero (S := S3x32) hz1_2, View.ld_unit_zero (S := S1x1024) hz1_2, View.ld_unit_zero (S := S64x1024) hz1_2, View.readCov_unit_zero (S := S64x1024) _ hz1_2]
  rfl

/-! ## The blocks of the input arrays, and a core's accumulator as a fold -/

/-- Block `t` of each input array: the rows the point's index map selects for the three row tables, the whole
    array for the direction matrix and for the thresholds. -/
abbrev blk1_0 (a0 : Vec F S100352x4 .f32) (t : Fin cfg1.N) : Vec F S512x4 .f32 := ((cfg1.win 0).blk t).view.read (Elt F) a0
abbrev blk1_1 (a1 : Vec F S100352x4 .f32) (t : Fin cfg1.N) : Vec F S512x4 .f32 := ((cfg1.win 1).blk t).view.read (Elt F) a1
abbrev blk1_2 (a2 : Vec F S100352x1 .i32) (t : Fin cfg1.N) : Vec F S512x1 .i32 := ((cfg1.win 2).blk t).view.read (Elt F) a2
abbrev blk1_3 (a3 : Vec F S3x32 .f32) (t : Fin cfg1.N) : Vec F S3x32 .f32 := ((cfg1.win 3).blk t).view.read (Elt F) a3
abbrev blk1_4 (a4 : Vec F S1x1024 .f32) (t : Fin cfg1.N) : Vec F S1x1024 .f32 := ((cfg1.win 4).blk t).view.read (Elt F) a4

section
variable (a0 a1 : Vec F S100352x4 .f32) (a2 : Vec F S100352x1 .i32) (a3 : Vec F S3x32 .f32) (a4 : Vec F S1x1024 .f32)

/-- The step at point `n`, on that point's blocks. -/
def stepAt1 (n : ℕ) (hn : n < cfg1.N) (acc : Vec F S64x1024 .f32) : Vec F S64x1024 .f32 :=
  step1 (blk1_0 a0 ⟨n, hn⟩) (blk1_1 a1 ⟨n, hn⟩) (blk1_2 a2 ⟨n, hn⟩) (blk1_3 a3 ⟨n, hn⟩) (blk1_4 a4 ⟨n, hn⟩) acc

/-- The accumulator `j` points after point `b`, when point `b` starts from zeros: the fold of the step. -/
def acc1 (b : ℕ) : (j : ℕ) → b + j < cfg1.N → Vec F S64x1024 .f32 :=
  Pipeline.accAt (N := cfg1.N) (fun n hn => stepAt1 a0 a1 a2 a3 a4 n hn zero1) (fun n hn acc => stepAt1 a0 a1 a2 a3 a4 n hn acc) b

theorem last_lt1 (cc : Fin 2) : 98 * cc.val + 97 < cfg1.N := by
  have := cc.isLt; rw [show cfg1.N = 196 from N_1]; omega

/-- The output array: plane `cc` is core `cc`'s accumulator after its 98 points 98·cc … 98·cc + 97. -/
def outArr1 : Vec F S2x64x1024 .f32 := fun i =>
  acc1 a0 a1 a2 a3 a4 (98 * (i 0).val) 97 (last_lt1 (i 0)) (ix2 (i 1) (i 2))

end

/-! ## The run's contents are the fold -/

section
variable (V : (c : Dev nD) → (b : Ref sig .tc) → Buf (Elt F) ((c : Thread nD τ).loc b))

/-- The arrays of the five input windows as the region finds them, at their literal types. -/
abbrev arr1_0 (c : Dev nD) : Vec F S100352x4 .f32 := V c main_v71
abbrev arr1_1 (c : Dev nD) : Vec F S100352x4 .f32 := V c main_v72
abbrev arr1_2 (c : Dev nD) : Vec F S100352x1 .i32 := V c main_v73
abbrev arr1_3 (c : Dev nD) : Vec F S3x32 .f32 := V c main_arg2
abbrev arr1_4 (c : Dev nD) : Vec F S1x1024 .f32 := V c main_v63

/-- What the accumulator holds after point `n` is the fold over the points of `n`'s core up to `n`. -/
theorem acc_eq1 (c : Dev nD) (n : ℕ) (hn : n < cfg1.N) (h' : 98 * (n / 98) + n % 98 < cfg1.N) :
    (outsAt1 V c n hn).2 = acc1 (arr1_0 V c) (arr1_1 V c) (arr1_2 V c) (arr1_3 V c) (arr1_4 V c) (98 * (n / 98)) (n % 98) h' := by
  refine Pipeline.eq_accAt_of_mod (N := cfg1.N) (fun n hn => (outsAt1 V c n hn).2) 98
    (fun n hn => stepAt1 (arr1_0 V c) (arr1_1 V c) (arr1_2 V c) (arr1_3 V c) (arr1_4 V c) n hn zero1)
    (fun n hn acc => stepAt1 (arr1_0 V c) (arr1_1 V c) (arr1_2 V c) (arr1_3 V c) (arr1_4 V c) n hn acc)
    (fun n hn h0 => ?_) (fun n hn h0 => ?_) (by decide) n hn h'
  · have h1 : ¬(⟨n, hn⟩ : Fin cfg1.N).val % 98 = 97 := by dsimp only; omega
    show (outsAt1 V c (⟨n, hn⟩ : Fin cfg1.N).val _).2 = _
    rw [outsAt1_A V c ⟨n, hn⟩ h0 h1]
    dsimp only
    exact sout1_A_0_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) scM1_0 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩) (iblk1 V c 3 ⟨n, hn⟩) (iblk1 V c 4 ⟨n, hn⟩)
  · have h0' : ¬(⟨n + 1, hn⟩ : Fin cfg1.N).val % 98 = 0 := h0
    show (outsAt1 V c (⟨n + 1, hn⟩ : Fin cfg1.N).val _).2 = _
    by_cases h1 : (⟨n + 1, hn⟩ : Fin cfg1.N).val % 98 = 97
    · rw [outsAt1_C V c ⟨n + 1, hn⟩ h0' h1]
      dsimp only
      exact sout1_C_0_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0' ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)).2
    · rw [outsAt1_B V c ⟨n + 1, hn⟩ h0' h1]
      dsimp only
      exact sout1_B_0_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0' ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 V c n (Nat.lt_of_succ_lt hn)).2

/-- At a core's last point the output buffer holds the accumulator the point leaves, as a 1 × 64 × 1024 block. -/
theorem out_last1 (c : Dev nD) (t : Fin cfg1.N) (h0 : ¬t.val % 98 = 0) (h1 : t.val % 98 = 97) :
    (outsAt1 V c t.val t.isLt).1 = k1_pay2 (outsAt1 V c t.val t.isLt).2 := by
  rw [outsAt1_C V c t h0 h1]
  dsimp only
  rw [out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
    sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2]

/-! ## From the blocks to the output array -/

/-- The accumulator re-laid as a 1 × 64 × 1024 block reads, at (0, b, l), the accumulator at (b, l). -/
theorem k1_pay2_apply (X : Vec F S64x1024 .f32) (y : S1x64x1024.Idx) : k1_pay2 X y = X (ix2 (y 1) (y 2)) := by
  unfold k1_pay2
  refine (shapeCast_addUnit_apply ![64, 1024] X shapeCasts_S64x1024_S1x64x1024 y).trans ?_
  congr 1
  funext a
  match a with
  | ⟨0, _⟩ => rfl
  | ⟨1, _⟩ => rfl

/-- The output window's block index: the core on the leading axis, 0 on the others. -/
theorem idx_facts1_5 : ∀ t : Fin cfg1.N, win1_5.index t (0 : Fin 3) = t.val / 98 ∧ win1_5.index t (1 : Fin 3) = 0 ∧ win1_5.index t (2 : Fin 3) = 0 :=
  (by decide +kernel : ∀ t : Fin grid1.N, win1_5.index t (0 : Fin 3) = t.val / 98 ∧ win1_5.index t (1 : Fin 3) = 0 ∧ win1_5.index t (2 : Fin 3) = 0)

/-- The output array at an index of plane `q`, read as core `q`'s last accumulator. -/
theorem outArr1_at (a0 a1 : Vec F S100352x4 .f32) (a2 : Vec F S100352x1 .i32) (a3 : Vec F S3x32 .f32) (a4 : Vec F S1x1024 .f32)
    (e : S2x64x1024.Idx) (q j : ℕ) (hq : (e 0).val = q) (hj : j = 97) (h' : 98 * q + j < cfg1.N)
    (b : Fin 64) (l : Fin 1024) (hb : (e 1).val = b.val) (hl : (e 2).val = l.val) :
    outArr1 a0 a1 a2 a3 a4 e = acc1 a0 a1 a2 a3 a4 (98 * q) j h' (ix2 b l) := by
  subst hq hj
  unfold outArr1
  refine congrArg _ ?_
  funext a
  match a with
  | ⟨0, _⟩ => exact Fin.ext hb
  | ⟨1, _⟩ => exact Fin.ext hl

/-- What a core's last point writes back is its block of the output array. -/
theorem flushed1_eq (c : Dev nD) (t : Fin cfg1.N) (hf : (cfg1.win 5).flush t = true) :
    (dat1 V c).flushed 5 t = ((cfg1.win 5).blk t).view.read (Elt F) (outArr1 (arr1_0 V c) (arr1_1 V c) (arr1_2 V c) (arr1_3 V c) (arr1_4 V c)) := by
  have h1 : t.val % 98 = 97 := (flush1_5 t).mp hf
  have h0 : ¬t.val % 98 = 0 := by omega
  have h' : 98 * (t.val / 98) + t.val % 98 < cfg1.N := by have := t.isLt; omega
  show (cfg1.win 5).cut (grid1.coords t) ((dat1 V c).after 5 t) = _
  rw [after1_5, out_last1 V c t h0 h1, acc_eq1 V c t.val t.isLt h']
  obtain ⟨e0, e1, e2⟩ := idx_facts1_5 t
  funext y
  rw [View.read_apply]
  show k1_pay2 (acc1 (arr1_0 V c) (arr1_1 V c) (arr1_2 V c) (arr1_3 V c) (arr1_4 V c) (98 * (t.val / 98)) (t.val % 98) h') y
    = outArr1 (arr1_0 V c) (arr1_1 V c) (arr1_2 V c) (arr1_3 V c) (arr1_4 V c) (((cfg1.win 5).blk t).view.emb y)
  rw [k1_pay2_apply]
  refine (outArr1_at (arr1_0 V c) (arr1_1 V c) (arr1_2 V c) (arr1_3 V c) (arr1_4 V c) (((cfg1.win 5).blk t).view.emb y)
    (t.val / 98) (t.val % 98) ?_ h1 h' (y 1) (y 2) ?_ ?_).symm
  · show win1_5.index t (0 : Fin 3) * 1 + 1 * (y 0).val = t.val / 98
    have : (y 0).val < 1 := (y 0).isLt
    rw [e0]; omega
  · show win1_5.index t (1 : Fin 3) * 64 + 1 * (y 1).val = (y 1).val
    rw [e1]; omega
  · show win1_5.index t (2 : Fin 3) * 1024 + 1 * (y 2).val = (y 2).val
    rw [e2]; omega

/-- An index of the output array is in point `t`'s block iff each coordinate is in the block's range on its axis. -/
theorem mem_blk1_5 (t : Fin cfg1.N) (i : S2x64x1024.Idx) :
    i ∈ ((cfg1.win 5).blk t).view.set ↔ ∀ a : Fin 3, win1_5.index t a * S1x64x1024.size a ≤ (i a).val ∧ (i a).val < win1_5.index t a * S1x64x1024.size a + S1x64x1024.size a := by
  show i ∈ ((View.whole main_v74).slice (win1_5.rect t)).set ↔ _
  rw [View.set_slice_whole, Rect.mem_set_unit]
  exact Iff.rfl

/-- Every index of the output array is in the block its plane's core writes back at its last point. -/
theorem cover1_5 (i : S2x64x1024.Idx) : ∃ t : Fin cfg1.N, (cfg1.win 5).flush t = true ∧ i ∈ ((cfg1.win 5).blk t).view.set := by
  have hi0 : (i 0).val < 2 := (i 0).isLt
  have hi1 : (i 1).val < 64 := (i 1).isLt
  have hi2 : (i 2).val < 1024 := (i 2).isLt
  refine ⟨⟨98 * (i 0).val + 97, last_lt1 (i 0)⟩, (flush1_5 _).mpr (by show (98 * (i 0).val + 97) % 98 = 97; omega), ?_⟩
  obtain ⟨e0, e1, e2⟩ := idx_facts1_5 ⟨98 * (i 0).val + 97, last_lt1 (i 0)⟩
  have e0' : win1_5.index ⟨98 * (i 0).val + 97, last_lt1 (i 0)⟩ (0 : Fin 3) = (i 0).val := by
    rw [e0]; show (98 * (i 0).val + 97) / 98 = (i 0).val; omega
  rw [mem_blk1_5]
  intro a
  match a with
  | ⟨0, _⟩ =>
    show win1_5.index _ (0 : Fin 3) * 1 ≤ (i 0).val ∧ (i 0).val < win1_5.index _ (0 : Fin 3) * 1 + 1
    rw [e0']; omega
  | ⟨1, _⟩ =>
    show win1_5.index _ (1 : Fin 3) * 64 ≤ (i 1).val ∧ (i 1).val < win1_5.index _ (1 : Fin 3) * 64 + 64
    rw [e1]; omega
  | ⟨2, _⟩ =>
    show win1_5.index _ (2 : Fin 3) * 1024 ≤ (i 2).val ∧ (i 2).val < win1_5.index _ (2 : Fin 3) * 1024 + 1024
    rw [e2]; omega

/-- The output array after the region: plane by plane the cores' last accumulators, a function of the five input
    arrays as the region finds them. -/
theorem arrAt1 (c : Dev nD) :
    (dat1 V c).arrAt 5 cfg1.N = outArr1 (V c main_v71) (V c main_v72) (V c main_v73) (V c main_arg2) (V c main_v63) :=
  (dat1 V c).arrAt_eq_of_cover 5 (outArr1 (arr1_0 V c) (arr1_1 V c) (arr1_2 V c) (arr1_3 V c) (arr1_4 V c)) (flushed1_eq V c) cover1_5

end

end Cert.KernelIdeal.Hand

end
-- ==== Proof.KI.R1.ValueIdx.lean ====
/-
  Region 1 (the edge call), the output array at an index, over the extended reals. One step adds, at (b, j), the sum
  over the block's 512 rows of  one-hot(id_r, b) · logistic(500 · (lin_rep[j] − h_r(j mod 32))) · w_r, where an edge's
  height h_r is the smaller of its two endpoints' heights and its weight w_r the larger of their weights times −1.
  Block t of a row table is its rows 512·t … 512·t + 511; the directions and the thresholds are read whole at every
  point. A core starts from zeros, so after its 98 points plane cc of the output is the double sum over its steps
  and the rows of each step's block.
-/
import proofs.«429462_j65403761983812_3_alg».proof.Proof.KI.R1.Value
import proofs.«429462_j65403761983812_3_alg».proof.Proof.KI.BodyIdx
import proofs.«429462_j65403761983812_3_alg».proof.Proof.Spec
import Idealize.ShloMosaic.Lib.ValueIdx
import Idealize.ShloMosaic.Lib.Pipeline.Value
import Idealize.ShloMosaic.PureOps.Ideal.Laws
import Mathlib.Algebra.BigOperators.Group.Finset.Basic
import Mathlib.Algebra.BigOperators.Intervals

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Wecc (hot bump sharp rowH rowW negOne regionSum)

/-! ## One step at an index -/

/-- A packed block's heights: entry (r, t) is x[r,0]·v[0,t] + x[r,1]·v[1,t] + x[r,2]·v[2,t], summed in that order. -/
theorem height1_apply (x : Vec Ideal S512x4 .f32) (v : Vec Ideal S3x32 .f32) (r : Fin 512) (t : Fin 32) :
    (addf (addf (mulf (broadcastTo S512x32 (extractStridedSlice S512x1 ![0, 0] (extractStridedSlice S512x3 ![0, 0] (shapeCast S512x4 x shapeCasts_S512x4_S512x4) slices_S512x4_o0_0_S512x3) slices_S512x3_o0_0_S512x1) broadcasts_S512x1_S512x32) (broadcastTo S512x32 (extractStridedSlice S1x32 ![0, 0] v slices_S3x32_o0_0_S1x32) broadcasts_S1x32_S512x32)) (mulf (broadcastTo S512x32 (extractStridedSlice S512x1 ![0, 1] (extractStridedSlice S512x3 ![0, 0] (shapeCast S512x4 x shapeCasts_S512x4_S512x4) slices_S512x4_o0_0_S512x3) slices_S512x3_o0_1_S512x1) broadcasts_S512x1_S512x32) (broadcastTo S512x32 (extractStridedSlice S1x32 ![1, 0] v slices_S3x32_o1_0_S1x32) broadcasts_S1x32_S512x32))) (mulf (broadcastTo S512x32 (extractStridedSlice S512x1 ![0, 2] (extractStridedSlice S512x3 ![0, 0] (shapeCast S512x4 x shapeCasts_S512x4_S512x4) slices_S512x4_o0_0_S512x3) slices_S512x3_o0_2_S512x1) broadcasts_S512x1_S512x32) (broadcastTo S512x32 (extractStridedSlice S1x32 ![2, 0] v slices_S3x32_o2_0_S1x32) broadcasts_S1x32_S512x32)) : FVec Ideal S512x32 .f32) (ix2 r t) = rowH x v r t := by
  unfold rowH
  show (_ * _ + _ * _) + _ * _ = _
  rw [col_apply x ![0, 0] 0 rfl, col_apply x ![0, 1] 1 rfl, col_apply x ![0, 2] 2 rfl,
    dir_apply v ![0, 0] 0 rfl, dir_apply v ![1, 0] 1 rfl, dir_apply v ![2, 0] 2 rfl]
  rfl

/-- An edge's height is the smaller of its endpoints' heights. -/
theorem k1_pay6_apply (x3 : Vec Ideal S3x32 .f32) (x0 x1 : Vec Ideal S512x4 .f32) (r : Fin 512) (t : Fin 32) :
    k1_pay6 (F := Ideal) x3 x0 x1 (ix2 r t) = min (rowH x0 x3 r t) (rowH x1 x3 r t) := by
  unfold k1_pay6 k1_pay4 k1_pay5
  exact congrArg₂ min (height1_apply x0 x3 r t) (height1_apply x1 x3 r t)

/-- An edge's weight is the larger of its endpoints' weights. -/
theorem k1_pay7_apply (x0 x1 : Vec Ideal S512x4 .f32) (r : Fin 512) :
    k1_pay7 (F := Ideal) x0 x1 (ix2 r (0 : Fin 1)) = max (rowW x0 r) (rowW x1 r) := by
  unfold k1_pay7 k1_pay4 k1_pay5
  exact congrArg₂ max (wcol_apply x0 _ _ r) (wcol_apply x1 _ _ r)

/-- One step at (b, j): what the accumulator held plus the block's 512 rows' contributions. -/
theorem step1_apply (x0 x1 : Vec Ideal S512x4 .f32) (x2 : Vec Ideal S512x1 .i32) (x3 : Vec Ideal S3x32 .f32) (x4 : Vec Ideal S1x1024 .f32)
    (acc : Vec Ideal S64x1024 .f32) (b : Fin 64) (j : Fin 1024) :
    step1 (F := Ideal) x0 x1 x2 x3 x4 acc (ix2 b j)
      = acc (ix2 b j) + ∑ r : Fin 512, hot (x2 (ix2 r (0 : Fin 1))) b
          * bump (x4 (ix2 (0 : Fin 1) j)) (min (rowH x0 x3 r ⟨j.val % 32, Nat.mod_lt _ (by decide)⟩) (rowH x1 x3 r ⟨j.val % 32, Nat.mod_lt _ (by decide)⟩))
              (max (rowW x0 r) (rowW x1 r) * negOne) := by
  unfold step1 k1_pay1
  refine (congrFun (shapeCast_self _ _) (ix2 b j)).trans ?_
  refine (congrArg (acc (ix2 b j) + ·) (prod_apply _ _ b j)).trans ?_
  refine congrArg (acc (ix2 b j) + ·) (Finset.sum_congr rfl fun r _ => ?_)
  refine congrArg₂ (· * ·) (onehot_apply x2 _ _ _ _ r b)
    ((bumps_apply (k1_pay6 x3 x0 x1) (mulf (k1_pay7 x0 x1) (broadcast S512x1 (Scalar.ofBits (F := Ideal) .f32 0xBF800000#32))) x4 _ _ _ _ r j).trans ?_)
  refine congrArg₂ (bump (x4 (ix2 (0 : Fin 1) j))) (k1_pay6_apply x3 x0 x1 r _) ?_
  show k1_pay7 (F := Ideal) x0 x1 (ix2 r (0 : Fin 1)) * negOne = _
  rw [k1_pay7_apply]

/-! ## The blocks as rows of the arrays -/

/-- The row tables' block index is the point's number on the row axis; the directions' and the thresholds' is 0. -/
theorem idx_facts1_in : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0) :=
  (by decide +kernel : ∀ t : Fin grid1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0))

section Blocks
variable {F : FTy → Type} [FloatOps F]

/-- Row r of block t of the first row table is row 512·t + r of the table; -/
theorem blk1_0_apply (a0 : Vec F S100352x4 .f32) (t : Fin cfg1.N) (r : Fin 512) (k : Fin 4) (R : Fin 100352)
    (hR : R.val = t.val * 512 + r.val) : blk1_0 a0 t (ix2 r k) = a0 (ix2 R k) := by
  obtain ⟨⟨e0, e1⟩, -⟩ := idx_facts1_in t
  show ((cfg1.win 0).blk t).view.read (Elt F) a0 (ix2 r k) = a0 (ix2 R k)
  rw [View.read_apply]
  show a0 (((cfg1.win 0).blk t).view.emb (ix2 r k)) = a0 (ix2 R k)
  refine congrArg a0 (funext fun a => Fin.ext ?_)
  match a with
  | ⟨0, _⟩ => show win1_0.index t (0 : Fin 2) * 512 + 1 * r.val = R.val; rw [e0, hR]; omega
  | ⟨1, _⟩ => show win1_0.index t (1 : Fin 2) * 4 + 1 * k.val = k.val; rw [e1]; omega

/-- the same for the second row table -/
theorem blk1_1_apply (a1 : Vec F S100352x4 .f32) (t : Fin cfg1.N) (r : Fin 512) (k : Fin 4) (R : Fin 100352)
    (hR : R.val = t.val * 512 + r.val) : blk1_1 a1 t (ix2 r k) = a1 (ix2 R k) := by
  obtain ⟨-, ⟨e0, e1⟩, -⟩ := idx_facts1_in t
  show ((cfg1.win 1).blk t).view.read (Elt F) a1 (ix2 r k) = a1 (ix2 R k)
  rw [View.read_apply]
  show a1 (((cfg1.win 1).blk t).view.emb (ix2 r k)) = a1 (ix2 R k)
  refine congrArg a1 (funext fun a => Fin.ext ?_)
  match a with
  | ⟨0, _⟩ => show win1_1.index t (0 : Fin 2) * 512 + 1 * r.val = R.val; rw [e0, hR]; omega
  | ⟨1, _⟩ => show win1_1.index t (1 : Fin 2) * 4 + 1 * k.val = k.val; rw [e1]; omega

/-- and for the graph-id column. -/
theorem blk1_2_apply (a2 : Vec F S100352x1 .i32) (t : Fin cfg1.N) (r : Fin 512) (R : Fin 100352)
    (hR : R.val = t.val * 512 + r.val) : blk1_2 a2 t (ix2 r (0 : Fin 1)) = a2 (ix2 R (0 : Fin 1)) := by
  obtain ⟨-, -, ⟨e0, e1⟩, -⟩ := idx_facts1_in t
  show ((cfg1.win 2).blk t).view.read (Elt F) a2 (ix2 r (0 : Fin 1)) = a2 (ix2 R (0 : Fin 1))
  rw [View.read_apply]
  show a2 (((cfg1.win 2).blk t).view.emb (ix2 r (0 : Fin 1))) = a2 (ix2 R (0 : Fin 1))
  refine congrArg a2 (funext fun a => Fin.ext ?_)
  match a with
  | ⟨0, _⟩ => show win1_2.index t (0 : Fin 2) * 512 + 1 * r.val = R.val; rw [e0, hR]; omega
  | ⟨1, _⟩ => show win1_2.index t (1 : Fin 2) * 1 + 1 * 0 = 0; rw [e1]

/-- Every point's block of the directions is the direction matrix, -/
theorem blk1_3_apply (a3 : Vec F S3x32 .f32) (t : Fin cfg1.N) (k : Fin 3) (d : Fin 32) : blk1_3 a3 t (ix2 k d) = a3 (ix2 k d) := by
  obtain ⟨-, -, -, ⟨e0, e1⟩, -⟩ := idx_facts1_in t
  show ((cfg1.win 3).blk t).view.read (Elt F) a3 (ix2 k d) = a3 (ix2 k d)
  rw [View.read_apply]
  show a3 (((cfg1.win 3).blk t).view.emb (ix2 k d)) = a3 (ix2 k d)
  refine congrArg a3 (funext fun a => Fin.ext ?_)
  match a with
  | ⟨0, _⟩ => show win1_3.index t (0 : Fin 2) * 3 + 1 * k.val = k.val; rw [e0]; omega
  | ⟨1, _⟩ => show win1_3.index t (1 : Fin 2) * 32 + 1 * d.val = d.val; rw [e1]; omega

/-- and of the thresholds the threshold row. -/
theorem blk1_4_apply (a4 : Vec F S1x1024 .f32) (t : Fin cfg1.N) (j : Fin 1024) : blk1_4 a4 t (ix2 (0 : Fin 1) j) = a4 (ix2 (0 : Fin 1) j) := by
  obtain ⟨-, -, -, -, ⟨e0, e1⟩⟩ := idx_facts1_in t
  show ((cfg1.win 4).blk t).view.read (Elt F) a4 (ix2 (0 : Fin 1) j) = a4 (ix2 (0 : Fin 1) j)
  rw [View.read_apply]
  show a4 (((cfg1.win 4).blk t).view.emb (ix2 (0 : Fin 1) j)) = a4 (ix2 (0 : Fin 1) j)
  refine congrArg a4 (funext fun a => Fin.ext ?_)
  match a with
  | ⟨0, _⟩ => show win1_4.index t (0 : Fin 2) * 1 + 1 * 0 = 0; rw [e0]
  | ⟨1, _⟩ => show win1_4.index t (1 : Fin 2) * 1024 + 1 * j.val = j.val; rw [e1]; omega

end Blocks

section
variable (a0 a1 : Vec Ideal S100352x4 .f32) (a2 : Vec Ideal S100352x1 .i32) (a3 : Vec Ideal S3x32 .f32) (a4 : Vec Ideal S1x1024 .f32)

/-- A block's heights and weights are the table's at the block's rows. -/
theorem rowH_blk1_0 (t : Fin cfg1.N) (r : Fin 512) (d : Fin 32) (R : Fin 100352) (hR : R.val = t.val * 512 + r.val) :
    rowH (blk1_0 a0 t) (blk1_3 a3 t) r d = rowH a0 a3 R d := by
  unfold rowH
  rw [blk1_0_apply a0 t r 0 R hR, blk1_0_apply a0 t r 1 R hR, blk1_0_apply a0 t r 2 R hR,
    blk1_3_apply a3 t 0 d, blk1_3_apply a3 t 1 d, blk1_3_apply a3 t 2 d]
theorem rowH_blk1_1 (t : Fin cfg1.N) (r : Fin 512) (d : Fin 32) (R : Fin 100352) (hR : R.val = t.val * 512 + r.val) :
    rowH (blk1_1 a1 t) (blk1_3 a3 t) r d = rowH a1 a3 R d := by
  unfold rowH
  rw [blk1_1_apply a1 t r 0 R hR, blk1_1_apply a1 t r 1 R hR, blk1_1_apply a1 t r 2 R hR,
    blk1_3_apply a3 t 0 d, blk1_3_apply a3 t 1 d, blk1_3_apply a3 t 2 d]
theorem rowW_blk1_0 (t : Fin cfg1.N) (r : Fin 512) (R : Fin 100352) (hR : R.val = t.val * 512 + r.val) :
    rowW (blk1_0 a0 t) r = rowW a0 R := blk1_0_apply a0 t r 3 R hR
theorem rowW_blk1_1 (t : Fin cfg1.N) (r : Fin 512) (R : Fin 100352) (hR : R.val = t.val * 512 + r.val) :
    rowW (blk1_1 a1 t) r = rowW a1 R := blk1_1_apply a1 t r 3 R hR

/-! ## A core's accumulator as a sum over its points -/

/-- Point `n`'s contribution at (b, j): the sum over the 512 rows of its blocks (0 past the grid). -/
def term1 (n : ℕ) (b : Fin 64) (j : Fin 1024) : EReal :=
  if h : n < cfg1.N then
    ∑ r : Fin 512, hot (blk1_2 a2 ⟨n, h⟩ (ix2 r (0 : Fin 1))) b
      * bump (blk1_4 a4 ⟨n, h⟩ (ix2 (0 : Fin 1) j))
          (min (rowH (blk1_0 a0 ⟨n, h⟩) (blk1_3 a3 ⟨n, h⟩) r ⟨j.val % 32, Nat.mod_lt _ (by decide)⟩)
            (rowH (blk1_1 a1 ⟨n, h⟩) (blk1_3 a3 ⟨n, h⟩) r ⟨j.val % 32, Nat.mod_lt _ (by decide)⟩))
          (max (rowW (blk1_0 a0 ⟨n, h⟩) r) (rowW (blk1_1 a1 ⟨n, h⟩) r) * negOne)
  else 0

/-- The step at point `n` adds that point's contribution. -/
theorem stepAt1_apply (n : ℕ) (hn : n < cfg1.N) (acc : Vec Ideal S64x1024 .f32) (b : Fin 64) (j : Fin 1024) :
    stepAt1 a0 a1 a2 a3 a4 n hn acc (ix2 b j) = acc (ix2 b j) + term1 a0 a1 a2 a3 a4 n b j := by
  unfold stepAt1 term1
  rw [dif_pos hn]
  exact step1_apply (blk1_0 a0 ⟨n, hn⟩) (blk1_1 a1 ⟨n, hn⟩) (blk1_2 a2 ⟨n, hn⟩) (blk1_3 a3 ⟨n, hn⟩) (blk1_4 a4 ⟨n, hn⟩) acc b j

/-- The zeros a core starts from are the extended real 0. -/
theorem zero1_apply (i : S64x1024.Idx) : zero1 (F := Ideal) i = 0 := by
  show k1_pay3 (F := Ideal) i = 0
  unfold k1_pay3
  refine (congrFun (shapeCast_self _ _) i).trans ?_
  exact Ideal.ofBits_zero_f32

/-- Core cc's accumulator after its last point: the sum of its 98 points' contributions. -/
theorem acc1_apply (cc : Fin 2) (b : Fin 64) (j : Fin 1024) :
    acc1 a0 a1 a2 a3 a4 (98 * cc.val) 97 (last_lt1 cc) (ix2 b j)
      = zero1 (F := Ideal) (ix2 b j) + ∑ s ∈ Finset.range 98, term1 a0 a1 a2 a3 a4 (98 * cc.val + s) b j :=
  Pipeline.accAt_add_apply (N := cfg1.N)
    (fun n hn => stepAt1 a0 a1 a2 a3 a4 n hn zero1) (fun n hn acc => stepAt1 a0 a1 a2 a3 a4 n hn acc)
    (zero1 (F := Ideal)) (fun n i => term1 a0 a1 a2 a3 a4 n (i 0) (i 1)) (98 * cc.val) 97
    (fun h i => by
      obtain ⟨p, q, rfl⟩ : ∃ (p : Fin 64) (q : Fin 1024), i = ix2 p q := ⟨i 0, i 1, eq_ix2 i⟩
      exact stepAt1_apply a0 a1 a2 a3 a4 (98 * cc.val) h zero1 p q)
    (fun n h acc i _ _ => by
      obtain ⟨p, q, rfl⟩ : ∃ (p : Fin 64) (q : Fin 1024), i = ix2 p q := ⟨i 0, i 1, eq_ix2 i⟩
      exact stepAt1_apply a0 a1 a2 a3 a4 n h acc p q)
    97 le_rfl (last_lt1 cc) (ix2 b j)

/-! ## The output array at an index -/

/-- Entry (cc, b, j) of the output array: the sum, over core cc's 98 steps and the 512 rows of each step's block, of the
    one-hot entry times the edge's bump. -/
theorem outArr1_apply (cc : Fin 2) (b : Fin 64) (j : Fin 1024) :
    outArr1 (F := Ideal) a0 a1 a2 a3 a4 (ix3 cc b j)
      = regionSum 98 (by norm_num) a2 (fun r t => min (rowH a0 a3 r t) (rowH a1 a3 r t))
          (fun r => max (rowW a0 r) (rowW a1 r) * negOne) a4 cc b j := by
  have hN : cfg1.N = 196 := N_1
  show acc1 a0 a1 a2 a3 a4 (98 * cc.val) 97 (last_lt1 cc) (ix2 b j) = _
  rw [acc1_apply, zero1_apply, zero_add, Finset.sum_range]
  unfold regionSum
  refine Finset.sum_congr rfl fun s _ => ?_
  have hn : 98 * cc.val + s.val < cfg1.N := by have := cc.isLt; have := s.isLt; omega
  unfold term1
  rw [dif_pos hn]
  refine Finset.sum_congr rfl fun r _ => ?_
  have hR : (⟨(cc.val * 98 + s.val) * 512 + r.val, Cert.Wecc.grid_row_lt (by norm_num) cc s r⟩ : Fin 100352).val
      = (⟨98 * cc.val + s.val, hn⟩ : Fin cfg1.N).val * 512 + r.val := by
    show (cc.val * 98 + s.val) * 512 + r.val = (98 * cc.val + s.val) * 512 + r.val
    omega
  rw [blk1_2_apply a2 ⟨98 * cc.val + s.val, hn⟩ r _ hR, blk1_4_apply a4 ⟨98 * cc.val + s.val, hn⟩ j,
    rowH_blk1_0 a0 a3 ⟨98 * cc.val + s.val, hn⟩ r _ _ hR, rowH_blk1_1 a1 a3 ⟨98 * cc.val + s.val, hn⟩ r _ _ hR,
    rowW_blk1_0 a0 ⟨98 * cc.val + s.val, hn⟩ r _ hR, rowW_blk1_1 a1 ⟨98 * cc.val + s.val, hn⟩ r _ hR]

end

end Cert.KernelIdeal.Hand

end
-- ==== Proof.KI.R2.Value.lean ====
/-
  Region 2 (the face call), the values: what each control case leaves in the accumulator and in the output buffer as
  the body's arithmetic on the point's blocks; the accumulator after every point and the call's result array as
  explicit functions of the six input arrays. Plane cc of the 2 × 64 × 1024 result is the accumulator after core cc's
  last point; the two cores' last points are the only ones that write back, and their blocks tile the array.
-/
import proofs.«429462_j65403761983812_3_alg».proof.Proof.KI.R2.Frame
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem r2_hz2 : (![0, 0] : Fin 2 → Nat) = fun _ => 0 := funext fun a => by fin_cases a <;> rfl
theorem r2_hz3 : (![0, 0, 0] : Fin 3 → Nat) = fun _ => 0 := funext fun a => by fin_cases a <;> rfl

/-- One grid point's update of the accumulator: the three vertex tables' blocks give each row its height (the least
    of the three) and weight (the greatest, times one), the id column's block the one-hot matrix; their product over
    the block's rows is added to what the accumulator held. -/
def step2 (x0 x1 x2 : Vec F S512x4 .f32) (x3 : Vec F S512x1 .i32) (x4 : Vec F S3x32 .f32) (x5 : Vec F S1x1024 .f32)
    (acc : Vec F S64x1024 .f32) : Vec F S64x1024 .f32 :=
  k2_pay7 x4 (k2_pay5 x4 x0 x1) (k2_pay6 x0 x1) x2 x3 x5 acc

/-- A first step leaves the update of the zero block: the reset's store is read back by the update's load. -/
theorem sout2_A_eq (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) :
    sout2_A_0 c i arg2 harg2 arg3 harg3 arg4 harg4 arg5 harg5 arg6 harg6 arg7 harg7 arg8 harg8 arg9 harg9 hc0 hc1 x0 x1 x2 x3 x4 x5 = step2 x0 x1 x2 x3 x4 x5 (k2_pay2 (F := F)) := by
  unfold sout2_A_0
  rw [View.read_writes_eq_canon _ _ _ (scover2_A_0 c i arg2 harg2 arg3 harg3 arg4 harg4 arg5 harg5 arg6 harg6 arg7 harg7 arg8 harg8 arg9 harg9 hc0 hc1 x0 x1 x2 x3 x4 x5)]
  unfold kernelRun2_A
  dsimp only
  sl_unfold_words
  rw [View.canon_cons_unit_zero (S := S64x1024) r2_hz2]
  unfold step2
  simp only [View.readAt_eq_ld, harg2.read_unread, harg3.read_unread, harg4.read_unread, harg5.read_unread, harg6.read_unread, harg7.read_unread, harg8.read_unread, harg9.read_unread, View.ld_unit_zero (S := S512x4) r2_hz2, View.ld_unit_zero (S := S512x1) r2_hz2, View.ld_unit_zero (S := S3x32) r2_hz2, View.ld_unit_zero (S := S1x1024) r2_hz2, View.ld_unit_zero (S := S64x1024) r2_hz2, View.ld_unit_zero (S := S1x64x1024) r2_hz3, View.readCov_unit_zero (S := S64x1024) _ r2_hz2]

/-- A middle step leaves the update of what the accumulator held. -/
theorem sout2_B_eq (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : ¬cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) :
    sout2_B_0 c i arg2 harg2 arg3 harg3 arg4 harg4 arg5 harg5 arg6 harg6 arg7 harg7 arg8 harg8 arg9 harg9 hc0 hc1 x0 x1 x2 x3 x4 x5 xs0 = step2 x0 x1 x2 x3 x4 x5 xs0 := by
  unfold sout2_B_0
  rw [View.read_writes_eq_canon _ _ _ (scover2_B_0 c i arg2 harg2 arg3 harg3 arg4 harg4 arg5 harg5 arg6 harg6 arg7 harg7 arg8 harg8 arg9 harg9 hc0 hc1 x0 x1 x2 x3 x4 x5 xs0)]
  unfold kernelRun2_B
  dsimp only
  sl_unfold_words
  rw [View.canon_unit_zero r2_hz2]
  unfold step2
  simp only [View.readAt_eq_ld, harg2.read_unread, harg3.read_unread, harg4.read_unread, harg5.read_unread, harg6.read_unread, harg7.read_unread, harg8.read_unread, harg9.read_unread, View.ld_unit_zero (S := S512x4) r2_hz2, View.ld_unit_zero (S := S512x1) r2_hz2, View.ld_unit_zero (S := S3x32) r2_hz2, View.ld_unit_zero (S := S1x1024) r2_hz2, View.ld_unit_zero (S := S64x1024) r2_hz2, View.ld_unit_zero (S := S1x64x1024) r2_hz3]

/-- A last step leaves the same in the accumulator … -/
theorem sout2_C_eq (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) :
    sout2_C_0 c i arg2 harg2 arg3 harg3 arg4 harg4 arg5 harg5 arg6 harg6 arg7 harg7 arg8 harg8 arg9 harg9 hc0 hc1 x0 x1 x2 x3 x4 x5 xs0 = step2 x0 x1 x2 x3 x4 x5 xs0 := by
  unfold sout2_C_0
  rw [View.read_writes_eq_canon _ _ _ (scover2_C_0 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero r2_hz2]
  unfold step2
  simp only [View.readAt_eq_ld, harg2.read_unread, harg3.read_unread, harg4.read_unread, harg5.read_unread, harg6.read_unread, harg7.read_unread, harg8.read_unread, harg9.read_unread, View.ld_unit_zero (S := S512x4) r2_hz2, View.ld_unit_zero (S := S512x1) r2_hz2, View.ld_unit_zero (S := S3x32) r2_hz2, View.ld_unit_zero (S := S1x1024) r2_hz2, View.ld_unit_zero (S := S64x1024) r2_hz2, View.ld_unit_zero (S := S1x64x1024) r2_hz3]

/-- … and stores it, viewed 1 × 64 × 1024, into the output buffer. -/
theorem out2_C_eq (c : Dev nD) (i : grid2.Coords) (arg2 : Memref sig .tc .vmem S512x4 .f32) (harg2 : arg2.IsWhole) (arg3 : Memref sig .tc .vmem S512x4 .f32) (harg3 : arg3.IsWhole) (arg4 : Memref sig .tc .vmem S512x4 .f32) (harg4 : arg4.IsWhole) (arg5 : Memref sig .tc .vmem S512x1 .i32) (harg5 : arg5.IsWhole) (arg6 : Memref sig .tc .vmem S3x32 .f32) (harg6 : arg6.IsWhole) (arg7 : Memref sig .tc .vmem S1x1024 .f32) (harg7 : arg7.IsWhole) (arg8 : Memref sig .tc .vmem S1x64x1024 .f32) (harg8 : arg8.IsWhole) (arg9 : Memref sig .tc .vmem S64x1024 .f32) (harg9 : arg9.IsWhole) (hc0 : ¬cond2_0 i) (hc1 : cond2_1 i)
    (x0 : Vec F S512x4 .f32) (x1 : Vec F S512x4 .f32) (x2 : Vec F S512x4 .f32) (x3 : Vec F S512x1 .i32) (x4 : Vec F S3x32 .f32) (x5 : Vec F S1x1024 .f32) (xs0 : Vec F S64x1024 .f32) :
    out2_C_6 c i arg2 harg2 arg3 harg3 arg4 harg4 arg5 harg5 arg6 harg6 arg7 harg7 arg8 harg8 arg9 harg9 hc0 hc1 x0 x1 x2 x3 x4 x5 xs0 = k2_pay1 (step2 x0 x1 x2 x3 x4 x5 xs0) := by
  unfold out2_C_6
  rw [View.read_writes_eq_canon _ _ _ (cover2_C_6 c i arg2 harg2 arg3 harg3 arg4 harg4 arg5 harg5 arg6 harg6 arg7 harg7 arg8 harg8 arg9 harg9 hc0 hc1 x0 x1 x2 x3 x4 x5 xs0)]
  unfold kernelRun2_C
  dsimp only
  sl_unfold_words
  rw [View.canon_unit_zero r2_hz3]
  unfold step2
  simp only [View.readAt_eq_ld, harg2.read_unread, harg3.read_unread, harg4.read_unread, harg5.read_unread, harg6.read_unread, harg7.read_unread, harg8.read_unread, harg9.read_unread, View.ld_unit_zero (S := S512x4) r2_hz2, View.ld_unit_zero (S := S512x1) r2_hz2, View.ld_unit_zero (S := S3x32) r2_hz2, View.ld_unit_zero (S := S1x1024) r2_hz2, View.ld_unit_zero (S := S64x1024) r2_hz2, View.ld_unit_zero (S := S1x64x1024) r2_hz3, View.readCov_unit_zero (S := S64x1024) _ r2_hz2]

/-! ## The accumulator and the output as functions of the call's input arrays -/

/-- Block `t` of each windowed input array: rows 512·t … 512·t + 511 of the three vertex tables and of the id column;
    the direction table and the threshold row whole. -/
abbrev blk2_0 (a : Vec F S80896x4 .f32) (t : Fin cfg2.N) : Vec F S512x4 .f32 := ((cfg2.win 0).blk t).view.read (Elt F) a
abbrev blk2_1 (a : Vec F S80896x4 .f32) (t : Fin cfg2.N) : Vec F S512x4 .f32 := ((cfg2.win 1).blk t).view.read (Elt F) a
abbrev blk2_2 (a : Vec F S80896x4 .f32) (t : Fin cfg2.N) : Vec F S512x4 .f32 := ((cfg2.win 2).blk t).view.read (Elt F) a
abbrev blk2_3 (a : Vec F S80896x1 .i32) (t : Fin cfg2.N) : Vec F S512x1 .i32 := ((cfg2.win 3).blk t).view.read (Elt F) a
abbrev blk2_4 (a : Vec F S3x32 .f32) (t : Fin cfg2.N) : Vec F S3x32 .f32 := ((cfg2.win 4).blk t).view.read (Elt F) a
abbrev blk2_5 (a : Vec F S1x1024 .f32) (t : Fin cfg2.N) : Vec F S1x1024 .f32 := ((cfg2.win 5).blk t).view.read (Elt F) a

/-- Point `t`'s update, on the point's blocks. -/
def upd2 (a0 a1 a2 : Vec F S80896x4 .f32) (a3 : Vec F S80896x1 .i32) (a4 : Vec F S3x32 .f32) (a5 : Vec F S1x1024 .f32) (t : Fin cfg2.N) (acc : Vec F S64x1024 .f32) : Vec F S64x1024 .f32 :=
  step2 (blk2_0 a0 t) (blk2_1 a1 t) (blk2_2 a2 t) (blk2_3 a3 t) (blk2_4 a4 t) (blk2_5 a5 t) acc

/-- The accumulator after point `n`: at a core's first point the update of the zero block, at every other point the
    update of what the point before left. -/
def accAt2 (a0 a1 a2 : Vec F S80896x4 .f32) (a3 : Vec F S80896x1 .i32) (a4 : Vec F S3x32 .f32) (a5 : Vec F S1x1024 .f32) : (n : ℕ) → n < cfg2.N → Vec F S64x1024 .f32
  | 0, hn => upd2 a0 a1 a2 a3 a4 a5 ⟨0, hn⟩ (k2_pay2 (F := F))
  | n + 1, hn =>
    if (n + 1) % 79 = 0 then upd2 a0 a1 a2 a3 a4 a5 ⟨n + 1, hn⟩ (k2_pay2 (F := F))
    else upd2 a0 a1 a2 a3 a4 a5 ⟨n + 1, hn⟩ (accAt2 a0 a1 a2 a3 a4 a5 n (Nat.lt_of_succ_lt hn))

theorem accAt2_reset (a0 a1 a2 : Vec F S80896x4 .f32) (a3 : Vec F S80896x1 .i32) (a4 : Vec F S3x32 .f32) (a5 : Vec F S1x1024 .f32) (n : ℕ) (hn : n < cfg2.N) (h : n % 79 = 0) :
    accAt2 a0 a1 a2 a3 a4 a5 n hn = upd2 a0 a1 a2 a3 a4 a5 ⟨n, hn⟩ (k2_pay2 (F := F)) := by
  cases n with
  | zero => rfl
  | succ n => exact if_pos h

theorem accAt2_step (a0 a1 a2 : Vec F S80896x4 .f32) (a3 : Vec F S80896x1 .i32) (a4 : Vec F S3x32 .f32) (a5 : Vec F S1x1024 .f32) (n : ℕ) (hn : n + 1 < cfg2.N) (h : ¬(n + 1) % 79 = 0) :
    accAt2 a0 a1 a2 a3 a4 a5 (n + 1) hn = upd2 a0 a1 a2 a3 a4 a5 ⟨n + 1, hn⟩ (accAt2 a0 a1 a2 a3 a4 a5 n (Nat.lt_of_succ_lt hn)) := if_neg h

theorem accAt2_congr (a0 a1 a2 : Vec F S80896x4 .f32) (a3 : Vec F S80896x1 .i32) (a4 : Vec F S3x32 .f32) (a5 : Vec F S1x1024 .f32) {n n' : ℕ} (hn : n < cfg2.N) (hn' : n' < cfg2.N) (e : n = n')
    {j j' : S64x1024.Idx} (ej : j = j') : accAt2 a0 a1 a2 a3 a4 a5 n hn j = accAt2 a0 a1 a2 a3 a4 a5 n' hn' j' := by
  subst e; subst ej; rfl

section
variable (V : (c : Dev nD) → (b : Ref sig .tc) → Buf (Elt F) ((c : Thread nD τ).loc b))

/-- What the frame's point-by-point contents hold in the accumulator is that function of the arrays the region finds:
    by induction on the point, each case by its piece. -/
theorem acc2_eq (c : Dev nD) : ∀ (n : ℕ) (hn : n < cfg2.N),
    (outsAt2 V c n hn).2 = accAt2 (V c main_v78) (V c main_v79) (V c main_v80) (V c main_v81) (V c main_arg2) (V c main_v63) n hn
  | 0, hn => by
    have h0 : (⟨0, hn⟩ : Fin cfg2.N).val % 79 = 0 := Nat.zero_mod _
    have h1 : ¬(⟨0, hn⟩ : Fin cfg2.N).val % 79 = 78 := by dsimp only; omega
    rw [outsAt2_A V c ⟨0, hn⟩ h0 h1]
    dsimp only
    exact sout2_A_eq c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
  | n + 1, hn => by
    by_cases h0 : (⟨n + 1, hn⟩ : Fin cfg2.N).val % 79 = 0
    · have h1 : ¬(⟨n + 1, hn⟩ : Fin cfg2.N).val % 79 = 78 := by omega
      rw [outsAt2_A V c ⟨n + 1, hn⟩ h0 h1]
      dsimp only
      exact (sout2_A_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)).trans
        (accAt2_reset (V c main_v78) (V c main_v79) (V c main_v80) (V c main_v81) (V c main_arg2) (V c main_v63) (n + 1) hn h0).symm
    · by_cases h1 : (⟨n + 1, hn⟩ : Fin cfg2.N).val % 79 = 78
      · rw [outsAt2_C V c ⟨n + 1, hn⟩ h0 h1]
        dsimp only
        exact ((sout2_C_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c ((⟨n + 1, hn⟩ : Fin cfg2.N).val - 1) (Nat.lt_of_le_of_lt (Nat.sub_le _ _) (⟨n + 1, hn⟩ : Fin cfg2.N).isLt)).2).trans
          (congrArg (step2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (acc2_eq c n (Nat.lt_of_succ_lt hn)))).trans
          (accAt2_step (V c main_v78) (V c main_v79) (V c main_v80) (V c main_v81) (V c main_arg2) (V c main_v63) n hn h0).symm
      · rw [outsAt2_B V c ⟨n + 1, hn⟩ h0 h1]
        dsimp only
        exact ((sout2_B_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 V c ((⟨n + 1, hn⟩ : Fin cfg2.N).val - 1) (Nat.lt_of_le_of_lt (Nat.sub_le _ _) (⟨n + 1, hn⟩ : Fin cfg2.N).isLt)).2).trans
          (congrArg (step2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)) (acc2_eq c n (Nat.lt_of_succ_lt hn)))).trans
          (accAt2_step (V c main_v78) (V c main_v79) (V c main_v80) (V c main_v81) (V c main_arg2) (V c main_v63) n hn h0).symm

/-- At a core's last point the output buffer holds the accumulator, viewed 1 × 64 × 1024. -/
theorem out2_last (c : Dev nD) (t : Fin cfg2.N) (h0 : ¬t.val % 79 = 0) (h1 : t.val % 79 = 78) :
    (outsAt2 V c t.val t.isLt).1 = k2_pay1 (accAt2 (V c main_v78) (V c main_v79) (V c main_v80) (V c main_v81) (V c main_arg2) (V c main_v63) t.val t.isLt) := by
  rw [← acc2_eq V c t.val t.isLt, outsAt2_C V c t h0 h1]
  dsimp only
  rw [out2_C_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
    sout2_C_eq c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2]
end

/-! ## The output array -/

theorem last2_lt (k : Fin 2) : k.val * 79 + 78 < cfg2.N := by
  have := k.isLt
  show _ < grid2.N
  rw [N_2]; omega

/-- The output array: plane `cc` is the accumulator after core `cc`'s last point. -/
def outArr2 (a0 a1 a2 : Vec F S80896x4 .f32) (a3 : Vec F S80896x1 .i32) (a4 : Vec F S3x32 .f32) (a5 : Vec F S1x1024 .f32) : Vec F S2x64x1024 .f32 := fun i =>
  accAt2 a0 a1 a2 a3 a4 a5 ((i 0).val * 79 + 78) (last2_lt (i 0)) (ValueIdx.ix2 (n0 := 64) (n1 := 1024) (i 1) (i 2))

/-- The store-out's view change adds a leading unit axis: entry (0, b, j) of the block is entry (b, j) of the accumulator. -/
theorem k2_pay1_apply (X : Vec F S64x1024 .f32) (j : S1x64x1024.Idx) :
    k2_pay1 X j = X (ValueIdx.ix2 (n0 := 64) (n1 := 1024) (j 1) (j 2)) := by
  unfold k2_pay1
  refine (shapeCast_addUnit_apply (n := 2) ![64, 1024] X _ j).trans ?_
  congr 1
  funext a
  match a with
  | ⟨0, _⟩ => rfl
  | ⟨1, _⟩ => rfl

/-- The output window's block index at point `t` is (t / 79, 0, 0), and no block is cut. -/
theorem index2_6 : ∀ t : Fin cfg2.N, (cfg2.win 6).index t 0 = t.val / 79 ∧ (cfg2.win 6).index t 1 = 0 ∧ (cfg2.win 6).index t 2 = 0 :=
  (by decide +kernel : ∀ t : Fin grid2.N, win2_6.index t 0 = t.val / 79 ∧ win2_6.index t 1 = 0 ∧ win2_6.index t 2 = 0)
theorem xsize2_6 : ∀ t : Fin cfg2.N, (cfg2.win 6).xsize (grid2.coords t) 0 = 1 ∧ (cfg2.win 6).xsize (grid2.coords t) 1 = 64 ∧ (cfg2.win 6).xsize (grid2.coords t) 2 = 1024 :=
  (by decide +kernel : ∀ t : Fin grid2.N, win2_6.xsize (grid2.coords t) 0 = 1 ∧ win2_6.xsize (grid2.coords t) 1 = 64 ∧ win2_6.xsize (grid2.coords t) 2 = 1024)

section
variable (V : (c : Dev nD) → (b : Ref sig .tc) → Buf (Elt F) ((c : Thread nD τ).loc b))

/-- What a core's last point writes back is its block of the output array: the block at point `t` is plane t / 79. -/
theorem flushed2_eq (c : Dev nD) (t : Fin cfg2.N) (hf : (cfg2.win 6).flush t = true) :
    (dat2 V c).flushed 6 t = ((cfg2.win 6).blk t).view.read (Elt F) (outArr2 (V c main_v78) (V c main_v79) (V c main_v80) (V c main_v81) (V c main_arg2) (V c main_v63)) := by
  have h1 : t.val % 79 = 78 := (flush2_6 t).mp hf
  have h0 : ¬t.val % 79 = 0 := by omega
  obtain ⟨i0, i1, i2⟩ := index2_6 t
  obtain ⟨s0, s1, s2⟩ := xsize2_6 t
  show (cfg2.win 6).cut (grid2.coords t) ((dat2 V c).after 6 t) = _
  rw [after2_6, out2_last V c t h0 h1]
  funext y
  rw [View.read_apply]
  show k2_pay1 (accAt2 (V c main_v78) (V c main_v79) (V c main_v80) (V c main_v81) (V c main_arg2) (V c main_v63) t.val t.isLt) ((cfg2.win 6).xinj (grid2.coords t) y)
      = outArr2 (V c main_v78) (V c main_v79) (V c main_v80) (V c main_v81) (V c main_arg2) (V c main_v63) (((cfg2.win 6).blk t).view.emb y)
  rw [k2_pay1_apply]
  have e0 := (cfg2.win 6).rect_emb_val t y 0
  have e1 := (cfg2.win 6).rect_emb_val t y 1
  have e2 := (cfg2.win 6).rect_emb_val t y 2
  rw [i0] at e0; rw [i1] at e1; rw [i2] at e2
  have hy0 : (y 0 : Nat) < 1 := Nat.lt_of_lt_of_eq (y 0).isLt s0
  unfold outArr2
  refine accAt2_congr (V c main_v78) (V c main_v79) (V c main_v80) (V c main_v81) (V c main_arg2) (V c main_v63) _ _ ?_ ?_
  · show t.val = (((cfg2.win 6).rect t).emb y 0 : Nat) * 79 + 78
    rw [e0]
    show t.val = (t.val / 79 * 1 + (y 0 : Nat)) * 79 + 78
    omega
  · have q1 : ((cfg2.win 6).xinj (grid2.coords t) y 1 : Fin 64) = (((cfg2.win 6).blk t).view.emb y 1 : Fin 64) := Fin.ext (by
      show (y 1 : Nat) = (((cfg2.win 6).rect t).emb y 1 : Nat)
      rw [e1]; show (y 1 : Nat) = 0 * 64 + (y 1 : Nat); omega)
    have q2 : ((cfg2.win 6).xinj (grid2.coords t) y 2 : Fin 1024) = (((cfg2.win 6).blk t).view.emb y 2 : Fin 1024) := Fin.ext (by
      show (y 2 : Nat) = (((cfg2.win 6).rect t).emb y 2 : Nat)
      rw [e2]; show (y 2 : Nat) = 0 * 1024 + (y 2 : Nat); omega)
    exact congr (congrArg (ValueIdx.ix2 (n0 := 64) (n1 := 1024)) q1) q2

/-- Every entry of the output array lies in the block one of the two cores' last points writes back. -/
theorem cover2_6 (i : S2x64x1024.Idx) :
    ∃ t : Fin cfg2.N, (cfg2.win 6).flush t = true ∧ i ∈ ((cfg2.win 6).blk t).view.set := by
  have hi0 : (i 0 : Nat) < 2 := (i 0).isLt
  have hi1 : (i 1 : Nat) < 64 := (i 1).isLt
  have hi2 : (i 2 : Nat) < 1024 := (i 2).isLt
  generalize hT : (⟨(i 0).val * 79 + 78, last2_lt (i 0)⟩ : Fin cfg2.N) = T
  have hTv : T.val = (i 0).val * 79 + 78 := by rw [← hT]
  refine ⟨T, (flush2_6 T).mpr (by omega), ?_⟩
  obtain ⟨i0, i1, i2⟩ := index2_6 T
  obtain ⟨s0, s1, s2⟩ := xsize2_6 T
  show i ∈ ((View.whole main_v82).slice (win2_6.rect T)).set
  rw [View.set_slice_whole, Rect.mem_set_unit]
  intro a
  match a with
  | ⟨0, _⟩ =>
    show win2_6.index T 0 * win2_6.size 0 ≤ (i 0 : Nat) ∧ (i 0 : Nat) < win2_6.index T 0 * win2_6.size 0 + win2_6.xsize (grid2.coords T) 0
    rw [i0, s0]
    show T.val / 79 * 1 ≤ (i 0 : Nat) ∧ (i 0 : Nat) < T.val / 79 * 1 + 1
    omega
  | ⟨1, _⟩ =>
    show win2_6.index T 1 * win2_6.size 1 ≤ (i 1 : Nat) ∧ (i 1 : Nat) < win2_6.index T 1 * win2_6.size 1 + win2_6.xsize (grid2.coords T) 1
    rw [i1, s1]; omega
  | ⟨2, _⟩ =>
    show win2_6.index T 2 * win2_6.size 2 ≤ (i 2 : Nat) ∧ (i 2 : Nat) < win2_6.index T 2 * win2_6.size 2 + win2_6.xsize (grid2.coords T) 2
    rw [i2, s2]; omega

/-- The call's result array after the region: the output array as a function of the arrays the region finds. -/
theorem arrAt2 (c : Dev nD) :
    (dat2 V c).arrAt 6 cfg2.N = outArr2 (V c main_v78) (V c main_v79) (V c main_v80) (V c main_v81) (V c main_arg2) (V c main_v63) :=
  (dat2 V c).arrAt_eq_of_cover 6 (outArr2 (V c main_v78) (V c main_v79) (V c main_v80) (V c main_v81) (V c main_arg2) (V c main_v63)) (flushed2_eq V c) cover2_6
end

end Cert.KernelIdeal.Hand

end
-- ==== Proof.KI.R2.ValueIdx.lean ====
/-
  Region 2 (the face call), its output at an index over the extended reals. One update adds to accumulator entry (b, j)
  the sum over the block's 512 rows of  one-hot(id_r, b) · logistic(500 · (lin_rep[j] − h_r(j mod 32))) · (w_r · 1),
  where a row's height h_r(t) is the least of its three vertices' heights (x_r0 · v_0t + x_r1 · v_1t) + x_r2 · v_2t, one per
  packed vertex table, and its weight w_r the greatest of the three tables' weights. Row r of point t's block is row
  t · 512 + r of the padded tables, and core cc's points are cc · 79 … cc · 79 + 78; the accumulator starts a core from
  the zero block, and 0 + x = x, so after the core's last step entry (b, j) is the double sum over the core's 79 steps
  and 512 rows. The output's plane cc is that accumulator.
-/
import proofs.«429462_j65403761983812_3_alg».proof.Proof.KI.R2.Value
import proofs.«429462_j65403761983812_3_alg».proof.Proof.KI.BodyIdx
import proofs.«429462_j65403761983812_3_alg».proof.Proof.Spec
import Idealize.ShloMosaic.Lib.ValueIdx
import Idealize.ShloMosaic.Lib.Pipeline.Value
import Idealize.ShloMosaic.PureOps.Ideal.Laws
import Mathlib.Algebra.BigOperators.Fin

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open Cert.Wecc (hot bump sharp rowH rowW)

/-! ## The update's arithmetic, named -/

section
variable {F : FTy → Type} [FloatOps F]

/-- The heights of a packed block's rows along the 32 directions: Σ_k x[r, k] · v[k, t], summed left to right. -/
def hgt2 (x : Vec F S512x4 .f32) (v : Vec F S3x32 .f32) : FVec F S512x32 .f32 :=
  addf (addf (mulf (broadcastTo S512x32 (extractStridedSlice S512x1 ![0, 0] (extractStridedSlice S512x3 ![0, 0] (shapeCast S512x4 x shapeCasts_S512x4_S512x4) slices_S512x4_o0_0_S512x3) slices_S512x3_o0_0_S512x1) broadcasts_S512x1_S512x32) (broadcastTo S512x32 (extractStridedSlice S1x32 ![0, 0] v slices_S3x32_o0_0_S1x32) broadcasts_S1x32_S512x32))
      (mulf (broadcastTo S512x32 (extractStridedSlice S512x1 ![0, 1] (extractStridedSlice S512x3 ![0, 0] (shapeCast S512x4 x shapeCasts_S512x4_S512x4) slices_S512x4_o0_0_S512x3) slices_S512x3_o0_1_S512x1) broadcasts_S512x1_S512x32) (broadcastTo S512x32 (extractStridedSlice S1x32 ![1, 0] v slices_S3x32_o1_0_S1x32) broadcasts_S1x32_S512x32)))
    (mulf (broadcastTo S512x32 (extractStridedSlice S512x1 ![0, 2] (extractStridedSlice S512x3 ![0, 0] (shapeCast S512x4 x shapeCasts_S512x4_S512x4) slices_S512x4_o0_0_S512x3) slices_S512x3_o0_2_S512x1) broadcasts_S512x1_S512x32) (broadcastTo S512x32 (extractStridedSlice S1x32 ![2, 0] v slices_S3x32_o2_0_S1x32) broadcasts_S1x32_S512x32))

/-- The weight column of a packed block. -/
def wcol2 (x : Vec F S512x4 .f32) : FVec F S512x1 .f32 :=
  extractStridedSlice S512x1 ![0, 3] (shapeCast S512x4 x shapeCasts_S512x4_S512x4) slices_S512x4_o0_3_S512x1

/-- The one-hot matrix of a block's graph ids. -/
def oh2 (ids : Vec F S512x1 .i32) : FVec F S512x64 .f32 :=
  sitofp .f32 (extui 32 (cmpi .eq (broadcastTo S512x64 (shapeCast S512x1 ids shapeCasts_S512x1_S512x1) broadcasts_S512x1_S512x64) (iota .tc S512x64 32 [1] iota_S512x64_d1_w32)) natLt_1_32)

/-- The table of weighted bumps of a block with heights `h` and weights `w` against the repeated thresholds. -/
def tb2 (h : FVec F S512x32 .f32) (w : FVec F S512x1 .f32) (lin : Vec F S1x1024 .f32) : FVec F S512x1024 .f32 :=
  mulf (logistic (mulf (broadcast S512x1024 (Scalar.ofBits (F := F) .f32 0x43FA0000#32))
      (subf (broadcastTo S512x1024 (shapeCast S1x1024 lin shapeCasts_S1x1024_S1x1024) broadcasts_S1x1024_S512x1024)
        (concatenate S512x1024 1 (List.replicate 32 (⟨S512x32, h⟩ : (s : Shape) × (s.Idx → F .f32))) concatenates_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x32_S512x1024_d1))))
    (broadcastTo S512x1024 w broadcasts_S512x1_S512x1024)

/-- The heights of the first two vertex tables' rows, the lesser of the two; -/
theorem k2_pay5_eq (x4 : Vec F S3x32 .f32) (x0 x1 : Vec F S512x4 .f32) : k2_pay5 x4 x0 x1 = minimumf (hgt2 x0 x4) (hgt2 x1 x4) := rfl
/-- their weights, the greater of the two. -/
theorem k2_pay6_eq (x0 x1 : Vec F S512x4 .f32) : k2_pay6 x0 x1 = maximumf (wcol2 x0) (wcol2 x1) := rfl

/-- The update: the one-hot product of the block's table — heights the least of the three tables', weights the
    greatest times one — added to the accumulator. -/
theorem step2_eq (x0 x1 x2 : Vec F S512x4 .f32) (x3 : Vec F S512x1 .i32) (x4 : Vec F S3x32 .f32) (x5 : Vec F S1x1024 .f32) (acc : Vec F S64x1024 .f32) :
    step2 x0 x1 x2 x3 x4 x5 acc
      = shapeCast S64x1024 (addf acc (matmul dot_S512x64_S512x1024_S64x1024_0_0_1_1_n_n (some .fp32) (oh2 x3)
          (tb2 (minimumf (k2_pay5 x4 x0 x1) (hgt2 x2 x4))
            (mulf (maximumf (k2_pay6 x0 x1) (wcol2 x2)) (broadcast S512x1 (Scalar.ofBits (F := F) .f32 0x3F800000#32))) x5)
          (constant S64x1024 .f32 0x00000000#32))) shapeCasts_S64x1024_S64x1024 := rfl
end

/-! ## The update read at an index, over the extended reals -/

/-- Entry (r, t) of a block's heights is the row's height as the specification sums it. -/
theorem hgt2_apply (x : Vec Ideal S512x4 .f32) (v : Vec Ideal S3x32 .f32) (r : Fin 512) (t : Fin 32) :
    hgt2 (F := Ideal) x v (ix2 r t) = rowH x v r t := by
  unfold hgt2 rowH
  refine congrArg₂ (· + ·) (congrArg₂ (· + ·) (congrArg₂ (· * ·) ?_ ?_) (congrArg₂ (· * ·) ?_ ?_)) (congrArg₂ (· * ·) ?_ ?_)
  · exact col_apply x _ 0 rfl _ _ _ _ r t
  · exact dir_apply v _ 0 rfl _ _ r t
  · exact col_apply x _ 1 rfl _ _ _ _ r t
  · exact dir_apply v _ 1 rfl _ _ r t
  · exact col_apply x _ 2 rfl _ _ _ _ r t
  · exact dir_apply v _ 2 rfl _ _ r t

/-- Entry (r, 0) of a block's weight column is the row's weight. -/
theorem wcol2_apply (x : Vec Ideal S512x4 .f32) (r : Fin 512) : wcol2 (F := Ideal) x (ix2 r (0 : Fin 1)) = rowW x r :=
  wcol_apply x _ _ r

/-- The zero block a core's first step starts from. -/
theorem zero2_apply (i : S64x1024.Idx) : k2_pay2 (F := Ideal) i = 0 := by
  unfold k2_pay2
  exact (congrFun (shapeCast_self _ _) i).trans Ideal.ofBits_zero_f32

/-- One update at (b, j): what the accumulator held there plus, over the block's 512 rows, the one-hot entry times the
    row's bump — its height the least of the three tables' heights, its weight the greatest of their weights times one. -/
theorem step2_apply (x0 x1 x2 : Vec Ideal S512x4 .f32) (x3 : Vec Ideal S512x1 .i32) (x4 : Vec Ideal S3x32 .f32) (x5 : Vec Ideal S1x1024 .f32) (acc : Vec Ideal S64x1024 .f32) (b : Fin 64) (j : Fin 1024) :
    step2 (F := Ideal) x0 x1 x2 x3 x4 x5 acc (ix2 b j)
      = acc (ix2 b j) + ∑ r : Fin 512, hot (x3 (ix2 r (0 : Fin 1))) b
          * bump (x5 (ix2 (0 : Fin 1) j))
              (min (min (rowH x0 x4 r ⟨j.val % 32, Nat.mod_lt _ (by decide)⟩) (rowH x1 x4 r ⟨j.val % 32, Nat.mod_lt _ (by decide)⟩)) (rowH x2 x4 r ⟨j.val % 32, Nat.mod_lt _ (by decide)⟩))
              (max (max (rowW x0 r) (rowW x1 r)) (rowW x2 r) * Cert.Wecc.one) := by
  rw [step2_eq]
  refine (congrFun (shapeCast_self _ _) (ix2 b j)).trans ?_
  refine congrArg (acc (ix2 b j) + ·) ?_
  refine (prod_apply _ _ b j).trans (Finset.sum_congr rfl fun r _ => ?_)
  refine congrArg₂ (· * ·) (onehot_apply x3 _ _ _ _ r b) ?_
  refine (bumps_apply _ _ x5 _ _ _ _ r j).trans ?_
  refine congrArg₂ (bump (x5 (ix2 (0 : Fin 1) j))) ?_ ?_
  · rw [k2_pay5_eq]
    exact congrArg₂ min (congrArg₂ min (hgt2_apply x0 x4 r _) (hgt2_apply x1 x4 r _)) (hgt2_apply x2 x4 r _)
  · rw [k2_pay6_eq]
    exact congrArg₂ (· * ·) (congrArg₂ max (congrArg₂ max (wcol2_apply x0 r) (wcol2_apply x1 r)) (wcol2_apply x2 r)) rfl

/-! ## The blocks as rows of the arrays -/

/-- Where each input window's block sits at a point: the four row windows at block t, the two whole-array windows at 0. -/
theorem index2_in : ∀ t : Fin cfg2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0) :=
  (by decide +kernel : ∀ t : Fin grid2.N, (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0))

/-- Row t · 512 + r is a row of the padded tables of 158 · 512 rows. -/
theorem row2_lt (t : Fin cfg2.N) (r : Fin 512) : t.val * 512 + r.val < 80896 := by
  have h1 : t.val < cfg2.N := t.isLt
  have hN : cfg2.N = 158 := N_2
  have h2 : r.val < 512 := r.isLt
  omega

/-- Entry (r, k) of a vertex table's block at point t is the table's entry (t · 512 + r, k). -/
theorem blk2_0_apply (a : Vec Ideal S80896x4 .f32) (t : Fin cfg2.N) (r : Fin 512) (k : Fin 4) :
    blk2_0 a t (ix2 r k) = a (ix2 ⟨t.val * 512 + r.val, row2_lt t r⟩ k) := by
  obtain ⟨⟨e0, e1⟩, -⟩ := index2_in t
  show ((cfg2.win 0).blk t).view.read (Elt Ideal) a (ix2 r k) = _
  rw [View.read_apply]
  show a _ = a _
  congr 1
  funext d
  apply Fin.ext
  match d with
  | ⟨0, _⟩ => show win2_0.index t (0 : Fin 2) * 512 + 1 * r.val = t.val * 512 + r.val; rw [e0]; omega
  | ⟨1, _⟩ => show win2_0.index t (1 : Fin 2) * 4 + 1 * k.val = k.val; rw [e1]; omega
theorem blk2_1_apply (a : Vec Ideal S80896x4 .f32) (t : Fin cfg2.N) (r : Fin 512) (k : Fin 4) :
    blk2_1 a t (ix2 r k) = a (ix2 ⟨t.val * 512 + r.val, row2_lt t r⟩ k) := by
  obtain ⟨-, ⟨e0, e1⟩, -⟩ := index2_in t
  show ((cfg2.win 1).blk t).view.read (Elt Ideal) a (ix2 r k) = _
  rw [View.read_apply]
  show a _ = a _
  congr 1
  funext d
  apply Fin.ext
  match d with
  | ⟨0, _⟩ => show win2_1.index t (0 : Fin 2) * 512 + 1 * r.val = t.val * 512 + r.val; rw [e0]; omega
  | ⟨1, _⟩ => show win2_1.index t (1 : Fin 2) * 4 + 1 * k.val = k.val; rw [e1]; omega
theorem blk2_2_apply (a : Vec Ideal S80896x4 .f32) (t : Fin cfg2.N) (r : Fin 512) (k : Fin 4) :
    blk2_2 a t (ix2 r k) = a (ix2 ⟨t.val * 512 + r.val, row2_lt t r⟩ k) := by
  obtain ⟨-, -, ⟨e0, e1⟩, -⟩ := index2_in t
  show ((cfg2.win 2).blk t).view.read (Elt Ideal) a (ix2 r k) = _
  rw [View.read_apply]
  show a _ = a _
  congr 1
  funext d
  apply Fin.ext
  match d with
  | ⟨0, _⟩ => show win2_2.index t (0 : Fin 2) * 512 + 1 * r.val = t.val * 512 + r.val; rw [e0]; omega
  | ⟨1, _⟩ => show win2_2.index t (1 : Fin 2) * 4 + 1 * k.val = k.val; rw [e1]; omega

/-- Entry (r, 0) of the id column's block at point t is the column's entry t · 512 + r. -/
theorem blk2_3_apply (a : Vec Ideal S80896x1 .i32) (t : Fin cfg2.N) (r : Fin 512) :
    blk2_3 a t (ix2 r (0 : Fin 1)) = a (ix2 ⟨t.val * 512 + r.val, row2_lt t r⟩ (0 : Fin 1)) := by
  obtain ⟨-, -, -, ⟨e0, e1⟩, -⟩ := index2_in t
  show ((cfg2.win 3).blk t).view.read (Elt Ideal) a (ix2 r (0 : Fin 1)) = _
  rw [View.read_apply]
  show a _ = a _
  congr 1
  funext d
  apply Fin.ext
  match d with
  | ⟨0, _⟩ => show win2_3.index t (0 : Fin 2) * 512 + 1 * r.val = t.val * 512 + r.val; rw [e0]; omega
  | ⟨1, _⟩ => show win2_3.index t (1 : Fin 2) * 1 + 1 * 0 = 0; rw [e1]

/-- The directions' block is the whole table at every point, -/
theorem blk2_4_eq (a : Vec Ideal S3x32 .f32) (t : Fin cfg2.N) : blk2_4 a t = a := by
  obtain ⟨-, -, -, -, ⟨e0, e1⟩, -⟩ := index2_in t
  funext y
  show ((cfg2.win 4).blk t).view.read (Elt Ideal) a y = _
  rw [View.read_apply]
  show a _ = a _
  congr 1
  funext d
  apply Fin.ext
  match d with
  | ⟨0, _⟩ => show win2_4.index t (0 : Fin 2) * 3 + 1 * (y 0).val = (y 0).val; rw [e0]; omega
  | ⟨1, _⟩ => show win2_4.index t (1 : Fin 2) * 32 + 1 * (y 1).val = (y 1).val; rw [e1]; omega

/-- and so is the thresholds' block the whole row. -/
theorem blk2_5_eq (a : Vec Ideal S1x1024 .f32) (t : Fin cfg2.N) : blk2_5 a t = a := by
  obtain ⟨-, -, -, -, -, ⟨e0, e1⟩⟩ := index2_in t
  funext y
  show ((cfg2.win 5).blk t).view.read (Elt Ideal) a y = _
  rw [View.read_apply]
  show a _ = a _
  congr 1
  funext d
  apply Fin.ext
  match d with
  | ⟨0, _⟩ => show win2_5.index t (0 : Fin 2) * 1 + 1 * (y 0).val = (y 0).val; rw [e0]; omega
  | ⟨1, _⟩ => show win2_5.index t (1 : Fin 2) * 1024 + 1 * (y 1).val = (y 1).val; rw [e1]; omega

/-! ## A point's addend, and the fold over a core's points -/

/-- What point t adds at (b, j): over its 512 rows, as rows of the whole arrays, the one-hot entry times the row's bump. -/
def pt2 (a0 a1 a2 : Vec Ideal S80896x4 .f32) (a3 : Vec Ideal S80896x1 .i32) (a4 : Vec Ideal S3x32 .f32) (a5 : Vec Ideal S1x1024 .f32) (t : Fin cfg2.N) (b : Fin 64) (j : Fin 1024) : EReal :=
  ∑ r : Fin 512, hot (a3 (ix2 ⟨t.val * 512 + r.val, row2_lt t r⟩ (0 : Fin 1))) b
    * bump (a5 (ix2 (0 : Fin 1) j))
        (min (min (rowH a0 a4 ⟨t.val * 512 + r.val, row2_lt t r⟩ ⟨j.val % 32, Nat.mod_lt _ (by decide)⟩) (rowH a1 a4 ⟨t.val * 512 + r.val, row2_lt t r⟩ ⟨j.val % 32, Nat.mod_lt _ (by decide)⟩)) (rowH a2 a4 ⟨t.val * 512 + r.val, row2_lt t r⟩ ⟨j.val % 32, Nat.mod_lt _ (by decide)⟩))
        (max (max (rowW a0 ⟨t.val * 512 + r.val, row2_lt t r⟩) (rowW a1 ⟨t.val * 512 + r.val, row2_lt t r⟩)) (rowW a2 ⟨t.val * 512 + r.val, row2_lt t r⟩) * Cert.Wecc.one)

/-- Point t's update at (b, j), over the arrays' rows: the accumulator's entry plus the point's addend. -/
theorem upd2_apply (a0 a1 a2 : Vec Ideal S80896x4 .f32) (a3 : Vec Ideal S80896x1 .i32) (a4 : Vec Ideal S3x32 .f32) (a5 : Vec Ideal S1x1024 .f32) (t : Fin cfg2.N) (acc : Vec Ideal S64x1024 .f32) (b : Fin 64) (j : Fin 1024) :
    upd2 (F := Ideal) a0 a1 a2 a3 a4 a5 t acc (ix2 b j) = acc (ix2 b j) + pt2 a0 a1 a2 a3 a4 a5 t b j := by
  unfold upd2
  rw [step2_apply, blk2_4_eq, blk2_5_eq]
  unfold pt2
  refine congrArg (acc (ix2 b j) + ·) (Finset.sum_congr rfl fun r _ => ?_)
  rw [blk2_3_apply]
  unfold rowH rowW
  rw [blk2_0_apply a0 t r 0, blk2_0_apply a0 t r 1, blk2_0_apply a0 t r 2, blk2_0_apply a0 t r 3,
    blk2_1_apply a1 t r 0, blk2_1_apply a1 t r 1, blk2_1_apply a1 t r 2, blk2_1_apply a1 t r 3,
    blk2_2_apply a2 t r 0, blk2_2_apply a2 t r 1, blk2_2_apply a2 t r 2, blk2_2_apply a2 t r 3]

/-- Step s of core cc is point cc · 79 + s of the grid. -/
theorem pt2_lt (cc : Fin 2) (s : ℕ) (hs : s < 79) : cc.val * 79 + s < cfg2.N := by
  have h : cc.val < 2 := cc.isLt
  have hN : cfg2.N = 158 := N_2
  omega

/-- After step k of core cc the accumulator holds, at (b, j), the addends of the core's points up to that step: the
    core's first step starts from the zero block, and 0 + x = x. -/
theorem acc2_sum (a0 a1 a2 : Vec Ideal S80896x4 .f32) (a3 : Vec Ideal S80896x1 .i32) (a4 : Vec Ideal S3x32 .f32) (a5 : Vec Ideal S1x1024 .f32) (cc : Fin 2) (b : Fin 64) (j : Fin 1024) :
    ∀ (k : ℕ) (hk : k < 79), accAt2 (F := Ideal) a0 a1 a2 a3 a4 a5 (cc.val * 79 + k) (pt2_lt cc k hk) (ix2 b j)
      = ∑ s ∈ Finset.range (k + 1), if hs : s < 79 then pt2 a0 a1 a2 a3 a4 a5 ⟨cc.val * 79 + s, pt2_lt cc s hs⟩ b j else 0 := by
  intro k
  induction k with
  | zero =>
    intro hk
    refine (congrFun (accAt2_reset a0 a1 a2 a3 a4 a5 (cc.val * 79 + 0) (pt2_lt cc 0 hk) (by omega)) (ix2 b j)).trans ?_
    rw [upd2_apply, zero2_apply, zero_add, Finset.sum_range_one, dif_pos hk]
  | succ k ih =>
    intro hk
    have hc : cc.val < 2 := cc.isLt
    refine (congrFun (accAt2_step a0 a1 a2 a3 a4 a5 (cc.val * 79 + k) (pt2_lt cc (k + 1) hk) (by omega)) (ix2 b j)).trans ?_
    rw [upd2_apply, ih (by omega), Finset.sum_range_succ _ (k + 1), dif_pos hk]
    rfl

/-! ## The output array at an index -/

/-- Entry (cc, b, j) of the face call's output: the sum, over core cc's 79 steps and each step's 512 rows, of the one-hot
    entry times the row's bump, the row's height the least of its three vertices' heights and its weight the greatest of
    their weights (times the word 1.0 the face call carries). -/
theorem outArr2_apply (a0 a1 a2 : Vec Ideal S80896x4 .f32) (a3 : Vec Ideal S80896x1 .i32) (a4 : Vec Ideal S3x32 .f32) (a5 : Vec Ideal S1x1024 .f32) (cc : Fin 2) (b : Fin 64) (j : Fin 1024) :
    outArr2 (F := Ideal) a0 a1 a2 a3 a4 a5 (ValueIdx.ix3 cc b j)
      = Cert.Wecc.regionSum 79 (by norm_num) a3
          (fun r t => min (min (Cert.Wecc.rowH a0 a4 r t) (Cert.Wecc.rowH a1 a4 r t)) (Cert.Wecc.rowH a2 a4 r t))
          (fun r => max (max (Cert.Wecc.rowW a0 r) (Cert.Wecc.rowW a1 r)) (Cert.Wecc.rowW a2 r) * Cert.Wecc.one) a5 cc b j := by
  show accAt2 a0 a1 a2 a3 a4 a5 (cc.val * 79 + 78) _ (ix2 b j) = _
  rw [acc2_sum a0 a1 a2 a3 a4 a5 cc b j 78 (by omega), Finset.sum_range]
  unfold Cert.Wecc.regionSum
  refine Finset.sum_congr rfl fun i _ => ?_
  rw [dif_pos i.isLt]
  rfl

end Cert.KernelIdeal.Hand

end
-- ==== Proof.LibGridSum.lean ====
/-
  Sums over a grid of blocks of rows.

  A grid of B × J points is numbered row-major: point p is (p / J, p % J). Point (b, j) holds R consecutive rows of batch
  b: the rows j·R, …, j·R + R − 1 of the J·R rows of the batch. Summing, point after point, each point's sum over its
  rows sums every row of every batch exactly once: a running sum carried over the grid ends at the double sum over
  batches and rows. The target is any commutative additive monoid.
-/
import Mathlib.Algebra.BigOperators.Fin

open scoped BigOperators
open Finset

namespace Cert.GridSum

variable {M : Type*} [AddCommMonoid M]

/-- A sum over B·J consecutive numbers is the double sum, over b < B and j < J, of the term at b·J + j. -/
theorem sum_range_mul (h : ℕ → M) (B J : ℕ) :
    ∑ p ∈ range (B * J), h p = ∑ b ∈ range B, ∑ j ∈ range J, h (b * J + j) := by
  induction B with
  | zero => simp
  | succ B ih => rw [Nat.add_mul, Nat.one_mul, sum_range_add, ih, sum_range_succ]

/-- The grid sum over natural-number indices (no bounds to carry): over the B·J points p in order, the rows
    p % J · R + r, r < R, of batch p / J % B, are all the J·R rows of all the B batches. -/
theorem sum_grid_rows_nat (B J R : ℕ) (g : ℕ → ℕ → M) :
    ∑ p ∈ range (B * J), ∑ r ∈ range R, g (p / J % B) (p % J * R + r) = ∑ b ∈ range B, ∑ n ∈ range (J * R), g b n := by
  rw [sum_range_mul]
  refine sum_congr rfl fun b hb => ?_
  rw [sum_range_mul (fun n => g b n) J R]
  refine sum_congr rfl fun j hj => ?_
  have hb' : b < B := mem_range.mp hb
  have hj' : j < J := mem_range.mp hj
  have e1 : (b * J + j) / J % B = b := by
    rw [Nat.add_comm, Nat.add_mul_div_right _ _ (Nat.zero_lt_of_lt hj'), Nat.div_eq_of_lt hj', Nat.zero_add,
      Nat.mod_eq_of_lt hb']
  have e2 : (b * J + j) % J = j := by
    rw [Nat.add_comm, Nat.add_mul_mod_self_right, Nat.mod_eq_of_lt hj']
  rw [e1, e2]

/-- Row r of point p's block is a row of the batch: p % J · R + r < J·R. -/
theorem row_lt {J R N : ℕ} (hJ : 0 < J) (hN : J * R = N) (p : ℕ) (r : Fin R) : p % J * R + r.val < N := by
  have h1 : p % J < J := Nat.mod_lt _ hJ
  calc p % J * R + r.val < p % J * R + R := Nat.add_lt_add_left r.isLt _
    _ = (p % J + 1) * R := by rw [Nat.add_mul, Nat.one_mul]
    _ ≤ J * R := Nat.mul_le_mul_right _ h1
    _ = N := hN

/-- THE GRID SUM. For f on B batches of N = J·R rows: the sum over the B·J points p, in order, of the sum over the R
    rows of the point's block — row p % J · R + r of batch p / J % B — is the sum of f over all batches and rows. -/
theorem sum_grid_rows (B J R : ℕ) {N : ℕ} (hB : 0 < B) (hJ : 0 < J) (hN : J * R = N) (f : Fin B → Fin N → M) :
    ∑ p ∈ range (B * J), ∑ r : Fin R, f ⟨p / J % B, Nat.mod_lt _ hB⟩ ⟨p % J * R + r.val, row_lt hJ hN p r⟩
      = ∑ b : Fin B, ∑ n : Fin N, f b n := by
  subst hN
  let g : ℕ → ℕ → M := fun b n => if hb : b < B then if hn : n < J * R then f ⟨b, hb⟩ ⟨n, hn⟩ else 0 else 0
  have hg : ∀ (b n : ℕ) (hb : b < B) (hn : n < J * R), g b n = f ⟨b, hb⟩ ⟨n, hn⟩ := fun b n hb hn => by
    simp only [g, dif_pos hb, dif_pos hn]
  calc ∑ p ∈ range (B * J), ∑ r : Fin R, f ⟨p / J % B, Nat.mod_lt _ hB⟩ ⟨p % J * R + r.val, row_lt hJ rfl p r⟩
      = ∑ p ∈ range (B * J), ∑ r ∈ range R, g (p / J % B) (p % J * R + r) := by
        refine sum_congr rfl fun p _ => ?_
        rw [← Fin.sum_univ_eq_sum_range (fun r => g (p / J % B) (p % J * R + r)) R]
        exact sum_congr rfl fun r _ => (hg _ _ (Nat.mod_lt _ hB) (row_lt hJ rfl p r)).symm
    _ = ∑ b ∈ range B, ∑ n ∈ range (J * R), g b n := sum_grid_rows_nat B J R g
    _ = ∑ b : Fin B, ∑ n : Fin (J * R), f b n := by
        rw [← Fin.sum_univ_eq_sum_range (fun b => ∑ n ∈ range (J * R), g b n) B]
        refine sum_congr rfl fun b _ => ?_
        rw [← Fin.sum_univ_eq_sum_range (fun n => g b.val n) (J * R)]
        exact sum_congr rfl fun n _ => hg _ _ b.isLt n.isLt

/-- The same with the points as Fin (B·J). -/
theorem sum_grid_rows_fin (B J R : ℕ) {N : ℕ} (hB : 0 < B) (hJ : 0 < J) (hN : J * R = N) (f : Fin B → Fin N → M) :
    ∑ p : Fin (B * J), ∑ r : Fin R, f ⟨p.val / J % B, Nat.mod_lt _ hB⟩ ⟨p.val % J * R + r.val, row_lt hJ hN p.val r⟩
      = ∑ b : Fin B, ∑ n : Fin N, f b n := by
  rw [← sum_grid_rows B J R hB hJ hN f]
  exact Fin.sum_univ_eq_sum_range
    (fun p => ∑ r : Fin R, f ⟨p / J % B, Nat.mod_lt _ hB⟩ ⟨p % J * R + r.val, row_lt hJ hN p r⟩) (B * J)

/-- The first instance met: 2 batches, 16 blocks of 1024 rows each. -/
example (f : Fin 2 → Fin 16384 → M) :
    ∑ p ∈ range 32, ∑ r : Fin 1024, f ⟨p / 16 % 2, Nat.mod_lt _ (by decide)⟩ ⟨p % 16 * 1024 + r.val, row_lt (by decide) rfl p r⟩
      = ∑ b : Fin 2, ∑ n : Fin 16384, f b n :=
  sum_grid_rows 2 16 1024 (by decide) (by decide) rfl f

end Cert.GridSum
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.LibGatherStacked.lean ====
import Idealize.ShloMosaic.Lib.ValueIdx
import Idealize.ShloMosaic.PureOps.Contract

/-!
# Gathers by an index column or by a stack of index columns, read at an index

A table's leading axis has N entries. An index word is read as a SIGNED integer and CLAMPED into [0, N − 1] (a
negative word reads entry 0, a word past the end the last entry).

* `gather_vec`: a vector of N elements gathered by a column of n words: element e is the table at word e.
* `gather_rows_stacked`: an N × D table gathered by a stack of a columns of n words each (an a × n × 1 array):
  result element (j, e, k) is the table's row named by word (j, e), column k.
* `gather_vec_stacked`: the same for a vector of N elements: result element (j, e) is the table at word (j, e).

Every statement is for arbitrary extents and any record of dimension numbers whose lists are the ones named by the
hypotheses, so each applies to a concrete record with rfl for every list.
-/

namespace Cert.LibGatherStacked

open Idealize.ShloMosaic Idealize.ShloMosaic.ValueIdx

theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ix2 e 0)).toInt.toNat (N - 1), by omega⟩) := by
  -- the one table axis is collapsed, so its slice size is 1 and the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element e is read at (e, 0) of the index column
    have hsi : ∀ c, (GatherDims.siIdx ⟨[], [0], [], sb, [0], 1, ss, wf⟩ (ix1 e) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl

theorem gather_rows_stacked {α : Type} {N D a n w : Nat} (d : GatherDims ⟨2, ![N, D]⟩ ⟨3, ![a, n, 1]⟩ ⟨3, ![a, n, D]⟩)
    (hoff : d.offsetDims = [2]) (hcoll : d.collapsedSliceDims = [0]) (hob : d.operandBatchingDims = [])
    (hsim : d.startIndexMap = [0]) (hivd : d.indexVectorDim = 2)
    (x : (⟨2, ![N, D]⟩ : Shape).Idx → α) (idx : IVec ⟨3, ![a, n, 1]⟩ w) (j : Fin a) (e : Fin n) (k : Fin D) (hN : 0 < N) :
    Host.gather d x idx (ix3 j e k) = x (ix2 ⟨min (idx (ix3 j e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element (j, e, k) is read at (j, e, 0) of the index stack: the two batch
    -- coordinates are the result's first two, the index vector's axis carries the one component 0
    have hsi : ∀ c, (GatherDims.siIdx ⟨[2], [0], [], sb, [0], 2, ss, wf⟩ (ix3 j e k) c : (⟨3, ![a, n, 1]⟩ : Shape).Idx)
        = ix3 j e 0 := by
      intro c
      funext b
      apply Fin.ext
      match b with
      | ⟨0, _⟩ => rfl
      | ⟨1, _⟩ => rfl
      | ⟨2, _⟩ =>
        have := c.isLt
        simp only [List.length_singleton] at this
        show c.val = 0
        omega
    show min (idx (GatherDims.siIdx _ _ _)).toInt.toNat (N - ss 0) + 0 + 0 = min (idx (ix3 j e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

theorem gather_vec_stacked {α : Type} {N a n w : Nat} (d : GatherDims ⟨1, ![N]⟩ ⟨3, ![a, n, 1]⟩ ⟨2, ![a, n]⟩)
    (hoff : d.offsetDims = []) (hcoll : d.collapsedSliceDims = [0]) (hob : d.operandBatchingDims = [])
    (hsim : d.startIndexMap = [0]) (hivd : d.indexVectorDim = 2)
    (x : (⟨1, ![N]⟩ : Shape).Idx → α) (idx : IVec ⟨3, ![a, n, 1]⟩ w) (j : Fin a) (e : Fin n) (hN : 0 < N) :
    Host.gather d x idx (ix2 j e) = x (ix1 ⟨min (idx (ix3 j e 0)).toInt.toNat (N - 1), by omega⟩) := by
  -- the one table axis is collapsed, so its slice size is 1 and the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext ax
  apply Fin.ext
  match ax with
  | ⟨0, _⟩ =>
    -- the start index of result element (j, e) is read at (j, e, 0) of the index stack
    have hsi : ∀ c, (GatherDims.siIdx ⟨[], [0], [], sb, [0], 2, ss, wf⟩ (ix2 j e) c : (⟨3, ![a, n, 1]⟩ : Shape).Idx)
        = ix3 j e 0 := by
      intro c
      funext b
      apply Fin.ext
      match b with
      | ⟨0, _⟩ => rfl
      | ⟨1, _⟩ => rfl
      | ⟨2, _⟩ =>
        have := c.isLt
        simp only [List.length_singleton] at this
        show c.val = 0
        omega
    show min (idx (GatherDims.siIdx _ _ _)).toInt.toNat (N - ss 0) + 0 + 0 = min (idx (ix3 j e 0)).toInt.toNat (N - 1)
    rw [hsi, hsl]
    rfl

end Cert.LibGatherStacked
-- ==== Proof.KMath.lean ====
/-
  The kernel's side, as mathematics: what the host operations around the three calls do to the calls' outputs.

  Each call's output O(cc, b, j) is, by hypothesis, the double sum over the core's steps and block rows of
  hot(id_R, b) · bump_R(j). Summed over the two cores (the host's reduce) this is the sum over ALL padded rows R; the
  pad rows carry the id −1, whose one-hot entry is 0 for every b, so only the true rows remain; over those the padded
  tables ARE the source tables (the packed node table, or it gathered at the wrapped-and-clamped index words), so the
  row's height and weight are the simplex's, and Σ_R hot(g_R, b) · f_R is the sum of f over the simplices whose graph
  id is b. The three results added are nodes + (edges with negated weights) + faces.
-/
import proofs.«429462_j65403761983812_3_alg».proof.Proof.KI.Terms
import proofs.«429462_j65403761983812_3_alg».proof.Proof.Spec
import proofs.«429462_j65403761983812_3_alg».proof.Proof.LibGridSum
import proofs.«429462_j65403761983812_3_alg».proof.Proof.LibScatterGatherRows
import proofs.«429462_j65403761983812_3_alg».proof.Proof.LibGatherStacked
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws
import Mathlib.Algebra.BigOperators.Fin
import Mathlib.Algebra.BigOperators.Group.Finset.Basic
import Mathlib.Algebra.BigOperators.Group.Finset.Piecewise

open scoped BigOperators

noncomputable section

namespace Cert.KernelIdeal.KMath

open Cert.KernelIdeal Cert.KernelIdeal.Gen Cert.KernelIdeal.Hand
open Idealize.ShloMosaic Idealize.ShloMosaic.ValueIdx

/-! ## Sums over rows -/

section Sums
variable {M : Type*} [AddCommMonoid M]

/-- A sum over m indices whose terms vanish from n on is the sum over the first n. -/
theorem sum_fin_of_zero_tail {n m : ℕ} (hnm : n ≤ m) (G : Fin m → M) (hz : ∀ R : Fin m, n ≤ R.val → G R = 0) :
    ∑ R : Fin m, G R = ∑ e : Fin n, G (Fin.castLE hnm e) := by
  obtain ⟨p, rfl⟩ := Nat.exists_eq_add_of_le hnm
  rw [Fin.sum_univ_add]
  have h0 : ∑ i : Fin p, G (Fin.natAdd n i) = 0 :=
    Finset.sum_eq_zero fun i _ => hz _ (by simp)
  rw [h0, add_zero]
  rfl

/-- THE GRID OF ONE CALL: two cores, `steps` steps each, 512 rows a step, walk every one of the M = 2 · steps · 512
    rows exactly once. -/
theorem sum_cores_steps_rows (steps : ℕ) {N : ℕ} (hN : 2 * steps * 512 = N) (G : Fin N → M) :
    ∑ cc : Fin 2, ∑ i : Fin steps, ∑ r : Fin 512,
        G ⟨(cc.val * steps + i.val) * 512 + r.val, Cert.Wecc.grid_row_lt hN cc i r⟩
      = ∑ R : Fin N, G R := by
  subst hN
  let g : ℕ → M := fun n => if hn : n < 2 * steps * 512 then G ⟨n, hn⟩ else 0
  have hg : ∀ (n : ℕ) (hn : n < 2 * steps * 512), g n = G ⟨n, hn⟩ := fun n hn => by simp only [g, dif_pos hn]
  calc ∑ cc : Fin 2, ∑ i : Fin steps, ∑ r : Fin 512,
        G ⟨(cc.val * steps + i.val) * 512 + r.val, Cert.Wecc.grid_row_lt rfl cc i r⟩
      = ∑ cc ∈ Finset.range 2, ∑ i ∈ Finset.range steps, ∑ r ∈ Finset.range 512, g ((cc * steps + i) * 512 + r) := by
        rw [← Fin.sum_univ_eq_sum_range (fun cc => ∑ i ∈ Finset.range steps, ∑ r ∈ Finset.range 512, g ((cc * steps + i) * 512 + r)) 2]
        refine Finset.sum_congr rfl fun cc _ => ?_
        rw [← Fin.sum_univ_eq_sum_range (fun i => ∑ r ∈ Finset.range 512, g ((cc.val * steps + i) * 512 + r)) steps]
        refine Finset.sum_congr rfl fun i _ => ?_
        rw [← Fin.sum_univ_eq_sum_range (fun r => g ((cc.val * steps + i.val) * 512 + r)) 512]
        exact Finset.sum_congr rfl fun r _ => (hg _ (Cert.Wecc.grid_row_lt rfl cc i r)).symm
    _ = ∑ p ∈ Finset.range (2 * steps), ∑ r ∈ Finset.range 512, g (p * 512 + r) :=
        (Cert.GridSum.sum_range_mul (fun p => ∑ r ∈ Finset.range 512, g (p * 512 + r)) 2 steps).symm
    _ = ∑ n ∈ Finset.range (2 * steps * 512), g n := (Cert.GridSum.sum_range_mul g (2 * steps) 512).symm
    _ = ∑ R : Fin (2 * steps * 512), G R := by
        rw [← Fin.sum_univ_eq_sum_range g (2 * steps * 512)]
        exact Finset.sum_congr rfl fun R _ => hg _ R.isLt

end Sums

/-! ## Layout pieces read at an index -/

section Pad
variable {α : Type}

/-- A table of n rows padded behind with p rows of a fill value, read at a row e below n: the table's row e. -/
theorem pad_rows_inside {n m c p : ℕ} (x : (⟨2, ![n, c]⟩ : Shape).Idx → α) {u : Shape} (v : u.Idx → α)
    (h : (⟨2, ![n, c]⟩ : Shape).Pads (![0, 0] : Fin 2 → ℕ) ![p, 0] ![0, 0] ⟨2, ![m, c]⟩) (hu : 0 < u.numel)
    (hnm : n ≤ m) (e : Fin n) (k : Fin c) :
    pad ⟨2, ![m, c]⟩ ![0, 0] ![p, 0] ![0, 0] x v h hu (ix2 (Fin.castLE hnm e) k) = x (ix2 e k) :=
  pad_apply_of_inside _ _ _ x v h hu _ _ (fun a => by
    match a with
    | ⟨0, _⟩ => show e.val = 0 + e.val * (0 + 1); omega
    | ⟨1, _⟩ => show k.val = 0 + k.val * (0 + 1); omega)

/-- The same read at a row from n on: the fill value. -/
theorem pad_rows_outside {n m c p : ℕ} (x : (⟨2, ![n, c]⟩ : Shape).Idx → α) {u : Shape} (v : u.Idx → α)
    (h : (⟨2, ![n, c]⟩ : Shape).Pads (![0, 0] : Fin 2 → ℕ) ![p, 0] ![0, 0] ⟨2, ![m, c]⟩) (hu : 0 < u.numel)
    (r : Fin m) (k : Fin c) (hr : n ≤ r.val) :
    pad ⟨2, ![m, c]⟩ ![0, 0] ![p, 0] ![0, 0] x v h hu (ix2 r k) = v (Shape.Idx.first hu) :=
  pad_apply_of_not_inside _ _ _ x v h hu _ (0 : Fin 2) (by
    show ¬(0 ≤ r.val ∧ (r.val - 0) % (0 + 1) = 0 ∧ (r.val - 0) / (0 + 1) < n)
    rintro ⟨_, _, h3⟩
    rw [Nat.sub_zero, Nat.zero_add, Nat.div_one] at h3
    omega)

end Pad

/-- One call's output summed over its two cores and reshaped, at (b, s, t): the zero word plus the two cores'
    entries (b, 32·s + t). -/
theorem post_apply (o : Vec Ideal S2x64x1024 .f32) (b : Fin 64) (s t : Fin 32) :
    Hand.post (F := Ideal) o (ix3 b s t)
      = 0 + (o (ix3 (0 : Fin 2) b ⟨32 * s.val + t.val, by omega⟩) + o (ix3 (1 : Fin 2) b ⟨32 * s.val + t.val, by omega⟩)) := by
  unfold Hand.post
  rw [shapeCast_apply _ _ (ix3 b s t) (ix2 b (⟨32 * s.val + t.val, by omega⟩ : Fin 1024)) (by
    rw [Shape.rowMajor_val_two, Shape.rowMajor_val_three]
    show b.val * 1024 + (32 * s.val + t.val) = (b.val * 32 + s.val) * 32 + t.val
    omega)]
  have hR : S2x64x1024.Reduces [0] S64x1024 := by decide
  rw [hostReduceAdd_apply, Ideal.hostReduceAdd_single _ hR]
  -- the index with core k put back on the reduced axis is (k, b, 32·s + t)
  have hl : ∀ k : Fin 2, hR.lift (ix2 b (⟨32 * s.val + t.val, by omega⟩ : Fin 1024)) k
      = ix3 k b (⟨32 * s.val + t.val, by omega⟩ : Fin 1024) := fun k => by
    funext a
    apply Fin.ext
    match a with
    | ⟨0, _⟩ => rfl
    | ⟨1, _⟩ => rfl
    | ⟨2, _⟩ => rfl
  show zeroF (F := Ideal) _ + ∑ k : Fin 2, o (hR.lift (ix2 b (⟨32 * s.val + t.val, by omega⟩ : Fin 1024)) k) = _
  rw [Fin.sum_univ_two, hl 0, hl 1]
  congr 1
  exact Ideal.ofBits_zero_f32

/-- The thresholds as the calls read them: entry j of the one row is threshold j / 32. -/
theorem linRep_apply (lin : Vec Ideal S32 .f32) (j : Fin 1024) :
    linRep (F := Ideal) lin (ix2 (0 : Fin 1) j) = lin (ix1 (⟨j.val / 32, by omega⟩ : Fin 32)) := by
  unfold linRep
  rw [shapeCast_a_1a_apply]
  rw [shapeCast_apply _ _ (ix1 j) (ix2 (⟨j.val / 32, by omega⟩ : Fin 32) (⟨j.val % 32, Nat.mod_lt _ (by decide)⟩ : Fin 32)) (by
    rw [Shape.rowMajor_val_two, Shape.rowMajor_val_one]
    show j.val / 32 * 32 + j.val % 32 = j.val
    omega)]
  exact broadcastInDim_apply _ _ _ _ _ (fun a => by
    match a with
    | ⟨0, _⟩ => rfl)

/-! ## The tables before the calls -/

/-- The packed node table at a coordinate column k < 3: the node's coordinate. -/
theorem xwT_apply_x (x : Vec Ideal S50000x3 .f32) (wt : Vec Ideal S50000 .f32) (n : Fin 50000) (k : Fin 4) (hk : k.val < 3) :
    xwT (F := Ideal) x wt (ix2 n k) = x (ix2 n (⟨k.val, hk⟩ : Fin 3)) := by
  unfold xwT
  exact concatenate_pair_apply_left (t := S50000x4) (s₁ := S50000x3) (s₂ := S50000x1) (1 : Fin 2) x _ _ (ix2 n k) rfl
    (ix2 n (⟨k.val, hk⟩ : Fin 3)) (fun b => by
      match b with
      | ⟨0, _⟩ => rfl
      | ⟨1, _⟩ => rfl)

/-- The packed node table at column 3: the node's weight. -/
theorem xwT_apply_w (x : Vec Ideal S50000x3 .f32) (wt : Vec Ideal S50000 .f32) (n : Fin 50000) :
    xwT (F := Ideal) x wt (ix2 n (3 : Fin 4)) = wt (ix1 n) := by
  unfold xwT
  rw [concatenate_pair_apply_right (t := S50000x4) (s₁ := S50000x3) (s₂ := S50000x1) (1 : Fin 2) x
    (shapeCast S50000x1 wt shapeCasts_S50000_S50000x1) concatenates_S50000x3_S50000x1_S50000x4_d1
    (ix2 n (3 : Fin 4)) rfl rfl (ix2 n (0 : Fin 1)) (fun b hb => by
      match b with
      | ⟨0, _⟩ => rfl
      | ⟨1, _⟩ => exact absurd rfl hb) rfl]
  exact shapeCast_apply _ _ _ _ (by
    rw [Shape.rowMajor_val_two, Shape.rowMajor_val_one]
    show n.val = n.val * 1 + 0
    omega)

/-- A vector cast to a column, read at (r, 0): the vector at r. -/
theorem col_apply {α : Type} {n : ℕ} (x : (⟨1, ![n]⟩ : Shape).Idx → α) (h : (⟨1, ![n]⟩ : Shape).ShapeCasts ⟨2, ![n, 1]⟩)
    (r : Fin n) : shapeCast ⟨2, ![n, 1]⟩ x h (ix2 r (0 : Fin 1)) = x (ix1 r) :=
  shapeCast_apply _ _ _ _ (by
    rw [Shape.rowMajor_val_two, Shape.rowMajor_val_one]
    show r.val = r.val * 1 + 0
    omega)

/-- Row j of the edge index array, as a vector, at e. -/
theorem eRow0_apply (ei : Vec Ideal S2x100000 .i32) (e : Fin 100000) :
    eRow0 (F := Ideal) ei (ix1 e) = ei (ix2 (0 : Fin 2) e) := by
  unfold eRow0
  rw [shapeCast_1a_a_apply]
  exact slice2_axis0_apply 0 _ _ _ e 0 rfl
theorem eRow1_apply (ei : Vec Ideal S2x100000 .i32) (e : Fin 100000) :
    eRow1 (F := Ideal) ei (ix1 e) = ei (ix2 (1 : Fin 2) e) := by
  unfold eRow1
  rw [shapeCast_1a_a_apply]
  exact slice2_axis0_apply 1 _ _ _ e 1 rfl
/-- Row j of the face index array, as a vector, at f. -/
theorem fRow0_apply (fc : Vec Ideal S3x80000 .i32) (f : Fin 80000) :
    fRow0 (F := Ideal) fc (ix1 f) = fc (ix2 (0 : Fin 3) f) := by
  unfold fRow0
  rw [shapeCast_1a_a_apply]
  exact slice2_axis0_apply 0 _ _ _ f 0 rfl
theorem fRow1_apply (fc : Vec Ideal S3x80000 .i32) (f : Fin 80000) :
    fRow1 (F := Ideal) fc (ix1 f) = fc (ix2 (1 : Fin 3) f) := by
  unfold fRow1
  rw [shapeCast_1a_a_apply]
  exact slice2_axis0_apply 1 _ _ _ f 1 rfl
theorem fRow2_apply (fc : Vec Ideal S3x80000 .i32) (f : Fin 80000) :
    fRow2 (F := Ideal) fc (ix1 f) = fc (ix2 (2 : Fin 3) f) := by
  unfold fRow2
  rw [shapeCast_1a_a_apply]
  exact slice2_axis0_apply 2 _ _ _ f 2 rfl

/-- The wrapped index column at (e, 0): the word with 50000 added when it is negative. -/
theorem wrapE_apply (i : IVec S100000 32) (e : Fin 100000) :
    wrapE i (ix2 e (0 : Fin 1))
      = Scalar.select (IntOp.cmpi .slt (i (ix1 e)) 0#32) (IntOp.addi (i (ix1 e)) 50000#32) (i (ix1 e)) := by
  unfold wrapE
  rw [broadcastInDim_apply _ _ _ (ix2 e (0 : Fin 1)) (ix1 e) (fun a => by
    match a with
    | ⟨0, _⟩ => rfl)]
  rfl
theorem wrapF_apply (i : IVec S80000 32) (f : Fin 80000) :
    wrapF i (ix2 f (0 : Fin 1))
      = Scalar.select (IntOp.cmpi .slt (i (ix1 f)) 0#32) (IntOp.addi (i (ix1 f)) 50000#32) (i (ix1 f)) := by
  unfold wrapF
  rw [broadcastInDim_apply _ _ _ (ix2 f (0 : Fin 1)) (ix1 f) (fun a => by
    match a with
    | ⟨0, _⟩ => rfl)]
  rfl

/-- The packed table gathered at an index vector: row e is the table's row at the node the e-th word names. -/
theorem gatE_apply (xw : Vec Ideal S50000x4 .f32) (i : IVec S100000 32) (e : Fin 100000) (k : Fin 4) :
    gatE (F := Ideal) xw i (ix2 e k) = xw (ix2 (Cert.Wecc.node (i (ix1 e))) k) := by
  unfold gatE
  rw [Cert.LibScatterGatherRows.gather_rows _ rfl rfl rfl rfl rfl xw (wrapE i) e k (by norm_num)]
  simp only [wrapE_apply]
  rfl
theorem gatF_apply (xw : Vec Ideal S50000x4 .f32) (i : IVec S80000 32) (f : Fin 80000) (k : Fin 4) :
    gatF (F := Ideal) xw i (ix2 f k) = xw (ix2 (Cert.Wecc.node (i (ix1 f))) k) := by
  unfold gatF
  rw [Cert.LibScatterGatherRows.gather_rows _ rfl rfl rfl rfl rfl xw (wrapF i) f k (by norm_num)]
  simp only [wrapF_apply]
  rfl
/-- The graph ids gathered at an index vector: entry e is the id of the node the e-th word names. -/
theorem gidE_apply (bt : Vec Ideal S50000 .i32) (i : IVec S100000 32) (e : Fin 100000) :
    gidE (F := Ideal) bt i (ix1 e) = bt (ix1 (Cert.Wecc.node (i (ix1 e)))) := by
  unfold gidE
  rw [Cert.LibGatherStacked.gather_vec _ rfl rfl rfl rfl rfl bt (wrapE i) e (by norm_num)]
  simp only [wrapE_apply]
  rfl
theorem gidF_apply (bt : Vec Ideal S50000 .i32) (i : IVec S80000 32) (f : Fin 80000) :
    gidF (F := Ideal) bt i (ix1 f) = bt (ix1 (Cert.Wecc.node (i (ix1 f)))) := by
  unfold gidF
  rw [Cert.LibGatherStacked.gather_vec _ rfl rfl rfl rfl rfl bt (wrapF i) f (by norm_num)]
  simp only [wrapF_apply]
  rfl

/-! ## The calls' padded operands at a row -/

/-- The fill word of the id columns, −1, is no graph's id: its one-hot entry is 0 for every b. -/
theorem hot_minusOne (b : Fin 64) : Cert.Wecc.hot 4294967295#32 b = 0 := by
  unfold Cert.Wecc.hot
  rw [if_neg]
  have h : (4294967295#32 : BitVec 32).toInt = -1 := by decide
  rw [h]
  omega

/-- The word of 1.0 is the extended real one. -/
theorem one_eq : Cert.Wecc.one = 1 := Ideal.ofBits_one_f32

section Operands
variable (x : Vec Ideal S50000x3 .f32) (wt : Vec Ideal S50000 .f32) (ei : Vec Ideal S2x100000 .i32)
  (fc : Vec Ideal S3x80000 .i32) (bt : Vec Ideal S50000 .i32)

/-- Call 0's table at a true row n: the packed node table's row n. -/
theorem in0_0_apply (n : Fin 50000) (k : Fin 4) :
    in0_0 (F := Ideal) x wt (ix2 (Fin.castLE (by norm_num) n : Fin 50176) k) = xwT (F := Ideal) x wt (ix2 n k) := by
  unfold in0_0 padN4
  exact pad_rows_inside _ _ _ _ _ n k
/-- Call 0's id column at a true row n: node n's graph id; at a pad row: −1. -/
theorem in0_1_apply (n : Fin 50000) :
    in0_1 (F := Ideal) bt (ix2 (Fin.castLE (by norm_num) n : Fin 50176) (0 : Fin 1)) = bt (ix1 n) := by
  unfold in0_1 padN1
  rw [pad_rows_inside _ _ _ _ _ n (0 : Fin 1)]
  exact col_apply _ _ n
theorem in0_1_pad (R : Fin 50176) (hR : 50000 ≤ R.val) :
    in0_1 (F := Ideal) bt (ix2 R (0 : Fin 1)) = 4294967295#32 := by
  unfold in0_1 padN1
  rw [pad_rows_outside _ _ _ _ R (0 : Fin 1) hR]
  rfl

/-- Call 1's two tables at a true row e: the packed node table's rows at the edge's two endpoints. -/
theorem in1_0_apply (e : Fin 100000) (k : Fin 4) :
    in1_0 (F := Ideal) x wt ei (ix2 (Fin.castLE (by norm_num) e : Fin 100352) k)
      = xwT (F := Ideal) x wt (ix2 (Cert.Wecc.e0 ei e) k) := by
  unfold in1_0 padE4
  rw [pad_rows_inside _ _ _ _ _ e k]
  show gatE (F := Ideal) _ _ (ix2 e k) = _
  rw [gatE_apply, eRow0_apply]
  rfl
theorem in1_1_apply (e : Fin 100000) (k : Fin 4) :
    in1_1 (F := Ideal) x wt ei (ix2 (Fin.castLE (by norm_num) e : Fin 100352) k)
      = xwT (F := Ideal) x wt (ix2 (Cert.Wecc.e1 ei e) k) := by
  unfold in1_1 padE4
  rw [pad_rows_inside _ _ _ _ _ e k]
  show gatE (F := Ideal) _ _ (ix2 e k) = _
  rw [gatE_apply, eRow1_apply]
  rfl
/-- Call 1's id column at a true row e: the graph id of the edge's first endpoint; at a pad row: −1. -/
theorem in1_2_apply (e : Fin 100000) :
    in1_2 (F := Ideal) ei bt (ix2 (Fin.castLE (by norm_num) e : Fin 100352) (0 : Fin 1)) = Cert.Wecc.gE ei bt e := by
  unfold in1_2 padE1
  rw [pad_rows_inside _ _ _ _ _ e (0 : Fin 1)]
  show shapeCast S100000x1 _ _ (ix2 e (0 : Fin 1)) = _
  rw [col_apply, gidE_apply, eRow0_apply]
  rfl
theorem in1_2_pad (R : Fin 100352) (hR : 100000 ≤ R.val) :
    in1_2 (F := Ideal) ei bt (ix2 R (0 : Fin 1)) = 4294967295#32 := by
  unfold in1_2 padE1
  rw [pad_rows_outside _ _ _ _ R (0 : Fin 1) hR]
  rfl

/-- Call 2's three tables at a true row f: the packed node table's rows at the face's three vertices. -/
theorem in2_0_apply (f : Fin 80000) (k : Fin 4) :
    in2_0 (F := Ideal) x wt fc (ix2 (Fin.castLE (by norm_num) f : Fin 80896) k)
      = xwT (F := Ideal) x wt (ix2 (Cert.Wecc.f0 fc f) k) := by
  unfold in2_0 padF4
  rw [pad_rows_inside _ _ _ _ _ f k]
  show gatF (F := Ideal) _ _ (ix2 f k) = _
  rw [gatF_apply, fRow0_apply]
  rfl
theorem in2_1_apply (f : Fin 80000) (k : Fin 4) :
    in2_1 (F := Ideal) x wt fc (ix2 (Fin.castLE (by norm_num) f : Fin 80896) k)
      = xwT (F := Ideal) x wt (ix2 (Cert.Wecc.f1 fc f) k) := by
  unfold in2_1 padF4
  rw [pad_rows_inside _ _ _ _ _ f k]
  show gatF (F := Ideal) _ _ (ix2 f k) = _
  rw [gatF_apply, fRow1_apply]
  rfl
theorem in2_2_apply (f : Fin 80000) (k : Fin 4) :
    in2_2 (F := Ideal) x wt fc (ix2 (Fin.castLE (by norm_num) f : Fin 80896) k)
      = xwT (F := Ideal) x wt (ix2 (Cert.Wecc.f2 fc f) k) := by
  unfold in2_2 padF4
  rw [pad_rows_inside _ _ _ _ _ f k]
  show gatF (F := Ideal) _ _ (ix2 f k) = _
  rw [gatF_apply, fRow2_apply]
  rfl
/-- Call 2's id column at a true row f: the graph id of the face's first vertex; at a pad row: −1. -/
theorem in2_3_apply (f : Fin 80000) :
    in2_3 (F := Ideal) fc bt (ix2 (Fin.castLE (by norm_num) f : Fin 80896) (0 : Fin 1)) = Cert.Wecc.gF fc bt f := by
  unfold in2_3 padF1
  rw [pad_rows_inside _ _ _ _ _ f (0 : Fin 1)]
  show shapeCast S80000x1 _ _ (ix2 f (0 : Fin 1)) = _
  rw [col_apply, gidF_apply, fRow0_apply]
  rfl
theorem in2_3_pad (R : Fin 80896) (hR : 80000 ≤ R.val) :
    in2_3 (F := Ideal) fc bt (ix2 R (0 : Fin 1)) = 4294967295#32 := by
  unfold in2_3 padF1
  rw [pad_rows_outside _ _ _ _ R (0 : Fin 1) hR]
  rfl

end Operands

/-! ## A row's height and weight -/

section Rows
variable (x : Vec Ideal S50000x3 .f32) (wt : Vec Ideal S50000 .f32) (v : Vec Ideal S3x32 .f32)

/-- A row of a 4-column table that IS row n of the packed node table has node n's height (the kernel's bracketing
    of the three products is the sum over k < 3) … -/
theorem rowH_of_row {N : ℕ} (a : (⟨2, ![N, 4]⟩ : Shape).Idx → EReal) (R : Fin N) (n : Fin 50000) (t : Fin 32)
    (ha : ∀ k : Fin 4, a (ix2 R k) = xwT (F := Ideal) x wt (ix2 n k)) :
    Cert.Wecc.rowH a v R t = Cert.Wecc.height x v n t := by
  unfold Cert.Wecc.rowH Cert.Wecc.height
  rw [Fin.sum_univ_three, ha 0, ha 1, ha 2, xwT_apply_x x wt n 0 (by decide), xwT_apply_x x wt n 1 (by decide),
    xwT_apply_x x wt n 2 (by decide)]
  rfl

/-- … and node n's weight. -/
theorem rowW_of_row {N : ℕ} (a : (⟨2, ![N, 4]⟩ : Shape).Idx → EReal) (R : Fin N) (n : Fin 50000)
    (ha : ∀ k : Fin 4, a (ix2 R k) = xwT (F := Ideal) x wt (ix2 n k)) :
    Cert.Wecc.rowW a R = wt (ix1 n) := by
  unfold Cert.Wecc.rowW
  rw [ha 3, xwT_apply_w]

end Rows

/-! ## One call's output summed over the cores -/

/-- Summed over the two cores, a call's output at (b, j) is the sum over ALL padded rows. -/
theorem regionSum_cores (steps : ℕ) {N : ℕ} (hN : 2 * steps * 512 = N) (idx : (⟨2, ![N, 1]⟩ : Shape).Idx → BitVec 32)
    (h : Fin N → Fin 32 → EReal) (w : Fin N → EReal) (linr : (⟨2, ![1, 1024]⟩ : Shape).Idx → EReal)
    (b : Fin 64) (j : Fin 1024) :
    ∑ cc : Fin 2, Cert.Wecc.regionSum steps hN idx h w linr cc b j
      = ∑ R : Fin N, Cert.Wecc.hot (idx (ix2 R 0)) b
          * Cert.Wecc.bump (linr (ix2 0 j)) (h R ⟨j.val % 32, Nat.mod_lt _ (by decide)⟩) (w R) := by
  unfold Cert.Wecc.regionSum
  exact sum_cores_steps_rows steps hN (fun R => Cert.Wecc.hot (idx (ix2 R 0)) b
    * Cert.Wecc.bump (linr (ix2 0 j)) (h R ⟨j.val % 32, Nat.mod_lt _ (by decide)⟩) (w R))

/-- A sum over N padded rows of (one-hot of the row's id at b) · (the row's term), where the first n rows carry the
    ids g and the terms f' and every later row the id −1, is the sum of f' over the rows whose id is b. -/
theorem sum_hot_pad {n N : ℕ} (hnN : n ≤ N) (id : Fin N → BitVec 32) (f : Fin N → EReal) (g : Fin n → BitVec 32)
    (f' : Fin n → EReal) (b : Fin 64) (hid : ∀ e : Fin n, id (Fin.castLE hnN e) = g e)
    (hf : ∀ e : Fin n, f (Fin.castLE hnN e) = f' e) (hpad : ∀ R : Fin N, n ≤ R.val → id R = 4294967295#32) :
    ∑ R : Fin N, Cert.Wecc.hot (id R) b * f R = Cert.Wecc.seg g f' b := by
  rw [sum_fin_of_zero_tail hnN _ (fun R hR => by rw [hpad R hR, hot_minusOne, zero_mul])]
  unfold Cert.Wecc.seg
  rw [Finset.sum_filter]
  refine Finset.sum_congr rfl fun e _ => ?_
  rw [hid, hf]
  unfold Cert.Wecc.hot
  by_cases h : (g e).toInt = (b.val : ℤ)
  · rw [if_pos h, if_pos h, one_mul]
  · rw [if_neg h, if_neg h, zero_mul]

/-- Entry 32·s + t of a row of 1024 is threshold s, direction t. -/
theorem div32 (s t : Fin 32) (h : (32 * s.val + t.val) / 32 < 32) : (⟨(32 * s.val + t.val) / 32, h⟩ : Fin 32) = s :=
  Fin.ext (by show (32 * s.val + t.val) / 32 = s.val; omega)
theorem mod32 (s t : Fin 32) (h : (32 * s.val + t.val) % 32 < 32) : (⟨(32 * s.val + t.val) % 32, h⟩ : Fin 32) = t :=
  Fin.ext (by show (32 * s.val + t.val) % 32 = t.val; omega)

section Calls
variable (x : Vec Ideal S50000x3 .f32) (wt : Vec Ideal S50000 .f32) (v : Vec Ideal S3x32 .f32) (lin : Vec Ideal S32 .f32)
  (ei : Vec Ideal S2x100000 .i32) (fc : Vec Ideal S3x80000 .i32) (bt : Vec Ideal S50000 .i32)

/-- CALL 0, summed over the cores, at (b, 32·s + t): the nodes' sum. -/
theorem nodes_sum (b : Fin 64) (s t : Fin 32) :
    ∑ cc : Fin 2, Cert.Wecc.regionSum 49 (by norm_num) (in0_1 (F := Ideal) bt) (Cert.Wecc.rowH (in0_0 (F := Ideal) x wt) v)
        (fun r => Cert.Wecc.rowW (in0_0 (F := Ideal) x wt) r * Cert.Wecc.one) (linRep (F := Ideal) lin) cc b
        (⟨32 * s.val + t.val, by omega⟩ : Fin 1024)
      = Cert.Wecc.segN x wt v lin bt b s t := by
  rw [regionSum_cores]
  unfold Cert.Wecc.segN
  refine sum_hot_pad (by norm_num) _ _ _ _ b (fun n => in0_1_apply bt n) (fun n => ?_) (fun R hR => in0_1_pad bt R hR)
  rw [linRep_apply, rowH_of_row x wt v _ _ n _ (fun k => in0_0_apply x wt n k),
    rowW_of_row x wt _ _ n (fun k => in0_0_apply x wt n k), one_eq, mul_one]
  show Cert.Wecc.bump (lin (ix1 ⟨(32 * s.val + t.val) / 32, _⟩)) (Cert.Wecc.height x v n ⟨(32 * s.val + t.val) % 32, _⟩) _ = _
  rw [div32, mod32]

/-- CALL 1, summed over the cores, at (b, 32·s + t): the edges' sum with the sign in the weights. -/
theorem edges_sum (b : Fin 64) (s t : Fin 32) :
    ∑ cc : Fin 2, Cert.Wecc.regionSum 98 (by norm_num) (in1_2 (F := Ideal) ei bt)
        (fun r t => min (Cert.Wecc.rowH (in1_0 (F := Ideal) x wt ei) v r t) (Cert.Wecc.rowH (in1_1 (F := Ideal) x wt ei) v r t))
        (fun r => max (Cert.Wecc.rowW (in1_0 (F := Ideal) x wt ei) r) (Cert.Wecc.rowW (in1_1 (F := Ideal) x wt ei) r) * Cert.Wecc.negOne)
        (linRep (F := Ideal) lin) cc b (⟨32 * s.val + t.val, by omega⟩ : Fin 1024)
      = Cert.Wecc.segE' x wt v lin ei bt b s t := by
  rw [regionSum_cores]
  unfold Cert.Wecc.segE'
  refine sum_hot_pad (by norm_num) _ _ _ _ b (fun e => in1_2_apply ei bt e) (fun e => ?_) (fun R hR => in1_2_pad ei bt R hR)
  rw [linRep_apply]
  simp only [rowH_of_row x wt v _ _ (Cert.Wecc.e0 ei e) _ (fun k => in1_0_apply x wt ei e k),
    rowH_of_row x wt v _ _ (Cert.Wecc.e1 ei e) _ (fun k => in1_1_apply x wt ei e k),
    rowW_of_row x wt _ _ (Cert.Wecc.e0 ei e) (fun k => in1_0_apply x wt ei e k),
    rowW_of_row x wt _ _ (Cert.Wecc.e1 ei e) (fun k => in1_1_apply x wt ei e k)]
  show Cert.Wecc.bump (lin (ix1 ⟨(32 * s.val + t.val) / 32, _⟩))
    (min (Cert.Wecc.height x v _ ⟨(32 * s.val + t.val) % 32, _⟩) (Cert.Wecc.height x v _ ⟨(32 * s.val + t.val) % 32, _⟩)) _ = _
  rw [div32, mod32]
  rfl

/-- CALL 2, summed over the cores, at (b, 32·s + t): the faces' sum. -/
theorem faces_sum (b : Fin 64) (s t : Fin 32) :
    ∑ cc : Fin 2, Cert.Wecc.regionSum 79 (by norm_num) (in2_3 (F := Ideal) fc bt)
        (fun r t => min (min (Cert.Wecc.rowH (in2_0 (F := Ideal) x wt fc) v r t) (Cert.Wecc.rowH (in2_1 (F := Ideal) x wt fc) v r t))
          (Cert.Wecc.rowH (in2_2 (F := Ideal) x wt fc) v r t))
        (fun r => max (max (Cert.Wecc.rowW (in2_0 (F := Ideal) x wt fc) r) (Cert.Wecc.rowW (in2_1 (F := Ideal) x wt fc) r))
          (Cert.Wecc.rowW (in2_2 (F := Ideal) x wt fc) r) * Cert.Wecc.one)
        (linRep (F := Ideal) lin) cc b (⟨32 * s.val + t.val, by omega⟩ : Fin 1024)
      = Cert.Wecc.segF x wt v lin fc bt b s t := by
  rw [regionSum_cores]
  unfold Cert.Wecc.segF
  refine sum_hot_pad (by norm_num) _ _ _ _ b (fun f => in2_3_apply fc bt f) (fun f => ?_) (fun R hR => in2_3_pad fc bt R hR)
  rw [linRep_apply, one_eq, mul_one]
  simp only [rowH_of_row x wt v _ _ (Cert.Wecc.f0 fc f) _ (fun k => in2_0_apply x wt fc f k),
    rowH_of_row x wt v _ _ (Cert.Wecc.f1 fc f) _ (fun k => in2_1_apply x wt fc f k),
    rowH_of_row x wt v _ _ (Cert.Wecc.f2 fc f) _ (fun k => in2_2_apply x wt fc f k),
    rowW_of_row x wt _ _ (Cert.Wecc.f0 fc f) (fun k => in2_0_apply x wt fc f k),
    rowW_of_row x wt _ _ (Cert.Wecc.f1 fc f) (fun k => in2_1_apply x wt fc f k),
    rowW_of_row x wt _ _ (Cert.Wecc.f2 fc f) (fun k => in2_2_apply x wt fc f k)]
  show Cert.Wecc.bump (lin (ix1 ⟨(32 * s.val + t.val) / 32, _⟩))
    (min (min (Cert.Wecc.height x v _ ⟨(32 * s.val + t.val) % 32, _⟩) (Cert.Wecc.height x v _ ⟨(32 * s.val + t.val) % 32, _⟩))
      (Cert.Wecc.height x v _ ⟨(32 * s.val + t.val) % 32, _⟩)) _ = _
  rw [div32, mod32]
  rfl

/-- THE KERNEL'S SIDE: from the three calls' outputs as grid sums, the program's result at (b, s, t) is
    nodes + (edges with negated weights) + faces. -/
theorem total_spec (O0 O1 O2 : Vec Ideal S2x64x1024 .f32)
    (h0 : ∀ cc b j, O0 (ix3 cc b j) = Cert.Wecc.regionSum 49 (by norm_num) (in0_1 (F := Ideal) bt)
      (Cert.Wecc.rowH (in0_0 (F := Ideal) x wt) v) (fun r => Cert.Wecc.rowW (in0_0 (F := Ideal) x wt) r * Cert.Wecc.one)
      (linRep (F := Ideal) lin) cc b j)
    (h1 : ∀ cc b j, O1 (ix3 cc b j) = Cert.Wecc.regionSum 98 (by norm_num) (in1_2 (F := Ideal) ei bt)
      (fun r t => min (Cert.Wecc.rowH (in1_0 (F := Ideal) x wt ei) v r t) (Cert.Wecc.rowH (in1_1 (F := Ideal) x wt ei) v r t))
      (fun r => max (Cert.Wecc.rowW (in1_0 (F := Ideal) x wt ei) r) (Cert.Wecc.rowW (in1_1 (F := Ideal) x wt ei) r) * Cert.Wecc.negOne)
      (linRep (F := Ideal) lin) cc b j)
    (h2 : ∀ cc b j, O2 (ix3 cc b j) = Cert.Wecc.regionSum 79 (by norm_num) (in2_3 (F := Ideal) fc bt)
      (fun r t => min (min (Cert.Wecc.rowH (in2_0 (F := Ideal) x wt fc) v r t) (Cert.Wecc.rowH (in2_1 (F := Ideal) x wt fc) v r t))
        (Cert.Wecc.rowH (in2_2 (F := Ideal) x wt fc) v r t))
      (fun r => max (max (Cert.Wecc.rowW (in2_0 (F := Ideal) x wt fc) r) (Cert.Wecc.rowW (in2_1 (F := Ideal) x wt fc) r))
        (Cert.Wecc.rowW (in2_2 (F := Ideal) x wt fc) r) * Cert.Wecc.one)
      (linRep (F := Ideal) lin) cc b j)
    (b : Fin 64) (s t : Fin 32) :
    Hand.total (F := Ideal) O0 O1 O2 (ix3 b s t) = Cert.Wecc.specK x wt v lin ei fc bt b s t := by
  unfold Hand.total Cert.Wecc.specK
  rw [addf_apply, addf_apply, post_apply, post_apply, post_apply, h0, h0, h1, h1, h2, h2,
    ← nodes_sum x wt v lin bt b s t, ← edges_sum x wt v lin ei bt b s t, ← faces_sum x wt v lin fc bt b s t,
    Fin.sum_univ_two, Fin.sum_univ_two, Fin.sum_univ_two, zero_add, zero_add, zero_add]

end Calls

end Cert.KernelIdeal.KMath

end
-- ==== Proof.Algebra.lean ====
/-
  The two forms of the result agree on real inputs.

  The kernel's program multiplies every edge's weight by −1 and ADDS the edges' sum; the reference SUBTRACTS the
  edges' sum. Over the extended reals negation does not distribute over every sum (⊤ + ⊥ is the obstruction), so the
  step "a sum of negated terms is the negated sum" is taken through the reals: when every float input is a real
  number, every height is a finite sum of products of reals, every minimum / maximum of reals is real, the logistic
  of a real is real, and so every simplex's contribution is a real number.

  The small facts about the extended reals used on the way are stated on their own, for reuse.
-/
import proofs.«429462_j65403761983812_3_alg».proof.Proof.Spec
import Idealize.ShloMosaic.PureOps.Ideal
import Mathlib.Data.EReal.Basic
import Mathlib.Data.EReal.Operations
import Mathlib.Algebra.BigOperators.Group.Finset.Basic
import Mathlib.Tactic.NormNum

open scoped BigOperators

noncomputable section

namespace Cert.Wecc

open Idealize.ShloMosaic Idealize.ShloMosaic.ValueIdx

/-! ## General facts about the extended reals -/

/-- The inclusion of the reals carries a finite sum to the finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- "Is a real number": the extended real is the image of some real. -/
def IsReal (a : EReal) : Prop := ∃ r : ℝ, a = (r : EReal)

theorem isReal_coe (r : ℝ) : IsReal (r : EReal) := ⟨r, rfl⟩

theorem IsReal.add {a b : EReal} (ha : IsReal a) (hb : IsReal b) : IsReal (a + b) := by
  obtain ⟨r, rfl⟩ := ha; obtain ⟨q, rfl⟩ := hb; exact ⟨r + q, (EReal.coe_add r q).symm⟩

theorem IsReal.sub {a b : EReal} (ha : IsReal a) (hb : IsReal b) : IsReal (a - b) := by
  obtain ⟨r, rfl⟩ := ha; obtain ⟨q, rfl⟩ := hb; exact ⟨r - q, (EReal.coe_sub r q).symm⟩

theorem IsReal.mul {a b : EReal} (ha : IsReal a) (hb : IsReal b) : IsReal (a * b) := by
  obtain ⟨r, rfl⟩ := ha; obtain ⟨q, rfl⟩ := hb; exact ⟨r * q, (EReal.coe_mul r q).symm⟩

theorem IsReal.neg {a : EReal} (ha : IsReal a) : IsReal (-a) := by
  obtain ⟨r, rfl⟩ := ha; exact ⟨-r, (EReal.coe_neg r).symm⟩

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- The larger of two reals is one of them. -/
theorem IsReal.max {a b : EReal} (ha : IsReal a) (hb : IsReal b) : IsReal (max a b) := by
  rcases le_total a b with h | h
  · rw [max_eq_right h]; exact hb
  · rw [max_eq_left h]; exact ha

/-- A finite sum of reals is real. -/
theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self a s)).add (ih fun i hi => hf i (Finset.mem_insert_of_mem hi))

/-- The logistic of a real is real. -/
theorem IsReal.logistic {a : EReal} (ha : IsReal a) : IsReal (Ideal.logistic a) := by
  obtain ⟨r, rfl⟩ := ha; exact ⟨_, Ideal.logistic_coe r⟩

/-- Over REAL terms, the sum of the negated terms is the negated sum. (Not so over all extended reals: −(⊤ + ⊥)
    is ⊤, while −⊤ + −⊥ is ⊥.) -/
theorem sum_neg_of_isReal {ι : Type*} (s : Finset ι) (f : ι → EReal) (hf : ∀ i, IsReal (f i)) :
    ∑ i ∈ s, -(f i) = -(∑ i ∈ s, f i) := by
  choose r hr using hf
  simp only [hr]
  simp only [← EReal.coe_neg]
  rw [← coe_sum, ← coe_sum, Finset.sum_neg_distrib, EReal.coe_neg]

/-! ## The two constants -/

/-- The word 0xBF800000 is the real −1 … -/
theorem negOne_eq : negOne = ((-1 : ℝ) : EReal) := by
  simp [negOne, Ideal.ofBits, Ideal.ieee, -EReal.coe_mul]; norm_num

/-- … that is, the extended real −1. -/
theorem negOne_eq' : negOne = -1 := by
  rw [negOne_eq, EReal.coe_neg, EReal.coe_one]

/-- The word 0x43FA0000 is the real 500. -/
theorem sharp_eq : sharp = ((500 : ℝ) : EReal) := by
  simp [sharp, Ideal.ofBits, Ideal.ieee, -EReal.coe_mul]; norm_num

theorem isReal_sharp : IsReal sharp := ⟨500, sharp_eq⟩

/-! ## Contributions -/

/-- A contribution with the weight multiplied by −1 is the negated contribution (for ALL extended reals:
    multiplication is associative and negation passes through a product). -/
theorem bump_mul_negOne (l h w : EReal) : bump l h (w * negOne) = -(bump l h w) := by
  unfold bump
  rw [negOne_eq', mul_neg, mul_one, mul_neg]

/-- A contribution at real threshold, height and weight is real. -/
theorem isReal_bump {l h w : EReal} (hl : IsReal l) (hh : IsReal h) (hw : IsReal w) : IsReal (bump l h w) := by
  unfold bump
  exact (IsReal.logistic (isReal_sharp.mul (hl.sub hh))).mul hw

section
variable (x : (⟨2, ![50000, 3]⟩ : Shape).Idx → EReal) (wt : (⟨1, ![50000]⟩ : Shape).Idx → EReal)
  (v : (⟨2, ![3, 32]⟩ : Shape).Idx → EReal) (lin : (⟨1, ![32]⟩ : Shape).Idx → EReal)
  (ei : (⟨2, ![2, 100000]⟩ : Shape).Idx → BitVec 32) (fc : (⟨2, ![3, 80000]⟩ : Shape).Idx → BitVec 32)
  (bt : (⟨1, ![50000]⟩ : Shape).Idx → BitVec 32)

/-- A node's height is real when the coordinates and the directions are. -/
theorem isReal_height (hx : ∀ i, IsReal (x i)) (hv : ∀ i, IsReal (v i)) (n : Fin 50000) (t : Fin 32) :
    IsReal (height x v n t) := by
  unfold height
  exact IsReal.sum _ _ fun k _ => (hx _).mul (hv _)

/-- An edge's height, the smaller of two real heights, is real. -/
theorem isReal_hE (hx : ∀ i, IsReal (x i)) (hv : ∀ i, IsReal (v i)) (e : Fin 100000) (t : Fin 32) :
    IsReal (hE x v ei e t) := by
  unfold hE
  exact (isReal_height x v hx hv _ t).min (isReal_height x v hx hv _ t)

/-- An edge's weight, the larger of two real weights, is real. -/
theorem isReal_wE (hwt : ∀ i, IsReal (wt i)) (e : Fin 100000) : IsReal (wE wt ei e) := by
  unfold wE
  exact (hwt _).max (hwt _)

/-- The edges' sum with the sign folded into the weights is the negated edges' sum, on real inputs. -/
theorem segE'_eq_neg (hx : ∀ i, IsReal (x i)) (hwt : ∀ i, IsReal (wt i)) (hv : ∀ i, IsReal (v i))
    (hlin : ∀ i, IsReal (lin i)) (b : Fin 64) (s t : Fin 32) :
    segE' x wt v lin ei bt b s t = -(segE x wt v lin ei bt b s t) := by
  unfold segE' segE seg
  simp only [bump_mul_negOne]
  exact sum_neg_of_isReal _ _ fun e => isReal_bump (hlin _) (isReal_hE x v ei hx hv e t) (isReal_wE wt ei hwt e)

/-- THE TWO FORMS AGREE when every float input is a real number: adding the negated edges' sum is subtracting it. -/
theorem specK_eq_spec (hx : ∀ i, ∃ r : ℝ, x i = (r : EReal)) (hwt : ∀ i, ∃ r : ℝ, wt i = (r : EReal))
    (hv : ∀ i, ∃ r : ℝ, v i = (r : EReal)) (hlin : ∀ i, ∃ r : ℝ, lin i = (r : EReal))
    (b : Fin 64) (s t : Fin 32) :
    specK x wt v lin ei fc bt b s t = spec x wt v lin ei fc bt b s t := by
  unfold specK spec
  rw [segE'_eq_neg x wt v lin ei bt hx hwt hv hlin b s t, ← sub_eq_add_neg]
end

end Cert.Wecc

end
-- ==== Proof.Finite.lean ====
import proofs.«429462_j65403761983812_3_alg».proof.Pre_finite_inputs
import proofs.«429462_j65403761983812_3_alg».proof.Proof.Gen.Pre_finite_inputs
import Idealize.ShloMosaic.PureOps.Ideal
import Idealize.ShloMosaic.Lib.ReduceAll
import Idealize.ShloMosaic.Lib.ValueIdx

/-!
  From "every float input is finite" to "every entry of the four float arrays is a real number".

  The precondition is the conjunction, over the four float arrays, of "for every entry a, |a| < +∞", where +∞ is
  written as the single-precision word 0x7F800000 and each "for every entry" is a reduction by "and" down to one bit.
  In the extended reals |a| = max a (-a) equals +∞ exactly at a = +∞ and a = -∞, so |a| < +∞ says that a is a real
  number.
-/

noncomputable section

namespace Cert.Wecc.Finite

open Idealize.ShloMosaic Idealize.ShloMosaic.ValueIdx

/-- The single-precision word with every exponent bit set and sign and fraction zero denotes +∞. -/
theorem word_top : Ideal.ofBits .f32 0x7F800000#32 = (⊤ : EReal) := by
  simp [Ideal.ofBits, Ideal.ieee]

/-- An extended real whose absolute value max a (-a) lies strictly below +∞ is a real number: at a = +∞ the maximum
    is a itself, and at a = -∞ it is -a = +∞. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- A one-bit word made from a truth value is 1 exactly when that truth value is "true". -/
theorem ofBool_eq_one (b : Bool) : BitVec.ofBool b = 1#1 ↔ b = true := by cases b <;> decide

/-- The scalar shape has exactly one index. -/
instance : Subsingleton Cert.Pre_finite_inputs.S_.Idx := ⟨fun a b => funext fun d => d.elim0⟩

/-- One array's test read at one entry: the bit "|a i| < w", with w the word 0x7F800000 spread from a scalar over the
    array's shape, is the bit of max (a i) (-(a i)) < +∞; if it is set, a i is a real number. -/
theorem real_of_bit {S : Shape} (bc : Cert.Pre_finite_inputs.S_.BroadcastsInDim S (![] : Fin 0 → Fin S.rank))
    (a : FVec Ideal S .f32) (i : S.Idx)
    (h : cmpf .olt (Host.absf a)
      (broadcastInDim S ![] bc (constant (F := Ideal) Cert.Pre_finite_inputs.S_ .f32 0x7F800000#32)) i = 1#1) :
    ∃ r : ℝ, a i = (r : EReal) := by
  apply real_of_abs_lt_top
  have h' : Ideal.cmp .olt (max (a i) (-(a i))) (Ideal.ofBits .f32 0x7F800000#32) = 1#1 := h
  rw [word_top] at h'
  simpa [Ideal.cmp, ofBool_eq_one] using h'

/-- The precondition, read back. Its one result bit is the "and" of four bits, one per float array; each of those is the
    "and", over all entries of the array, of the entry's test bit. A conjunction of bits that is 1 has every conjunct 1,
    so every entry of every float array passes the test, and is therefore a real number. The three integer arrays do not
    enter the predicate. -/
theorem real_of_pre [Cert.Pre_finite_inputs.Facts] (x : FVec Ideal Cert.Pre_finite_inputs.S50000x3 .f32) (wt : FVec Ideal Cert.Pre_finite_inputs.S50000 .f32) (v : FVec Ideal Cert.Pre_finite_inputs.S3x32 .f32) (lin : FVec Ideal Cert.Pre_finite_inputs.S32 .f32) (ei : IVec Cert.Pre_finite_inputs.S2x100000 32) (fc : IVec Cert.Pre_finite_inputs.S3x80000 32) (bt : IVec Cert.Pre_finite_inputs.S50000 32)
    (h : Cert.Pre_finite_inputs.fn (F := Ideal) x wt v lin ei fc bt = fun _ => 1#1) :
    (∀ i, ∃ r : ℝ, x i = (r : EReal)) ∧ (∀ i, ∃ r : ℝ, wt i = (r : EReal)) ∧ (∀ i, ∃ r : ℝ, v i = (r : EReal)) ∧ (∀ i, ∃ r : ℝ, lin i = (r : EReal)) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_bit _ x i (Host.reduce_andi_all _ _ _ _ _ h1 i),
    fun i => real_of_bit _ wt i (Host.reduce_andi_all _ _ _ _ _ h2 i),
    fun i => real_of_bit _ v i (Host.reduce_andi_all _ _ _ _ _ h3 i),
    fun i => real_of_bit _ lin i (Host.reduce_andi_all _ _ _ _ _ h4 i)⟩

end Cert.Wecc.Finite

end
-- ==== Proof.LibScatterAddPlanes.lean ====
import Idealize.ShloMosaic.Lib.ValueIdx
import Idealize.ShloMosaic.PureOps.Contract
import Mathlib.Algebra.BigOperators.Group.Finset.Basic
import Mathlib.Algebra.BigOperators.Group.Finset.Piecewise

/-!
# Scatter-add of planes, read at an index

The segment sum of a stack of matrices: an operand of N planes, each A × D, receives n update planes,
update plane e going to the operand plane named by the e-th index word. The word is read as a SIGNED
integer and is NOT clamped: an update plane whose word is negative or at least N lands nowhere and is
dropped. Over the extended reals the result element (v, a, k) is the operand's element plus the sum of
the update elements (e, a, k) over exactly those e whose index word equals v.

* resultIdx_planes says where one update element lands;
* hostScatterAdd_planes / scatterAdd_planes give the sum at (v, a, k);
* sum_idx3 splits a sum over a rank-3 index set into its three coordinate sums.

Every statement is for arbitrary extents N, A, D, n and any record of dimension numbers whose lists
are the ones named by the hypotheses (plane axis 0 inserted and start-indexed, the index vector on axis
1 of the n × 1 index column, axes 1 and 2 window axes), so each applies to a concrete record with rfl
for every list.
-/

open scoped BigOperators

namespace Cert.LibScatterAddPlanes

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the iterated sum over the coordinates. -/
theorem sum_idx3 {M : Type*} [AddCommMonoid M] {n0 n1 n2 : Nat} (f : (⟨3, ![n0, n1, n2]⟩ : Shape).Idx → M) :
    ∑ i, f i = ∑ e : Fin n0, ∑ a : Fin n1, ∑ k : Fin n2, f (ix3 e a k) := by
  rw [← Equiv.sum_comp (idxEquiv3 (n0 := n0) (n1 := n1) (n2 := n2)).symm f, Fintype.sum_prod_type]
  refine Finset.sum_congr rfl (fun e _ => ?_)
  rw [Fintype.sum_prod_type]
  rfl

/-- WHERE AN UPDATE ELEMENT LANDS: update element (e, a', k') lands on operand element (v, a, k) exactly
    when the e-th index word, read signed, is v, and the two in-plane coordinates agree. (On the plane
    axis the landing coordinate is the unclamped start plus window coordinate 0; on each in-plane axis it
    is start 0 plus the update's coordinate; a landing point outside the operand is no point at all.) -/
theorem resultIdx_planes {N A D n w : Nat} (d : ScatterDims ⟨3, ![N, A, D]⟩ ⟨2, ![n, 1]⟩ ⟨3, ![n, A, D]⟩)
    (huw : d.updateWindowDims = [1, 2]) (hiw : d.insertedWindowDims = [0])
    (hsd : d.scatterDimsToOperandDims = [0]) (hivd : d.indexVectorDim = 1)
    (idx : IVec ⟨2, ![n, 1]⟩ w) (e : Fin n) (a' : Fin A) (k' : Fin D) (v : Fin N) (a : Fin A) (k : Fin D) :
    d.resultIdx? (ix3 e a' k') idx = some (ix3 v a k)
      ↔ (idx (ix2 e 0)).toInt = (v.val : ℤ) ∧ a' = a ∧ k' = k := by
  obtain ⟨uw, iw, sd, ivd, wf⟩ := d
  simp only at huw hiw hsd hivd
  subst huw hiw hsd hivd
  -- the start and the window coordinate on each of the three operand axes
  have hs0 : ScatterDims.start ⟨[1, 2], [0], [0], 1, wf⟩ (ix3 e a' k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 3) ∈ ([0] : List (Fin 3)) by decide) ha
  have hs1 : ScatterDims.start ⟨[1, 2], [0], [0], 1, wf⟩ (ix3 e a' k') idx 1 = 0 := by
    unfold ScatterDims.start
    split
    · next ha => exact absurd ha (show (1 : Fin 3) ∉ ([0] : List (Fin 3)) by decide)
    · rfl
  have hs2 : ScatterDims.start ⟨[1, 2], [0], [0], 1, wf⟩ (ix3 e a' k') idx 2 = 0 := by
    unfold ScatterDims.start
    split
    · next ha => exact absurd ha (show (2 : Fin 3) ∉ ([0] : List (Fin 3)) by decide)
    · rfl
  have hw0 : ScatterDims.window ⟨[1, 2], [0], [0], 1, wf⟩ (ix3 e a' k') 0 = 0 := by
    unfold ScatterDims.window
    split
    · next ha => exact absurd ha (show (0 : Fin 3) ∉ ([1, 2] : List (Fin 3)) by decide)
    · rfl
  have hw1 : ScatterDims.window ⟨[1, 2], [0], [0], 1, wf⟩ (ix3 e a' k') 1 = a'.val := by
    unfold ScatterDims.window
    split
    · rfl
    · next ha => exact absurd (show (1 : Fin 3) ∈ ([1, 2] : List (Fin 3)) by decide) ha
  have hw2 : ScatterDims.window ⟨[1, 2], [0], [0], 1, wf⟩ (ix3 e a' k') 2 = k'.val := by
    unfold ScatterDims.window
    split
    · rfl
    · next ha => exact absurd (show (2 : Fin 3) ∈ ([1, 2] : List (Fin 3)) by decide) ha
  unfold ScatterDims.resultIdx?
  split
  · next h =>
    -- the landing point is inside the operand: compare it with (v, a, k) coordinate by coordinate
    have h0 := h 0
    rw [hs0, hw0] at h0
    constructor
    · intro hf
      have hf' := Option.some.inj hf
      have e0 : (ScatterDims.start ⟨[1, 2], [0], [0], 1, wf⟩ (ix3 e a' k') idx 0
          + (ScatterDims.window ⟨[1, 2], [0], [0], 1, wf⟩ (ix3 e a' k') 0 : ℕ)).toNat = v.val :=
        congrArg (fun f : (⟨3, ![N, A, D]⟩ : Shape).Idx => (f 0).val) hf'
      have e1 : (ScatterDims.start ⟨[1, 2], [0], [0], 1, wf⟩ (ix3 e a' k') idx 1
          + (ScatterDims.window ⟨[1, 2], [0], [0], 1, wf⟩ (ix3 e a' k') 1 : ℕ)).toNat = a.val :=
        congrArg (fun f : (⟨3, ![N, A, D]⟩ : Shape).Idx => (f 1).val) hf'
      have e2 : (ScatterDims.start ⟨[1, 2], [0], [0], 1, wf⟩ (ix3 e a' k') idx 2
          + (ScatterDims.window ⟨[1, 2], [0], [0], 1, wf⟩ (ix3 e a' k') 2 : ℕ)).toNat = k.val :=
        congrArg (fun f : (⟨3, ![N, A, D]⟩ : Shape).Idx => (f 2).val) hf'
      rw [hs0, hw0] at e0
      rw [hs1, hw1] at e1
      rw [hs2, hw2] at e2
      exact ⟨by omega, Fin.ext (by omega), Fin.ext (by omega)⟩
    · rintro ⟨hv, rfl, rfl⟩
      congr 1
      funext b
      apply Fin.ext
      match b with
      | ⟨0, _⟩ =>
        show (ScatterDims.start ⟨[1, 2], [0], [0], 1, wf⟩ (ix3 e a' k') idx 0
          + (ScatterDims.window ⟨[1, 2], [0], [0], 1, wf⟩ (ix3 e a' k') 0 : ℕ)).toNat = v.val
        rw [hs0, hw0]; omega
      | ⟨1, _⟩ =>
        show (ScatterDims.start ⟨[1, 2], [0], [0], 1, wf⟩ (ix3 e a' k') idx 1
          + (ScatterDims.window ⟨[1, 2], [0], [0], 1, wf⟩ (ix3 e a' k') 1 : ℕ)).toNat = a'.val
        rw [hs1, hw1]; omega
      | ⟨2, _⟩ =>
        show (ScatterDims.start ⟨[1, 2], [0], [0], 1, wf⟩ (ix3 e a' k') idx 2
          + (ScatterDims.window ⟨[1, 2], [0], [0], 1, wf⟩ (ix3 e a' k') 2 : ℕ)).toNat = k'.val
        rw [hs2, hw2]; omega
  · next h =>
    -- the landing point is outside the operand: then the index word is no plane of it
    constructor
    · intro hf; exact absurd hf (by simp)
    · rintro ⟨hv, rfl, rfl⟩
      exfalso
      apply h
      intro b
      match b with
      | ⟨0, _⟩ =>
        show 0 ≤ ScatterDims.start ⟨[1, 2], [0], [0], 1, wf⟩ (ix3 e a' k') idx 0
            + (ScatterDims.window ⟨[1, 2], [0], [0], 1, wf⟩ (ix3 e a' k') 0 : ℕ)
          ∧ ScatterDims.start ⟨[1, 2], [0], [0], 1, wf⟩ (ix3 e a' k') idx 0
            + (ScatterDims.window ⟨[1, 2], [0], [0], 1, wf⟩ (ix3 e a' k') 0 : ℕ) < (N : ℤ)
        rw [hs0, hw0]
        have := v.isLt
        omega
      | ⟨1, _⟩ =>
        show 0 ≤ ScatterDims.start ⟨[1, 2], [0], [0], 1, wf⟩ (ix3 e a' k') idx 1
            + (ScatterDims.window ⟨[1, 2], [0], [0], 1, wf⟩ (ix3 e a' k') 1 : ℕ)
          ∧ ScatterDims.start ⟨[1, 2], [0], [0], 1, wf⟩ (ix3 e a' k') idx 1
            + (ScatterDims.window ⟨[1, 2], [0], [0], 1, wf⟩ (ix3 e a' k') 1 : ℕ) < (A : ℤ)
        rw [hs1, hw1]
        have := a'.isLt
        omega
      | ⟨2, _⟩ =>
        show 0 ≤ ScatterDims.start ⟨[1, 2], [0], [0], 1, wf⟩ (ix3 e a' k') idx 2
            + (ScatterDims.window ⟨[1, 2], [0], [0], 1, wf⟩ (ix3 e a' k') 2 : ℕ)
          ∧ ScatterDims.start ⟨[1, 2], [0], [0], 1, wf⟩ (ix3 e a' k') idx 2
            + (ScatterDims.window ⟨[1, 2], [0], [0], 1, wf⟩ (ix3 e a' k') 2 : ℕ) < (D : ℤ)
        rw [hs2, hw2]
        have := k'.isLt
        omega

/-- THE SCATTER-ADD OF PLANES AT (v, a, k): the operand's element plus the sum, over the update planes e
    whose index word read signed equals v, of the update element (e, a, k). The sum over all update
    elements that land on (v, a, k) splits into planes and in-plane coordinates; in each plane only the
    element (a, k) can land there. -/
theorem hostScatterAdd_planes {N A D n w : Nat} (d : ScatterDims ⟨3, ![N, A, D]⟩ ⟨2, ![n, 1]⟩ ⟨3, ![n, A, D]⟩)
    (huw : d.updateWindowDims = [1, 2]) (hiw : d.insertedWindowDims = [0])
    (hsd : d.scatterDimsToOperandDims = [0]) (hivd : d.indexVectorDim = 1)
    (x : (⟨3, ![N, A, D]⟩ : Shape).Idx → EReal) (idx : IVec ⟨2, ![n, 1]⟩ w)
    (upd : (⟨3, ![n, A, D]⟩ : Shape).Idx → EReal) (v : Fin N) (a : Fin A) (k : Fin D) :
    Ideal.hostScatterAdd d x idx upd (ix3 v a k)
      = x (ix3 v a k)
        + ∑ e ∈ Finset.univ.filter (fun e : Fin n => (idx (ix2 e 0)).toInt = (v.val : ℤ)), upd (ix3 e a k) := by
  classical
  unfold Ideal.hostScatterAdd
  congr 1
  rw [Finset.sum_filter, sum_idx3, Finset.sum_filter]
  refine Finset.sum_congr rfl (fun e _ => ?_)
  simp only [resultIdx_planes d huw hiw hsd hivd]
  by_cases hP : (idx (ix2 e 0)).toInt = (v.val : ℤ)
  · simp only [hP, true_and]
    rw [Finset.sum_eq_single a]
    · rw [Finset.sum_eq_single k]
      · simp
      · intro k' _ hk'; simp [hk']
      · intro hk; exact absurd (Finset.mem_univ k) hk
    · intro a' _ ha'
      exact Finset.sum_eq_zero (fun k' _ => by simp [ha'])
    · intro ha; exact absurd (Finset.mem_univ a) ha
  · simp [hP]

/-- The same for the scatter-add operation at the ideal instance (any float format). -/
theorem scatterAdd_planes {φ : FTy} {N A D n w : Nat} (d : ScatterDims ⟨3, ![N, A, D]⟩ ⟨2, ![n, 1]⟩ ⟨3, ![n, A, D]⟩)
    (huw : d.updateWindowDims = [1, 2]) (hiw : d.insertedWindowDims = [0])
    (hsd : d.scatterDimsToOperandDims = [0]) (hivd : d.indexVectorDim = 1)
    (x : FVec Ideal ⟨3, ![N, A, D]⟩ φ) (idx : IVec ⟨2, ![n, 1]⟩ w)
    (upd : FVec Ideal ⟨3, ![n, A, D]⟩ φ) (v : Fin N) (a : Fin A) (k : Fin D) :
    Host.scatterAdd (F := Ideal) d x idx upd (ix3 v a k)
      = x (ix3 v a k)
        + ∑ e ∈ Finset.univ.filter (fun e : Fin n => (idx (ix2 e 0)).toInt = (v.val : ℤ)), upd (ix3 e a k) := by
  unfold Host.scatterAdd
  rw [Ideal.hostScatterAdd_def]
  exact hostScatterAdd_planes d huw hiw hsd hivd x idx upd v a k

end Cert.LibScatterAddPlanes
-- ==== Proof.RefValue.lean ====
import proofs.«429462_j65403761983812_3_alg».proof.Proof.Gen.ReferenceIdeal.Read
import proofs.«429462_j65403761983812_3_alg».proof.Proof.Spec
import proofs.«429462_j65403761983812_3_alg».proof.Proof.LibScatterAddPlanes
import proofs.«429462_j65403761983812_3_alg».proof.Proof.LibGatherStacked
import Idealize.ShloMosaic.Lib.IdealHost
import Idealize.ShloMosaic.Lib.ValueIdx
import Idealize.ShloMosaic.PureOps.Reduce
import Idealize.ShloMosaic.PureOps.Ideal.Laws
import Mathlib.Tactic.FinCases

/-!
# The reference's result, read at an index, is the specification

The reference program is a straight line of array operations. Read at one index (b, s, t), its result is
(nodes − edges) + faces, each of the three a scatter-add of per-simplex bumps by graph id; a bump is the printed
sigmoid 1 / (1 + exp (−(500 · (lin[s] − h)))) times a weight; an edge's or a face's height is a minimum over the
leading axis of gathered node heights (started from +∞), its weight a maximum of gathered node weights (started
from −∞), and its graph id the gathered id of its first vertex. Every gather reads the node table at an index word
wrapped once from the end and clamped into the table: that is the specification's `node`.
-/

open scoped BigOperators

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read

/-! ## Constants -/

/-- The word of +∞. -/
theorem inf_word : Ideal.ofBits .f32 0x7F800000#32 = ⊤ := by simp [Ideal.ofBits, Ideal.ieee]
/-- The word of −∞. -/
theorem neg_inf_word : Ideal.ofBits .f32 0xFF800000#32 = ⊥ := by simp [Ideal.ofBits, Ideal.ieee]

/-- The sigmoid as the program spells it, 1 / (1 + exp (−z)) with both ones given by their word, is the logistic
    function. -/
theorem sigmoid_printed (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32]
  rfl

/-! ## A fold over two or three values -/

/-- A fold of a commutative, associative operation over two values, from a start the operation absorbs. -/
theorem fold_two {α : Type} (op : α → α → α) [Std.Commutative op] [Std.Associative op] (init : α)
    (hid : ∀ a, op a init = a) (f : Fin 2 → α) :
    (Finset.univ : Finset (Fin 2)).fold op init f = op (f 0) (f 1) := by
  rw [show (Finset.univ : Finset (Fin 2)) = insert 0 {1} from by decide,
    Finset.fold_insert (by decide), Finset.fold_singleton, hid]

/-- The same over three values, associated to the left. -/
theorem fold_three {α : Type} (op : α → α → α) [Std.Commutative op] [Std.Associative op] (init : α)
    (hid : ∀ a, op a init = a) (f : Fin 3 → α) :
    (Finset.univ : Finset (Fin 3)).fold op init f = op (op (f 0) (f 1)) (f 2) := by
  rw [show (Finset.univ : Finset (Fin 3)) = insert 0 (insert 1 {2}) from by decide,
    Finset.fold_insert (by decide), Finset.fold_insert (by decide), Finset.fold_singleton, hid,
    Std.Associative.assoc (op := op)]

/-! ## A reduce over a leading axis of two or three entries -/

section Reduce
variable {α : Type} (op : α → α → α) [Std.Commutative op] [Std.Associative op]

/-- Two stacked n × d matrices reduced over the stacking axis: entry (e, k) combines the two entries (·, e, k). -/
theorem reduce_lead2_r3 {n d : Nat} (x : (⟨3, ![2, n, d]⟩ : Shape).Idx → α) (init : (⟨0, ![]⟩ : Shape).Idx → α)
    (h' : (⟨3, ![2, n, d]⟩ : Shape).ReducesTo [0] (⟨2, ![n, d]⟩ : Shape))
    (h : (⟨3, ![2, n, d]⟩ : Shape).Reduces [0] (⟨2, ![n, d]⟩ : Shape)) (hu : 0 < (⟨0, ![]⟩ : Shape).numel)
    (hid : ∀ a, op a (init (Shape.Idx.first hu)) = a) (e : Fin n) (k : Fin d) :
    Host.reduce op x init h' hu (ix2 e k) = op (x (ix3 0 e k)) (x (ix3 1 e k)) := by
  refine (Host.reduce_eq_fold_single op x init h' h hu (ix2 e k)).trans ?_
  refine (fold_two op _ hid _).trans ?_
  have l0 : h.lift (ix2 e k) (0 : Fin 2) = ix3 0 e k := by funext c; apply Fin.ext; fin_cases c <;> rfl
  have l1 : h.lift (ix2 e k) (1 : Fin 2) = ix3 1 e k := by funext c; apply Fin.ext; fin_cases c <;> rfl
  show op (x (h.lift (ix2 e k) (0 : Fin 2))) (x (h.lift (ix2 e k) (1 : Fin 2))) = _
  rw [l0, l1]

/-- Three stacked n × d matrices reduced over the stacking axis. -/
theorem reduce_lead3_r3 {n d : Nat} (x : (⟨3, ![3, n, d]⟩ : Shape).Idx → α) (init : (⟨0, ![]⟩ : Shape).Idx → α)
    (h' : (⟨3, ![3, n, d]⟩ : Shape).ReducesTo [0] (⟨2, ![n, d]⟩ : Shape))
    (h : (⟨3, ![3, n, d]⟩ : Shape).Reduces [0] (⟨2, ![n, d]⟩ : Shape)) (hu : 0 < (⟨0, ![]⟩ : Shape).numel)
    (hid : ∀ a, op a (init (Shape.Idx.first hu)) = a) (e : Fin n) (k : Fin d) :
    Host.reduce op x init h' hu (ix2 e k) = op (op (x (ix3 0 e k)) (x (ix3 1 e k))) (x (ix3 2 e k)) := by
  refine (Host.reduce_eq_fold_single op x init h' h hu (ix2 e k)).trans ?_
  refine (fold_three op _ hid _).trans ?_
  have l0 : h.lift (ix2 e k) (0 : Fin 3) = ix3 0 e k := by funext c; apply Fin.ext; fin_cases c <;> rfl
  have l1 : h.lift (ix2 e k) (1 : Fin 3) = ix3 1 e k := by funext c; apply Fin.ext; fin_cases c <;> rfl
  have l2 : h.lift (ix2 e k) (2 : Fin 3) = ix3 2 e k := by funext c; apply Fin.ext; fin_cases c <;> rfl
  show op (op (x (h.lift (ix2 e k) (0 : Fin 3))) (x (h.lift (ix2 e k) (1 : Fin 3)))) (x (h.lift (ix2 e k) (2 : Fin 3))) = _
  rw [l0, l1, l2]

/-- Two stacked vectors of n entries reduced over the stacking axis. -/
theorem reduce_lead2_r2 {n : Nat} (x : (⟨2, ![2, n]⟩ : Shape).Idx → α) (init : (⟨0, ![]⟩ : Shape).Idx → α)
    (h' : (⟨2, ![2, n]⟩ : Shape).ReducesTo [0] (⟨1, ![n]⟩ : Shape))
    (h : (⟨2, ![2, n]⟩ : Shape).Reduces [0] (⟨1, ![n]⟩ : Shape)) (hu : 0 < (⟨0, ![]⟩ : Shape).numel)
    (hid : ∀ a, op a (init (Shape.Idx.first hu)) = a) (e : Fin n) :
    Host.reduce op x init h' hu (ix1 e) = op (x (ix2 0 e)) (x (ix2 1 e)) := by
  refine (Host.reduce_eq_fold_single op x init h' h hu (ix1 e)).trans ?_
  refine (fold_two op _ hid _).trans ?_
  have l0 : h.lift (ix1 e) (0 : Fin 2) = ix2 0 e := by funext c; apply Fin.ext; fin_cases c <;> rfl
  have l1 : h.lift (ix1 e) (1 : Fin 2) = ix2 1 e := by funext c; apply Fin.ext; fin_cases c <;> rfl
  show op (x (h.lift (ix1 e) (0 : Fin 2))) (x (h.lift (ix1 e) (1 : Fin 2))) = _
  rw [l0, l1]

/-- Three stacked vectors of n entries reduced over the stacking axis. -/
theorem reduce_lead3_r2 {n : Nat} (x : (⟨2, ![3, n]⟩ : Shape).Idx → α) (init : (⟨0, ![]⟩ : Shape).Idx → α)
    (h' : (⟨2, ![3, n]⟩ : Shape).ReducesTo [0] (⟨1, ![n]⟩ : Shape))
    (h : (⟨2, ![3, n]⟩ : Shape).Reduces [0] (⟨1, ![n]⟩ : Shape)) (hu : 0 < (⟨0, ![]⟩ : Shape).numel)
    (hid : ∀ a, op a (init (Shape.Idx.first hu)) = a) (e : Fin n) :
    Host.reduce op x init h' hu (ix1 e) = op (op (x (ix2 0 e)) (x (ix2 1 e))) (x (ix2 2 e)) := by
  refine (Host.reduce_eq_fold_single op x init h' h hu (ix1 e)).trans ?_
  refine (fold_three op _ hid _).trans ?_
  have l0 : h.lift (ix1 e) (0 : Fin 3) = ix2 0 e := by funext c; apply Fin.ext; fin_cases c <;> rfl
  have l1 : h.lift (ix1 e) (1 : Fin 3) = ix2 1 e := by funext c; apply Fin.ext; fin_cases c <;> rfl
  have l2 : h.lift (ix1 e) (2 : Fin 3) = ix2 2 e := by funext c; apply Fin.ext; fin_cases c <;> rfl
  show op (op (x (h.lift (ix1 e) (0 : Fin 3))) (x (h.lift (ix1 e) (1 : Fin 3)))) (x (h.lift (ix1 e) (2 : Fin 3))) = _
  rw [l0, l1, l2]

end Reduce

/-! ## The arguments' types, and the node table -/

section Stages
variable (x0 : (⟨S50000x3, .f32⟩ : BufTy).Contents (Elt Ideal)) (x1 : (⟨S50000, .f32⟩ : BufTy).Contents (Elt Ideal))
  (x2 : (⟨S3x32, .f32⟩ : BufTy).Contents (Elt Ideal)) (x3 : (⟨S32, .f32⟩ : BufTy).Contents (Elt Ideal))
  (x4 : (⟨S2x100000, .i32⟩ : BufTy).Contents (Elt Ideal)) (x5 : (⟨S3x80000, .i32⟩ : BufTy).Contents (Elt Ideal))
  (x6 : (⟨S50000, .i32⟩ : BufTy).Contents (Elt Ideal))

/-- The matrix product x · v at (n, t) is node n's height along direction t. -/
theorem height_eq (n : Fin 50000) (t : Fin 32) :
    val_main_v0 (F := Ideal) x0 x2 (ix2 n t) = Wecc.height x0 x2 n t := by
  rw [val_main_v0_apply]
  unfold Wecc.height
  refine Finset.sum_congr rfl fun k _ => ?_
  have el : lidx_main_v0 (ix2 n t) k = ix2 n k := by
    funext a; match a with | ⟨0, _⟩ => rfl | ⟨1, _⟩ => rfl
  have er : ridx_main_v0 (ix2 n t) k = ix2 k t := by
    funext a; match a with | ⟨0, _⟩ => rfl | ⟨1, _⟩ => rfl
  rw [el, er]

/-- One simplex's bump as the program computes it from a threshold, a height and a weight. -/
theorem bump_printed (l h w : EReal) :
    FloatOps.mulf (F := Ideal) (φ := .f32)
      (FloatOps.hostDivf (FloatOps.ofBits .f32 0x3F800000#32)
        (FloatOps.addf (FloatOps.ofBits .f32 0x3F800000#32)
          (FloatOps.hostUnary .exp (FloatOps.hostNegf
            (FloatOps.mulf (FloatOps.ofBits .f32 0x43FA0000#32) (FloatOps.subf l h)))))) w
      = Wecc.bump l h w := by
  rw [sigmoid_printed]
  rfl

/-- The nodes' update array at (n, s, t) is node n's bump at threshold s and direction t. -/
theorem node_bump (n : Fin 50000) (s t : Fin 32) :
    val_main_v48 (F := Ideal) x0 x1 x2 x3 (ix3 n s t)
      = Wecc.bump (x3 (ix1 s)) (Wecc.height x0 x2 n t) (x1 (ix1 n)) := by
  rw [val_main_v48_apply, val_main_v45_apply, val_main_v44_apply, val_main_cst_12_apply, val_main_v43_apply,
    val_main_v42_apply, val_main_cst_11_apply, val_main_v41_apply, val_main_v40_apply, val_main_v39_apply,
    val_main_v38_apply, val_main_cst_10_apply, val_main_v37_apply, val_main_v35_apply, val_main_v33_apply,
    val_main_v36_apply, val_main_v34_apply, val_main_v47_apply, val_main_v46_apply]
  have e1 : idx_main_v33 (idx_main_v35 (ix3 n s t)) = ix1 s := by
    funext a; match a with | ⟨0, _⟩ => rfl
  have e2 : idx_main_v34 (idx_main_v36 (ix3 n s t)) = ix2 n t := by
    funext a; match a with | ⟨0, _⟩ => rfl | ⟨1, _⟩ => rfl
  have e3 : idx_main_v46 (idx_main_v47 (ix3 n s t)) = ix1 n := by
    funext a; match a with | ⟨0, _⟩ => rfl
  rw [e1, e2, e3, height_eq, bump_printed]

/-- The nodes' scatter-add at (b, s, t) is the sum of the nodes' bumps over the nodes of graph b. -/
theorem scatter_nodes (b : Fin 64) (s t : Fin 32) :
    val_main_v51 (F := Ideal) x0 x1 x2 x3 x6 (ix3 b s t) = Wecc.segN x0 x1 x2 x3 x6 b s t := by
  unfold val_main_v51
  have hU := node_bump x0 x1 x2 x3
  have hI : ∀ e : Fin 50000, val_main_v50 (F := Ideal) x6 (ix2 e 0) = x6 (ix1 e) := fun e => by
    rw [val_main_v50_apply]
    exact congrArg x6 (funext fun a => match a with | ⟨0, _⟩ => rfl)
  have hZ : val_main_v49 (F := Ideal) (ix3 b s t) = 0 := by
    rw [val_main_v49_apply, val_main_cst_13_apply]
    exact Ideal.ofBits_zero_f32
  generalize val_main_v48 (F := Ideal) x0 x1 x2 x3 = U at hU
  generalize val_main_v50 (F := Ideal) x6 = I at hI
  generalize val_main_v49 (F := Ideal) = Z at hZ
  refine (Cert.LibScatterAddPlanes.scatterAdd_planes scatter_S64x32x32_S50000x1_S50000x32x32_12_0_0_1 rfl rfl rfl rfl
    Z I U b s t).trans ?_
  rw [hZ, zero_add]
  unfold Wecc.segN Wecc.seg
  exact Finset.sum_congr (Finset.filter_congr fun e _ => by rw [hI e]) (fun e _ => hU e s t)

end Stages

/-! ## Index words into the node table -/

/-- An index word wrapped once from the end: a negative word has 50000 added, so it counts back from the last node. -/
def wrap (w : BitVec 32) : BitVec 32 := Scalar.select (IntOp.cmpi .slt w 0#32) (IntOp.addi w 50000#32) w

/-- The wrapped word, read signed and clamped into the table, is the specification's node of the raw word. -/
theorem clamp_wrap (w : BitVec 32) : min (wrap w).toInt.toNat (50000 - 1) = (Wecc.node w).val := rfl

section Edges
variable (x0 : (⟨S50000x3, .f32⟩ : BufTy).Contents (Elt Ideal)) (x1 : (⟨S50000, .f32⟩ : BufTy).Contents (Elt Ideal))
  (x2 : (⟨S3x32, .f32⟩ : BufTy).Contents (Elt Ideal)) (x3 : (⟨S32, .f32⟩ : BufTy).Contents (Elt Ideal))
  (x4 : (⟨S2x100000, .i32⟩ : BufTy).Contents (Elt Ideal)) (x6 : (⟨S50000, .i32⟩ : BufTy).Contents (Elt Ideal))

/-! ### An edge's height: the smaller of its endpoints' heights -/

theorem wrap_v5 (i : S2x100000.Idx) : val_main_v5 (F := Ideal) x4 i = wrap (x4 i) := by
  rw [val_main_v5_apply, val_main_v2_apply, val_main_v1_apply, val_main_c_apply, val_main_v4_apply,
    val_main_v3_apply, val_main_c_0_apply]
  rfl

theorem idx_v6 (j : Fin 2) (e : Fin 100000) : val_main_v6 (F := Ideal) x4 (ix3 j e 0) = wrap (x4 (ix2 j e)) := by
  rw [val_main_v6_apply, wrap_v5]
  exact congrArg (fun i => wrap (x4 i)) (funext fun a => match a with | ⟨0, _⟩ => rfl | ⟨1, _⟩ => rfl)

/-- The gathered heights: row (j, e) is the height row of endpoint j of edge e. -/
theorem gathered_height_e (j : Fin 2) (e : Fin 100000) (t : Fin 32) :
    val_main_v7 (F := Ideal) x0 x2 x4 (ix3 j e t) = Wecc.height x0 x2 (Wecc.node (x4 (ix2 j e))) t := by
  unfold val_main_v7
  have hI := idx_v6 x4 j e
  have hT := height_eq x0 x2
  generalize val_main_v6 (F := Ideal) x4 = I at hI
  generalize val_main_v0 (F := Ideal) x0 x2 = T at hT
  refine (Cert.LibGatherStacked.gather_rows_stacked gather_S50000x32_S2x100000x1_S2x100000x32_2_0_n_n_0_2_132
    rfl rfl rfl rfl rfl T I j e t (by decide)).trans ?_
  rw [hT]
  refine congrArg (fun n => Wecc.height x0 x2 n t) (Fin.ext ?_)
  show min (I (ix3 j e 0)).toInt.toNat (50000 - 1) = _
  rw [hI]
  exact clamp_wrap _

theorem edge_height (e : Fin 100000) (t : Fin 32) :
    val_main_v8 (F := Ideal) x0 x2 x4 (ix2 e t) = Wecc.hE x0 x2 x4 e t := by
  unfold val_main_v8
  have hG := gathered_height_e x0 x2 x4
  generalize val_main_v7 (F := Ideal) x0 x2 x4 = G at hG
  refine (reduce_lead2_r3 (FloatOps.minimumf (F := Ideal) (φ := .f32)) G (val_main_cst (F := Ideal))
    reducesTo_S2x100000x32_S100000x32_d0 (by decide) h_S_ (fun a => ?_) e t).trans ?_
  · rw [val_main_cst_apply, Ideal.ofBits_def, inf_word]
    exact min_eq_left le_top
  · rw [hG, hG]
    rfl

/-! ### An edge's weight: the larger of its endpoints' weights -/

theorem wrap_v21 (i : S2x100000.Idx) : val_main_v21 (F := Ideal) x4 i = wrap (x4 i) := by
  rw [val_main_v21_apply, val_main_v18_apply, val_main_v17_apply, val_main_c_4_apply, val_main_v20_apply,
    val_main_v19_apply, val_main_c_5_apply]
  rfl

theorem idx_v22 (j : Fin 2) (e : Fin 100000) : val_main_v22 (F := Ideal) x4 (ix3 j e 0) = wrap (x4 (ix2 j e)) := by
  rw [val_main_v22_apply, wrap_v21]
  exact congrArg (fun i => wrap (x4 i)) (funext fun a => match a with | ⟨0, _⟩ => rfl | ⟨1, _⟩ => rfl)

theorem gathered_weight_e (j : Fin 2) (e : Fin 100000) :
    val_main_v23 (F := Ideal) x1 x4 (ix2 j e) = x1 (ix1 (Wecc.node (x4 (ix2 j e)))) := by
  unfold val_main_v23
  have hI := idx_v22 x4 j e
  generalize val_main_v22 (F := Ideal) x4 = I at hI
  refine (Cert.LibGatherStacked.gather_vec_stacked gather_S50000_S2x100000x1_S2x100000_n_0_n_n_0_2_1
    rfl rfl rfl rfl rfl x1 I j e (by decide)).trans ?_
  refine congrArg (fun n => x1 (ix1 n)) (Fin.ext ?_)
  show min (I (ix3 j e 0)).toInt.toNat (50000 - 1) = _
  rw [hI]
  exact clamp_wrap _

theorem edge_weight (e : Fin 100000) : val_main_v24 (F := Ideal) x1 x4 (ix1 e) = Wecc.wE x1 x4 e := by
  unfold val_main_v24
  have hG := gathered_weight_e x1 x4
  generalize val_main_v23 (F := Ideal) x1 x4 = G at hG
  refine (reduce_lead2_r2 (FloatOps.maximumf (F := Ideal) (φ := .f32)) G (val_main_cst_6 (F := Ideal))
    reducesTo_S2x100000_S100000_d0 (by decide) h_S_ (fun a => ?_) e).trans ?_
  · rw [val_main_cst_6_apply, Ideal.ofBits_def, neg_inf_word]
    exact max_eq_left bot_le
  · rw [hG, hG]
    rfl

/-! ### An edge's graph: the graph of its first endpoint -/

theorem first_vertex_e (e : Fin 100000) : val_main_v53 (F := Ideal) x4 (ix1 e) = x4 (ix2 0 e) := by
  rw [val_main_v53_apply, val_main_v52_apply]
  refine congrArg x4 (funext fun a => Fin.ext ?_)
  match a with
  | ⟨0, _⟩ => rfl
  | ⟨1, _⟩ => exact Nat.mod_eq_of_lt e.isLt

theorem wrap_v58 (e : Fin 100000) : val_main_v58 (F := Ideal) x4 (ix1 e) = wrap (x4 (ix2 0 e)) := by
  rw [val_main_v58_apply, val_main_v55_apply, val_main_v54_apply, val_main_c_14_apply, val_main_v57_apply,
    val_main_v56_apply, val_main_c_15_apply, first_vertex_e]
  rfl

theorem idx_v59 (e : Fin 100000) : val_main_v59 (F := Ideal) x4 (ix2 e 0) = wrap (x4 (ix2 0 e)) := by
  rw [val_main_v59_apply, show idx_main_v59 (ix2 e 0) = ix1 e from funext fun a => match a with | ⟨0, _⟩ => rfl]
  exact wrap_v58 x4 e

theorem edge_graph (e : Fin 100000) : val_main_v60 (F := Ideal) x4 x6 (ix1 e) = Wecc.gE x4 x6 e := by
  unfold val_main_v60
  have hI := idx_v59 x4 e
  generalize val_main_v59 (F := Ideal) x4 = I at hI
  refine (Cert.LibGatherStacked.gather_vec gather_S50000_S100000x1_S100000_n_0_n_n_0_1_1
    rfl rfl rfl rfl rfl x6 I e (by decide)).trans ?_
  unfold Wecc.gE Wecc.e0
  refine congrArg (fun n => x6 (ix1 n)) (Fin.ext ?_)
  show min (I (ix2 e 0)).toInt.toNat (50000 - 1) = _
  rw [hI]
  exact clamp_wrap _

/-! ### The edges' bumps and their scatter-add -/

theorem edge_bump (e : Fin 100000) (s t : Fin 32) :
    val_main_v76 (F := Ideal) x0 x1 x2 x3 x4 (ix3 e s t)
      = Wecc.bump (x3 (ix1 s)) (Wecc.hE x0 x2 x4 e t) (Wecc.wE x1 x4 e) := by
  rw [val_main_v76_apply, val_main_v73_apply, val_main_v72_apply, val_main_cst_18_apply, val_main_v71_apply,
    val_main_v70_apply, val_main_cst_17_apply, val_main_v69_apply, val_main_v68_apply, val_main_v67_apply,
    val_main_v66_apply, val_main_cst_16_apply, val_main_v65_apply, val_main_v63_apply, val_main_v61_apply,
    val_main_v64_apply, val_main_v62_apply, val_main_v75_apply, val_main_v74_apply]
  have e1 : idx_main_v61 (idx_main_v63 (ix3 e s t)) = ix1 s := by
    funext a; match a with | ⟨0, _⟩ => rfl
  have e2 : idx_main_v62 (idx_main_v64 (ix3 e s t)) = ix2 e t := by
    funext a; match a with | ⟨0, _⟩ => rfl | ⟨1, _⟩ => rfl
  have e3 : idx_main_v74 (idx_main_v75 (ix3 e s t)) = ix1 e := by
    funext a; match a with | ⟨0, _⟩ => rfl
  rw [e1, e2, e3, edge_height, edge_weight, bump_printed]

theorem scatter_edges (b : Fin 64) (s t : Fin 32) :
    val_main_v79 (F := Ideal) x0 x1 x2 x3 x4 x6 (ix3 b s t) = Wecc.segE x0 x1 x2 x3 x4 x6 b s t := by
  unfold val_main_v79
  have hU := edge_bump x0 x1 x2 x3 x4
  have hI : ∀ e : Fin 100000, val_main_v78 (F := Ideal) x4 x6 (ix2 e 0) = Wecc.gE x4 x6 e := fun e => by
    rw [val_main_v78_apply, show idx_main_v78 (ix2 e 0) = ix1 e from funext fun a => match a with | ⟨0, _⟩ => rfl]
    exact edge_graph x4 x6 e
  have hZ : val_main_v77 (F := Ideal) (ix3 b s t) = 0 := by
    rw [val_main_v77_apply, val_main_cst_19_apply]
    exact Ideal.ofBits_zero_f32
  generalize val_main_v76 (F := Ideal) x0 x1 x2 x3 x4 = U at hU
  generalize val_main_v78 (F := Ideal) x4 x6 = I at hI
  generalize val_main_v77 (F := Ideal) = Z at hZ
  refine (Cert.LibScatterAddPlanes.scatterAdd_planes scatter_S64x32x32_S100000x1_S100000x32x32_12_0_0_1 rfl rfl rfl rfl
    Z I U b s t).trans ?_
  rw [hZ, zero_add]
  unfold Wecc.segE Wecc.seg
  exact Finset.sum_congr (Finset.filter_congr fun e _ => by rw [hI e]) (fun e _ => hU e s t)

end Edges

section Faces
variable (x0 : (⟨S50000x3, .f32⟩ : BufTy).Contents (Elt Ideal)) (x1 : (⟨S50000, .f32⟩ : BufTy).Contents (Elt Ideal))
  (x2 : (⟨S3x32, .f32⟩ : BufTy).Contents (Elt Ideal)) (x3 : (⟨S32, .f32⟩ : BufTy).Contents (Elt Ideal))
  (x5 : (⟨S3x80000, .i32⟩ : BufTy).Contents (Elt Ideal)) (x6 : (⟨S50000, .i32⟩ : BufTy).Contents (Elt Ideal))

/-! ### A face's height: the smallest of its vertices' heights -/

theorem wrap_v13 (i : S3x80000.Idx) : val_main_v13 (F := Ideal) x5 i = wrap (x5 i) := by
  rw [val_main_v13_apply, val_main_v10_apply, val_main_v9_apply, val_main_c_1_apply, val_main_v12_apply,
    val_main_v11_apply, val_main_c_2_apply]
  rfl

theorem idx_v14 (j : Fin 3) (f : Fin 80000) : val_main_v14 (F := Ideal) x5 (ix3 j f 0) = wrap (x5 (ix2 j f)) := by
  rw [val_main_v14_apply, wrap_v13]
  exact congrArg (fun i => wrap (x5 i)) (funext fun a => match a with | ⟨0, _⟩ => rfl | ⟨1, _⟩ => rfl)

/-- The gathered heights: row (j, f) is the height row of vertex j of face f. -/
theorem gathered_height_f (j : Fin 3) (f : Fin 80000) (t : Fin 32) :
    val_main_v15 (F := Ideal) x0 x2 x5 (ix3 j f t) = Wecc.height x0 x2 (Wecc.node (x5 (ix2 j f))) t := by
  unfold val_main_v15
  have hI := idx_v14 x5 j f
  have hT := height_eq x0 x2
  generalize val_main_v14 (F := Ideal) x5 = I at hI
  generalize val_main_v0 (F := Ideal) x0 x2 = T at hT
  refine (Cert.LibGatherStacked.gather_rows_stacked gather_S50000x32_S3x80000x1_S3x80000x32_2_0_n_n_0_2_132
    rfl rfl rfl rfl rfl T I j f t (by decide)).trans ?_
  rw [hT]
  refine congrArg (fun n => Wecc.height x0 x2 n t) (Fin.ext ?_)
  show min (I (ix3 j f 0)).toInt.toNat (50000 - 1) = _
  rw [hI]
  exact clamp_wrap _

theorem face_height (f : Fin 80000) (t : Fin 32) :
    val_main_v16 (F := Ideal) x0 x2 x5 (ix2 f t) = Wecc.hF x0 x2 x5 f t := by
  unfold val_main_v16
  have hG := gathered_height_f x0 x2 x5
  generalize val_main_v15 (F := Ideal) x0 x2 x5 = G at hG
  refine (reduce_lead3_r3 (FloatOps.minimumf (F := Ideal) (φ := .f32)) G (val_main_cst_3 (F := Ideal))
    reducesTo_S3x80000x32_S80000x32_d0 (by decide) h_S_ (fun a => ?_) f t).trans ?_
  · rw [val_main_cst_3_apply, Ideal.ofBits_def, inf_word]
    exact min_eq_left le_top
  · rw [hG, hG, hG]
    rfl

/-! ### A face's weight: the largest of its vertices' weights -/

theorem wrap_v29 (i : S3x80000.Idx) : val_main_v29 (F := Ideal) x5 i = wrap (x5 i) := by
  rw [val_main_v29_apply, val_main_v26_apply, val_main_v25_apply, val_main_c_7_apply, val_main_v28_apply,
    val_main_v27_apply, val_main_c_8_apply]
  rfl

theorem idx_v30 (j : Fin 3) (f : Fin 80000) : val_main_v30 (F := Ideal) x5 (ix3 j f 0) = wrap (x5 (ix2 j f)) := by
  rw [val_main_v30_apply, wrap_v29]
  exact congrArg (fun i => wrap (x5 i)) (funext fun a => match a with | ⟨0, _⟩ => rfl | ⟨1, _⟩ => rfl)

theorem gathered_weight_f (j : Fin 3) (f : Fin 80000) :
    val_main_v31 (F := Ideal) x1 x5 (ix2 j f) = x1 (ix1 (Wecc.node (x5 (ix2 j f)))) := by
  unfold val_main_v31
  have hI := idx_v30 x5 j f
  generalize val_main_v30 (F := Ideal) x5 = I at hI
  refine (Cert.LibGatherStacked.gather_vec_stacked gather_S50000_S3x80000x1_S3x80000_n_0_n_n_0_2_1
    rfl rfl rfl rfl rfl x1 I j f (by decide)).trans ?_
  refine congrArg (fun n => x1 (ix1 n)) (Fin.ext ?_)
  show min (I (ix3 j f 0)).toInt.toNat (50000 - 1) = _
  rw [hI]
  exact clamp_wrap _

theorem face_weight (f : Fin 80000) : val_main_v32 (F := Ideal) x1 x5 (ix1 f) = Wecc.wF x1 x5 f := by
  unfold val_main_v32
  have hG := gathered_weight_f x1 x5
  generalize val_main_v31 (F := Ideal) x1 x5 = G at hG
  refine (reduce_lead3_r2 (FloatOps.maximumf (F := Ideal) (φ := .f32)) G (val_main_cst_9 (F := Ideal))
    reducesTo_S3x80000_S80000_d0 (by decide) h_S_ (fun a => ?_) f).trans ?_
  · rw [val_main_cst_9_apply, Ideal.ofBits_def, neg_inf_word]
    exact max_eq_left bot_le
  · rw [hG, hG, hG]
    rfl

/-! ### A face's graph: the graph of its first vertex -/

theorem first_vertex_f (f : Fin 80000) : val_main_v82 (F := Ideal) x5 (ix1 f) = x5 (ix2 0 f) := by
  rw [val_main_v82_apply, val_main_v81_apply]
  refine congrArg x5 (funext fun a => Fin.ext ?_)
  match a with
  | ⟨0, _⟩ => rfl
  | ⟨1, _⟩ => exact Nat.mod_eq_of_lt f.isLt

theorem wrap_v87 (f : Fin 80000) : val_main_v87 (F := Ideal) x5 (ix1 f) = wrap (x5 (ix2 0 f)) := by
  rw [val_main_v87_apply, val_main_v84_apply, val_main_v83_apply, val_main_c_20_apply, val_main_v86_apply,
    val_main_v85_apply, val_main_c_21_apply, first_vertex_f]
  rfl

theorem idx_v88 (f : Fin 80000) : val_main_v88 (F := Ideal) x5 (ix2 f 0) = wrap (x5 (ix2 0 f)) := by
  rw [val_main_v88_apply, show idx_main_v88 (ix2 f 0) = ix1 f from funext fun a => match a with | ⟨0, _⟩ => rfl]
  exact wrap_v87 x5 f

theorem face_graph (f : Fin 80000) : val_main_v89 (F := Ideal) x5 x6 (ix1 f) = Wecc.gF x5 x6 f := by
  unfold val_main_v89
  have hI := idx_v88 x5 f
  generalize val_main_v88 (F := Ideal) x5 = I at hI
  refine (Cert.LibGatherStacked.gather_vec gather_S50000_S80000x1_S80000_n_0_n_n_0_1_1
    rfl rfl rfl rfl rfl x6 I f (by decide)).trans ?_
  unfold Wecc.gF Wecc.f0
  refine congrArg (fun n => x6 (ix1 n)) (Fin.ext ?_)
  show min (I (ix2 f 0)).toInt.toNat (50000 - 1) = _
  rw [hI]
  exact clamp_wrap _

/-! ### The faces' bumps and their scatter-add -/

theorem face_bump (f : Fin 80000) (s t : Fin 32) :
    val_main_v105 (F := Ideal) x0 x1 x2 x3 x5 (ix3 f s t)
      = Wecc.bump (x3 (ix1 s)) (Wecc.hF x0 x2 x5 f t) (Wecc.wF x1 x5 f) := by
  rw [val_main_v105_apply, val_main_v102_apply, val_main_v101_apply, val_main_cst_24_apply, val_main_v100_apply,
    val_main_v99_apply, val_main_cst_23_apply, val_main_v98_apply, val_main_v97_apply, val_main_v96_apply,
    val_main_v95_apply, val_main_cst_22_apply, val_main_v94_apply, val_main_v92_apply, val_main_v90_apply,
    val_main_v93_apply, val_main_v91_apply, val_main_v104_apply, val_main_v103_apply]
  have e1 : idx_main_v90 (idx_main_v92 (ix3 f s t)) = ix1 s := by
    funext a; match a with | ⟨0, _⟩ => rfl
  have e2 : idx_main_v91 (idx_main_v93 (ix3 f s t)) = ix2 f t := by
    funext a; match a with | ⟨0, _⟩ => rfl | ⟨1, _⟩ => rfl
  have e3 : idx_main_v103 (idx_main_v104 (ix3 f s t)) = ix1 f := by
    funext a; match a with | ⟨0, _⟩ => rfl
  rw [e1, e2, e3, face_height, face_weight, bump_printed]

theorem scatter_faces (b : Fin 64) (s t : Fin 32) :
    val_main_v108 (F := Ideal) x0 x1 x2 x3 x5 x6 (ix3 b s t) = Wecc.segF x0 x1 x2 x3 x5 x6 b s t := by
  unfold val_main_v108
  have hU := face_bump x0 x1 x2 x3 x5
  have hI : ∀ f : Fin 80000, val_main_v107 (F := Ideal) x5 x6 (ix2 f 0) = Wecc.gF x5 x6 f := fun f => by
    rw [val_main_v107_apply, show idx_main_v107 (ix2 f 0) = ix1 f from funext fun a => match a with | ⟨0, _⟩ => rfl]
    exact face_graph x5 x6 f
  have hZ : val_main_v106 (F := Ideal) (ix3 b s t) = 0 := by
    rw [val_main_v106_apply, val_main_cst_25_apply]
    exact Ideal.ofBits_zero_f32
  generalize val_main_v105 (F := Ideal) x0 x1 x2 x3 x5 = U at hU
  generalize val_main_v107 (F := Ideal) x5 x6 = I at hI
  generalize val_main_v106 (F := Ideal) = Z at hZ
  refine (Cert.LibScatterAddPlanes.scatterAdd_planes scatter_S64x32x32_S80000x1_S80000x32x32_12_0_0_1 rfl rfl rfl rfl
    Z I U b s t).trans ?_
  rw [hZ, zero_add]
  unfold Wecc.segF Wecc.seg
  exact Finset.sum_congr (Finset.filter_congr fun f _ => by rw [hI f]) (fun f _ => hU f s t)

end Faces

/-! ## The result -/

/-- The reference's result at (b, s, t) is the specification: (nodes − edges) + faces. -/
theorem ref_spec (m : (ℓ : Loc nD τ sig) → Buf (Elt Ideal) ℓ) (c : Dev nD) (b : Fin 64) (s t : Fin 32) :
    Cert.ReferenceIdeal.Value.res_out0 (F := Ideal) m c (ValueIdx.ix3 b s t)
      = Cert.Wecc.spec (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) b s t := by
  show Cert.ReferenceIdeal.Value.res_main_v109 (F := Ideal) m c (ValueIdx.ix3 b s t) = _
  rw [val_main_v109_eq]
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  generalize m ((c.tc : Thread nD τ).loc main_arg5) = x5
  generalize m ((c.tc : Thread nD τ).loc main_arg6) = x6
  rw [val_main_v109_apply, val_main_v80_apply, scatter_nodes, scatter_edges, scatter_faces]
  rfl

end Cert.ReferenceIdeal.RefValue

end
-- ==== Proof.lean ====
/-
  The certificate's five claims for the node / edge / face bump-histogram kernel.

  The kernel's program is three pallas_calls (nodes, edges, faces) among host operations. Each call walks its padded
  table in 2 × steps blocks of 512 rows, accumulating, per core, the product of the block's one-hot graph-id matrix
  with the block's sigmoid bumps; the host sums each call's two per-core results and adds the three. The run of the
  program is the several-regions launch over its 22 segments; the buffer contents at every boundary are named, so
  the arguments are read back unchanged (the frames) and the result buffer is read as a function of the arguments.
  Over the extended reals that function is, index by index, the specification's kernel form: every padded row has
  graph id −1 and contributes 0, every true row contributes its bump to its graph's entry, and the grid's double sum
  is the sum over all rows. The reference's result is the specification's reference form (its scatter-adds are the
  same filtered sums). The two forms differ only in where the edges' sign sits, and agree because every edge term
  is a real number when the float inputs are.
-/
import proofs.«429462_j65403761983812_3_alg».proof.Defs
import proofs.«429462_j65403761983812_3_alg».proof.Proof.Gen.Kernel
import proofs.«429462_j65403761983812_3_alg».proof.Proof.Gen.KernelIdeal
import proofs.«429462_j65403761983812_3_alg».proof.Proof.Gen.ReferenceIdeal
import proofs.«429462_j65403761983812_3_alg».proof.Proof.Gen.Pre_finite_inputs
import proofs.«429462_j65403761983812_3_alg».proof.Proof.Gen.ReferenceIdeal.Run
import proofs.«429462_j65403761983812_3_alg».proof.Proof.K.Run
import proofs.«429462_j65403761983812_3_alg».proof.Proof.K.Fold
import proofs.«429462_j65403761983812_3_alg».proof.Proof.KI.Run
import proofs.«429462_j65403761983812_3_alg».proof.Proof.KI.Fold
import proofs.«429462_j65403761983812_3_alg».proof.Proof.KI.R0.ValueIdx
import proofs.«429462_j65403761983812_3_alg».proof.Proof.KI.R1.ValueIdx
import proofs.«429462_j65403761983812_3_alg».proof.Proof.KI.R2.ValueIdx
import proofs.«429462_j65403761983812_3_alg».proof.Proof.KMath
import proofs.«429462_j65403761983812_3_alg».proof.Proof.Algebra
import proofs.«429462_j65403761983812_3_alg».proof.Proof.Finite
import proofs.«429462_j65403761983812_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its seven arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W22_main_arg0 m ρ c),
     (h c _ (Cert.Kernel.Hand.mem_uc Cert.Kernel.main_arg1 (by decide))).trans (Cert.Kernel.Hand.W22_main_arg1 m ρ c),
     (h c _ (Cert.Kernel.Hand.mem_uc Cert.Kernel.main_arg2 (by decide))).trans (Cert.Kernel.Hand.W22_main_arg2 m ρ c),
     (h c _ (Cert.Kernel.Hand.mem_uc Cert.Kernel.main_arg3 (by decide))).trans (Cert.Kernel.Hand.W22_main_arg3 m ρ c),
     (h c _ (Cert.Kernel.Hand.mem_uc Cert.Kernel.main_arg4 (by decide))).trans (Cert.Kernel.Hand.W22_main_arg4 m ρ c),
     (h c _ (Cert.Kernel.Hand.mem_uc Cert.Kernel.main_arg5 (by decide))).trans (Cert.Kernel.Hand.W22_main_arg5 m ρ c),
     (h c _ (Cert.Kernel.Hand.mem_uc Cert.Kernel.main_arg6 (by decide))).trans (Cert.Kernel.Hand.W22_main_arg6 m ρ c)⟩)
    (Cert.Kernel.Hand.run_main (F := Bits) m ρ)

/-- So does the idealized program. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W22_main_arg0 m ρ c),
     (h c _ (Cert.KernelIdeal.Hand.mem_uc Cert.KernelIdeal.main_arg1 (by decide))).trans (Cert.KernelIdeal.Hand.W22_main_arg1 m ρ c),
     (h c _ (Cert.KernelIdeal.Hand.mem_uc Cert.KernelIdeal.main_arg2 (by decide))).trans (Cert.KernelIdeal.Hand.W22_main_arg2 m ρ c),
     (h c _ (Cert.KernelIdeal.Hand.mem_uc Cert.KernelIdeal.main_arg3 (by decide))).trans (Cert.KernelIdeal.Hand.W22_main_arg3 m ρ c),
     (h c _ (Cert.KernelIdeal.Hand.mem_uc Cert.KernelIdeal.main_arg4 (by decide))).trans (Cert.KernelIdeal.Hand.W22_main_arg4 m ρ c),
     (h c _ (Cert.KernelIdeal.Hand.mem_uc Cert.KernelIdeal.main_arg5 (by decide))).trans (Cert.KernelIdeal.Hand.W22_main_arg5 m ρ c),
     (h c _ (Cert.KernelIdeal.Hand.mem_uc Cert.KernelIdeal.main_arg6 (by decide))).trans (Cert.KernelIdeal.Hand.W22_main_arg6 m ρ c)⟩)
    (Cert.KernelIdeal.Hand.run_main (F := Ideal) m ρ)

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's result buffer, at entry (b, s, t), is the specification of the argument arrays: the
    boundaries' bookkeeping gives the host's sum of the three calls' outputs, each call's output is its double sum
    over the grid, the host side turns those into the kernel form of the specification, and for real inputs that is
    the reference form. -/
theorem kernel_value (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) (b : Fin 64) (s t : Fin 32) :
    (Cert.KernelIdeal.Hand.W22 (F := Ideal) m ρ c (Proc.devRef .tc Cert.KernelIdeal.main_v86) : Cert.KernelIdeal.S64x32x32.Idx → EReal) (ValueIdx.ix3 b s t)
      = Cert.Wecc.spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) b s t := by
  rw [Cert.KernelIdeal.Hand.W22_main_v86, Cert.KernelIdeal.Hand.arrAt0, Cert.KernelIdeal.Hand.arrAt1, Cert.KernelIdeal.Hand.arrAt2,
    Cert.KernelIdeal.Hand.V4_main_v65, Cert.KernelIdeal.Hand.V4_main_v66, Cert.KernelIdeal.Hand.V4_main_arg2, Cert.KernelIdeal.Hand.V4_main_v63,
    Cert.KernelIdeal.Hand.V11_main_v71, Cert.KernelIdeal.Hand.V11_main_v72, Cert.KernelIdeal.Hand.V11_main_v73, Cert.KernelIdeal.Hand.V11_main_arg2, Cert.KernelIdeal.Hand.V11_main_v63,
    Cert.KernelIdeal.Hand.V20_main_v78, Cert.KernelIdeal.Hand.V20_main_v79, Cert.KernelIdeal.Hand.V20_main_v80, Cert.KernelIdeal.Hand.V20_main_v81, Cert.KernelIdeal.Hand.V20_main_arg2, Cert.KernelIdeal.Hand.V20_main_v63]
  rw [Cert.KernelIdeal.KMath.total_spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) _ _ _
    (fun cc b j => Cert.KernelIdeal.Hand.outArr0_apply _ _ _ _ cc b j)
    (fun cc b j => Cert.KernelIdeal.Hand.outArr1_apply _ _ _ _ _ cc b j)
    (fun cc b j => Cert.KernelIdeal.Hand.outArr2_apply _ _ _ _ _ _ cc b j) b s t]
  obtain ⟨hx, hw, hv, hl⟩ := Cert.Wecc.Finite.real_of_pre _ _ _ _ _ _ _ (hpre c)
  exact Cert.Wecc.specK_eq_spec _ _ _ _ _ _ _ hx hw hv hl b s t

/-- From memories agreeing on the arguments both idealized programs run, and end with the same result: each entry
    is the specification of the (shared) argument arrays. -/
theorem algebraic : Cert.algebraic_KernelIdeal_ReferenceIdeal := by
  intro m ρ m' ρ' hpre hagree
  refine ⟨fun c => Cert.KernelIdeal.Hand.W22 (F := Ideal) m ρ c (Proc.devRef .tc Cert.KernelIdeal.main_v86), ?_, ?_⟩
  · exact (θ_run Cert.KernelIdeal.defs _ _).mono (fun r h c =>
      ⟨h c _ (Cert.KernelIdeal.Hand.mem_uc Cert.KernelIdeal.main_v86 (by decide)),
       (h c _ (Cert.KernelIdeal.Hand.mem_uc Cert.KernelIdeal.main_arg0 (by decide))).trans (Cert.KernelIdeal.Hand.W22_main_arg0 m ρ c),
       (h c _ (Cert.KernelIdeal.Hand.mem_uc Cert.KernelIdeal.main_arg1 (by decide))).trans (Cert.KernelIdeal.Hand.W22_main_arg1 m ρ c),
       (h c _ (Cert.KernelIdeal.Hand.mem_uc Cert.KernelIdeal.main_arg2 (by decide))).trans (Cert.KernelIdeal.Hand.W22_main_arg2 m ρ c),
       (h c _ (Cert.KernelIdeal.Hand.mem_uc Cert.KernelIdeal.main_arg3 (by decide))).trans (Cert.KernelIdeal.Hand.W22_main_arg3 m ρ c),
       (h c _ (Cert.KernelIdeal.Hand.mem_uc Cert.KernelIdeal.main_arg4 (by decide))).trans (Cert.KernelIdeal.Hand.W22_main_arg4 m ρ c),
       (h c _ (Cert.KernelIdeal.Hand.mem_uc Cert.KernelIdeal.main_arg5 (by decide))).trans (Cert.KernelIdeal.Hand.W22_main_arg5 m ρ c),
       (h c _ (Cert.KernelIdeal.Hand.mem_uc Cert.KernelIdeal.main_arg6 (by decide))).trans (Cert.KernelIdeal.Hand.W22_main_arg6 m ρ c)⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    funext i
    obtain ⟨b, s, t, rfl⟩ : ∃ (b : Fin 64) (s t : Fin 32), i = ValueIdx.ix3 b s t := ⟨i 0, i 1, i 2, ValueIdx.eq_ix3 i⟩
    have hk := kernel_value m ρ hpre c b s t
    have hr := Cert.ReferenceIdeal.RefValue.ref_spec m' c b s t
    rw [(hagree c).1, (hagree c).2.1, (hagree c).2.2.1, (hagree c).2.2.2.1, (hagree c).2.2.2.2.1,
      (hagree c).2.2.2.2.2.1, (hagree c).2.2.2.2.2.2] at hr
    exact hr.trans hk.symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
